-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x10000 : Shape := ⟨2, ![8192, 10000]⟩
abbrev S10000x10000 : Shape := ⟨2, ![10000, 10000]⟩
abbrev S8192 : Shape := ⟨1, ![8192]⟩
abbrev S_ : Shape := ⟨0, ![]⟩

class Facts : Prop where
  bcast_S_S8192x10000 : S_.BroadcastsInDim S8192x10000 (![] : Fin 0 → Fin S8192x10000.rank)
  reducesTo_S8192x10000_S_d0_1 : S8192x10000.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8192x10000 .f32) (main_arg1 : FVec F S10000x10000 .f32) (main_arg2 : IVec S8192 32) : IVec S_ 1 :=
  let main_v0 : FVec F S8192x10000 .f32 := Host.absf main_arg0
  let main_cst : FVec F S_ .f32 := constant S_ .f32 0x7F800000#32
  let main_v1 : FVec F S8192x10000 .f32 := broadcastInDim S8192x10000 ![] bcast_S_S8192x10000 main_cst
  let main_v2 : IVec S8192x10000 1 := cmpf .olt main_v0 main_v1
  let main_c : IVec S_ 1 := constantI S_ 1 1#1
  let main_v3 : IVec S_ 1 := (fun x v => Host.reduce IntOp.andi x v reducesTo_S8192x10000_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg2 main_v9
  let main_c_3 : IVec S_ 1 := constantI S_ 1 1#1
  let main_v11 : IVec S_ 1 := (fun x v => Host.reduce IntOp.andi x v reducesTo_S8192_S_d0 h_S_) main_v10 main_c_3
  let main_v12 : IVec S_ 1 := andi main_v8 main_v11
  let main_c_4 : IVec S_ 32 := constantI S_ 32 10000#32
  let main_v13 : IVec S8192 32 := broadcastInDim S8192 ![] bcast_S_S8192 main_c_4
  let main_v14 : IVec S8192 1 := cmpi .slt main_arg2 main_v13
  let main_c_5 : IVec S_ 1 := constantI S_ 1 1#1
  let main_v15 : IVec S_ 1 := (fun x v => Host.reduce IntOp.andi x v reducesTo_S8192_S_d0 h_S_) main_v14 main_c_5
  fn_part1 (F := F) main_v12 main_v15
-- ==== Kernel.lean ====
abbrev S8192x10000 : Shape := ⟨2, ![8192, 10000]⟩
abbrev S10000x10000 : Shape := ⟨2, ![10000, 10000]⟩
abbrev S8192 : Shape := ⟨1, ![8192]⟩
abbrev S8192x1 : Shape := ⟨2, ![8192, 1]⟩
abbrev S1x10000 : Shape := ⟨2, ![1, 10000]⟩
abbrev S1x1 : Shape := ⟨2, ![1, 1]⟩
abbrev S128x10000 : Shape := ⟨2, ![128, 10000]⟩
abbrev S128x1 : Shape := ⟨2, ![128, 1]⟩
abbrev S128 : Shape := ⟨1, ![128]⟩
abbrev S1 : Shape := ⟨1, ![1]⟩
abbrev S10000 : Shape := ⟨1, ![10000]⟩
abbrev S_ : Shape := ⟨0, ![]⟩

abbrev nBuf : Space → Nat
  | .hbm => 18
  | .vmem => 12
  | .smem => 1
  | _ => 0

abbrev bufTy : (tb : Table) → Fin (tcTables nBuf tb) → BufTy
  | .hbm, ⟨0, _⟩ => ⟨S8192x10000, .f32⟩
  | .hbm, ⟨1, _⟩ => ⟨S10000x10000, .f32⟩
  | .hbm, ⟨2, _⟩ => ⟨S8192x1, .i32⟩
  | .hbm, ⟨3, _⟩ => ⟨S1x10000, .f32⟩
  | .hbm, ⟨4, _⟩ => ⟨S1x10000, .f32⟩
  | .hbm, ⟨5, _⟩ => ⟨S1x1, .f32⟩
  | .hbm, ⟨6, _⟩ => ⟨S1x10000, .f32⟩
  | .hbm, ⟨7, _⟩ => ⟨S1x10000, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S128x10000, .f32⟩
  | .local _ .vmem, ⟨1, _⟩ => ⟨S128x10000, .f32⟩
  | .local _ .vmem, ⟨2, _⟩ => ⟨S128x1, .i32⟩
  | .local _ .vmem, ⟨3, _⟩ => ⟨S128x1, .i32⟩
  | .local _ .vmem, ⟨4, _⟩ => ⟨S1x10000, .f32⟩
  | .local _ .vmem, ⟨5, _⟩ => ⟨S1x10000, .f32⟩
  | .local _ .vmem, ⟨6, _⟩ => ⟨S1x1, .f32⟩
  | .local _ .vmem, ⟨7, _⟩ => ⟨S128x10000, .f32⟩
  | .local _ .vmem, ⟨8, _⟩ => ⟨S128x10000, .f32⟩
  | .local _ .vmem, ⟨9, _⟩ => ⟨S1x10000, .f32⟩
  | .local _ .vmem, ⟨10, _⟩ => ⟨S1x1, .f32⟩
  | .local _ .vmem, ⟨11, _⟩ => ⟨S128x10000, .f32⟩
  | .local _ .smem, ⟨0, _⟩ => ⟨S8192, .i32⟩
  | _, _ => ⟨S8192x10000, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 139 → Bool
  | ⟨i, _⟩ => dmaSemScopedAt i

abbrev sig : RefSig :=
  ofTc nBuf bufTy 0 139 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_9 : BitVec 32 := 0#32
  let v31 : BitVec 1 := Scalar.cmpi .ne v30 c0_i32_9
  v31

def k0_cond2 (i : grid0.Coords) : BitVec 1 :=
  let arg0 : BitVec 32 := BitVec.ofNat 32 (i 0).val
  let c0_i32_10 : BitVec 32 := 0#32
  let v32 : BitVec 1 := Scalar.cmpi .ne arg0 c0_i32_10
  let v33 : BitVec 32 := Scalar.extui v32
  let c0_i32_11 : BitVec 32 := 0#32
  let v34 : BitVec 1 := Scalar.cmpi .ne v33 c0_i32_11
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x10000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![64], ![false]⟩

abbrev pre1 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k1_off2 (v3 : BitVec 32) : Fin 2 → Nat :=
  let c0_i32_3 : BitVec 32 := 0#32
  ![v3.toNat, 0]

def k1_chk1 (v3 : BitVec 32) : Prop :=
  (∀ a, (k1_off2 v3) a + S1x10000.size a ≤ S10000x10000.size a)
instance k1_chk1.dec : ∀ (v3 : BitVec 32), Decidable (k1_chk1 v3) := fun v3 => decidable_of_iff' _ (Iff.of_eq (k1_chk1.eq_1 v3))
theorem k1_off2_inb : ∀ (v3 : BitVec 32) (k1_hw1 : k1_chk1 v3), ∀ a, (k1_off2 v3) a + S1x10000.size a ≤ S10000x10000.size a := fun v3 k1_hw1 => k1_hw1

def k1_off3 (i : grid1.Coords) : Fin 1 → Nat :=
  let arg0 : BitVec 32 := BitVec.ofNat 32 (i 0).val
  let c128_i32 : BitVec 32 := 128#32
  let v0 : BitVec 32 := Scalar.muli arg0 c128_i32
  let c1_i32 : BitVec 32 := 1#32
  let v10 : BitVec 32 := Scalar.addi v0 c1_i32
  let v11 : Index := Scalar.indexCast v10
  ![v11.toNat]
def k1_off4 (v12 : BitVec 32) : Fin 2 → Nat :=
  let c0_i32_7 : BitVec 32 := 0#32
  ![v12.toNat, 0]

def k1_chk2 (v12 : BitVec 32) : Prop :=
  (∀ a, (k1_off4 v12) a + S1x10000.size a ≤ S10000x10000.size a)
instance k1_chk2.dec : ∀ (v12 : BitVec 32), Decidable (k1_chk2 v12) := fun v12 => decidable_of_iff' _ (Iff.of_eq (k1_chk2.eq_1 v12))
theorem k1_off4_inb : ∀ (v12 : BitVec 32) (k1_hw2 : k1_chk2 v12), ∀ a, (k1_off4 v12) a + S1x10000.size a ≤ S10000x10000.size a := fun v12 k1_hw2 => k1_hw2

def k1_off5 (i : grid1.Coords) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v19 : BitVec 32 := Scalar.addi v0 c2_i32
  let v20 : Index := Scalar.indexCast v19
  ![v20.toNat]
def k1_off6 (v21 : BitVec 32) : Fin 2 → Nat :=
  let c0_i32_11 : BitVec 32 := 0#32
  ![v21.toNat, 0]

def k1_chk3 (v21 : BitVec 32) : Prop :=
  (∀ a, (k1_off6 v21) a + S1x10000.size a ≤ S10000x10000.size a)
instance k1_chk3.dec : ∀ (v21 : BitVec 32), Decidable (k1_chk3 v21) := fun v21 => decidable_of_iff' _ (Iff.of_eq (k1_chk3.eq_1 v21))
theorem k1_off6_inb : ∀ (v21 : BitVec 32) (k1_hw3 : k1_chk3 v21), ∀ a, (k1_off6 v21) a + S1x10000.size a ≤ S10000x10000.size a := fun v21 k1_hw3 => k1_hw3

def k1_off7 (i : grid1.Coords) : Fin 1 → Nat :=
  let arg0 : BitVec 32 := BitVec.ofNat 32 (i 0).val
  let c128_i32 : BitVec 32 := 128#32
  let v0 : BitVec 32 := Scalar.muli arg0 c128_i32
  let c3_i32 : BitVec 32 := 3#32
  let v28 : BitVec 32 := Scalar.addi v0 c3_i32
  let v29 : Index := Scalar.indexCast v28
  ![v29.toNat]
def k1_off8 (v30 : BitVec 32) : Fin 2 → Nat :=
  let c0_i32_15 : BitVec 32 := 0#32
  ![v30.toNat, 0]

def k1_chk4 (v30 : BitVec 32) : Prop :=
  (∀ a, (k1_off8 v30) a + S1x10000.size a ≤ S10000x10000.size a)
instance k1_chk4.dec : ∀ (v30 : BitVec 32), Decidable (k1_chk4 v30) := fun v30 => decidable_of_iff' _ (Iff.of_eq (k1_chk4.eq_1 v30))
theorem k1_off8_inb : ∀ (v30 : BitVec 32) (k1_hw4 : k1_chk4 v30), ∀ a, (k1_off8 v30) a + S1x10000.size a ≤ S10000x10000.size a := fun v30 k1_hw4 => k1_hw4

def k1_off9 (i : grid1.Coords) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let v37 : BitVec 32 := Scalar.addi v0 c4_i32
  let v38 : Index := Scalar.indexCast v37
  ![v38.toNat]
def k1_off10 (v39 : BitVec 32) : Fin 2 → Nat :=
  let c0_i32_19 : BitVec 32 := 0#32
  ![v39.toNat, 0]

def k1_chk5 (v39 : BitVec 32) : Prop :=
  (∀ a, (k1_off10 v39) a + S1x10000.size a ≤ S10000x10000.size a)
instance k1_chk5.dec : ∀ (v39 : BitVec 32), Decidable (k1_chk5 v39) := fun v39 => decidable_of_iff' _ (Iff.of_eq (k1_chk5.eq_1 v39))
theorem k1_off10_inb : ∀ (v39 : BitVec 32) (k1_hw5 : k1_chk5 v39), ∀ a, (k1_off10 v39) a + S1x10000.size a ≤ S10000x10000.size a := fun v39 k1_hw5 => k1_hw5

def k1_off11 (i : grid1.Coords) : Fin 1 → Nat :=
  let arg0 : BitVec 32 := BitVec.ofNat 32 (i 0).val
  let c128_i32 : BitVec 32 := 128#32
  let v0 : BitVec 32 := Scalar.muli arg0 c128_i32
  let c5_i32 : BitVec 32 := 5#32
  let v46 : BitVec 32 := Scalar.addi v0 c5_i32
  let v47 : Index := Scalar.indexCast v46
  ![v47.toNat]
def k1_off12 (v48 : BitVec 32) : Fin 2 → Nat :=
  let c0_i32_23 : BitVec 32 := 0#32
  ![v48.toNat, 0]

def k1_chk6 (v48 : BitVec 32) : Prop :=
  (∀ a, (k1_off12 v48) a + S1x10000.size a ≤ S10000x10000.size a)
instance k1_chk6.dec : ∀ (v48 : BitVec 32), Decidable (k1_chk6 v48) := fun v48 => decidable_of_iff' _ (Iff.of_eq (k1_chk6.eq_1 v48))
theorem k1_off12_inb : ∀ (v48 : BitVec 32) (k1_hw6 : k1_chk6 v48), ∀ a, (k1_off12 v48) a + S1x10000.size a ≤ S10000x10000.size a := fun v48 k1_hw6 => k1_hw6

def k1_off13 (i : grid1.Coords) : Fin 1 → Nat :=
  let arg0 : BitVec 32 := BitVec.ofNat 32 (i 0).val
  let c128_i32 : BitVec 32 := 128#32
  let v0 : BitVec 32 := Scalar.muli arg0 c128_i32
  let c6_i32 : BitVec 32 := 6#32
  let v55 : BitVec 32 := Scalar.addi v0 c6_i32
  let v56 : Index := Scalar.indexCast v55
  ![v56.toNat]
def k1_off14 (v57 : BitVec 32) : Fin 2 → Nat :=
  let c0_i32_27 : BitVec 32 := 0#32
  ![v57.toNat, 0]

def k1_chk7 (v57 : BitVec 32) : Prop :=
  (∀ a, (k1_off14 v57) a + S1x10000.size a ≤ S10000x10000.size a)
instance k1_chk7.dec : ∀ (v57 : BitVec 32), Decidable (k1_chk7 v57) := fun v57 => decidable_of_iff' _ (Iff.of_eq (k1_chk7.eq_1 v57))
theorem k1_off14_inb : ∀ (v57 : BitVec 32) (k1_hw7 : k1_chk7 v57), ∀ a, (k1_off14 v57) a + S1x10000.size a ≤ S10000x10000.size a := fun v57 k1_hw7 => k1_hw7

def k1_off15 (i : grid1.Coords) : Fin 1 → Nat :=
  let arg0 : BitVec 32 := BitVec.ofNat 32 (i 0).val
  let c128_i32 : BitVec 32 := 128#32
  let v0 : BitVec 32 := Scalar.muli arg0 c128_i32
  let c7_i32 : BitVec 32 := 7#32
  let v64 : BitVec 32 := Scalar.addi v0 c7_i32
  let v65 : Index := Scalar.indexCast v64
  ![v65.toNat]
def k1_off16 (v66 : BitVec 32) : Fin 2 → Nat :=
  let c0_i32_31 : BitVec 32 := 0#32
  ![v66.toNat, 0]

def k1_chk8 (v66 : BitVec 32) : Prop :=
  (∀ a, (k1_off16 v66) a + S1x10000.size a ≤ S10000x10000.size a)
instance k1_chk8.dec : ∀ (v66 : BitVec 32), Decidable (k1_chk8 v66) := fun v66 => decidable_of_iff' _ (Iff.of_eq (k1_chk8.eq_1 v66))
theorem k1_off16_inb : ∀ (v66 : BitVec 32) (k1_hw8 : k1_chk8 v66), ∀ a, (k1_off16 v66) a + S1x10000.size a ≤ S10000x10000.size a := fun v66 k1_hw8 => k1_hw8

def k1_off17 (i : grid1.Coords) : Fin 1 → Nat :=
  let arg0 : BitVec 32 := BitVec.ofNat 32 (i 0).val
  let c128_i32 : BitVec 32 := 128#32
  let v0 : BitVec 32 := Scalar.muli arg0 c128_i32
  let c8_i32 : BitVec 32 := 8#32
  let v73 : BitVec 32 := Scalar.addi v0 c8_i32
  let v74 : Index := Scalar.indexCast v73
  ![v74.toNat]
def k1_off18 (v75 : BitVec 32) : Fin 2 → Nat :=
  let c0_i32_35 : BitVec 32 := 0#32
  ![v75.toNat, 0]

def k1_chk9 (v75 : BitVec 32) : Prop :=
  (∀ a, (k1_off18 v75) a + S1x10000.size a ≤ S10000x10000.size a)
instance k1_chk9.dec : ∀ (v75 : BitVec 32), Decidable (k1_chk9 v75) := fun v75 => decidable_of_iff' _ (Iff.of_eq (k1_chk9.eq_1 v75))
theorem k1_off18_inb : ∀ (v75 : BitVec 32) (k1_hw9 : k1_chk9 v75), ∀ a, (k1_off18 v75) a + S1x10000.size a ≤ S10000x10000.size a := fun v75 k1_hw9 => k1_hw9

def k1_off19 (i : grid1.Coords) : Fin 1 → Nat :=
  let arg0 : BitVec 32 := BitVec.ofNat 32 (i 0).val
  let c128_i32 : BitVec 32 := 128#32
  let v0 : BitVec 32 := Scalar.muli arg0 c128_i32
  let c9_i32 : BitVec 32 := 9#32
  let v82 : BitVec 32 := Scalar.addi v0 c9_i32
  let v83 : Index := Scalar.indexCast v82
  ![v83.toNat]
def k1_off20 (v84 : BitVec 32) : Fin 2 → Nat :=
  let c0_i32_39 : BitVec 32 := 0#32
  ![v84.toNat, 0]

def k1_chk10 (v84 : BitVec 32) : Prop :=
  (∀ a, (k1_off20 v84) a + S1x10000.size a ≤ S10000x10000.size a)
instance k1_chk10.dec : ∀ (v84 : BitVec 32), Decidable (k1_chk10 v84) := fun v84 => decidable_of_iff' _ (Iff.of_eq (k1_chk10.eq_1 v84))
theorem k1_off20_inb : ∀ (v84 : BitVec 32) (k1_hw10 : k1_chk10 v84), ∀ a, (k1_off20 v84) a + S1x10000.size a ≤ S10000x10000.size a := fun v84 k1_hw10 => k1_hw10

def k1_off21 (i : grid1.Coords) : Fin 1 → Nat :=
  let arg0 : BitVec 32 := BitVec.ofNat 32 (i 0).val
  let c128_i32 : BitVec 32 := 128#32
  let v0 : BitVec 32 := Scalar.muli arg0 c128_i32
  let c10_i32 : BitVec 32 := 10#32
  let v91 : BitVec 32 := Scalar.addi v0 c10_i32
  let v92 : Index := Scalar.indexCast v91
  ![v92.toNat]
def k1_off22 (v93 : BitVec 32) : Fin 2 → Nat :=
  let c0_i32_43 : BitVec 32 := 0#32
  ![v93.toNat, 0]

def k1_chk11 (v93 : BitVec 32) : Prop :=
  (∀ a, (k1_off22 v93) a + S1x10000.size a ≤ S10000x10000.size a)
instance k1_chk11.dec : ∀ (v93 : BitVec 32), Decidable (k1_chk11 v93) := fun v93 => decidable_of_iff' _ (Iff.of_eq (k1_chk11.eq_1 v93))
theorem k1_off22_inb : ∀ (v93 : BitVec 32) (k1_hw11 : k1_chk11 v93), ∀ a, (k1_off22 v93) a + S1x10000.size a ≤ S10000x10000.size a := fun v93 k1_hw11 => k1_hw11

def k1_off23 (i : grid1.Coords) : Fin 1 → Nat :=
  let arg0 : BitVec 32 := BitVec.ofNat 32 (i 0).val
  let c128_i32 : BitVec 32 := 128#32
  let v0 : BitVec 32 := Scalar.muli arg0 c128_i32
  let c11_i32 : BitVec 32 := 11#32
  let v100 : BitVec 32 := Scalar.addi v0 c11_i32
  let v101 : Index := Scalar.indexCast v100
  ![v101.toNat]
def k1_off24 (v102 : BitVec 32) : Fin 2 → Nat :=
  let c0_i32_47 : BitVec 32 := 0#32
  ![v102.toNat, 0]

def k1_chk12 (v102 : BitVec 32) : Prop :=
  (∀ a, (k1_off24 v102) a + S1x10000.size a ≤ S10000x10000.size a)
instance k1_chk12.dec : ∀ (v102 : BitVec 32), Decidable (k1_chk12 v102) := fun v102 => decidable_of_iff' _ (Iff.of_eq (k1_chk12.eq_1 v102))
theorem k1_off24_inb : ∀ (v102 : BitVec 32) (k1_hw12 : k1_chk12 v102), ∀ a, (k1_off24 v102) a + S1x10000.size a ≤ S10000x10000.size a := fun v102 k1_hw12 => k1_hw12

def k1_off25 (i : grid1.Coords) : Fin 1 → Nat :=
  let arg0 : BitVec 32 := BitVec.ofNat 32 (i 0).val
  let c128_i32 : BitVec 32 := 128#32
  let v0 : BitVec 32 := Scalar.muli arg0 c128_i32
  let c12_i32 : BitVec 32 := 12#32
  let v109 : BitVec 32 := Scalar.addi v0 c12_i32
  let v110 : Index := Scalar.indexCast v109
  ![v110.toNat]
def k1_off26 (v111 : BitVec 32) : Fin 2 → Nat :=
  let c0_i32_51 : BitVec 32 := 0#32
  ![v111.toNat, 0]

def k1_chk13 (v111 : BitVec 32) : Prop :=
  (∀ a, (k1_off26 v111) a + S1x10000.size a ≤ S10000x10000.size a)
instance k1_chk13.dec : ∀ (v111 : BitVec 32), Decidable (k1_chk13 v111) := fun v111 => decidable_of_iff' _ (Iff.of_eq (k1_chk13.eq_1 v111))
theorem k1_off26_inb : ∀ (v111 : BitVec 32) (k1_hw13 : k1_chk13 v111), ∀ a, (k1_off26 v111) a + S1x10000.size a ≤ S10000x10000.size a := fun v111 k1_hw13 => k1_hw13

def k1_off27 (i : grid1.Coords) : Fin 1 → Nat :=
  let arg0 : BitVec 32 := BitVec.ofNat 32 (i 0).val
  let c128_i32 : BitVec 32 := 128#32
  let v0 : BitVec 32 := Scalar.muli arg0 c128_i32
  let c13_i32 : BitVec 32 := 13#32
  let v118 : BitVec 32 := Scalar.addi v0 c13_i32
  let v119 : Index := Scalar.indexCast v118
  ![v119.toNat]
def k1_off28 (v120 : BitVec 32) : Fin 2 → Nat :=
  let c0_i32_55 : BitVec 32 := 0#32
  ![v120.toNat, 0]

def k1_chk14 (v120 : BitVec 32) : Prop :=
  (∀ a, (k1_off28 v120) a + S1x10000.size a ≤ S10000x10000.size a)
instance k1_chk14.dec : ∀ (v120 : BitVec 32), Decidable (k1_chk14 v120) := fun v120 => decidable_of_iff' _ (Iff.of_eq (k1_chk14.eq_1 v120))
theorem k1_off28_inb : ∀ (v120 : BitVec 32) (k1_hw14 : k1_chk14 v120), ∀ a, (k1_off28 v120) a + S1x10000.size a ≤ S10000x10000.size a := fun v120 k1_hw14 => k1_hw14

def k1_off29 (i : grid1.Coords) : Fin 1 → Nat :=
  let arg0 : BitVec 32 := BitVec.ofNat 32 (i 0).val
  let c128_i32 : BitVec 32 := 128#32
  let v0 : BitVec 32 := Scalar.muli arg0 c128_i32
  let c14_i32 : BitVec 32 := 14#32
  let v127 : BitVec 32 := Scalar.addi v0 c14_i32
  let v128 : Index := Scalar.indexCast v127
  ![v128.toNat]
def k1_off30 (v129 : BitVec 32) : Fin 2 → Nat :=
  let c0_i32_59 : BitVec 32 := 0#32
  ![v129.toNat, 0]

def k1_chk15 (v129 : BitVec 32) : Prop :=
  (∀ a, (k1_off30 v129) a + S1x10000.size a ≤ S10000x10000.size a)
instance k1_chk15.dec : ∀ (v129 : BitVec 32), Decidable (k1_chk15 v129) := fun v129 => decidable_of_iff' _ (Iff.of_eq (k1_chk15.eq_1 v129))
theorem k1_off30_inb : ∀ (v129 : BitVec 32) (k1_hw15 : k1_chk15 v129), ∀ a, (k1_off30 v129) a + S1x10000.size a ≤ S10000x10000.size a := fun v129 k1_hw15 => k1_hw15

def k1_off31 (i : grid1.Coords) : Fin 1 → Nat :=
  let arg0 : BitVec 32 := BitVec.ofNat 32 (i 0).val
  let c128_i32 : BitVec 32 := 128#32
  let v0 : BitVec 32 := Scalar.muli arg0 c128_i32
  let c15_i32 : BitVec 32 := 15#32
  let v136 : BitVec 32 := Scalar.addi v0 c15_i32
  let v137 : Index := Scalar.indexCast v136
  ![v137.toNat]
def k1_off32 (v138 : BitVec 32) : Fin 2 → Nat :=
  let c0_i32_63 : BitVec 32 := 0#32
  ![v138.toNat, 0]

def k1_chk16 (v138 : BitVec 32) : Prop :=
  (∀ a, (k1_off32 v138) a + S1x10000.size a ≤ S10000x10000.size a)
instance k1_chk16.dec : ∀ (v138 : BitVec 32), Decidable (k1_chk16 v138) := fun v138 => decidable_of_iff' _ (Iff.of_eq (k1_chk16.eq_1 v138))
theorem k1_off32_inb : ∀ (v138 : BitVec 32) (k1_hw16 : k1_chk16 v138), ∀ a, (k1_off32 v138) a + S1x10000.size a ≤ S10000x10000.size a := fun v138 k1_hw16 => k1_hw16

def k1_off33 (i : grid1.Coords) : Fin 1 → Nat :=
  let arg0 : BitVec 32 := BitVec.ofNat 32 (i 0).val
  let c128_i32 : BitVec 32 := 128#32
  let v0 : BitVec 32 := Scalar.muli arg0 c128_i32
  let c16_i32 : BitVec 32 := 16#32
  let v145 : BitVec 32 := Scalar.addi v0 c16_i32
  let v146 : Index := Scalar.indexCast v145
  ![v146.toNat]
def k1_off34 (v147 : BitVec 32) : Fin 2 → Nat :=
  let c0_i32_67 : BitVec 32 := 0#32
  ![v147.toNat, 0]

def k1_chk17 (v147 : BitVec 32) : Prop :=
  (∀ a, (k1_off34 v147) a + S1x10000.size a ≤ S10000x10000.size a)
instance k1_chk17.dec : ∀ (v147 : BitVec 32), Decidable (k1_chk17 v147) := fun v147 => decidable_of_iff' _ (Iff.of_eq (k1_chk17.eq_1 v147))
theorem k1_off34_inb : ∀ (v147 : BitVec 32) (k1_hw17 : k1_chk17 v147), ∀ a, (k1_off34 v147) a + S1x10000.size a ≤ S10000x10000.size a := fun v147 k1_hw17 => k1_hw17

def k1_off35 (i : grid1.Coords) : Fin 1 → Nat :=
  let arg0 : BitVec 32 := BitVec.ofNat 32 (i 0).val
  let c128_i32 : BitVec 32 := 128#32
  let v0 : BitVec 32 := Scalar.muli arg0 c128_i32
  let c17_i32 : BitVec 32 := 17#32
  let v154 : BitVec 32 := Scalar.addi v0 c17_i32
  let v155 : Index := Scalar.indexCast v154
  ![v155.toNat]
def k1_off36 (v156 : BitVec 32) : Fin 2 → Nat :=
  let c0_i32_71 : BitVec 32 := 0#32
  ![v156.toNat, 0]

def k1_chk18 (v156 : BitVec 32) : Prop :=
  (∀ a, (k1_off36 v156) a + S1x10000.size a ≤ S10000x10000.size a)
instance k1_chk18.dec : ∀ (v156 : BitVec 32), Decidable (k1_chk18 v156) := fun v156 => decidable_of_iff' _ (Iff.of_eq (k1_chk18.eq_1 v156))
theorem k1_off36_inb : ∀ (v156 : BitVec 32) (k1_hw18 : k1_chk18 v156), ∀ a, (k1_off36 v156) a + S1x10000.size a ≤ S10000x10000.size a := fun v156 k1_hw18 => k1_hw18

def k1_off37 (i : grid1.Coords) : Fin 1 → Nat :=
  let arg0 : BitVec 32 := BitVec.ofNat 32 (i 0).val
  let c128_i32 : BitVec 32 := 128#32
  let v0 : BitVec 32 := Scalar.muli arg0 c128_i32
  let c18_i32 : BitVec 32 := 18#32
  let v163 : BitVec 32 := Scalar.addi v0 c18_i32
  let v164 : Index := Scalar.indexCast v163
  ![v164.toNat]
def k1_off38 (v165 : BitVec 32) : Fin 2 → Nat :=
  let c0_i32_75 : BitVec 32 := 0#32
  ![v165.toNat, 0]

def k1_chk19 (v165 : BitVec 32) : Prop :=
  (∀ a, (k1_off38 v165) a + S1x10000.size a ≤ S10000x10000.size a)
instance k1_chk19.dec : ∀ (v165 : BitVec 32), Decidable (k1_chk19 v165) := fun v165 => decidable_of_iff' _ (Iff.of_eq (k1_chk19.eq_1 v165))
theorem k1_off38_inb : ∀ (v165 : BitVec 32) (k1_hw19 : k1_chk19 v165), ∀ a, (k1_off38 v165) a + S1x10000.size a ≤ S10000x10000.size a := fun v165 k1_hw19 => k1_hw19

def k1_off39 (i : grid1.Coords) : Fin 1 → Nat :=
  let arg0 : BitVec 32 := BitVec.ofNat 32 (i 0).val
  let c128_i32 : BitVec 32 := 128#32
  let v0 : BitVec 32 := Scalar.muli arg0 c128_i32
  let c19_i32 : BitVec 32 := 19#32
  let v172 : BitVec 32 := Scalar.addi v0 c19_i32
  let v173 : Index := Scalar.indexCast v172
  ![v173.toNat]
def k1_off40 (v174 : BitVec 32) : Fin 2 → Nat :=
  let c0_i32_79 : BitVec 32 := 0#32
  ![v174.toNat, 0]

def k1_chk20 (v174 : BitVec 32) : Prop :=
  (∀ a, (k1_off40 v174) a + S1x10000.size a ≤ S10000x10000.size a)
instance k1_chk20.dec : ∀ (v174 : BitVec 32), Decidable (k1_chk20 v174) := fun v174 => decidable_of_iff' _ (Iff.of_eq (k1_chk20.eq_1 v174))
theorem k1_off40_inb : ∀ (v174 : BitVec 32) (k1_hw20 : k1_chk20 v174), ∀ a, (k1_off40 v174) a + S1x10000.size a ≤ S10000x10000.size a := fun v174 k1_hw20 => k1_hw20

def k1_off41 (i : grid1.Coords) : Fin 1 → Nat :=
  let arg0 : BitVec 32 := BitVec.ofNat 32 (i 0).val
  let c128_i32 : BitVec 32 := 128#32
  let v0 : BitVec 32 := Scalar.muli arg0 c128_i32
  let c20_i32 : BitVec 32 := 20#32
  let v181 : BitVec 32 := Scalar.addi v0 c20_i32
  let v182 : Index := Scalar.indexCast v181
  ![v182.toNat]
def k1_off42 (v183 : BitVec 32) : Fin 2 → Nat :=
  let c0_i32_83 : BitVec 32 := 0#32
  ![v183.toNat, 0]

def k1_chk21 (v183 : BitVec 32) : Prop :=
  (∀ a, (k1_off42 v183) a + S1x10000.size a ≤ S10000x10000.size a)
instance k1_chk21.dec : ∀ (v183 : BitVec 32), Decidable (k1_chk21 v183) := fun v183 => decidable_of_iff' _ (Iff.of_eq (k1_chk21.eq_1 v183))
theorem k1_off42_inb : ∀ (v183 : BitVec 32) (k1_hw21 : k1_chk21 v183), ∀ a, (k1_off42 v183) a + S1x10000.size a ≤ S10000x10000.size a := fun v183 k1_hw21 => k1_hw21

def k1_off43 (i : grid1.Coords) : Fin 1 → Nat :=
  let arg0 : BitVec 32 := BitVec.ofNat 32 (i 0).val
  let c128_i32 : BitVec 32 := 128#32
  let v0 : BitVec 32 := Scalar.muli arg0 c128_i32
  let c21_i32 : BitVec 32 := 21#32
  let v190 : BitVec 32 := Scalar.addi v0 c21_i32
  let v191 : Index := Scalar.indexCast v190
  ![v191.toNat]
def k1_off44 (v192 : BitVec 32) : Fin 2 → Nat :=
  let c0_i32_87 : BitVec 32 := 0#32
  ![v192.toNat, 0]

def k1_chk22 (v192 : BitVec 32) : Prop :=
  (∀ a, (k1_off44 v192) a + S1x10000.size a ≤ S10000x10000.size a)
instance k1_chk22.dec : ∀ (v192 : BitVec 32), Decidable (k1_chk22 v192) := fun v192 => decidable_of_iff' _ (Iff.of_eq (k1_chk22.eq_1 v192))
theorem k1_off44_inb : ∀ (v192 : BitVec 32) (k1_hw22 : k1_chk22 v192), ∀ a, (k1_off44 v192) a + S1x10000.size a ≤ S10000x10000.size a := fun v192 k1_hw22 => k1_hw22

def k1_off45 (i : grid1.Coords) : Fin 1 → Nat :=
  let arg0 : BitVec 32 := BitVec.ofNat 32 (i 0).val
  let c128_i32 : BitVec 32 := 128#32
  let v0 : BitVec 32 := Scalar.muli arg0 c128_i32
  let c22_i32 : BitVec 32 := 22#32
  let v199 : BitVec 32 := Scalar.addi v0 c22_i32
  let v200 : Index := Scalar.indexCast v199
  ![v200.toNat]
def k1_off46 (v201 : BitVec 32) : Fin 2 → Nat :=
  let c0_i32_91 : BitVec 32 := 0#32
  ![v201.toNat, 0]

def k1_chk23 (v201 : BitVec 32) : Prop :=
  (∀ a, (k1_off46 v201) a + S1x10000.size a ≤ S10000x10000.size a)
instance k1_chk23.dec : ∀ (v201 : BitVec 32), Decidable (k1_chk23 v201) := fun v201 => decidable_of_iff' _ (Iff.of_eq (k1_chk23.eq_1 v201))
theorem k1_off46_inb : ∀ (v201 : BitVec 32) (k1_hw23 : k1_chk23 v201), ∀ a, (k1_off46 v201) a + S1x10000.size a ≤ S10000x10000.size a := fun v201 k1_hw23 => k1_hw23

def k1_off47 (i : grid1.Coords) : Fin 1 → Nat :=
  let arg0 : BitVec 32 := BitVec.ofNat 32 (i 0).val
  let c128_i32 : BitVec 32 := 128#32
  let v0 : BitVec 32 := Scalar.muli arg0 c128_i32
  let c23_i32 : BitVec 32 := 23#32
  let v208 : BitVec 32 := Scalar.addi v0 c23_i32
  let v209 : Index := Scalar.indexCast v208
  ![v209.toNat]
def k1_off48 (v210 : BitVec 32) : Fin 2 → Nat :=
  let c0_i32_95 : BitVec 32 := 0#32
  ![v210.toNat, 0]

def k1_chk24 (v210 : BitVec 32) : Prop :=
  (∀ a, (k1_off48 v210) a + S1x10000.size a ≤ S10000x10000.size a)
instance k1_chk24.dec : ∀ (v210 : BitVec 32), Decidable (k1_chk24 v210) := fun v210 => decidable_of_iff' _ (Iff.of_eq (k1_chk24.eq_1 v210))
theorem k1_off48_inb : ∀ (v210 : BitVec 32) (k1_hw24 : k1_chk24 v210), ∀ a, (k1_off48 v210) a + S1x10000.size a ≤ S10000x10000.size a := fun v210 k1_hw24 => k1_hw24

def k1_off49 (i : grid1.Coords) : Fin 1 → Nat :=
  let arg0 : BitVec 32 := BitVec.ofNat 32 (i 0).val
  let c128_i32 : BitVec 32 := 128#32
  let v0 : BitVec 32 := Scalar.muli arg0 c128_i32
  let c24_i32 : BitVec 32 := 24#32
  let v217 : BitVec 32 := Scalar.addi v0 c24_i32
  let v218 : Index := Scalar.indexCast v217
  ![v218.toNat]
def k1_off50 (v219 : BitVec 32) : Fin 2 → Nat :=
  let c0_i32_99 : BitVec 32 := 0#32
  ![v219.toNat, 0]

def k1_chk25 (v219 : BitVec 32) : Prop :=
  (∀ a, (k1_off50 v219) a + S1x10000.size a ≤ S10000x10000.size a)
instance k1_chk25.dec : ∀ (v219 : BitVec 32), Decidable (k1_chk25 v219) := fun v219 => decidable_of_iff' _ (Iff.of_eq (k1_chk25.eq_1 v219))
theorem k1_off50_inb : ∀ (v219 : BitVec 32) (k1_hw25 : k1_chk25 v219), ∀ a, (k1_off50 v219) a + S1x10000.size a ≤ S10000x10000.size a := fun v219 k1_hw25 => k1_hw25

def k1_off51 (i : grid1.Coords) : Fin 1 → Nat :=
  let arg0 : BitVec 32 := BitVec.ofNat 32 (i 0).val
  let c128_i32 : BitVec 32 := 128#32
  let v0 : BitVec 32 := Scalar.muli arg0 c128_i32
  let c25_i32 : BitVec 32 := 25#32
  let v226 : BitVec 32 := Scalar.addi v0 c25_i32
  let v227 : Index := Scalar.indexCast v226
  ![v227.toNat]
def k1_off52 (v228 : BitVec 32) : Fin 2 → Nat :=
  let c0_i32_103 : BitVec 32 := 0#32
  ![v228.toNat, 0]

def k1_chk26 (v228 : BitVec 32) : Prop :=
  (∀ a, (k1_off52 v228) a + S1x10000.size a ≤ S10000x10000.size a)
instance k1_chk26.dec : ∀ (v228 : BitVec 32), Decidable (k1_chk26 v228) := fun v228 => decidable_of_iff' _ (Iff.of_eq (k1_chk26.eq_1 v228))
theorem k1_off52_inb : ∀ (v228 : BitVec 32) (k1_hw26 : k1_chk26 v228), ∀ a, (k1_off52 v228) a + S1x10000.size a ≤ S10000x10000.size a := fun v228 k1_hw26 => k1_hw26

def k1_off53 (i : grid1.Coords) : Fin 1 → Nat :=
  let arg0 : BitVec 32 := BitVec.ofNat 32 (i 0).val
  let c128_i32 : BitVec 32 := 128#32
  let v0 : BitVec 32 := Scalar.muli arg0 c128_i32
  let c26_i32 : BitVec 32 := 26#32
  let v235 : BitVec 32 := Scalar.addi v0 c26_i32
  let v236 : Index := Scalar.indexCast v235
  ![v236.toNat]
def k1_off54 (v237 : BitVec 32) : Fin 2 → Nat :=
  let c0_i32_107 : BitVec 32 := 0#32
  ![v237.toNat, 0]

def k1_chk27 (v237 : BitVec 32) : Prop :=
  (∀ a, (k1_off54 v237) a + S1x10000.size a ≤ S10000x10000.size a)
instance k1_chk27.dec : ∀ (v237 : BitVec 32), Decidable (k1_chk27 v237) := fun v237 => decidable_of_iff' _ (Iff.of_eq (k1_chk27.eq_1 v237))
theorem k1_off54_inb : ∀ (v237 : BitVec 32) (k1_hw27 : k1_chk27 v237), ∀ a, (k1_off54 v237) a + S1x10000.size a ≤ S10000x10000.size a := fun v237 k1_hw27 => k1_hw27

def k1_off55 (i : grid1.Coords) : Fin 1 → Nat :=
  let arg0 : BitVec 32 := BitVec.ofNat 32 (i 0).val
  let c128_i32 : BitVec 32 := 128#32
  let v0 : BitVec 32 := Scalar.muli arg0 c128_i32
  let c27_i32 : BitVec 32 := 27#32
  let v244 : BitVec 32 := Scalar.addi v0 c27_i32
  let v245 : Index := Scalar.indexCast v244
  ![v245.toNat]
def k1_off56 (v246 : BitVec 32) : Fin 2 → Nat :=
  let c0_i32_111 : BitVec 32 := 0#32
  ![v246.toNat, 0]

def k1_chk28 (v246 : BitVec 32) : Prop :=
  (∀ a, (k1_off56 v246) a + S1x10000.size a ≤ S10000x10000.size a)
instance k1_chk28.dec : ∀ (v246 : BitVec 32), Decidable (k1_chk28 v246) := fun v246 => decidable_of_iff' _ (Iff.of_eq (k1_chk28.eq_1 v246))
theorem k1_off56_inb : ∀ (v246 : BitVec 32) (k1_hw28 : k1_chk28 v246), ∀ a, (k1_off56 v246) a + S1x10000.size a ≤ S10000x10000.size a := fun v246 k1_hw28 => k1_hw28

def k1_off57 (i : grid1.Coords) : Fin 1 → Nat :=
  let arg0 : BitVec 32 := BitVec.ofNat 32 (i 0).val
  let c128_i32 : BitVec 32 := 128#32
  let v0 : BitVec 32 := Scalar.muli arg0 c128_i32
  let c28_i32 : BitVec 32 := 28#32
  let v253 : BitVec 32 := Scalar.addi v0 c28_i32
  let v254 : Index := Scalar.indexCast v253
  ![v254.toNat]
def k1_off58 (v255 : BitVec 32) : Fin 2 → Nat :=
  let c0_i32_115 : BitVec 32 := 0#32
  ![v255.toNat, 0]

def k1_chk29 (v255 : BitVec 32) : Prop :=
  (∀ a, (k1_off58 v255) a + S1x10000.size a ≤ S10000x10000.size a)
instance k1_chk29.dec : ∀ (v255 : BitVec 32), Decidable (k1_chk29 v255) := fun v255 => decidable_of_iff' _ (Iff.of_eq (k1_chk29.eq_1 v255))
theorem k1_off58_inb : ∀ (v255 : BitVec 32) (k1_hw29 : k1_chk29 v255), ∀ a, (k1_off58 v255) a + S1x10000.size a ≤ S10000x10000.size a := fun v255 k1_hw29 => k1_hw29

def k1_off59 (i : grid1.Coords) : Fin 1 → Nat :=
  let arg0 : BitVec 32 := BitVec.ofNat 32 (i 0).val
  let c128_i32 : BitVec 32 := 128#32
  let v0 : BitVec 32 := Scalar.muli arg0 c128_i32
  let c29_i32 : BitVec 32 := 29#32
  let v262 : BitVec 32 := Scalar.addi v0 c29_i32
  let v263 : Index := Scalar.indexCast v262
  ![v263.toNat]
def k1_off60 (v264 : BitVec 32) : Fin 2 → Nat :=
  let c0_i32_119 : BitVec 32 := 0#32
  ![v264.toNat, 0]

def k1_chk30 (v264 : BitVec 32) : Prop :=
  (∀ a, (k1_off60 v264) a + S1x10000.size a ≤ S10000x10000.size a)
instance k1_chk30.dec : ∀ (v264 : BitVec 32), Decidable (k1_chk30 v264) := fun v264 => decidable_of_iff' _ (Iff.of_eq (k1_chk30.eq_1 v264))
theorem k1_off60_inb : ∀ (v264 : BitVec 32) (k1_hw30 : k1_chk30 v264), ∀ a, (k1_off60 v264) a + S1x10000.size a ≤ S10000x10000.size a := fun v264 k1_hw30 => k1_hw30

def k1_off61 (i : grid1.Coords) : Fin 1 → Nat :=
  let arg0 : BitVec 32 := BitVec.ofNat 32 (i 0).val
  let c128_i32 : BitVec 32 := 128#32
  let v0 : BitVec 32 := Scalar.muli arg0 c128_i32
  let c30_i32 : BitVec 32 := 30#32
  let v271 : BitVec 32 := Scalar.addi v0 c30_i32
  let v272 : Index := Scalar.indexCast v271
  ![v272.toNat]
def k1_off62 (v273 : BitVec 32) : Fin 2 → Nat :=
  let c0_i32_123 : BitVec 32 := 0#32
  ![v273.toNat, 0]

def k1_chk31 (v273 : BitVec 32) : Prop :=
  (∀ a, (k1_off62 v273) a + S1x10000.size a ≤ S10000x10000.size a)
instance k1_chk31.dec : ∀ (v273 : BitVec 32), Decidable (k1_chk31 v273) := fun v273 => decidable_of_iff' _ (Iff.of_eq (k1_chk31.eq_1 v273))
theorem k1_off62_inb : ∀ (v273 : BitVec 32) (k1_hw31 : k1_chk31 v273), ∀ a, (k1_off62 v273) a + S1x10000.size a ≤ S10000x10000.size a := fun v273 k1_hw31 => k1_hw31

def k1_off63 (i : grid1.Coords) : Fin 1 → Nat :=
  let arg0 : BitVec 32 := BitVec.ofNat 32 (i 0).val
  let c128_i32 : BitVec 32 := 128#32
  let v0 : BitVec 32 := Scalar.muli arg0 c128_i32
  let c31_i32 : BitVec 32 := 31#32
  let v280 : BitVec 32 := Scalar.addi v0 c31_i32
  let v281 : Index := Scalar.indexCast v280
  ![v281.toNat]
def k1_off64 (v282 : BitVec 32) : Fin 2 → Nat :=
  let c0_i32_127 : BitVec 32 := 0#32
  ![v282.toNat, 0]

def k1_chk32 (v282 : BitVec 32) : Prop :=
  (∀ a, (k1_off64 v282) a + S1x10000.size a ≤ S10000x10000.size a)
instance k1_chk32.dec : ∀ (v282 : BitVec 32), Decidable (k1_chk32 v282) := fun v282 => decidable_of_iff' _ (Iff.of_eq (k1_chk32.eq_1 v282))
theorem k1_off64_inb : ∀ (v282 : BitVec 32) (k1_hw32 : k1_chk32 v282), ∀ a, (k1_off64 v282) a + S1x10000.size a ≤ S10000x10000.size a := fun v282 k1_hw32 => k1_hw32

def k1_off65 (i : grid1.Coords) : Fin 1 → Nat :=
  let arg0 : BitVec 32 := BitVec.ofNat 32 (i 0).val
  let c128_i32 : BitVec 32 := 128#32
  let v0 : BitVec 32 := Scalar.muli arg0 c128_i32
  let c32_i32 : BitVec 32 := 32#32
  let v289 : BitVec 32 := Scalar.addi v0 c32_i32
  let v290 : Index := Scalar.indexCast v289
  ![v290.toNat]
def k1_off66 (v291 : BitVec 32) : Fin 2 → Nat :=
  let c0_i32_131 : BitVec 32 := 0#32
  ![v291.toNat, 0]

def k1_chk33 (v291 : BitVec 32) : Prop :=
  (∀ a, (k1_off66 v291) a + S1x10000.size a ≤ S10000x10000.size a)
instance k1_chk33.dec : ∀ (v291 : BitVec 32), Decidable (k1_chk33 v291) := fun v291 => decidable_of_iff' _ (Iff.of_eq (k1_chk33.eq_1 v291))
theorem k1_off66_inb : ∀ (v291 : BitVec 32) (k1_hw33 : k1_chk33 v291), ∀ a, (k1_off66 v291) a + S1x10000.size a ≤ S10000x10000.size a := fun v291 k1_hw33 => k1_hw33

def k1_off67 (i : grid1.Coords) : Fin 1 → Nat :=
  let arg0 : BitVec 32 := BitVec.ofNat 32 (i 0).val
  let c128_i32 : BitVec 32 := 128#32
  let v0 : BitVec 32 := Scalar.muli arg0 c128_i32
  let c33_i32 : BitVec 32 := 33#32
  let v298 : BitVec 32 := Scalar.addi v0 c33_i32
  let v299 : Index := Scalar.indexCast v298
  ![v299.toNat]
def k1_off68 (v300 : BitVec 32) : Fin 2 → Nat :=
  let c0_i32_135 : BitVec 32 := 0#32
  ![v300.toNat, 0]

def k1_chk34 (v300 : BitVec 32) : Prop :=
  (∀ a, (k1_off68 v300) a + S1x10000.size a ≤ S10000x10000.size a)
instance k1_chk34.dec : ∀ (v300 : BitVec 32), Decidable (k1_chk34 v300) := fun v300 => decidable_of_iff' _ (Iff.of_eq (k1_chk34.eq_1 v300))
theorem k1_off68_inb : ∀ (v300 : BitVec 32) (k1_hw34 : k1_chk34 v300), ∀ a, (k1_off68 v300) a + S1x10000.size a ≤ S10000x10000.size a := fun v300 k1_hw34 => k1_hw34

def k1_off69 (i : grid1.Coords) : Fin 1 → Nat :=
  let arg0 : BitVec 32 := BitVec.ofNat 32 (i 0).val
  let c128_i32 : BitVec 32 := 128#32
  let v0 : BitVec 32 := Scalar.muli arg0 c128_i32
  let c34_i32 : BitVec 32 := 34#32
  let v307 : BitVec 32 := Scalar.addi v0 c34_i32
  let v308 : Index := Scalar.indexCast v307
  ![v308.toNat]
def k1_off70 (v309 : BitVec 32) : Fin 2 → Nat :=
  let c0_i32_139 : BitVec 32 := 0#32
  ![v309.toNat, 0]

def k1_chk35 (v309 : BitVec 32) : Prop :=
  (∀ a, (k1_off70 v309) a + S1x10000.size a ≤ S10000x10000.size a)
instance k1_chk35.dec : ∀ (v309 : BitVec 32), Decidable (k1_chk35 v309) := fun v309 => decidable_of_iff' _ (Iff.of_eq (k1_chk35.eq_1 v309))
theorem k1_off70_inb : ∀ (v309 : BitVec 32) (k1_hw35 : k1_chk35 v309), ∀ a, (k1_off70 v309) a + S1x10000.size a ≤ S10000x10000.size a := fun v309 k1_hw35 => k1_hw35

def k1_off71 (i : grid1.Coords) : Fin 1 → Nat :=
  let arg0 : BitVec 32 := BitVec.ofNat 32 (i 0).val
  let c128_i32 : BitVec 32 := 128#32
  let v0 : BitVec 32 := Scalar.muli arg0 c128_i32
  let c35_i32 : BitVec 32 := 35#32
  let v316 : BitVec 32 := Scalar.addi v0 c35_i32
  let v317 : Index := Scalar.indexCast v316
  ![v317.toNat]
def k1_off72 (v318 : BitVec 32) : Fin 2 → Nat :=
  let c0_i32_143 : BitVec 32 := 0#32
  ![v318.toNat, 0]

def k1_chk36 (v318 : BitVec 32) : Prop :=
  (∀ a, (k1_off72 v318) a + S1x10000.size a ≤ S10000x10000.size a)
instance k1_chk36.dec : ∀ (v318 : BitVec 32), Decidable (k1_chk36 v318) := fun v318 => decidable_of_iff' _ (Iff.of_eq (k1_chk36.eq_1 v318))
theorem k1_off72_inb : ∀ (v318 : BitVec 32) (k1_hw36 : k1_chk36 v318), ∀ a, (k1_off72 v318) a + S1x10000.size a ≤ S10000x10000.size a := fun v318 k1_hw36 => k1_hw36

def k1_off73 (i : grid1.Coords) : Fin 1 → Nat :=
  let arg0 : BitVec 32 := BitVec.ofNat 32 (i 0).val
  let c128_i32 : BitVec 32 := 128#32
  let v0 : BitVec 32 := Scalar.muli arg0 c128_i32
  let c36_i32 : BitVec 32 := 36#32
  let v325 : BitVec 32 := Scalar.addi v0 c36_i32
  let v326 : Index := Scalar.indexCast v325
  ![v326.toNat]
def k1_off74 (v327 : BitVec 32) : Fin 2 → Nat :=
  let c0_i32_147 : BitVec 32 := 0#32
  ![v327.toNat, 0]

def k1_chk37 (v327 : BitVec 32) : Prop :=
  (∀ a, (k1_off74 v327) a + S1x10000.size a ≤ S10000x10000.size a)
instance k1_chk37.dec : ∀ (v327 : BitVec 32), Decidable (k1_chk37 v327) := fun v327 => decidable_of_iff' _ (Iff.of_eq (k1_chk37.eq_1 v327))
theorem k1_off74_inb : ∀ (v327 : BitVec 32) (k1_hw37 : k1_chk37 v327), ∀ a, (k1_off74 v327) a + S1x10000.size a ≤ S10000x10000.size a := fun v327 k1_hw37 => k1_hw37

def k1_off75 (i : grid1.Coords) : Fin 1 → Nat :=
  let arg0 : BitVec 32 := BitVec.ofNat 32 (i 0).val
  let c128_i32 : BitVec 32 := 128#32
  let v0 : BitVec 32 := Scalar.muli arg0 c128_i32
  let c37_i32 : BitVec 32 := 37#32
  let v334 : BitVec 32 := Scalar.addi v0 c37_i32
  let v335 : Index := Scalar.indexCast v334
  ![v335.toNat]
def k1_off76 (v336 : BitVec 32) : Fin 2 → Nat :=
  let c0_i32_151 : BitVec 32 := 0#32
  ![v336.toNat, 0]

def k1_chk38 (v336 : BitVec 32) : Prop :=
  (∀ a, (k1_off76 v336) a + S1x10000.size a ≤ S10000x10000.size a)
instance k1_chk38.dec : ∀ (v336 : BitVec 32), Decidable (k1_chk38 v336) := fun v336 => decidable_of_iff' _ (Iff.of_eq (k1_chk38.eq_1 v336))
theorem k1_off76_inb : ∀ (v336 : BitVec 32) (k1_hw38 : k1_chk38 v336), ∀ a, (k1_off76 v336) a + S1x10000.size a ≤ S10000x10000.size a := fun v336 k1_hw38 => k1_hw38

def k1_off77 (i : grid1.Coords) : Fin 1 → Nat :=
  let arg0 : BitVec 32 := BitVec.ofNat 32 (i 0).val
  let c128_i32 : BitVec 32 := 128#32
  let v0 : BitVec 32 := Scalar.muli arg0 c128_i32
  let c38_i32 : BitVec 32 := 38#32
  let v343 : BitVec 32 := Scalar.addi v0 c38_i32
  let v344 : Index := Scalar.indexCast v343
  ![v344.toNat]
def k1_off78 (v345 : BitVec 32) : Fin 2 → Nat :=
  let c0_i32_155 : BitVec 32 := 0#32
  ![v345.toNat, 0]

def k1_chk39 (v345 : BitVec 32) : Prop :=
  (∀ a, (k1_off78 v345) a + S1x10000.size a ≤ S10000x10000.size a)
instance k1_chk39.dec : ∀ (v345 : BitVec 32), Decidable (k1_chk39 v345) := fun v345 => decidable_of_iff' _ (Iff.of_eq (k1_chk39.eq_1 v345))
theorem k1_off78_inb : ∀ (v345 : BitVec 32) (k1_hw39 : k1_chk39 v345), ∀ a, (k1_off78 v345) a + S1x10000.size a ≤ S10000x10000.size a := fun v345 k1_hw39 => k1_hw39

def k1_off79 (i : grid1.Coords) : Fin 1 → Nat :=
  let arg0 : BitVec 32 := BitVec.ofNat 32 (i 0).val
  let c128_i32 : BitVec 32 := 128#32
  let v0 : BitVec 32 := Scalar.muli arg0 c128_i32
  let c39_i32 : BitVec 32 := 39#32
  let v352 : BitVec 32 := Scalar.addi v0 c39_i32
  let v353 : Index := Scalar.indexCast v352
  ![v353.toNat]
def k1_off80 (v354 : BitVec 32) : Fin 2 → Nat :=
  let c0_i32_159 : BitVec 32 := 0#32
  ![v354.toNat, 0]

def k1_chk40 (v354 : BitVec 32) : Prop :=
  (∀ a, (k1_off80 v354) a + S1x10000.size a ≤ S10000x10000.size a)
instance k1_chk40.dec : ∀ (v354 : BitVec 32), Decidable (k1_chk40 v354) := fun v354 => decidable_of_iff' _ (Iff.of_eq (k1_chk40.eq_1 v354))
theorem k1_off80_inb : ∀ (v354 : BitVec 32) (k1_hw40 : k1_chk40 v354), ∀ a, (k1_off80 v354) a + S1x10000.size a ≤ S10000x10000.size a := fun v354 k1_hw40 => k1_hw40

def k1_off81 (i : grid1.Coords) : Fin 1 → Nat :=
  let arg0 : BitVec 32 := BitVec.ofNat 32 (i 0).val
  let c128_i32 : BitVec 32 := 128#32
  let v0 : BitVec 32 := Scalar.muli arg0 c128_i32
  let c40_i32 : BitVec 32 := 40#32
  let v361 : BitVec 32 := Scalar.addi v0 c40_i32
  let v362 : Index := Scalar.indexCast v361
  ![v362.toNat]
def k1_off82 (v363 : BitVec 32) : Fin 2 → Nat :=
  let c0_i32_163 : BitVec 32 := 0#32
  ![v363.toNat, 0]

def k1_chk41 (v363 : BitVec 32) : Prop :=
  (∀ a, (k1_off82 v363) a + S1x10000.size a ≤ S10000x10000.size a)
instance k1_chk41.dec : ∀ (v363 : BitVec 32), Decidable (k1_chk41 v363) := fun v363 => decidable_of_iff' _ (Iff.of_eq (k1_chk41.eq_1 v363))
theorem k1_off82_inb : ∀ (v363 : BitVec 32) (k1_hw41 : k1_chk41 v363), ∀ a, (k1_off82 v363) a + S1x10000.size a ≤ S10000x10000.size a := fun v363 k1_hw41 => k1_hw41

def k1_off83 (i : grid1.Coords) : Fin 1 → Nat :=
  let arg0 : BitVec 32 := BitVec.ofNat 32 (i 0).val
  let c128_i32 : BitVec 32 := 128#32
  let v0 : BitVec 32 := Scalar.muli arg0 c128_i32
  let c41_i32 : BitVec 32 := 41#32
  let v370 : BitVec 32 := Scalar.addi v0 c41_i32
  let v371 : Index := Scalar.indexCast v370
  ![v371.toNat]
def k1_off84 (v372 : BitVec 32) : Fin 2 → Nat :=
  let c0_i32_167 : BitVec 32 := 0#32
  ![v372.toNat, 0]

def k1_chk42 (v372 : BitVec 32) : Prop :=
  (∀ a, (k1_off84 v372) a + S1x10000.size a ≤ S10000x10000.size a)
instance k1_chk42.dec : ∀ (v372 : BitVec 32), Decidable (k1_chk42 v372) := fun v372 => decidable_of_iff' _ (Iff.of_eq (k1_chk42.eq_1 v372))
theorem k1_off84_inb : ∀ (v372 : BitVec 32) (k1_hw42 : k1_chk42 v372), ∀ a, (k1_off84 v372) a + S1x10000.size a ≤ S10000x10000.size a := fun v372 k1_hw42 => k1_hw42

def k1_off85 (i : grid1.Coords) : Fin 1 → Nat :=
  let arg0 : BitVec 32 := BitVec.ofNat 32 (i 0).val
  let c128_i32 : BitVec 32 := 128#32
  let v0 : BitVec 32 := Scalar.muli arg0 c128_i32
  let c42_i32 : BitVec 32 := 42#32
  let v379 : BitVec 32 := Scalar.addi v0 c42_i32
  let v380 : Index := Scalar.indexCast v379
  ![v380.toNat]
def k1_off86 (v381 : BitVec 32) : Fin 2 → Nat :=
  let c0_i32_171 : BitVec 32 := 0#32
  ![v381.toNat, 0]

def k1_chk43 (v381 : BitVec 32) : Prop :=
  (∀ a, (k1_off86 v381) a + S1x10000.size a ≤ S10000x10000.size a)
instance k1_chk43.dec : ∀ (v381 : BitVec 32), Decidable (k1_chk43 v381) := fun v381 => decidable_of_iff' _ (Iff.of_eq (k1_chk43.eq_1 v381))
theorem k1_off86_inb : ∀ (v381 : BitVec 32) (k1_hw43 : k1_chk43 v381), ∀ a, (k1_off86 v381) a + S1x10000.size a ≤ S10000x10000.size a := fun v381 k1_hw43 => k1_hw43

def k1_off87 (i : grid1.Coords) : Fin 1 → Nat :=
  let arg0 : BitVec 32 := BitVec.ofNat 32 (i 0).val
  let c128_i32 : BitVec 32 := 128#32
  let v0 : BitVec 32 := Scalar.muli arg0 c128_i32
  let c43_i32 : BitVec 32 := 43#32
  let v388 : BitVec 32 := Scalar.addi v0 c43_i32
  let v389 : Index := Scalar.indexCast v388
  ![v389.toNat]
def k1_off88 (v390 : BitVec 32) : Fin 2 → Nat :=
  let c0_i32_175 : BitVec 32 := 0#32
  ![v390.toNat, 0]

def k1_chk44 (v390 : BitVec 32) : Prop :=
  (∀ a, (k1_off88 v390) a + S1x10000.size a ≤ S10000x10000.size a)
instance k1_chk44.dec : ∀ (v390 : BitVec 32), Decidable (k1_chk44 v390) := fun v390 => decidable_of_iff' _ (Iff.of_eq (k1_chk44.eq_1 v390))
theorem k1_off88_inb : ∀ (v390 : BitVec 32) (k1_hw44 : k1_chk44 v390), ∀ a, (k1_off88 v390) a + S1x10000.size a ≤ S10000x10000.size a := fun v390 k1_hw44 => k1_hw44

def k1_off89 (i : grid1.Coords) : Fin 1 → Nat :=
  let arg0 : BitVec 32 := BitVec.ofNat 32 (i 0).val
  let c128_i32 : BitVec 32 := 128#32
  let v0 : BitVec 32 := Scalar.muli arg0 c128_i32
  let c44_i32 : BitVec 32 := 44#32
  let v397 : BitVec 32 := Scalar.addi v0 c44_i32
  let v398 : Index := Scalar.indexCast v397
  ![v398.toNat]
def k1_off90 (v399 : BitVec 32) : Fin 2 → Nat :=
  let c0_i32_179 : BitVec 32 := 0#32
  ![v399.toNat, 0]

def k1_chk45 (v399 : BitVec 32) : Prop :=
  (∀ a, (k1_off90 v399) a + S1x10000.size a ≤ S10000x10000.size a)
instance k1_chk45.dec : ∀ (v399 : BitVec 32), Decidable (k1_chk45 v399) := fun v399 => decidable_of_iff' _ (Iff.of_eq (k1_chk45.eq_1 v399))
theorem k1_off90_inb : ∀ (v399 : BitVec 32) (k1_hw45 : k1_chk45 v399), ∀ a, (k1_off90 v399) a + S1x10000.size a ≤ S10000x10000.size a := fun v399 k1_hw45 => k1_hw45

def k1_off91 (i : grid1.Coords) : Fin 1 → Nat :=
  let arg0 : BitVec 32 := BitVec.ofNat 32 (i 0).val
  let c128_i32 : BitVec 32 := 128#32
  let v0 : BitVec 32 := Scalar.muli arg0 c128_i32
  let c45_i32 : BitVec 32 := 45#32
  let v406 : BitVec 32 := Scalar.addi v0 c45_i32
  let v407 : Index := Scalar.indexCast v406
  ![v407.toNat]
def k1_off92 (v408 : BitVec 32) : Fin 2 → Nat :=
  let c0_i32_183 : BitVec 32 := 0#32
  ![v408.toNat, 0]

def k1_chk46 (v408 : BitVec 32) : Prop :=
  (∀ a, (k1_off92 v408) a + S1x10000.size a ≤ S10000x10000.size a)
instance k1_chk46.dec : ∀ (v408 : BitVec 32), Decidable (k1_chk46 v408) := fun v408 => decidable_of_iff' _ (Iff.of_eq (k1_chk46.eq_1 v408))
theorem k1_off92_inb : ∀ (v408 : BitVec 32) (k1_hw46 : k1_chk46 v408), ∀ a, (k1_off92 v408) a + S1x10000.size a ≤ S10000x10000.size a := fun v408 k1_hw46 => k1_hw46

def k1_off93 (i : grid1.Coords) : Fin 1 → Nat :=
  let arg0 : BitVec 32 := BitVec.ofNat 32 (i 0).val
  let c128_i32 : BitVec 32 := 128#32
  let v0 : BitVec 32 := Scalar.muli arg0 c128_i32
  let c46_i32 : BitVec 32 := 46#32
  let v415 : BitVec 32 := Scalar.addi v0 c46_i32
  let v416 : Index := Scalar.indexCast v415
  ![v416.toNat]
def k1_off94 (v417 : BitVec 32) : Fin 2 → Nat :=
  let c0_i32_187 : BitVec 32 := 0#32
  ![v417.toNat, 0]

def k1_chk47 (v417 : BitVec 32) : Prop :=
  (∀ a, (k1_off94 v417) a + S1x10000.size a ≤ S10000x10000.size a)
instance k1_chk47.dec : ∀ (v417 : BitVec 32), Decidable (k1_chk47 v417) := fun v417 => decidable_of_iff' _ (Iff.of_eq (k1_chk47.eq_1 v417))
theorem k1_off94_inb : ∀ (v417 : BitVec 32) (k1_hw47 : k1_chk47 v417), ∀ a, (k1_off94 v417) a + S1x10000.size a ≤ S10000x10000.size a := fun v417 k1_hw47 => k1_hw47

def k1_off95 (i : grid1.Coords) : Fin 1 → Nat :=
  let arg0 : BitVec 32 := BitVec.ofNat 32 (i 0).val
  let c128_i32 : BitVec 32 := 128#32
  let v0 : BitVec 32 := Scalar.muli arg0 c128_i32
  let c47_i32 : BitVec 32 := 47#32
  let v424 : BitVec 32 := Scalar.addi v0 c47_i32
  let v425 : Index := Scalar.indexCast v424
  ![v425.toNat]
def k1_off96 (v426 : BitVec 32) : Fin 2 → Nat :=
  let c0_i32_191 : BitVec 32 := 0#32
  ![v426.toNat, 0]

def k1_chk48 (v426 : BitVec 32) : Prop :=
  (∀ a, (k1_off96 v426) a + S1x10000.size a ≤ S10000x10000.size a)
instance k1_chk48.dec : ∀ (v426 : BitVec 32), Decidable (k1_chk48 v426) := fun v426 => decidable_of_iff' _ (Iff.of_eq (k1_chk48.eq_1 v426))
theorem k1_off96_inb : ∀ (v426 : BitVec 32) (k1_hw48 : k1_chk48 v426), ∀ a, (k1_off96 v426) a + S1x10000.size a ≤ S10000x10000.size a := fun v426 k1_hw48 => k1_hw48

def k1_off97 (i : grid1.Coords) : Fin 1 → Nat :=
  let arg0 : BitVec 32 := BitVec.ofNat 32 (i 0).val
  let c128_i32 : BitVec 32 := 128#32
  let v0 : BitVec 32 := Scalar.muli arg0 c128_i32
  let c48_i32 : BitVec 32 := 48#32
  let v433 : BitVec 32 := Scalar.addi v0 c48_i32
  let v434 : Index := Scalar.indexCast v433
  ![v434.toNat]
def k1_off98 (v435 : BitVec 32) : Fin 2 → Nat :=
  let c0_i32_195 : BitVec 32 := 0#32
  ![v435.toNat, 0]

def k1_chk49 (v435 : BitVec 32) : Prop :=
  (∀ a, (k1_off98 v435) a + S1x10000.size a ≤ S10000x10000.size a)
instance k1_chk49.dec : ∀ (v435 : BitVec 32), Decidable (k1_chk49 v435) := fun v435 => decidable_of_iff' _ (Iff.of_eq (k1_chk49.eq_1 v435))
theorem k1_off98_inb : ∀ (v435 : BitVec 32) (k1_hw49 : k1_chk49 v435), ∀ a, (k1_off98 v435) a + S1x10000.size a ≤ S10000x10000.size a := fun v435 k1_hw49 => k1_hw49

def k1_off99 (i : grid1.Coords) : Fin 1 → Nat :=
  let arg0 : BitVec 32 := BitVec.ofNat 32 (i 0).val
  let c128_i32 : BitVec 32 := 128#32
  let v0 : BitVec 32 := Scalar.muli arg0 c128_i32
  let c49_i32 : BitVec 32 := 49#32
  let v442 : BitVec 32 := Scalar.addi v0 c49_i32
  let v443 : Index := Scalar.indexCast v442
  ![v443.toNat]
def k1_off100 (v444 : BitVec 32) : Fin 2 → Nat :=
  let c0_i32_199 : BitVec 32 := 0#32
  ![v444.toNat, 0]

def k1_chk50 (v444 : BitVec 32) : Prop :=
  (∀ a, (k1_off100 v444) a + S1x10000.size a ≤ S10000x10000.size a)
instance k1_chk50.dec : ∀ (v444 : BitVec 32), Decidable (k1_chk50 v444) := fun v444 => decidable_of_iff' _ (Iff.of_eq (k1_chk50.eq_1 v444))
theorem k1_off100_inb : ∀ (v444 : BitVec 32) (k1_hw50 : k1_chk50 v444), ∀ a, (k1_off100 v444) a + S1x10000.size a ≤ S10000x10000.size a := fun v444 k1_hw50 => k1_hw50

def k1_off101 (i : grid1.Coords) : Fin 1 → Nat :=
  let arg0 : BitVec 32 := BitVec.ofNat 32 (i 0).val
  let c128_i32 : BitVec 32 := 128#32
  let v0 : BitVec 32 := Scalar.muli arg0 c128_i32
  let c50_i32 : BitVec 32 := 50#32
  let v451 : BitVec 32 := Scalar.addi v0 c50_i32
  let v452 : Index := Scalar.indexCast v451
  ![v452.toNat]
def k1_off102 (v453 : BitVec 32) : Fin 2 → Nat :=
  let c0_i32_203 : BitVec 32 := 0#32
  ![v453.toNat, 0]

def k1_chk51 (v453 : BitVec 32) : Prop :=
  (∀ a, (k1_off102 v453) a + S1x10000.size a ≤ S10000x10000.size a)
instance k1_chk51.dec : ∀ (v453 : BitVec 32), Decidable (k1_chk51 v453) := fun v453 => decidable_of_iff' _ (Iff.of_eq (k1_chk51.eq_1 v453))
theorem k1_off102_inb : ∀ (v453 : BitVec 32) (k1_hw51 : k1_chk51 v453), ∀ a, (k1_off102 v453) a + S1x10000.size a ≤ S10000x10000.size a := fun v453 k1_hw51 => k1_hw51

def k1_off103 (i : grid1.Coords) : Fin 1 → Nat :=
  let arg0 : BitVec 32 := BitVec.ofNat 32 (i 0).val
  let c128_i32 : BitVec 32 := 128#32
  let v0 : BitVec 32 := Scalar.muli arg0 c128_i32
  let c51_i32 : BitVec 32 := 51#32
  let v460 : BitVec 32 := Scalar.addi v0 c51_i32
  let v461 : Index := Scalar.indexCast v460
  ![v461.toNat]
def k1_off104 (v462 : BitVec 32) : Fin 2 → Nat :=
  let c0_i32_207 : BitVec 32 := 0#32
  ![v462.toNat, 0]

def k1_chk52 (v462 : BitVec 32) : Prop :=
  (∀ a, (k1_off104 v462) a + S1x10000.size a ≤ S10000x10000.size a)
instance k1_chk52.dec : ∀ (v462 : BitVec 32), Decidable (k1_chk52 v462) := fun v462 => decidable_of_iff' _ (Iff.of_eq (k1_chk52.eq_1 v462))
theorem k1_off104_inb : ∀ (v462 : BitVec 32) (k1_hw52 : k1_chk52 v462), ∀ a, (k1_off104 v462) a + S1x10000.size a ≤ S10000x10000.size a := fun v462 k1_hw52 => k1_hw52

def k1_off105 (i : grid1.Coords) : Fin 1 → Nat :=
  let arg0 : BitVec 32 := BitVec.ofNat 32 (i 0).val
  let c128_i32 : BitVec 32 := 128#32
  let v0 : BitVec 32 := Scalar.muli arg0 c128_i32
  let c52_i32 : BitVec 32 := 52#32
  let v469 : BitVec 32 := Scalar.addi v0 c52_i32
  let v470 : Index := Scalar.indexCast v469
  ![v470.toNat]
def k1_off106 (v471 : BitVec 32) : Fin 2 → Nat :=
  let c0_i32_211 : BitVec 32 := 0#32
  ![v471.toNat, 0]

def k1_chk53 (v471 : BitVec 32) : Prop :=
  (∀ a, (k1_off106 v471) a + S1x10000.size a ≤ S10000x10000.size a)
instance k1_chk53.dec : ∀ (v471 : BitVec 32), Decidable (k1_chk53 v471) := fun v471 => decidable_of_iff' _ (Iff.of_eq (k1_chk53.eq_1 v471))
theorem k1_off106_inb : ∀ (v471 : BitVec 32) (k1_hw53 : k1_chk53 v471), ∀ a, (k1_off106 v471) a + S1x10000.size a ≤ S10000x10000.size a := fun v471 k1_hw53 => k1_hw53

def k1_off107 (i : grid1.Coords) : Fin 1 → Nat :=
  let arg0 : BitVec 32 := BitVec.ofNat 32 (i 0).val
  let c128_i32 : BitVec 32 := 128#32
  let v0 : BitVec 32 := Scalar.muli arg0 c128_i32
  let c53_i32 : BitVec 32 := 53#32
  let v478 : BitVec 32 := Scalar.addi v0 c53_i32
  let v479 : Index := Scalar.indexCast v478
  ![v479.toNat]
def k1_off108 (v480 : BitVec 32) : Fin 2 → Nat :=
  let c0_i32_215 : BitVec 32 := 0#32
  ![v480.toNat, 0]

def k1_chk54 (v480 : BitVec 32) : Prop :=
  (∀ a, (k1_off108 v480) a + S1x10000.size a ≤ S10000x10000.size a)
instance k1_chk54.dec : ∀ (v480 : BitVec 32), Decidable (k1_chk54 v480) := fun v480 => decidable_of_iff' _ (Iff.of_eq (k1_chk54.eq_1 v480))
theorem k1_off108_inb : ∀ (v480 : BitVec 32) (k1_hw54 : k1_chk54 v480), ∀ a, (k1_off108 v480) a + S1x10000.size a ≤ S10000x10000.size a := fun v480 k1_hw54 => k1_hw54

def k1_off109 (i : grid1.Coords) : Fin 1 → Nat :=
  let arg0 : BitVec 32 := BitVec.ofNat 32 (i 0).val
  let c128_i32 : BitVec 32 := 128#32
  let v0 : BitVec 32 := Scalar.muli arg0 c128_i32
  let c54_i32 : BitVec 32 := 54#32
  let v487 : BitVec 32 := Scalar.addi v0 c54_i32
  let v488 : Index := Scalar.indexCast v487
  ![v488.toNat]
def k1_off110 (v489 : BitVec 32) : Fin 2 → Nat :=
  let c0_i32_219 : BitVec 32 := 0#32
  ![v489.toNat, 0]

def k1_chk55 (v489 : BitVec 32) : Prop :=
  (∀ a, (k1_off110 v489) a + S1x10000.size a ≤ S10000x10000.size a)
instance k1_chk55.dec : ∀ (v489 : BitVec 32), Decidable (k1_chk55 v489) := fun v489 => decidable_of_iff' _ (Iff.of_eq (k1_chk55.eq_1 v489))
theorem k1_off110_inb : ∀ (v489 : BitVec 32) (k1_hw55 : k1_chk55 v489), ∀ a, (k1_off110 v489) a + S1x10000.size a ≤ S10000x10000.size a := fun v489 k1_hw55 => k1_hw55

def k1_off111 (i : grid1.Coords) : Fin 1 → Nat :=
  let arg0 : BitVec 32 := BitVec.ofNat 32 (i 0).val
  let c128_i32 : BitVec 32 := 128#32
  let v0 : BitVec 32 := Scalar.muli arg0 c128_i32
  let c55_i32 : BitVec 32 := 55#32
  let v496 : BitVec 32 := Scalar.addi v0 c55_i32
  let v497 : Index := Scalar.indexCast v496
  ![v497.toNat]
def k1_off112 (v498 : BitVec 32) : Fin 2 → Nat :=
  let c0_i32_223 : BitVec 32 := 0#32
  ![v498.toNat, 0]

def k1_chk56 (v498 : BitVec 32) : Prop :=
  (∀ a, (k1_off112 v498) a + S1x10000.size a ≤ S10000x10000.size a)
instance k1_chk56.dec : ∀ (v498 : BitVec 32), Decidable (k1_chk56 v498) := fun v498 => decidable_of_iff' _ (Iff.of_eq (k1_chk56.eq_1 v498))
theorem k1_off112_inb : ∀ (v498 : BitVec 32) (k1_hw56 : k1_chk56 v498), ∀ a, (k1_off112 v498) a + S1x10000.size a ≤ S10000x10000.size a := fun v498 k1_hw56 => k1_hw56

def k1_off113 (i : grid1.Coords) : Fin 1 → Nat :=
  let arg0 : BitVec 32 := BitVec.ofNat 32 (i 0).val
  let c128_i32 : BitVec 32 := 128#32
  let v0 : BitVec 32 := Scalar.muli arg0 c128_i32
  let c56_i32 : BitVec 32 := 56#32
  let v505 : BitVec 32 := Scalar.addi v0 c56_i32
  let v506 : Index := Scalar.indexCast v505
  ![v506.toNat]
def k1_off114 (v507 : BitVec 32) : Fin 2 → Nat :=
  let c0_i32_227 : BitVec 32 := 0#32
  ![v507.toNat, 0]

def k1_chk57 (v507 : BitVec 32) : Prop :=
  (∀ a, (k1_off114 v507) a + S1x10000.size a ≤ S10000x10000.size a)
instance k1_chk57.dec : ∀ (v507 : BitVec 32), Decidable (k1_chk57 v507) := fun v507 => decidable_of_iff' _ (Iff.of_eq (k1_chk57.eq_1 v507))
theorem k1_off114_inb : ∀ (v507 : BitVec 32) (k1_hw57 : k1_chk57 v507), ∀ a, (k1_off114 v507) a + S1x10000.size a ≤ S10000x10000.size a := fun v507 k1_hw57 => k1_hw57

def k1_off115 (i : grid1.Coords) : Fin 1 → Nat :=
  let arg0 : BitVec 32 := BitVec.ofNat 32 (i 0).val
  let c128_i32 : BitVec 32 := 128#32
  let v0 : BitVec 32 := Scalar.muli arg0 c128_i32
  let c57_i32 : BitVec 32 := 57#32
  let v514 : BitVec 32 := Scalar.addi v0 c57_i32
  let v515 : Index := Scalar.indexCast v514
  ![v515.toNat]
def k1_off116 (v516 : BitVec 32) : Fin 2 → Nat :=
  let c0_i32_231 : BitVec 32 := 0#32
  ![v516.toNat, 0]

def k1_chk58 (v516 : BitVec 32) : Prop :=
  (∀ a, (k1_off116 v516) a + S1x10000.size a ≤ S10000x10000.size a)
instance k1_chk58.dec : ∀ (v516 : BitVec 32), Decidable (k1_chk58 v516) := fun v516 => decidable_of_iff' _ (Iff.of_eq (k1_chk58.eq_1 v516))
theorem k1_off116_inb : ∀ (v516 : BitVec 32) (k1_hw58 : k1_chk58 v516), ∀ a, (k1_off116 v516) a + S1x10000.size a ≤ S10000x10000.size a := fun v516 k1_hw58 => k1_hw58

def k1_off117 (i : grid1.Coords) : Fin 1 → Nat :=
  let arg0 : BitVec 32 := BitVec.ofNat 32 (i 0).val
  let c128_i32 : BitVec 32 := 128#32
  let v0 : BitVec 32 := Scalar.muli arg0 c128_i32
  let c58_i32 : BitVec 32 := 58#32
  let v523 : BitVec 32 := Scalar.addi v0 c58_i32
  let v524 : Index := Scalar.indexCast v523
  ![v524.toNat]
def k1_off118 (v525 : BitVec 32) : Fin 2 → Nat :=
  let c0_i32_235 : BitVec 32 := 0#32
  ![v525.toNat, 0]

def k1_chk59 (v525 : BitVec 32) : Prop :=
  (∀ a, (k1_off118 v525) a + S1x10000.size a ≤ S10000x10000.size a)
instance k1_chk59.dec : ∀ (v525 : BitVec 32), Decidable (k1_chk59 v525) := fun v525 => decidable_of_iff' _ (Iff.of_eq (k1_chk59.eq_1 v525))
theorem k1_off118_inb : ∀ (v525 : BitVec 32) (k1_hw59 : k1_chk59 v525), ∀ a, (k1_off118 v525) a + S1x10000.size a ≤ S10000x10000.size a := fun v525 k1_hw59 => k1_hw59

def k1_off119 (i : grid1.Coords) : Fin 1 → Nat :=
  let arg0 : BitVec 32 := BitVec.ofNat 32 (i 0).val
  let c128_i32 : BitVec 32 := 128#32
  let v0 : BitVec 32 := Scalar.muli arg0 c128_i32
  let c59_i32 : BitVec 32 := 59#32
  let v532 : BitVec 32 := Scalar.addi v0 c59_i32
  let v533 : Index := Scalar.indexCast v532
  ![v533.toNat]
def k1_off120 (v534 : BitVec 32) : Fin 2 → Nat :=
  let c0_i32_239 : BitVec 32 := 0#32
  ![v534.toNat, 0]

def k1_chk60 (v534 : BitVec 32) : Prop :=
  (∀ a, (k1_off120 v534) a + S1x10000.size a ≤ S10000x10000.size a)
instance k1_chk60.dec : ∀ (v534 : BitVec 32), Decidable (k1_chk60 v534) := fun v534 => decidable_of_iff' _ (Iff.of_eq (k1_chk60.eq_1 v534))
theorem k1_off120_inb : ∀ (v534 : BitVec 32) (k1_hw60 : k1_chk60 v534), ∀ a, (k1_off120 v534) a + S1x10000.size a ≤ S10000x10000.size a := fun v534 k1_hw60 => k1_hw60

def k1_off121 (i : grid1.Coords) : Fin 1 → Nat :=
  let arg0 : BitVec 32 := BitVec.ofNat 32 (i 0).val
  let c128_i32 : BitVec 32 := 128#32
  let v0 : BitVec 32 := Scalar.muli arg0 c128_i32
  let c60_i32 : BitVec 32 := 60#32
  let v541 : BitVec 32 := Scalar.addi v0 c60_i32
  let v542 : Index := Scalar.indexCast v541
  ![v542.toNat]
def k1_off122 (v543 : BitVec 32) : Fin 2 → Nat :=
  let c0_i32_243 : BitVec 32 := 0#32
  ![v543.toNat, 0]

def k1_chk61 (v543 : BitVec 32) : Prop :=
  (∀ a, (k1_off122 v543) a + S1x10000.size a ≤ S10000x10000.size a)
instance k1_chk61.dec : ∀ (v543 : BitVec 32), Decidable (k1_chk61 v543) := fun v543 => decidable_of_iff' _ (Iff.of_eq (k1_chk61.eq_1 v543))
theorem k1_off122_inb : ∀ (v543 : BitVec 32) (k1_hw61 : k1_chk61 v543), ∀ a, (k1_off122 v543) a + S1x10000.size a ≤ S10000x10000.size a := fun v543 k1_hw61 => k1_hw61

def k1_off123 (i : grid1.Coords) : Fin 1 → Nat :=
  let arg0 : BitVec 32 := BitVec.ofNat 32 (i 0).val
  let c128_i32 : BitVec 32 := 128#32
  let v0 : BitVec 32 := Scalar.muli arg0 c128_i32
  let c61_i32 : BitVec 32 := 61#32
  let v550 : BitVec 32 := Scalar.addi v0 c61_i32
  let v551 : Index := Scalar.indexCast v550
  ![v551.toNat]
def k1_off124 (v552 : BitVec 32) : Fin 2 → Nat :=
  let c0_i32_247 : BitVec 32 := 0#32
  ![v552.toNat, 0]

def k1_chk62 (v552 : BitVec 32) : Prop :=
  (∀ a, (k1_off124 v552) a + S1x10000.size a ≤ S10000x10000.size a)
instance k1_chk62.dec : ∀ (v552 : BitVec 32), Decidable (k1_chk62 v552) := fun v552 => decidable_of_iff' _ (Iff.of_eq (k1_chk62.eq_1 v552))
theorem k1_off124_inb : ∀ (v552 : BitVec 32) (k1_hw62 : k1_chk62 v552), ∀ a, (k1_off124 v552) a + S1x10000.size a ≤ S10000x10000.size a := fun v552 k1_hw62 => k1_hw62

def k1_off125 (i : grid1.Coords) : Fin 1 → Nat :=
  let arg0 : BitVec 32 := BitVec.ofNat 32 (i 0).val
  let c128_i32 : BitVec 32 := 128#32
  let v0 : BitVec 32 := Scalar.muli arg0 c128_i32
  let c62_i32 : BitVec 32 := 62#32
  let v559 : BitVec 32 := Scalar.addi v0 c62_i32
  let v560 : Index := Scalar.indexCast v559
  ![v560.toNat]
def k1_off126 (v561 : BitVec 32) : Fin 2 → Nat :=
  let c0_i32_251 : BitVec 32 := 0#32
  ![v561.toNat, 0]

def k1_chk63 (v561 : BitVec 32) : Prop :=
  (∀ a, (k1_off126 v561) a + S1x10000.size a ≤ S10000x10000.size a)
instance k1_chk63.dec : ∀ (v561 : BitVec 32), Decidable (k1_chk63 v561) := fun v561 => decidable_of_iff' _ (Iff.of_eq (k1_chk63.eq_1 v561))
theorem k1_off126_inb : ∀ (v561 : BitVec 32) (k1_hw63 : k1_chk63 v561), ∀ a, (k1_off126 v561) a + S1x10000.size a ≤ S10000x10000.size a := fun v561 k1_hw63 => k1_hw63

def k1_off127 (i : grid1.Coords) : Fin 1 → Nat :=
  let arg0 : BitVec 32 := BitVec.ofNat 32 (i 0).val
  let c128_i32 : BitVec 32 := 128#32
  let v0 : BitVec 32 := Scalar.muli arg0 c128_i32
  let c63_i32 : BitVec 32 := 63#32
  let v568 : BitVec 32 := Scalar.addi v0 c63_i32
  let v569 : Index := Scalar.indexCast v568
  ![v569.toNat]
def k1_off128 (v570 : BitVec 32) : Fin 2 → Nat :=
  let c0_i32_255 : BitVec 32 := 0#32
  ![v570.toNat, 0]

def k1_chk64 (v570 : BitVec 32) : Prop :=
  (∀ a, (k1_off128 v570) a + S1x10000.size a ≤ S10000x10000.size a)
instance k1_chk64.dec : ∀ (v570 : BitVec 32), Decidable (k1_chk64 v570) := fun v570 => decidable_of_iff' _ (Iff.of_eq (k1_chk64.eq_1 v570))
theorem k1_off128_inb : ∀ (v570 : BitVec 32) (k1_hw64 : k1_chk64 v570), ∀ a, (k1_off128 v570) a + S1x10000.size a ≤ S10000x10000.size a := fun v570 k1_hw64 => k1_hw64

def k1_off129 (i : grid1.Coords) : Fin 1 → Nat :=
  let arg0 : BitVec 32 := BitVec.ofNat 32 (i 0).val
  let c128_i32 : BitVec 32 := 128#32
  let v0 : BitVec 32 := Scalar.muli arg0 c128_i32
  let c64_i32 : BitVec 32 := 64#32
  let v577 : BitVec 32 := Scalar.addi v0 c64_i32
  let v578 : Index := Scalar.indexCast v577
  ![v578.toNat]
def k1_off130 (v579 : BitVec 32) : Fin 2 → Nat :=
  let c0_i32_259 : BitVec 32 := 0#32
  ![v579.toNat, 0]

def k1_chk65 (v579 : BitVec 32) : Prop :=
  (∀ a, (k1_off130 v579) a + S1x10000.size a ≤ S10000x10000.size a)
instance k1_chk65.dec : ∀ (v579 : BitVec 32), Decidable (k1_chk65 v579) := fun v579 => decidable_of_iff' _ (Iff.of_eq (k1_chk65.eq_1 v579))
theorem k1_off130_inb : ∀ (v579 : BitVec 32) (k1_hw65 : k1_chk65 v579), ∀ a, (k1_off130 v579) a + S1x10000.size a ≤ S10000x10000.size a := fun v579 k1_hw65 => k1_hw65

def k1_off131 (i : grid1.Coords) : Fin 1 → Nat :=
  let arg0 : BitVec 32 := BitVec.ofNat 32 (i 0).val
  let c128_i32 : BitVec 32 := 128#32
  let v0 : BitVec 32 := Scalar.muli arg0 c128_i32
  let c65_i32 : BitVec 32 := 65#32
  let v586 : BitVec 32 := Scalar.addi v0 c65_i32
  let v587 : Index := Scalar.indexCast v586
  ![v587.toNat]
def k1_off132 (v588 : BitVec 32) : Fin 2 → Nat :=
  let c0_i32_263 : BitVec 32 := 0#32
  ![v588.toNat, 0]

def k1_chk66 (v588 : BitVec 32) : Prop :=
  (∀ a, (k1_off132 v588) a + S1x10000.size a ≤ S10000x10000.size a)
instance k1_chk66.dec : ∀ (v588 : BitVec 32), Decidable (k1_chk66 v588) := fun v588 => decidable_of_iff' _ (Iff.of_eq (k1_chk66.eq_1 v588))
theorem k1_off132_inb : ∀ (v588 : BitVec 32) (k1_hw66 : k1_chk66 v588), ∀ a, (k1_off132 v588) a + S1x10000.size a ≤ S10000x10000.size a := fun v588 k1_hw66 => k1_hw66

def k1_off133 (i : grid1.Coords) : Fin 1 → Nat :=
  let arg0 : BitVec 32 := BitVec.ofNat 32 (i 0).val
  let c128_i32 : BitVec 32 := 128#32
  let v0 : BitVec 32 := Scalar.muli arg0 c128_i32
  let c66_i32 : BitVec 32 := 66#32
  let v595 : BitVec 32 := Scalar.addi v0 c66_i32
  let v596 : Index := Scalar.indexCast v595
  ![v596.toNat]
def k1_off134 (v597 : BitVec 32) : Fin 2 → Nat :=
  let c0_i32_267 : BitVec 32 := 0#32
  ![v597.toNat, 0]

def k1_chk67 (v597 : BitVec 32) : Prop :=
  (∀ a, (k1_off134 v597) a + S1x10000.size a ≤ S10000x10000.size a)
instance k1_chk67.dec : ∀ (v597 : BitVec 32), Decidable (k1_chk67 v597) := fun v597 => decidable_of_iff' _ (Iff.of_eq (k1_chk67.eq_1 v597))
theorem k1_off134_inb : ∀ (v597 : BitVec 32) (k1_hw67 : k1_chk67 v597), ∀ a, (k1_off134 v597) a + S1x10000.size a ≤ S10000x10000.size a := fun v597 k1_hw67 => k1_hw67

def k1_off135 (i : grid1.Coords) : Fin 1 → Nat :=
  let arg0 : BitVec 32 := BitVec.ofNat 32 (i 0).val
  let c128_i32 : BitVec 32 := 128#32
  let v0 : BitVec 32 := Scalar.muli arg0 c128_i32
  let c67_i32 : BitVec 32 := 67#32
  let v604 : BitVec 32 := Scalar.addi v0 c67_i32
  let v605 : Index := Scalar.indexCast v604
  ![v605.toNat]
def k1_off136 (v606 : BitVec 32) : Fin 2 → Nat :=
  let c0_i32_271 : BitVec 32 := 0#32
  ![v606.toNat, 0]

def k1_chk68 (v606 : BitVec 32) : Prop :=
  (∀ a, (k1_off136 v606) a + S1x10000.size a ≤ S10000x10000.size a)
instance k1_chk68.dec : ∀ (v606 : BitVec 32), Decidable (k1_chk68 v606) := fun v606 => decidable_of_iff' _ (Iff.of_eq (k1_chk68.eq_1 v606))
theorem k1_off136_inb : ∀ (v606 : BitVec 32) (k1_hw68 : k1_chk68 v606), ∀ a, (k1_off136 v606) a + S1x10000.size a ≤ S10000x10000.size a := fun v606 k1_hw68 => k1_hw68

def k1_off137 (i : grid1.Coords) : Fin 1 → Nat :=
  let arg0 : BitVec 32 := BitVec.ofNat 32 (i 0).val
  let c128_i32 : BitVec 32 := 128#32
  let v0 : BitVec 32 := Scalar.muli arg0 c128_i32
  let c68_i32 : BitVec 32 := 68#32
  let v613 : BitVec 32 := Scalar.addi v0 c68_i32
  let v614 : Index := Scalar.indexCast v613
  ![v614.toNat]
def k1_off138 (v615 : BitVec 32) : Fin 2 → Nat :=
  let c0_i32_275 : BitVec 32 := 0#32
  ![v615.toNat, 0]

def k1_chk69 (v615 : BitVec 32) : Prop :=
  (∀ a, (k1_off138 v615) a + S1x10000.size a ≤ S10000x10000.size a)
instance k1_chk69.dec : ∀ (v615 : BitVec 32), Decidable (k1_chk69 v615) := fun v615 => decidable_of_iff' _ (Iff.of_eq (k1_chk69.eq_1 v615))
theorem k1_off138_inb : ∀ (v615 : BitVec 32) (k1_hw69 : k1_chk69 v615), ∀ a, (k1_off138 v615) a + S1x10000.size a ≤ S10000x10000.size a := fun v615 k1_hw69 => k1_hw69

def k1_off139 (i : grid1.Coords) : Fin 1 → Nat :=
  let arg0 : BitVec 32 := BitVec.ofNat 32 (i 0).val
  let c128_i32 : BitVec 32 := 128#32
  let v0 : BitVec 32 := Scalar.muli arg0 c128_i32
  let c69_i32 : BitVec 32 := 69#32
  let v622 : BitVec 32 := Scalar.addi v0 c69_i32
  let v623 : Index := Scalar.indexCast v622
  ![v623.toNat]
def k1_off140 (v624 : BitVec 32) : Fin 2 → Nat :=
  let c0_i32_279 : BitVec 32 := 0#32
  ![v624.toNat, 0]

def k1_chk70 (v624 : BitVec 32) : Prop :=
  (∀ a, (k1_off140 v624) a + S1x10000.size a ≤ S10000x10000.size a)
instance k1_chk70.dec : ∀ (v624 : BitVec 32), Decidable (k1_chk70 v624) := fun v624 => decidable_of_iff' _ (Iff.of_eq (k1_chk70.eq_1 v624))
theorem k1_off140_inb : ∀ (v624 : BitVec 32) (k1_hw70 : k1_chk70 v624), ∀ a, (k1_off140 v624) a + S1x10000.size a ≤ S10000x10000.size a := fun v624 k1_hw70 => k1_hw70

def k1_off141 (i : grid1.Coords) : Fin 1 → Nat :=
  let arg0 : BitVec 32 := BitVec.ofNat 32 (i 0).val
  let c128_i32 : BitVec 32 := 128#32
  let v0 : BitVec 32 := Scalar.muli arg0 c128_i32
  let c70_i32 : BitVec 32 := 70#32
  let v631 : BitVec 32 := Scalar.addi v0 c70_i32
  let v632 : Index := Scalar.indexCast v631
  ![v632.toNat]
def k1_off142 (v633 : BitVec 32) : Fin 2 → Nat :=
  let c0_i32_283 : BitVec 32 := 0#32
  ![v633.toNat, 0]

def k1_chk71 (v633 : BitVec 32) : Prop :=
  (∀ a, (k1_off142 v633) a + S1x10000.size a ≤ S10000x10000.size a)
instance k1_chk71.dec : ∀ (v633 : BitVec 32), Decidable (k1_chk71 v633) := fun v633 => decidable_of_iff' _ (Iff.of_eq (k1_chk71.eq_1 v633))
theorem k1_off142_inb : ∀ (v633 : BitVec 32) (k1_hw71 : k1_chk71 v633), ∀ a, (k1_off142 v633) a + S1x10000.size a ≤ S10000x10000.size a := fun v633 k1_hw71 => k1_hw71

def k1_off143 (i : grid1.Coords) : Fin 1 → Nat :=
  let arg0 : BitVec 32 := BitVec.ofNat 32 (i 0).val
  let c128_i32 : BitVec 32 := 128#32
  let v0 : BitVec 32 := Scalar.muli arg0 c128_i32
  let c71_i32 : BitVec 32 := 71#32
  let v640 : BitVec 32 := Scalar.addi v0 c71_i32
  let v641 : Index := Scalar.indexCast v640
  ![v641.toNat]
def k1_off144 (v642 : BitVec 32) : Fin 2 → Nat :=
  let c0_i32_287 : BitVec 32 := 0#32
  ![v642.toNat, 0]

def k1_chk72 (v642 : BitVec 32) : Prop :=
  (∀ a, (k1_off144 v642) a + S1x10000.size a ≤ S10000x10000.size a)
instance k1_chk72.dec : ∀ (v642 : BitVec 32), Decidable (k1_chk72 v642) := fun v642 => decidable_of_iff' _ (Iff.of_eq (k1_chk72.eq_1 v642))
theorem k1_off144_inb : ∀ (v642 : BitVec 32) (k1_hw72 : k1_chk72 v642), ∀ a, (k1_off144 v642) a + S1x10000.size a ≤ S10000x10000.size a := fun v642 k1_hw72 => k1_hw72

def k1_off145 (i : grid1.Coords) : Fin 1 → Nat :=
  let arg0 : BitVec 32 := BitVec.ofNat 32 (i 0).val
  let c128_i32 : BitVec 32 := 128#32
  let v0 : BitVec 32 := Scalar.muli arg0 c128_i32
  let c72_i32 : BitVec 32 := 72#32
  let v649 : BitVec 32 := Scalar.addi v0 c72_i32
  let v650 : Index := Scalar.indexCast v649
  ![v650.toNat]
def k1_off146 (v651 : BitVec 32) : Fin 2 → Nat :=
  let c0_i32_291 : BitVec 32 := 0#32
  ![v651.toNat, 0]

def k1_chk73 (v651 : BitVec 32) : Prop :=
  (∀ a, (k1_off146 v651) a + S1x10000.size a ≤ S10000x10000.size a)
instance k1_chk73.dec : ∀ (v651 : BitVec 32), Decidable (k1_chk73 v651) := fun v651 => decidable_of_iff' _ (Iff.of_eq (k1_chk73.eq_1 v651))
theorem k1_off146_inb : ∀ (v651 : BitVec 32) (k1_hw73 : k1_chk73 v651), ∀ a, (k1_off146 v651) a + S1x10000.size a ≤ S10000x10000.size a := fun v651 k1_hw73 => k1_hw73

def k1_off147 (i : grid1.Coords) : Fin 1 → Nat :=
  let arg0 : BitVec 32 := BitVec.ofNat 32 (i 0).val
  let c128_i32 : BitVec 32 := 128#32
  let v0 : BitVec 32 := Scalar.muli arg0 c128_i32
  let c73_i32 : BitVec 32 := 73#32
  let v658 : BitVec 32 := Scalar.addi v0 c73_i32
  let v659 : Index := Scalar.indexCast v658
  ![v659.toNat]
def k1_off148 (v660 : BitVec 32) : Fin 2 → Nat :=
  let c0_i32_295 : BitVec 32 := 0#32
  ![v660.toNat, 0]

def k1_chk74 (v660 : BitVec 32) : Prop :=
  (∀ a, (k1_off148 v660) a + S1x10000.size a ≤ S10000x10000.size a)
instance k1_chk74.dec : ∀ (v660 : BitVec 32), Decidable (k1_chk74 v660) := fun v660 => decidable_of_iff' _ (Iff.of_eq (k1_chk74.eq_1 v660))
theorem k1_off148_inb : ∀ (v660 : BitVec 32) (k1_hw74 : k1_chk74 v660), ∀ a, (k1_off148 v660) a + S1x10000.size a ≤ S10000x10000.size a := fun v660 k1_hw74 => k1_hw74

def k1_off149 (i : grid1.Coords) : Fin 1 → Nat :=
  let arg0 : BitVec 32 := BitVec.ofNat 32 (i 0).val
  let c128_i32 : BitVec 32 := 128#32
  let v0 : BitVec 32 := Scalar.muli arg0 c128_i32
  let c74_i32 : BitVec 32 := 74#32
  let v667 : BitVec 32 := Scalar.addi v0 c74_i32
  let v668 : Index := Scalar.indexCast v667
  ![v668.toNat]
def k1_off150 (v669 : BitVec 32) : Fin 2 → Nat :=
  let c0_i32_299 : BitVec 32 := 0#32
  ![v669.toNat, 0]

def k1_chk75 (v669 : BitVec 32) : Prop :=
  (∀ a, (k1_off150 v669) a + S1x10000.size a ≤ S10000x10000.size a)
instance k1_chk75.dec : ∀ (v669 : BitVec 32), Decidable (k1_chk75 v669) := fun v669 => decidable_of_iff' _ (Iff.of_eq (k1_chk75.eq_1 v669))
theorem k1_off150_inb : ∀ (v669 : BitVec 32) (k1_hw75 : k1_chk75 v669), ∀ a, (k1_off150 v669) a + S1x10000.size a ≤ S10000x10000.size a := fun v669 k1_hw75 => k1_hw75

def k1_off151 (i : grid1.Coords) : Fin 1 → Nat :=
  let arg0 : BitVec 32 := BitVec.ofNat 32 (i 0).val
  let c128_i32 : BitVec 32 := 128#32
  let v0 : BitVec 32 := Scalar.muli arg0 c128_i32
  let c75_i32 : BitVec 32 := 75#32
  let v676 : BitVec 32 := Scalar.addi v0 c75_i32
  let v677 : Index := Scalar.indexCast v676
  ![v677.toNat]
def k1_off152 (v678 : BitVec 32) : Fin 2 → Nat :=
  let c0_i32_303 : BitVec 32 := 0#32
  ![v678.toNat, 0]

def k1_chk76 (v678 : BitVec 32) : Prop :=
  (∀ a, (k1_off152 v678) a + S1x10000.size a ≤ S10000x10000.size a)
instance k1_chk76.dec : ∀ (v678 : BitVec 32), Decidable (k1_chk76 v678) := fun v678 => decidable_of_iff' _ (Iff.of_eq (k1_chk76.eq_1 v678))
theorem k1_off152_inb : ∀ (v678 : BitVec 32) (k1_hw76 : k1_chk76 v678), ∀ a, (k1_off152 v678) a + S1x10000.size a ≤ S10000x10000.size a := fun v678 k1_hw76 => k1_hw76

def k1_off153 (i : grid1.Coords) : Fin 1 → Nat :=
  let arg0 : BitVec 32 := BitVec.ofNat 32 (i 0).val
  let c128_i32 : BitVec 32 := 128#32
  let v0 : BitVec 32 := Scalar.muli arg0 c128_i32
  let c76_i32 : BitVec 32 := 76#32
  let v685 : BitVec 32 := Scalar.addi v0 c76_i32
  let v686 : Index := Scalar.indexCast v685
  ![v686.toNat]
def k1_off154 (v687 : BitVec 32) : Fin 2 → Nat :=
  let c0_i32_307 : BitVec 32 := 0#32
  ![v687.toNat, 0]

def k1_chk77 (v687 : BitVec 32) : Prop :=
  (∀ a, (k1_off154 v687) a + S1x10000.size a ≤ S10000x10000.size a)
instance k1_chk77.dec : ∀ (v687 : BitVec 32), Decidable (k1_chk77 v687) := fun v687 => decidable_of_iff' _ (Iff.of_eq (k1_chk77.eq_1 v687))
theorem k1_off154_inb : ∀ (v687 : BitVec 32) (k1_hw77 : k1_chk77 v687), ∀ a, (k1_off154 v687) a + S1x10000.size a ≤ S10000x10000.size a := fun v687 k1_hw77 => k1_hw77

def k1_off155 (i : grid1.Coords) : Fin 1 → Nat :=
  let arg0 : BitVec 32 := BitVec.ofNat 32 (i 0).val
  let c128_i32 : BitVec 32 := 128#32
  let v0 : BitVec 32 := Scalar.muli arg0 c128_i32
  let c77_i32 : BitVec 32 := 77#32
  let v694 : BitVec 32 := Scalar.addi v0 c77_i32
  let v695 : Index := Scalar.indexCast v694
  ![v695.toNat]
def k1_off156 (v696 : BitVec 32) : Fin 2 → Nat :=
  let c0_i32_311 : BitVec 32 := 0#32
  ![v696.toNat, 0]

def k1_chk78 (v696 : BitVec 32) : Prop :=
  (∀ a, (k1_off156 v696) a + S1x10000.size a ≤ S10000x10000.size a)
instance k1_chk78.dec : ∀ (v696 : BitVec 32), Decidable (k1_chk78 v696) := fun v696 => decidable_of_iff' _ (Iff.of_eq (k1_chk78.eq_1 v696))
theorem k1_off156_inb : ∀ (v696 : BitVec 32) (k1_hw78 : k1_chk78 v696), ∀ a, (k1_off156 v696) a + S1x10000.size a ≤ S10000x10000.size a := fun v696 k1_hw78 => k1_hw78

def k1_off157 (i : grid1.Coords) : Fin 1 → Nat :=
  let arg0 : BitVec 32 := BitVec.ofNat 32 (i 0).val
  let c128_i32 : BitVec 32 := 128#32
  let v0 : BitVec 32 := Scalar.muli arg0 c128_i32
  let c78_i32 : BitVec 32 := 78#32
  let v703 : BitVec 32 := Scalar.addi v0 c78_i32
  let v704 : Index := Scalar.indexCast v703
  ![v704.toNat]
def k1_off158 (v705 : BitVec 32) : Fin 2 → Nat :=
  let c0_i32_315 : BitVec 32 := 0#32
  ![v705.toNat, 0]

def k1_chk79 (v705 : BitVec 32) : Prop :=
  (∀ a, (k1_off158 v705) a + S1x10000.size a ≤ S10000x10000.size a)
instance k1_chk79.dec : ∀ (v705 : BitVec 32), Decidable (k1_chk79 v705) := fun v705 => decidable_of_iff' _ (Iff.of_eq (k1_chk79.eq_1 v705))
theorem k1_off158_inb : ∀ (v705 : BitVec 32) (k1_hw79 : k1_chk79 v705), ∀ a, (k1_off158 v705) a + S1x10000.size a ≤ S10000x10000.size a := fun v705 k1_hw79 => k1_hw79

def k1_off159 (i : grid1.Coords) : Fin 1 → Nat :=
  let arg0 : BitVec 32 := BitVec.ofNat 32 (i 0).val
  let c128_i32 : BitVec 32 := 128#32
  let v0 : BitVec 32 := Scalar.muli arg0 c128_i32
  let c79_i32 : BitVec 32 := 79#32
  let v712 : BitVec 32 := Scalar.addi v0 c79_i32
  let v713 : Index := Scalar.indexCast v712
  ![v713.toNat]
def k1_off160 (v714 : BitVec 32) : Fin 2 → Nat :=
  let c0_i32_319 : BitVec 32 := 0#32
  ![v714.toNat, 0]

def k1_chk80 (v714 : BitVec 32) : Prop :=
  (∀ a, (k1_off160 v714) a + S1x10000.size a ≤ S10000x10000.size a)
instance k1_chk80.dec : ∀ (v714 : BitVec 32), Decidable (k1_chk80 v714) := fun v714 => decidable_of_iff' _ (Iff.of_eq (k1_chk80.eq_1 v714))
theorem k1_off160_inb : ∀ (v714 : BitVec 32) (k1_hw80 : k1_chk80 v714), ∀ a, (k1_off160 v714) a + S1x10000.size a ≤ S10000x10000.size a := fun v714 k1_hw80 => k1_hw80

def k1_off161 (i : grid1.Coords) : Fin 1 → Nat :=
  let arg0 : BitVec 32 := BitVec.ofNat 32 (i 0).val
  let c128_i32 : BitVec 32 := 128#32
  let v0 : BitVec 32 := Scalar.muli arg0 c128_i32
  let c80_i32 : BitVec 32 := 80#32
  let v721 : BitVec 32 := Scalar.addi v0 c80_i32
  let v722 : Index := Scalar.indexCast v721
  ![v722.toNat]
def k1_off162 (v723 : BitVec 32) : Fin 2 → Nat :=
  let c0_i32_323 : BitVec 32 := 0#32
  ![v723.toNat, 0]

def k1_chk81 (v723 : BitVec 32) : Prop :=
  (∀ a, (k1_off162 v723) a + S1x10000.size a ≤ S10000x10000.size a)
instance k1_chk81.dec : ∀ (v723 : BitVec 32), Decidable (k1_chk81 v723) := fun v723 => decidable_of_iff' _ (Iff.of_eq (k1_chk81.eq_1 v723))
theorem k1_off162_inb : ∀ (v723 : BitVec 32) (k1_hw81 : k1_chk81 v723), ∀ a, (k1_off162 v723) a + S1x10000.size a ≤ S10000x10000.size a := fun v723 k1_hw81 => k1_hw81

def k1_off163 (i : grid1.Coords) : Fin 1 → Nat :=
  let arg0 : BitVec 32 := BitVec.ofNat 32 (i 0).val
  let c128_i32 : BitVec 32 := 128#32
  let v0 : BitVec 32 := Scalar.muli arg0 c128_i32
  let c81_i32 : BitVec 32 := 81#32
  let v730 : BitVec 32 := Scalar.addi v0 c81_i32
  let v731 : Index := Scalar.indexCast v730
  ![v731.toNat]
def k1_off164 (v732 : BitVec 32) : Fin 2 → Nat :=
  let c0_i32_327 : BitVec 32 := 0#32
  ![v732.toNat, 0]

def k1_chk82 (v732 : BitVec 32) : Prop :=
  (∀ a, (k1_off164 v732) a + S1x10000.size a ≤ S10000x10000.size a)
instance k1_chk82.dec : ∀ (v732 : BitVec 32), Decidable (k1_chk82 v732) := fun v732 => decidable_of_iff' _ (Iff.of_eq (k1_chk82.eq_1 v732))
theorem k1_off164_inb : ∀ (v732 : BitVec 32) (k1_hw82 : k1_chk82 v732), ∀ a, (k1_off164 v732) a + S1x10000.size a ≤ S10000x10000.size a := fun v732 k1_hw82 => k1_hw82

def k1_off165 (i : grid1.Coords) : Fin 1 → Nat :=
  let arg0 : BitVec 32 := BitVec.ofNat 32 (i 0).val
  let c128_i32 : BitVec 32 := 128#32
  let v0 : BitVec 32 := Scalar.muli arg0 c128_i32
  let c82_i32 : BitVec 32 := 82#32
  let v739 : BitVec 32 := Scalar.addi v0 c82_i32
  let v740 : Index := Scalar.indexCast v739
  ![v740.toNat]
def k1_off166 (v741 : BitVec 32) : Fin 2 → Nat :=
  let c0_i32_331 : BitVec 32 := 0#32
  ![v741.toNat, 0]

def k1_chk83 (v741 : BitVec 32) : Prop :=
  (∀ a, (k1_off166 v741) a + S1x10000.size a ≤ S10000x10000.size a)
instance k1_chk83.dec : ∀ (v741 : BitVec 32), Decidable (k1_chk83 v741) := fun v741 => decidable_of_iff' _ (Iff.of_eq (k1_chk83.eq_1 v741))
theorem k1_off166_inb : ∀ (v741 : BitVec 32) (k1_hw83 : k1_chk83 v741), ∀ a, (k1_off166 v741) a + S1x10000.size a ≤ S10000x10000.size a := fun v741 k1_hw83 => k1_hw83

def k1_off167 (i : grid1.Coords) : Fin 1 → Nat :=
  let arg0 : BitVec 32 := BitVec.ofNat 32 (i 0).val
  let c128_i32 : BitVec 32 := 128#32
  let v0 : BitVec 32 := Scalar.muli arg0 c128_i32
  let c83_i32 : BitVec 32 := 83#32
  let v748 : BitVec 32 := Scalar.addi v0 c83_i32
  let v749 : Index := Scalar.indexCast v748
  ![v749.toNat]
def k1_off168 (v750 : BitVec 32) : Fin 2 → Nat :=
  let c0_i32_335 : BitVec 32 := 0#32
  ![v750.toNat, 0]

def k1_chk84 (v750 : BitVec 32) : Prop :=
  (∀ a, (k1_off168 v750) a + S1x10000.size a ≤ S10000x10000.size a)
instance k1_chk84.dec : ∀ (v750 : BitVec 32), Decidable (k1_chk84 v750) := fun v750 => decidable_of_iff' _ (Iff.of_eq (k1_chk84.eq_1 v750))
theorem k1_off168_inb : ∀ (v750 : BitVec 32) (k1_hw84 : k1_chk84 v750), ∀ a, (k1_off168 v750) a + S1x10000.size a ≤ S10000x10000.size a := fun v750 k1_hw84 => k1_hw84

def k1_off169 (i : grid1.Coords) : Fin 1 → Nat :=
  let arg0 : BitVec 32 := BitVec.ofNat 32 (i 0).val
  let c128_i32 : BitVec 32 := 128#32
  let v0 : BitVec 32 := Scalar.muli arg0 c128_i32
  let c84_i32 : BitVec 32 := 84#32
  let v757 : BitVec 32 := Scalar.addi v0 c84_i32
  let v758 : Index := Scalar.indexCast v757
  ![v758.toNat]
def k1_off170 (v759 : BitVec 32) : Fin 2 → Nat :=
  let c0_i32_339 : BitVec 32 := 0#32
  ![v759.toNat, 0]

def k1_chk85 (v759 : BitVec 32) : Prop :=
  (∀ a, (k1_off170 v759) a + S1x10000.size a ≤ S10000x10000.size a)
instance k1_chk85.dec : ∀ (v759 : BitVec 32), Decidable (k1_chk85 v759) := fun v759 => decidable_of_iff' _ (Iff.of_eq (k1_chk85.eq_1 v759))
theorem k1_off170_inb : ∀ (v759 : BitVec 32) (k1_hw85 : k1_chk85 v759), ∀ a, (k1_off170 v759) a + S1x10000.size a ≤ S10000x10000.size a := fun v759 k1_hw85 => k1_hw85

def k1_off171 (i : grid1.Coords) : Fin 1 → Nat :=
  let arg0 : BitVec 32 := BitVec.ofNat 32 (i 0).val
  let c128_i32 : BitVec 32 := 128#32
  let v0 : BitVec 32 := Scalar.muli arg0 c128_i32
  let c85_i32 : BitVec 32 := 85#32
  let v766 : BitVec 32 := Scalar.addi v0 c85_i32
  let v767 : Index := Scalar.indexCast v766
  ![v767.toNat]
def k1_off172 (v768 : BitVec 32) : Fin 2 → Nat :=
  let c0_i32_343 : BitVec 32 := 0#32
  ![v768.toNat, 0]

def k1_chk86 (v768 : BitVec 32) : Prop :=
  (∀ a, (k1_off172 v768) a + S1x10000.size a ≤ S10000x10000.size a)
instance k1_chk86.dec : ∀ (v768 : BitVec 32), Decidable (k1_chk86 v768) := fun v768 => decidable_of_iff' _ (Iff.of_eq (k1_chk86.eq_1 v768))
theorem k1_off172_inb : ∀ (v768 : BitVec 32) (k1_hw86 : k1_chk86 v768), ∀ a, (k1_off172 v768) a + S1x10000.size a ≤ S10000x10000.size a := fun v768 k1_hw86 => k1_hw86

def k1_off173 (i : grid1.Coords) : Fin 1 → Nat :=
  let arg0 : BitVec 32 := BitVec.ofNat 32 (i 0).val
  let c128_i32 : BitVec 32 := 128#32
  let v0 : BitVec 32 := Scalar.muli arg0 c128_i32
  let c86_i32 : BitVec 32 := 86#32
  let v775 : BitVec 32 := Scalar.addi v0 c86_i32
  let v776 : Index := Scalar.indexCast v775
  ![v776.toNat]
def k1_off174 (v777 : BitVec 32) : Fin 2 → Nat :=
  let c0_i32_347 : BitVec 32 := 0#32
  ![v777.toNat, 0]

def k1_chk87 (v777 : BitVec 32) : Prop :=
  (∀ a, (k1_off174 v777) a + S1x10000.size a ≤ S10000x10000.size a)
instance k1_chk87.dec : ∀ (v777 : BitVec 32), Decidable (k1_chk87 v777) := fun v777 => decidable_of_iff' _ (Iff.of_eq (k1_chk87.eq_1 v777))
theorem k1_off174_inb : ∀ (v777 : BitVec 32) (k1_hw87 : k1_chk87 v777), ∀ a, (k1_off174 v777) a + S1x10000.size a ≤ S10000x10000.size a := fun v777 k1_hw87 => k1_hw87

def k1_off175 (i : grid1.Coords) : Fin 1 → Nat :=
  let arg0 : BitVec 32 := BitVec.ofNat 32 (i 0).val
  let c128_i32 : BitVec 32 := 128#32
  let v0 : BitVec 32 := Scalar.muli arg0 c128_i32
  let c87_i32 : BitVec 32 := 87#32
  let v784 : BitVec 32 := Scalar.addi v0 c87_i32
  let v785 : Index := Scalar.indexCast v784
  ![v785.toNat]
def k1_off176 (v786 : BitVec 32) : Fin 2 → Nat :=
  let c0_i32_351 : BitVec 32 := 0#32
  ![v786.toNat, 0]

def k1_chk88 (v786 : BitVec 32) : Prop :=
  (∀ a, (k1_off176 v786) a + S1x10000.size a ≤ S10000x10000.size a)
instance k1_chk88.dec : ∀ (v786 : BitVec 32), Decidable (k1_chk88 v786) := fun v786 => decidable_of_iff' _ (Iff.of_eq (k1_chk88.eq_1 v786))
theorem k1_off176_inb : ∀ (v786 : BitVec 32) (k1_hw88 : k1_chk88 v786), ∀ a, (k1_off176 v786) a + S1x10000.size a ≤ S10000x10000.size a := fun v786 k1_hw88 => k1_hw88

def k1_off177 (i : grid1.Coords) : Fin 1 → Nat :=
  let arg0 : BitVec 32 := BitVec.ofNat 32 (i 0).val
  let c128_i32 : BitVec 32 := 128#32
  let v0 : BitVec 32 := Scalar.muli arg0 c128_i32
  let c88_i32 : BitVec 32 := 88#32
  let v793 : BitVec 32 := Scalar.addi v0 c88_i32
  let v794 : Index := Scalar.indexCast v793
  ![v794.toNat]
def k1_off178 (v795 : BitVec 32) : Fin 2 → Nat :=
  let c0_i32_355 : BitVec 32 := 0#32
  ![v795.toNat, 0]

def k1_chk89 (v795 : BitVec 32) : Prop :=
  (∀ a, (k1_off178 v795) a + S1x10000.size a ≤ S10000x10000.size a)
instance k1_chk89.dec : ∀ (v795 : BitVec 32), Decidable (k1_chk89 v795) := fun v795 => decidable_of_iff' _ (Iff.of_eq (k1_chk89.eq_1 v795))
theorem k1_off178_inb : ∀ (v795 : BitVec 32) (k1_hw89 : k1_chk89 v795), ∀ a, (k1_off178 v795) a + S1x10000.size a ≤ S10000x10000.size a := fun v795 k1_hw89 => k1_hw89

def k1_off179 (i : grid1.Coords) : Fin 1 → Nat :=
  let arg0 : BitVec 32 := BitVec.ofNat 32 (i 0).val
  let c128_i32 : BitVec 32 := 128#32
  let v0 : BitVec 32 := Scalar.muli arg0 c128_i32
  let c89_i32 : BitVec 32 := 89#32
  let v802 : BitVec 32 := Scalar.addi v0 c89_i32
  let v803 : Index := Scalar.indexCast v802
  ![v803.toNat]
def k1_off180 (v804 : BitVec 32) : Fin 2 → Nat :=
  let c0_i32_359 : BitVec 32 := 0#32
  ![v804.toNat, 0]

def k1_chk90 (v804 : BitVec 32) : Prop :=
  (∀ a, (k1_off180 v804) a + S1x10000.size a ≤ S10000x10000.size a)
instance k1_chk90.dec : ∀ (v804 : BitVec 32), Decidable (k1_chk90 v804) := fun v804 => decidable_of_iff' _ (Iff.of_eq (k1_chk90.eq_1 v804))
theorem k1_off180_inb : ∀ (v804 : BitVec 32) (k1_hw90 : k1_chk90 v804), ∀ a, (k1_off180 v804) a + S1x10000.size a ≤ S10000x10000.size a := fun v804 k1_hw90 => k1_hw90

def k1_off181 (i : grid1.Coords) : Fin 1 → Nat :=
  let arg0 : BitVec 32 := BitVec.ofNat 32 (i 0).val
  let c128_i32 : BitVec 32 := 128#32
  let v0 : BitVec 32 := Scalar.muli arg0 c128_i32
  let c90_i32 : BitVec 32 := 90#32
  let v811 : BitVec 32 := Scalar.addi v0 c90_i32
  let v812 : Index := Scalar.indexCast v811
  ![v812.toNat]
def k1_off182 (v813 : BitVec 32) : Fin 2 → Nat :=
  let c0_i32_363 : BitVec 32 := 0#32
  ![v813.toNat, 0]

def k1_chk91 (v813 : BitVec 32) : Prop :=
  (∀ a, (k1_off182 v813) a + S1x10000.size a ≤ S10000x10000.size a)
instance k1_chk91.dec : ∀ (v813 : BitVec 32), Decidable (k1_chk91 v813) := fun v813 => decidable_of_iff' _ (Iff.of_eq (k1_chk91.eq_1 v813))
theorem k1_off182_inb : ∀ (v813 : BitVec 32) (k1_hw91 : k1_chk91 v813), ∀ a, (k1_off182 v813) a + S1x10000.size a ≤ S10000x10000.size a := fun v813 k1_hw91 => k1_hw91

def k1_off183 (i : grid1.Coords) : Fin 1 → Nat :=
  let arg0 : BitVec 32 := BitVec.ofNat 32 (i 0).val
  let c128_i32 : BitVec 32 := 128#32
  let v0 : BitVec 32 := Scalar.muli arg0 c128_i32
  let c91_i32 : BitVec 32 := 91#32
  let v820 : BitVec 32 := Scalar.addi v0 c91_i32
  let v821 : Index := Scalar.indexCast v820
  ![v821.toNat]
def k1_off184 (v822 : BitVec 32) : Fin 2 → Nat :=
  let c0_i32_367 : BitVec 32 := 0#32
  ![v822.toNat, 0]

def k1_chk92 (v822 : BitVec 32) : Prop :=
  (∀ a, (k1_off184 v822) a + S1x10000.size a ≤ S10000x10000.size a)
instance k1_chk92.dec : ∀ (v822 : BitVec 32), Decidable (k1_chk92 v822) := fun v822 => decidable_of_iff' _ (Iff.of_eq (k1_chk92.eq_1 v822))
theorem k1_off184_inb : ∀ (v822 : BitVec 32) (k1_hw92 : k1_chk92 v822), ∀ a, (k1_off184 v822) a + S1x10000.size a ≤ S10000x10000.size a := fun v822 k1_hw92 => k1_hw92

def k1_off185 (i : grid1.Coords) : Fin 1 → Nat :=
  let arg0 : BitVec 32 := BitVec.ofNat 32 (i 0).val
  let c128_i32 : BitVec 32 := 128#32
  let v0 : BitVec 32 := Scalar.muli arg0 c128_i32
  let c92_i32 : BitVec 32 := 92#32
  let v829 : BitVec 32 := Scalar.addi v0 c92_i32
  let v830 : Index := Scalar.indexCast v829
  ![v830.toNat]
def k1_off186 (v831 : BitVec 32) : Fin 2 → Nat :=
  let c0_i32_371 : BitVec 32 := 0#32
  ![v831.toNat, 0]

def k1_chk93 (v831 : BitVec 32) : Prop :=
  (∀ a, (k1_off186 v831) a + S1x10000.size a ≤ S10000x10000.size a)
instance k1_chk93.dec : ∀ (v831 : BitVec 32), Decidable (k1_chk93 v831) := fun v831 => decidable_of_iff' _ (Iff.of_eq (k1_chk93.eq_1 v831))
theorem k1_off186_inb : ∀ (v831 : BitVec 32) (k1_hw93 : k1_chk93 v831), ∀ a, (k1_off186 v831) a + S1x10000.size a ≤ S10000x10000.size a := fun v831 k1_hw93 => k1_hw93

def k1_off187 (i : grid1.Coords) : Fin 1 → Nat :=
  let arg0 : BitVec 32 := BitVec.ofNat 32 (i 0).val
  let c128_i32 : BitVec 32 := 128#32
  let v0 : BitVec 32 := Scalar.muli arg0 c128_i32
  let c93_i32 : BitVec 32 := 93#32
  let v838 : BitVec 32 := Scalar.addi v0 c93_i32
  let v839 : Index := Scalar.indexCast v838
  ![v839.toNat]
def k1_off188 (v840 : BitVec 32) : Fin 2 → Nat :=
  let c0_i32_375 : BitVec 32 := 0#32
  ![v840.toNat, 0]

def k1_chk94 (v840 : BitVec 32) : Prop :=
  (∀ a, (k1_off188 v840) a + S1x10000.size a ≤ S10000x10000.size a)
instance k1_chk94.dec : ∀ (v840 : BitVec 32), Decidable (k1_chk94 v840) := fun v840 => decidable_of_iff' _ (Iff.of_eq (k1_chk94.eq_1 v840))
theorem k1_off188_inb : ∀ (v840 : BitVec 32) (k1_hw94 : k1_chk94 v840), ∀ a, (k1_off188 v840) a + S1x10000.size a ≤ S10000x10000.size a := fun v840 k1_hw94 => k1_hw94

def k1_off189 (i : grid1.Coords) : Fin 1 → Nat :=
  let arg0 : BitVec 32 := BitVec.ofNat 32 (i 0).val
  let c128_i32 : BitVec 32 := 128#32
  let v0 : BitVec 32 := Scalar.muli arg0 c128_i32
  let c94_i32 : BitVec 32 := 94#32
  let v847 : BitVec 32 := Scalar.addi v0 c94_i32
  let v848 : Index := Scalar.indexCast v847
  ![v848.toNat]
def k1_off190 (v849 : BitVec 32) : Fin 2 → Nat :=
  let c0_i32_379 : BitVec 32 := 0#32
  ![v849.toNat, 0]

def k1_chk95 (v849 : BitVec 32) : Prop :=
  (∀ a, (k1_off190 v849) a + S1x10000.size a ≤ S10000x10000.size a)
instance k1_chk95.dec : ∀ (v849 : BitVec 32), Decidable (k1_chk95 v849) := fun v849 => decidable_of_iff' _ (Iff.of_eq (k1_chk95.eq_1 v849))
theorem k1_off190_inb : ∀ (v849 : BitVec 32) (k1_hw95 : k1_chk95 v849), ∀ a, (k1_off190 v849) a + S1x10000.size a ≤ S10000x10000.size a := fun v849 k1_hw95 => k1_hw95

def k1_off191 (i : grid1.Coords) : Fin 1 → Nat :=
  let arg0 : BitVec 32 := BitVec.ofNat 32 (i 0).val
  let c128_i32 : BitVec 32 := 128#32
  let v0 : BitVec 32 := Scalar.muli arg0 c128_i32
  let c95_i32 : BitVec 32 := 95#32
  let v856 : BitVec 32 := Scalar.addi v0 c95_i32
  let v857 : Index := Scalar.indexCast v856
  ![v857.toNat]
def k1_off192 (v858 : BitVec 32) : Fin 2 → Nat :=
  let c0_i32_383 : BitVec 32 := 0#32
  ![v858.toNat, 0]

def k1_chk96 (v858 : BitVec 32) : Prop :=
  (∀ a, (k1_off192 v858) a + S1x10000.size a ≤ S10000x10000.size a)
instance k1_chk96.dec : ∀ (v858 : BitVec 32), Decidable (k1_chk96 v858) := fun v858 => decidable_of_iff' _ (Iff.of_eq (k1_chk96.eq_1 v858))
theorem k1_off192_inb : ∀ (v858 : BitVec 32) (k1_hw96 : k1_chk96 v858), ∀ a, (k1_off192 v858) a + S1x10000.size a ≤ S10000x10000.size a := fun v858 k1_hw96 => k1_hw96

def k1_off193 (i : grid1.Coords) : Fin 1 → Nat :=
  let arg0 : BitVec 32 := BitVec.ofNat 32 (i 0).val
  let c128_i32 : BitVec 32 := 128#32
  let v0 : BitVec 32 := Scalar.muli arg0 c128_i32
  let c96_i32 : BitVec 32 := 96#32
  let v865 : BitVec 32 := Scalar.addi v0 c96_i32
  let v866 : Index := Scalar.indexCast v865
  ![v866.toNat]
def k1_off194 (v867 : BitVec 32) : Fin 2 → Nat :=
  let c0_i32_387 : BitVec 32 := 0#32
  ![v867.toNat, 0]

def k1_chk97 (v867 : BitVec 32) : Prop :=
  (∀ a, (k1_off194 v867) a + S1x10000.size a ≤ S10000x10000.size a)
instance k1_chk97.dec : ∀ (v867 : BitVec 32), Decidable (k1_chk97 v867) := fun v867 => decidable_of_iff' _ (Iff.of_eq (k1_chk97.eq_1 v867))
theorem k1_off194_inb : ∀ (v867 : BitVec 32) (k1_hw97 : k1_chk97 v867), ∀ a, (k1_off194 v867) a + S1x10000.size a ≤ S10000x10000.size a := fun v867 k1_hw97 => k1_hw97

def k1_off195 (i : grid1.Coords) : Fin 1 → Nat :=
  let arg0 : BitVec 32 := BitVec.ofNat 32 (i 0).val
  let c128_i32 : BitVec 32 := 128#32
  let v0 : BitVec 32 := Scalar.muli arg0 c128_i32
  let c97_i32 : BitVec 32 := 97#32
  let v874 : BitVec 32 := Scalar.addi v0 c97_i32
  let v875 : Index := Scalar.indexCast v874
  ![v875.toNat]
def k1_off196 (v876 : BitVec 32) : Fin 2 → Nat :=
  let c0_i32_391 : BitVec 32 := 0#32
  ![v876.toNat, 0]

def k1_chk98 (v876 : BitVec 32) : Prop :=
  (∀ a, (k1_off196 v876) a + S1x10000.size a ≤ S10000x10000.size a)
instance k1_chk98.dec : ∀ (v876 : BitVec 32), Decidable (k1_chk98 v876) := fun v876 => decidable_of_iff' _ (Iff.of_eq (k1_chk98.eq_1 v876))
theorem k1_off196_inb : ∀ (v876 : BitVec 32) (k1_hw98 : k1_chk98 v876), ∀ a, (k1_off196 v876) a + S1x10000.size a ≤ S10000x10000.size a := fun v876 k1_hw98 => k1_hw98

def k1_off197 (i : grid1.Coords) : Fin 1 → Nat :=
  let arg0 : BitVec 32 := BitVec.ofNat 32 (i 0).val
  let c128_i32 : BitVec 32 := 128#32
  let v0 : BitVec 32 := Scalar.muli arg0 c128_i32
  let c98_i32 : BitVec 32 := 98#32
  let v883 : BitVec 32 := Scalar.addi v0 c98_i32
  let v884 : Index := Scalar.indexCast v883
  ![v884.toNat]
def k1_off198 (v885 : BitVec 32) : Fin 2 → Nat :=
  let c0_i32_395 : BitVec 32 := 0#32
  ![v885.toNat, 0]

def k1_chk99 (v885 : BitVec 32) : Prop :=
  (∀ a, (k1_off198 v885) a + S1x10000.size a ≤ S10000x10000.size a)
instance k1_chk99.dec : ∀ (v885 : BitVec 32), Decidable (k1_chk99 v885) := fun v885 => decidable_of_iff' _ (Iff.of_eq (k1_chk99.eq_1 v885))
theorem k1_off198_inb : ∀ (v885 : BitVec 32) (k1_hw99 : k1_chk99 v885), ∀ a, (k1_off198 v885) a + S1x10000.size a ≤ S10000x10000.size a := fun v885 k1_hw99 => k1_hw99

def k1_off199 (i : grid1.Coords) : Fin 1 → Nat :=
  let arg0 : BitVec 32 := BitVec.ofNat 32 (i 0).val
  let c128_i32 : BitVec 32 := 128#32
  let v0 : BitVec 32 := Scalar.muli arg0 c128_i32
  let c99_i32 : BitVec 32 := 99#32
  let v892 : BitVec 32 := Scalar.addi v0 c99_i32
  let v893 : Index := Scalar.indexCast v892
  ![v893.toNat]
def k1_off200 (v894 : BitVec 32) : Fin 2 → Nat :=
  let c0_i32_399 : BitVec 32 := 0#32
  ![v894.toNat, 0]

def k1_chk100 (v894 : BitVec 32) : Prop :=
  (∀ a, (k1_off200 v894) a + S1x10000.size a ≤ S10000x10000.size a)
instance k1_chk100.dec : ∀ (v894 : BitVec 32), Decidable (k1_chk100 v894) := fun v894 => decidable_of_iff' _ (Iff.of_eq (k1_chk100.eq_1 v894))
theorem k1_off200_inb : ∀ (v894 : BitVec 32) (k1_hw100 : k1_chk100 v894), ∀ a, (k1_off200 v894) a + S1x10000.size a ≤ S10000x10000.size a := fun v894 k1_hw100 => k1_hw100

def k1_off201 (i : grid1.Coords) : Fin 1 → Nat :=
  let arg0 : BitVec 32 := BitVec.ofNat 32 (i 0).val
  let c128_i32 : BitVec 32 := 128#32
  let v0 : BitVec 32 := Scalar.muli arg0 c128_i32
  let c100_i32 : BitVec 32 := 100#32
  let v901 : BitVec 32 := Scalar.addi v0 c100_i32
  let v902 : Index := Scalar.indexCast v901
  ![v902.toNat]
def k1_off202 (v903 : BitVec 32) : Fin 2 → Nat :=
  let c0_i32_403 : BitVec 32 := 0#32
  ![v903.toNat, 0]

def k1_chk101 (v903 : BitVec 32) : Prop :=
  (∀ a, (k1_off202 v903) a + S1x10000.size a ≤ S10000x10000.size a)
instance k1_chk101.dec : ∀ (v903 : BitVec 32), Decidable (k1_chk101 v903) := fun v903 => decidable_of_iff' _ (Iff.of_eq (k1_chk101.eq_1 v903))
theorem k1_off202_inb : ∀ (v903 : BitVec 32) (k1_hw101 : k1_chk101 v903), ∀ a, (k1_off202 v903) a + S1x10000.size a ≤ S10000x10000.size a := fun v903 k1_hw101 => k1_hw101

def k1_off203 (i : grid1.Coords) : Fin 1 → Nat :=
  let arg0 : BitVec 32 := BitVec.ofNat 32 (i 0).val
  let c128_i32 : BitVec 32 := 128#32
  let v0 : BitVec 32 := Scalar.muli arg0 c128_i32
  let c101_i32 : BitVec 32 := 101#32
  let v910 : BitVec 32 := Scalar.addi v0 c101_i32
  let v911 : Index := Scalar.indexCast v910
  ![v911.toNat]
def k1_off204 (v912 : BitVec 32) : Fin 2 → Nat :=
  let c0_i32_407 : BitVec 32 := 0#32
  ![v912.toNat, 0]

def k1_chk102 (v912 : BitVec 32) : Prop :=
  (∀ a, (k1_off204 v912) a + S1x10000.size a ≤ S10000x10000.size a)
instance k1_chk102.dec : ∀ (v912 : BitVec 32), Decidable (k1_chk102 v912) := fun v912 => decidable_of_iff' _ (Iff.of_eq (k1_chk102.eq_1 v912))
theorem k1_off204_inb : ∀ (v912 : BitVec 32) (k1_hw102 : k1_chk102 v912), ∀ a, (k1_off204 v912) a + S1x10000.size a ≤ S10000x10000.size a := fun v912 k1_hw102 => k1_hw102

def k1_off205 (i : grid1.Coords) : Fin 1 → Nat :=
  let arg0 : BitVec 32 := BitVec.ofNat 32 (i 0).val
  let c128_i32 : BitVec 32 := 128#32
  let v0 : BitVec 32 := Scalar.muli arg0 c128_i32
  let c102_i32 : BitVec 32 := 102#32
  let v919 : BitVec 32 := Scalar.addi v0 c102_i32
  let v920 : Index := Scalar.indexCast v919
  ![v920.toNat]
def k1_off206 (v921 : BitVec 32) : Fin 2 → Nat :=
  let c0_i32_411 : BitVec 32 := 0#32
  ![v921.toNat, 0]

def k1_chk103 (v921 : BitVec 32) : Prop :=
  (∀ a, (k1_off206 v921) a + S1x10000.size a ≤ S10000x10000.size a)
instance k1_chk103.dec : ∀ (v921 : BitVec 32), Decidable (k1_chk103 v921) := fun v921 => decidable_of_iff' _ (Iff.of_eq (k1_chk103.eq_1 v921))
theorem k1_off206_inb : ∀ (v921 : BitVec 32) (k1_hw103 : k1_chk103 v921), ∀ a, (k1_off206 v921) a + S1x10000.size a ≤ S10000x10000.size a := fun v921 k1_hw103 => k1_hw103

def k1_off207 (i : grid1.Coords) : Fin 1 → Nat :=
  let arg0 : BitVec 32 := BitVec.ofNat 32 (i 0).val
  let c128_i32 : BitVec 32 := 128#32
  let v0 : BitVec 32 := Scalar.muli arg0 c128_i32
  let c103_i32 : BitVec 32 := 103#32
  let v928 : BitVec 32 := Scalar.addi v0 c103_i32
  let v929 : Index := Scalar.indexCast v928
  ![v929.toNat]
def k1_off208 (v930 : BitVec 32) : Fin 2 → Nat :=
  let c0_i32_415 : BitVec 32 := 0#32
  ![v930.toNat, 0]

def k1_chk104 (v930 : BitVec 32) : Prop :=
  (∀ a, (k1_off208 v930) a + S1x10000.size a ≤ S10000x10000.size a)
instance k1_chk104.dec : ∀ (v930 : BitVec 32), Decidable (k1_chk104 v930) := fun v930 => decidable_of_iff' _ (Iff.of_eq (k1_chk104.eq_1 v930))
theorem k1_off208_inb : ∀ (v930 : BitVec 32) (k1_hw104 : k1_chk104 v930), ∀ a, (k1_off208 v930) a + S1x10000.size a ≤ S10000x10000.size a := fun v930 k1_hw104 => k1_hw104

def k1_off209 (i : grid1.Coords) : Fin 1 → Nat :=
  let arg0 : BitVec 32 := BitVec.ofNat 32 (i 0).val
  let c128_i32 : BitVec 32 := 128#32
  let v0 : BitVec 32 := Scalar.muli arg0 c128_i32
  let c104_i32 : BitVec 32 := 104#32
  let v937 : BitVec 32 := Scalar.addi v0 c104_i32
  let v938 : Index := Scalar.indexCast v937
  ![v938.toNat]
def k1_off210 (v939 : BitVec 32) : Fin 2 → Nat :=
  let c0_i32_419 : BitVec 32 := 0#32
  ![v939.toNat, 0]

def k1_chk105 (v939 : BitVec 32) : Prop :=
  (∀ a, (k1_off210 v939) a + S1x10000.size a ≤ S10000x10000.size a)
instance k1_chk105.dec : ∀ (v939 : BitVec 32), Decidable (k1_chk105 v939) := fun v939 => decidable_of_iff' _ (Iff.of_eq (k1_chk105.eq_1 v939))
theorem k1_off210_inb : ∀ (v939 : BitVec 32) (k1_hw105 : k1_chk105 v939), ∀ a, (k1_off210 v939) a + S1x10000.size a ≤ S10000x10000.size a := fun v939 k1_hw105 => k1_hw105

def k1_off211 (i : grid1.Coords) : Fin 1 → Nat :=
  let arg0 : BitVec 32 := BitVec.ofNat 32 (i 0).val
  let c128_i32 : BitVec 32 := 128#32
  let v0 : BitVec 32 := Scalar.muli arg0 c128_i32
  let c105_i32 : BitVec 32 := 105#32
  let v946 : BitVec 32 := Scalar.addi v0 c105_i32
  let v947 : Index := Scalar.indexCast v946
  ![v947.toNat]
def k1_off212 (v948 : BitVec 32) : Fin 2 → Nat :=
  let c0_i32_423 : BitVec 32 := 0#32
  ![v948.toNat, 0]

def k1_chk106 (v948 : BitVec 32) : Prop :=
  (∀ a, (k1_off212 v948) a + S1x10000.size a ≤ S10000x10000.size a)
instance k1_chk106.dec : ∀ (v948 : BitVec 32), Decidable (k1_chk106 v948) := fun v948 => decidable_of_iff' _ (Iff.of_eq (k1_chk106.eq_1 v948))
theorem k1_off212_inb : ∀ (v948 : BitVec 32) (k1_hw106 : k1_chk106 v948), ∀ a, (k1_off212 v948) a + S1x10000.size a ≤ S10000x10000.size a := fun v948 k1_hw106 => k1_hw106

def k1_off213 (i : grid1.Coords) : Fin 1 → Nat :=
  let arg0 : BitVec 32 := BitVec.ofNat 32 (i 0).val
  let c128_i32 : BitVec 32 := 128#32
  let v0 : BitVec 32 := Scalar.muli arg0 c128_i32
  let c106_i32 : BitVec 32 := 106#32
  let v955 : BitVec 32 := Scalar.addi v0 c106_i32
  let v956 : Index := Scalar.indexCast v955
  ![v956.toNat]
def k1_off214 (v957 : BitVec 32) : Fin 2 → Nat :=
  let c0_i32_427 : BitVec 32 := 0#32
  ![v957.toNat, 0]

def k1_chk107 (v957 : BitVec 32) : Prop :=
  (∀ a, (k1_off214 v957) a + S1x10000.size a ≤ S10000x10000.size a)
instance k1_chk107.dec : ∀ (v957 : BitVec 32), Decidable (k1_chk107 v957) := fun v957 => decidable_of_iff' _ (Iff.of_eq (k1_chk107.eq_1 v957))
theorem k1_off214_inb : ∀ (v957 : BitVec 32) (k1_hw107 : k1_chk107 v957), ∀ a, (k1_off214 v957) a + S1x10000.size a ≤ S10000x10000.size a := fun v957 k1_hw107 => k1_hw107

def k1_off215 (i : grid1.Coords) : Fin 1 → Nat :=
  let arg0 : BitVec 32 := BitVec.ofNat 32 (i 0).val
  let c128_i32 : BitVec 32 := 128#32
  let v0 : BitVec 32 := Scalar.muli arg0 c128_i32
  let c107_i32 : BitVec 32 := 107#32
  let v964 : BitVec 32 := Scalar.addi v0 c107_i32
  let v965 : Index := Scalar.indexCast v964
  ![v965.toNat]
def k1_off216 (v966 : BitVec 32) : Fin 2 → Nat :=
  let c0_i32_431 : BitVec 32 := 0#32
  ![v966.toNat, 0]

def k1_chk108 (v966 : BitVec 32) : Prop :=
  (∀ a, (k1_off216 v966) a + S1x10000.size a ≤ S10000x10000.size a)
instance k1_chk108.dec : ∀ (v966 : BitVec 32), Decidable (k1_chk108 v966) := fun v966 => decidable_of_iff' _ (Iff.of_eq (k1_chk108.eq_1 v966))
theorem k1_off216_inb : ∀ (v966 : BitVec 32) (k1_hw108 : k1_chk108 v966), ∀ a, (k1_off216 v966) a + S1x10000.size a ≤ S10000x10000.size a := fun v966 k1_hw108 => k1_hw108

def k1_off217 (i : grid1.Coords) : Fin 1 → Nat :=
  let arg0 : BitVec 32 := BitVec.ofNat 32 (i 0).val
  let c128_i32 : BitVec 32 := 128#32
  let v0 : BitVec 32 := Scalar.muli arg0 c128_i32
  let c108_i32 : BitVec 32 := 108#32
  let v973 : BitVec 32 := Scalar.addi v0 c108_i32
  let v974 : Index := Scalar.indexCast v973
  ![v974.toNat]
def k1_off218 (v975 : BitVec 32) : Fin 2 → Nat :=
  let c0_i32_435 : BitVec 32 := 0#32
  ![v975.toNat, 0]

def k1_chk109 (v975 : BitVec 32) : Prop :=
  (∀ a, (k1_off218 v975) a + S1x10000.size a ≤ S10000x10000.size a)
instance k1_chk109.dec : ∀ (v975 : BitVec 32), Decidable (k1_chk109 v975) := fun v975 => decidable_of_iff' _ (Iff.of_eq (k1_chk109.eq_1 v975))
theorem k1_off218_inb : ∀ (v975 : BitVec 32) (k1_hw109 : k1_chk109 v975), ∀ a, (k1_off218 v975) a + S1x10000.size a ≤ S10000x10000.size a := fun v975 k1_hw109 => k1_hw109

def k1_off219 (i : grid1.Coords) : Fin 1 → Nat :=
  let arg0 : BitVec 32 := BitVec.ofNat 32 (i 0).val
  let c128_i32 : BitVec 32 := 128#32
  let v0 : BitVec 32 := Scalar.muli arg0 c128_i32
  let c109_i32 : BitVec 32 := 109#32
  let v982 : BitVec 32 := Scalar.addi v0 c109_i32
  let v983 : Index := Scalar.indexCast v982
  ![v983.toNat]
def k1_off220 (v984 : BitVec 32) : Fin 2 → Nat :=
  let c0_i32_439 : BitVec 32 := 0#32
  ![v984.toNat, 0]

def k1_chk110 (v984 : BitVec 32) : Prop :=
  (∀ a, (k1_off220 v984) a + S1x10000.size a ≤ S10000x10000.size a)
instance k1_chk110.dec : ∀ (v984 : BitVec 32), Decidable (k1_chk110 v984) := fun v984 => decidable_of_iff' _ (Iff.of_eq (k1_chk110.eq_1 v984))
theorem k1_off220_inb : ∀ (v984 : BitVec 32) (k1_hw110 : k1_chk110 v984), ∀ a, (k1_off220 v984) a + S1x10000.size a ≤ S10000x10000.size a := fun v984 k1_hw110 => k1_hw110

def k1_off221 (i : grid1.Coords) : Fin 1 → Nat :=
  let arg0 : BitVec 32 := BitVec.ofNat 32 (i 0).val
  let c128_i32 : BitVec 32 := 128#32
  let v0 : BitVec 32 := Scalar.muli arg0 c128_i32
  let c110_i32 : BitVec 32 := 110#32
  let v991 : BitVec 32 := Scalar.addi v0 c110_i32
  let v992 : Index := Scalar.indexCast v991
  ![v992.toNat]
def k1_off222 (v993 : BitVec 32) : Fin 2 → Nat :=
  let c0_i32_443 : BitVec 32 := 0#32
  ![v993.toNat, 0]

def k1_chk111 (v993 : BitVec 32) : Prop :=
  (∀ a, (k1_off222 v993) a + S1x10000.size a ≤ S10000x10000.size a)
instance k1_chk111.dec : ∀ (v993 : BitVec 32), Decidable (k1_chk111 v993) := fun v993 => decidable_of_iff' _ (Iff.of_eq (k1_chk111.eq_1 v993))
theorem k1_off222_inb : ∀ (v993 : BitVec 32) (k1_hw111 : k1_chk111 v993), ∀ a, (k1_off222 v993) a + S1x10000.size a ≤ S10000x10000.size a := fun v993 k1_hw111 => k1_hw111

def k1_off223 (i : grid1.Coords) : Fin 1 → Nat :=
  let arg0 : BitVec 32 := BitVec.ofNat 32 (i 0).val
  let c128_i32 : BitVec 32 := 128#32
  let v0 : BitVec 32 := Scalar.muli arg0 c128_i32
  let c111_i32 : BitVec 32 := 111#32
  let v1000 : BitVec 32 := Scalar.addi v0 c111_i32
  let v1001 : Index := Scalar.indexCast v1000
  ![v1001.toNat]
def k1_off224 (v1002 : BitVec 32) : Fin 2 → Nat :=
  let c0_i32_447 : BitVec 32 := 0#32
  ![v1002.toNat, 0]

def k1_chk112 (v1002 : BitVec 32) : Prop :=
  (∀ a, (k1_off224 v1002) a + S1x10000.size a ≤ S10000x10000.size a)
instance k1_chk112.dec : ∀ (v1002 : BitVec 32), Decidable (k1_chk112 v1002) := fun v1002 => decidable_of_iff' _ (Iff.of_eq (k1_chk112.eq_1 v1002))
theorem k1_off224_inb : ∀ (v1002 : BitVec 32) (k1_hw112 : k1_chk112 v1002), ∀ a, (k1_off224 v1002) a + S1x10000.size a ≤ S10000x10000.size a := fun v1002 k1_hw112 => k1_hw112

def k1_off225 (i : grid1.Coords) : Fin 1 → Nat :=
  let arg0 : BitVec 32 := BitVec.ofNat 32 (i 0).val
  let c128_i32 : BitVec 32 := 128#32
  let v0 : BitVec 32 := Scalar.muli arg0 c128_i32
  let c112_i32 : BitVec 32 := 112#32
  let v1009 : BitVec 32 := Scalar.addi v0 c112_i32
  let v1010 : Index := Scalar.indexCast v1009
  ![v1010.toNat]
def k1_off226 (v1011 : BitVec 32) : Fin 2 → Nat :=
  let c0_i32_451 : BitVec 32 := 0#32
  ![v1011.toNat, 0]

def k1_chk113 (v1011 : BitVec 32) : Prop :=
  (∀ a, (k1_off226 v1011) a + S1x10000.size a ≤ S10000x10000.size a)
instance k1_chk113.dec : ∀ (v1011 : BitVec 32), Decidable (k1_chk113 v1011) := fun v1011 => decidable_of_iff' _ (Iff.of_eq (k1_chk113.eq_1 v1011))
theorem k1_off226_inb : ∀ (v1011 : BitVec 32) (k1_hw113 : k1_chk113 v1011), ∀ a, (k1_off226 v1011) a + S1x10000.size a ≤ S10000x10000.size a := fun v1011 k1_hw113 => k1_hw113

def k1_off227 (i : grid1.Coords) : Fin 1 → Nat :=
  let arg0 : BitVec 32 := BitVec.ofNat 32 (i 0).val
  let c128_i32 : BitVec 32 := 128#32
  let v0 : BitVec 32 := Scalar.muli arg0 c128_i32
  let c113_i32 : BitVec 32 := 113#32
  let v1018 : BitVec 32 := Scalar.addi v0 c113_i32
  let v1019 : Index := Scalar.indexCast v1018
  ![v1019.toNat]
def k1_off228 (v1020 : BitVec 32) : Fin 2 → Nat :=
  let c0_i32_455 : BitVec 32 := 0#32
  ![v1020.toNat, 0]

def k1_chk114 (v1020 : BitVec 32) : Prop :=
  (∀ a, (k1_off228 v1020) a + S1x10000.size a ≤ S10000x10000.size a)
instance k1_chk114.dec : ∀ (v1020 : BitVec 32), Decidable (k1_chk114 v1020) := fun v1020 => decidable_of_iff' _ (Iff.of_eq (k1_chk114.eq_1 v1020))
theorem k1_off228_inb : ∀ (v1020 : BitVec 32) (k1_hw114 : k1_chk114 v1020), ∀ a, (k1_off228 v1020) a + S1x10000.size a ≤ S10000x10000.size a := fun v1020 k1_hw114 => k1_hw114

def k1_off229 (i : grid1.Coords) : Fin 1 → Nat :=
  let arg0 : BitVec 32 := BitVec.ofNat 32 (i 0).val
  let c128_i32 : BitVec 32 := 128#32
  let v0 : BitVec 32 := Scalar.muli arg0 c128_i32
  let c114_i32 : BitVec 32 := 114#32
  let v1027 : BitVec 32 := Scalar.addi v0 c114_i32
  let v1028 : Index := Scalar.indexCast v1027
  ![v1028.toNat]
def k1_off230 (v1029 : BitVec 32) : Fin 2 → Nat :=
  let c0_i32_459 : BitVec 32 := 0#32
  ![v1029.toNat, 0]

def k1_chk115 (v1029 : BitVec 32) : Prop :=
  (∀ a, (k1_off230 v1029) a + S1x10000.size a ≤ S10000x10000.size a)
instance k1_chk115.dec : ∀ (v1029 : BitVec 32), Decidable (k1_chk115 v1029) := fun v1029 => decidable_of_iff' _ (Iff.of_eq (k1_chk115.eq_1 v1029))
theorem k1_off230_inb : ∀ (v1029 : BitVec 32) (k1_hw115 : k1_chk115 v1029), ∀ a, (k1_off230 v1029) a + S1x10000.size a ≤ S10000x10000.size a := fun v1029 k1_hw115 => k1_hw115

def k1_off231 (i : grid1.Coords) : Fin 1 → Nat :=
  let arg0 : BitVec 32 := BitVec.ofNat 32 (i 0).val
  let c128_i32 : BitVec 32 := 128#32
  let v0 : BitVec 32 := Scalar.muli arg0 c128_i32
  let c115_i32 : BitVec 32 := 115#32
  let v1036 : BitVec 32 := Scalar.addi v0 c115_i32
  let v1037 : Index := Scalar.indexCast v1036
  ![v1037.toNat]
def k1_off232 (v1038 : BitVec 32) : Fin 2 → Nat :=
  let c0_i32_463 : BitVec 32 := 0#32
  ![v1038.toNat, 0]

def k1_chk116 (v1038 : BitVec 32) : Prop :=
  (∀ a, (k1_off232 v1038) a + S1x10000.size a ≤ S10000x10000.size a)
instance k1_chk116.dec : ∀ (v1038 : BitVec 32), Decidable (k1_chk116 v1038) := fun v1038 => decidable_of_iff' _ (Iff.of_eq (k1_chk116.eq_1 v1038))
theorem k1_off232_inb : ∀ (v1038 : BitVec 32) (k1_hw116 : k1_chk116 v1038), ∀ a, (k1_off232 v1038) a + S1x10000.size a ≤ S10000x10000.size a := fun v1038 k1_hw116 => k1_hw116

def k1_off233 (i : grid1.Coords) : Fin 1 → Nat :=
  let arg0 : BitVec 32 := BitVec.ofNat 32 (i 0).val
  let c128_i32 : BitVec 32 := 128#32
  let v0 : BitVec 32 := Scalar.muli arg0 c128_i32
  let c116_i32 : BitVec 32 := 116#32
  let v1045 : BitVec 32 := Scalar.addi v0 c116_i32
  let v1046 : Index := Scalar.indexCast v1045
  ![v1046.toNat]
def k1_off234 (v1047 : BitVec 32) : Fin 2 → Nat :=
  let c0_i32_467 : BitVec 32 := 0#32
  ![v1047.toNat, 0]

def k1_chk117 (v1047 : BitVec 32) : Prop :=
  (∀ a, (k1_off234 v1047) a + S1x10000.size a ≤ S10000x10000.size a)
instance k1_chk117.dec : ∀ (v1047 : BitVec 32), Decidable (k1_chk117 v1047) := fun v1047 => decidable_of_iff' _ (Iff.of_eq (k1_chk117.eq_1 v1047))
theorem k1_off234_inb : ∀ (v1047 : BitVec 32) (k1_hw117 : k1_chk117 v1047), ∀ a, (k1_off234 v1047) a + S1x10000.size a ≤ S10000x10000.size a := fun v1047 k1_hw117 => k1_hw117

def k1_off235 (i : grid1.Coords) : Fin 1 → Nat :=
  let arg0 : BitVec 32 := BitVec.ofNat 32 (i 0).val
  let c128_i32 : BitVec 32 := 128#32
  let v0 : BitVec 32 := Scalar.muli arg0 c128_i32
  let c117_i32 : BitVec 32 := 117#32
  let v1054 : BitVec 32 := Scalar.addi v0 c117_i32
  let v1055 : Index := Scalar.indexCast v1054
  ![v1055.toNat]
def k1_off236 (v1056 : BitVec 32) : Fin 2 → Nat :=
  let c0_i32_471 : BitVec 32 := 0#32
  ![v1056.toNat, 0]

def k1_chk118 (v1056 : BitVec 32) : Prop :=
  (∀ a, (k1_off236 v1056) a + S1x10000.size a ≤ S10000x10000.size a)
instance k1_chk118.dec : ∀ (v1056 : BitVec 32), Decidable (k1_chk118 v1056) := fun v1056 => decidable_of_iff' _ (Iff.of_eq (k1_chk118.eq_1 v1056))
theorem k1_off236_inb : ∀ (v1056 : BitVec 32) (k1_hw118 : k1_chk118 v1056), ∀ a, (k1_off236 v1056) a + S1x10000.size a ≤ S10000x10000.size a := fun v1056 k1_hw118 => k1_hw118

def k1_off237 (i : grid1.Coords) : Fin 1 → Nat :=
  let arg0 : BitVec 32 := BitVec.ofNat 32 (i 0).val
  let c128_i32 : BitVec 32 := 128#32
  let v0 : BitVec 32 := Scalar.muli arg0 c128_i32
  let c118_i32 : BitVec 32 := 118#32
  let v1063 : BitVec 32 := Scalar.addi v0 c118_i32
  let v1064 : Index := Scalar.indexCast v1063
  ![v1064.toNat]
def k1_off238 (v1065 : BitVec 32) : Fin 2 → Nat :=
  let c0_i32_475 : BitVec 32 := 0#32
  ![v1065.toNat, 0]

def k1_chk119 (v1065 : BitVec 32) : Prop :=
  (∀ a, (k1_off238 v1065) a + S1x10000.size a ≤ S10000x10000.size a)
instance k1_chk119.dec : ∀ (v1065 : BitVec 32), Decidable (k1_chk119 v1065) := fun v1065 => decidable_of_iff' _ (Iff.of_eq (k1_chk119.eq_1 v1065))
theorem k1_off238_inb : ∀ (v1065 : BitVec 32) (k1_hw119 : k1_chk119 v1065), ∀ a, (k1_off238 v1065) a + S1x10000.size a ≤ S10000x10000.size a := fun v1065 k1_hw119 => k1_hw119

def k1_off239 (i : grid1.Coords) : Fin 1 → Nat :=
  let arg0 : BitVec 32 := BitVec.ofNat 32 (i 0).val
  let c128_i32 : BitVec 32 := 128#32
  let v0 : BitVec 32 := Scalar.muli arg0 c128_i32
  let c119_i32 : BitVec 32 := 119#32
  let v1072 : BitVec 32 := Scalar.addi v0 c119_i32
  let v1073 : Index := Scalar.indexCast v1072
  ![v1073.toNat]
def k1_off240 (v1074 : BitVec 32) : Fin 2 → Nat :=
  let c0_i32_479 : BitVec 32 := 0#32
  ![v1074.toNat, 0]

def k1_chk120 (v1074 : BitVec 32) : Prop :=
  (∀ a, (k1_off240 v1074) a + S1x10000.size a ≤ S10000x10000.size a)
instance k1_chk120.dec : ∀ (v1074 : BitVec 32), Decidable (k1_chk120 v1074) := fun v1074 => decidable_of_iff' _ (Iff.of_eq (k1_chk120.eq_1 v1074))
theorem k1_off240_inb : ∀ (v1074 : BitVec 32) (k1_hw120 : k1_chk120 v1074), ∀ a, (k1_off240 v1074) a + S1x10000.size a ≤ S10000x10000.size a := fun v1074 k1_hw120 => k1_hw120

def k1_off241 (i : grid1.Coords) : Fin 1 → Nat :=
  let arg0 : BitVec 32 := BitVec.ofNat 32 (i 0).val
  let c128_i32 : BitVec 32 := 128#32
  let v0 : BitVec 32 := Scalar.muli arg0 c128_i32
  let c120_i32 : BitVec 32 := 120#32
  let v1081 : BitVec 32 := Scalar.addi v0 c120_i32
  let v1082 : Index := Scalar.indexCast v1081
  ![v1082.toNat]
def k1_off242 (v1083 : BitVec 32) : Fin 2 → Nat :=
  let c0_i32_483 : BitVec 32 := 0#32
  ![v1083.toNat, 0]

def k1_chk121 (v1083 : BitVec 32) : Prop :=
  (∀ a, (k1_off242 v1083) a + S1x10000.size a ≤ S10000x10000.size a)
instance k1_chk121.dec : ∀ (v1083 : BitVec 32), Decidable (k1_chk121 v1083) := fun v1083 => decidable_of_iff' _ (Iff.of_eq (k1_chk121.eq_1 v1083))
theorem k1_off242_inb : ∀ (v1083 : BitVec 32) (k1_hw121 : k1_chk121 v1083), ∀ a, (k1_off242 v1083) a + S1x10000.size a ≤ S10000x10000.size a := fun v1083 k1_hw121 => k1_hw121

def k1_off243 (i : grid1.Coords) : Fin 1 → Nat :=
  let arg0 : BitVec 32 := BitVec.ofNat 32 (i 0).val
  let c128_i32 : BitVec 32 := 128#32
  let v0 : BitVec 32 := Scalar.muli arg0 c128_i32
  let c121_i32 : BitVec 32 := 121#32
  let v1090 : BitVec 32 := Scalar.addi v0 c121_i32
  let v1091 : Index := Scalar.indexCast v1090
  ![v1091.toNat]
def k1_off244 (v1092 : BitVec 32) : Fin 2 → Nat :=
  let c0_i32_487 : BitVec 32 := 0#32
  ![v1092.toNat, 0]

def k1_chk122 (v1092 : BitVec 32) : Prop :=
  (∀ a, (k1_off244 v1092) a + S1x10000.size a ≤ S10000x10000.size a)
instance k1_chk122.dec : ∀ (v1092 : BitVec 32), Decidable (k1_chk122 v1092) := fun v1092 => decidable_of_iff' _ (Iff.of_eq (k1_chk122.eq_1 v1092))
theorem k1_off244_inb : ∀ (v1092 : BitVec 32) (k1_hw122 : k1_chk122 v1092), ∀ a, (k1_off244 v1092) a + S1x10000.size a ≤ S10000x10000.size a := fun v1092 k1_hw122 => k1_hw122

def k1_off245 (i : grid1.Coords) : Fin 1 → Nat :=
  let arg0 : BitVec 32 := BitVec.ofNat 32 (i 0).val
  let c128_i32 : BitVec 32 := 128#32
  let v0 : BitVec 32 := Scalar.muli arg0 c128_i32
  let c122_i32 : BitVec 32 := 122#32
  let v1099 : BitVec 32 := Scalar.addi v0 c122_i32
  let v1100 : Index := Scalar.indexCast v1099
  ![v1100.toNat]
def k1_off246 (v1101 : BitVec 32) : Fin 2 → Nat :=
  let c0_i32_491 : BitVec 32 := 0#32
  ![v1101.toNat, 0]

def k1_chk123 (v1101 : BitVec 32) : Prop :=
  (∀ a, (k1_off246 v1101) a + S1x10000.size a ≤ S10000x10000.size a)
instance k1_chk123.dec : ∀ (v1101 : BitVec 32), Decidable (k1_chk123 v1101) := fun v1101 => decidable_of_iff' _ (Iff.of_eq (k1_chk123.eq_1 v1101))
theorem k1_off246_inb : ∀ (v1101 : BitVec 32) (k1_hw123 : k1_chk123 v1101), ∀ a, (k1_off246 v1101) a + S1x10000.size a ≤ S10000x10000.size a := fun v1101 k1_hw123 => k1_hw123

def k1_off247 (i : grid1.Coords) : Fin 1 → Nat :=
  let arg0 : BitVec 32 := BitVec.ofNat 32 (i 0).val
  let c128_i32 : BitVec 32 := 128#32
  let v0 : BitVec 32 := Scalar.muli arg0 c128_i32
  let c123_i32 : BitVec 32 := 123#32
  let v1108 : BitVec 32 := Scalar.addi v0 c123_i32
  let v1109 : Index := Scalar.indexCast v1108
  ![v1109.toNat]
def k1_off248 (v1110 : BitVec 32) : Fin 2 → Nat :=
  let c0_i32_495 : BitVec 32 := 0#32
  ![v1110.toNat, 0]

def k1_chk124 (v1110 : BitVec 32) : Prop :=
  (∀ a, (k1_off248 v1110) a + S1x10000.size a ≤ S10000x10000.size a)
instance k1_chk124.dec : ∀ (v1110 : BitVec 32), Decidable (k1_chk124 v1110) := fun v1110 => decidable_of_iff' _ (Iff.of_eq (k1_chk124.eq_1 v1110))
theorem k1_off248_inb : ∀ (v1110 : BitVec 32) (k1_hw124 : k1_chk124 v1110), ∀ a, (k1_off248 v1110) a + S1x10000.size a ≤ S10000x10000.size a := fun v1110 k1_hw124 => k1_hw124

def k1_off249 (i : grid1.Coords) : Fin 1 → Nat :=
  let arg0 : BitVec 32 := BitVec.ofNat 32 (i 0).val
  let c128_i32 : BitVec 32 := 128#32
  let v0 : BitVec 32 := Scalar.muli arg0 c128_i32
  let c124_i32 : BitVec 32 := 124#32
  let v1117 : BitVec 32 := Scalar.addi v0 c124_i32
  let v1118 : Index := Scalar.indexCast v1117
  ![v1118.toNat]
def k1_off250 (v1119 : BitVec 32) : Fin 2 → Nat :=
  let c0_i32_499 : BitVec 32 := 0#32
  ![v1119.toNat, 0]

def k1_chk125 (v1119 : BitVec 32) : Prop :=
  (∀ a, (k1_off250 v1119) a + S1x10000.size a ≤ S10000x10000.size a)
instance k1_chk125.dec : ∀ (v1119 : BitVec 32), Decidable (k1_chk125 v1119) := fun v1119 => decidable_of_iff' _ (Iff.of_eq (k1_chk125.eq_1 v1119))
theorem k1_off250_inb : ∀ (v1119 : BitVec 32) (k1_hw125 : k1_chk125 v1119), ∀ a, (k1_off250 v1119) a + S1x10000.size a ≤ S10000x10000.size a := fun v1119 k1_hw125 => k1_hw125

def k1_off251 (i : grid1.Coords) : Fin 1 → Nat :=
  let arg0 : BitVec 32 := BitVec.ofNat 32 (i 0).val
  let c128_i32 : BitVec 32 := 128#32
  let v0 : BitVec 32 := Scalar.muli arg0 c128_i32
  let c125_i32 : BitVec 32 := 125#32
  let v1126 : BitVec 32 := Scalar.addi v0 c125_i32
  let v1127 : Index := Scalar.indexCast v1126
  ![v1127.toNat]
def k1_off252 (v1128 : BitVec 32) : Fin 2 → Nat :=
  let c0_i32_503 : BitVec 32 := 0#32
  ![v1128.toNat, 0]

def k1_chk126 (v1128 : BitVec 32) : Prop :=
  (∀ a, (k1_off252 v1128) a + S1x10000.size a ≤ S10000x10000.size a)
instance k1_chk126.dec : ∀ (v1128 : BitVec 32), Decidable (k1_chk126 v1128) := fun v1128 => decidable_of_iff' _ (Iff.of_eq (k1_chk126.eq_1 v1128))
theorem k1_off252_inb : ∀ (v1128 : BitVec 32) (k1_hw126 : k1_chk126 v1128), ∀ a, (k1_off252 v1128) a + S1x10000.size a ≤ S10000x10000.size a := fun v1128 k1_hw126 => k1_hw126

def k1_off253 (i : grid1.Coords) : Fin 1 → Nat :=
  let arg0 : BitVec 32 := BitVec.ofNat 32 (i 0).val
  let c128_i32 : BitVec 32 := 128#32
  let v0 : BitVec 32 := Scalar.muli arg0 c128_i32
  let c126_i32 : BitVec 32 := 126#32
  let v1135 : BitVec 32 := Scalar.addi v0 c126_i32
  let v1136 : Index := Scalar.indexCast v1135
  ![v1136.toNat]
def k1_off254 (v1137 : BitVec 32) : Fin 2 → Nat :=
  let c0_i32_507 : BitVec 32 := 0#32
  ![v1137.toNat, 0]

def k1_chk127 (v1137 : BitVec 32) : Prop :=
  (∀ a, (k1_off254 v1137) a + S1x10000.size a ≤ S10000x10000.size a)
instance k1_chk127.dec : ∀ (v1137 : BitVec 32), Decidable (k1_chk127 v1137) := fun v1137 => decidable_of_iff' _ (Iff.of_eq (k1_chk127.eq_1 v1137))
theorem k1_off254_inb : ∀ (v1137 : BitVec 32) (k1_hw127 : k1_chk127 v1137), ∀ a, (k1_off254 v1137) a + S1x10000.size a ≤ S10000x10000.size a := fun v1137 k1_hw127 => k1_hw127

def k1_off255 (i : grid1.Coords) : Fin 1 → Nat :=
  let arg0 : BitVec 32 := BitVec.ofNat 32 (i 0).val
  let c128_i32 : BitVec 32 := 128#32
  let v0 : BitVec 32 := Scalar.muli arg0 c128_i32
  let c127_i32 : BitVec 32 := 127#32
  let v1144 : BitVec 32 := Scalar.addi v0 c127_i32
  let v1145 : Index := Scalar.indexCast v1144
  ![v1145.toNat]
def k1_off256 (v1146 : BitVec 32) : Fin 2 → Nat :=
  let c0_i32_511 : BitVec 32 := 0#32
  ![v1146.toNat, 0]

def k1_chk128 (v1146 : BitVec 32) : Prop :=
  (∀ a, (k1_off256 v1146) a + S1x10000.size a ≤ S10000x10000.size a)
instance k1_chk128.dec : ∀ (v1146 : BitVec 32), Decidable (k1_chk128 v1146) := fun v1146 => decidable_of_iff' _ (Iff.of_eq (k1_chk128.eq_1 v1146))
theorem k1_off256_inb : ∀ (v1146 : BitVec 32) (k1_hw128 : k1_chk128 v1146), ∀ a, (k1_off256 v1146) a + S1x10000.size a ≤ S10000x10000.size a := fun v1146 k1_hw128 => k1_hw128

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x10000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S8192_S8192x1 : S8192.ShapeCasts S8192x1
  inb_S128x10000_S128x10000_0_0 : ∀ a, (![0, 0] : Fin 2 → Nat) a + S128x10000.size a ≤ S128x10000.size a
  h_S128x10000 : 0 < S128x10000.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  reduces_S128x10000_S128 : S128x10000.Reduces [1] S128
  shapeCasts_S128_S128x1 : S128.ShapeCasts S128x1
  broadcasts_S128x1_S128x10000 : S128x1.Broadcasts S128x10000
  iota_S128x10000_d1_w32 : S128x10000.Iotas .tc 32 [1]
  reduces_S128x1_S1 : S128x1.Reduces [0] S1
  shapeCasts_S1_S1x1 : S1.ShapeCasts S1x1
  reduces_S128x10000_S10000 : S128x10000.Reduces [0] S10000
  shapeCasts_S10000_S1x10000 : S10000.ShapeCasts S1x10000
  broadcasts_S1x10000_S128x10000 : S1x10000.Broadcasts S128x10000
  inb_S1x10000_S1x10000_0_0 : ∀ a, (![0, 0] : Fin 2 → Nat) a + S1x10000.size a ≤ S1x10000.size a
  h_S1x10000 : 0 < S1x10000.numel
  inb_S1x1_S1x1_0_0 : ∀ a, (![0, 0] : Fin 2 → Nat) a + S1x1.size a ≤ S1x1.size a
  h_S1x1 : 0 < S1x1.numel
  shapeCasts_S1x10000_S1x10000 : S1x10000.ShapeCasts S1x10000
  shapeCasts_S1x1_S1x1 : S1x1.ShapeCasts S1x1
  numel1_S1 : S1.numel = 1
  inb_S128_S1_0 : ∀ a, (![0] : Fin 1 → Nat) a + S1.size a ≤ S128.size a
  squeezes_S1_S_ : S1.Squeezes S_
  inb_S128x10000_S1x10000_0_0 : ∀ a, (![0, 0] : Fin 2 → Nat) a + S1x10000.size a ≤ S128x10000.size a
  squeezes_S1x10000_S10000 : S1x10000.Squeezes S10000
  inb_S128_S1_1 : ∀ a, (![1] : Fin 1 → Nat) a + S1.size a ≤ S128.size a
  inb_S128x10000_S1x10000_1_0 : ∀ a, (![1, 0] : Fin 2 → Nat) a + S1x10000.size a ≤ S128x10000.size a
  inb_S128_S1_2 : ∀ a, (![2] : Fin 1 → Nat) a + S1.size a ≤ S128.size a
  inb_S128x10000_S1x10000_2_0 : ∀ a, (![2, 0] : Fin 2 → Nat) a + S1x10000.size a ≤ S128x10000.size a
  inb_S128_S1_3 : ∀ a, (![3] : Fin 1 → Nat) a + S1.size a ≤ S128.size a
  inb_S128x10000_S1x10000_3_0 : ∀ a, (![3, 0] : Fin 2 → Nat) a + S1x10000.size a ≤ S128x10000.size a
  inb_S128_S1_4 : ∀ a, (![4] : Fin 1 → Nat) a + S1.size a ≤ S128.size a
  inb_S128x10000_S1x10000_4_0 : ∀ a, (![4, 0] : Fin 2 → Nat) a + S1x10000.size a ≤ S128x10000.size a
  inb_S128_S1_5 : ∀ a, (![5] : Fin 1 → Nat) a + S1.size a ≤ S128.size a
  inb_S128x10000_S1x10000_5_0 : ∀ a, (![5, 0] : Fin 2 → Nat) a + S1x10000.size a ≤ S128x10000.size a
  inb_S128_S1_6 : ∀ a, (![6] : Fin 1 → Nat) a + S1.size a ≤ S128.size a
  inb_S128x10000_S1x10000_6_0 : ∀ a, (![6, 0] : Fin 2 → Nat) a + S1x10000.size a ≤ S128x10000.size a
  inb_S128_S1_7 : ∀ a, (![7] : Fin 1 → Nat) a + S1.size a ≤ S128.size a
  inb_S128x10000_S1x10000_7_0 : ∀ a, (![7, 0] : Fin 2 → Nat) a + S1x10000.size a ≤ S128x10000.size a
  inb_S128_S1_8 : ∀ a, (![8] : Fin 1 → Nat) a + S1.size a ≤ S128.size a
  inb_S128x10000_S1x10000_8_0 : ∀ a, (![8, 0] : Fin 2 → Nat) a + S1x10000.size a ≤ S128x10000.size a
  inb_S128_S1_9 : ∀ a, (![9] : Fin 1 → Nat) a + S1.size a ≤ S128.size a
  inb_S128x10000_S1x10000_9_0 : ∀ a, (![9, 0] : Fin 2 → Nat) a + S1x10000.size a ≤ S128x10000.size a
  inb_S128_S1_10 : ∀ a, (![10] : Fin 1 → Nat) a + S1.size a ≤ S128.size a
  inb_S128x10000_S1x10000_10_0 : ∀ a, (![10, 0] : Fin 2 → Nat) a + S1x10000.size a ≤ S128x10000.size a
  inb_S128_S1_11 : ∀ a, (![11] : Fin 1 → Nat) a + S1.size a ≤ S128.size a
  inb_S128x10000_S1x10000_11_0 : ∀ a, (![11, 0] : Fin 2 → Nat) a + S1x10000.size a ≤ S128x10000.size a
  inb_S128_S1_12 : ∀ a, (![12] : Fin 1 → Nat) a + S1.size a ≤ S128.size a
  inb_S128x10000_S1x10000_12_0 : ∀ a, (![12, 0] : Fin 2 → Nat) a + S1x10000.size a ≤ S128x10000.size a
  inb_S128_S1_13 : ∀ a, (![13] : Fin 1 → Nat) a + S1.size a ≤ S128.size a
  inb_S128x10000_S1x10000_13_0 : ∀ a, (![13, 0] : Fin 2 → Nat) a + S1x10000.size a ≤ S128x10000.size a
  inb_S128_S1_14 : ∀ a, (![14] : Fin 1 → Nat) a + S1.size a ≤ S128.size a
  inb_S128x10000_S1x10000_14_0 : ∀ a, (![14, 0] : Fin 2 → Nat) a + S1x10000.size a ≤ S128x10000.size a
  inb_S128_S1_15 : ∀ a, (![15] : Fin 1 → Nat) a + S1.size a ≤ S128.size a
  inb_S128x10000_S1x10000_15_0 : ∀ a, (![15, 0] : Fin 2 → Nat) a + S1x10000.size a ≤ S128x10000.size a
  inb_S128_S1_16 : ∀ a, (![16] : Fin 1 → Nat) a + S1.size a ≤ S128.size a
  inb_S128x10000_S1x10000_16_0 : ∀ a, (![16, 0] : Fin 2 → Nat) a + S1x10000.size a ≤ S128x10000.size a
  inb_S128_S1_17 : ∀ a, (![17] : Fin 1 → Nat) a + S1.size a ≤ S128.size a
  inb_S128x10000_S1x10000_17_0 : ∀ a, (![17, 0] : Fin 2 → Nat) a + S1x10000.size a ≤ S128x10000.size a
  inb_S128_S1_18 : ∀ a, (![18] : Fin 1 → Nat) a + S1.size a ≤ S128.size a
  inb_S128x10000_S1x10000_18_0 : ∀ a, (![18, 0] : Fin 2 → Nat) a + S1x10000.size a ≤ S128x10000.size a
  inb_S128_S1_19 : ∀ a, (![19] : Fin 1 → Nat) a + S1.size a ≤ S128.size a
  inb_S128x10000_S1x10000_19_0 : ∀ a, (![19, 0] : Fin 2 → Nat) a + S1x10000.size a ≤ S128x10000.size a
  inb_S128_S1_20 : ∀ a, (![20] : Fin 1 → Nat) a + S1.size a ≤ S128.size a
  inb_S128x10000_S1x10000_20_0 : ∀ a, (![20, 0] : Fin 2 → Nat) a + S1x10000.size a ≤ S128x10000.size a
  inb_S128_S1_21 : ∀ a, (![21] : Fin 1 → Nat) a + S1.size a ≤ S128.size a
  inb_S128x10000_S1x10000_21_0 : ∀ a, (![21, 0] : Fin 2 → Nat) a + S1x10000.size a ≤ S128x10000.size a
  inb_S128_S1_22 : ∀ a, (![22] : Fin 1 → Nat) a + S1.size a ≤ S128.size a
  inb_S128x10000_S1x10000_22_0 : ∀ a, (![22, 0] : Fin 2 → Nat) a + S1x10000.size a ≤ S128x10000.size a
  inb_S128_S1_23 : ∀ a, (![23] : Fin 1 → Nat) a + S1.size a ≤ S128.size a
  inb_S128x10000_S1x10000_23_0 : ∀ a, (![23, 0] : Fin 2 → Nat) a + S1x10000.size a ≤ S128x10000.size a
  inb_S128_S1_24 : ∀ a, (![24] : Fin 1 → Nat) a + S1.size a ≤ S128.size a
  inb_S128x10000_S1x10000_24_0 : ∀ a, (![24, 0] : Fin 2 → Nat) a + S1x10000.size a ≤ S128x10000.size a
  inb_S128_S1_25 : ∀ a, (![25] : Fin 1 → Nat) a + S1.size a ≤ S128.size a
  inb_S128x10000_S1x10000_25_0 : ∀ a, (![25, 0] : Fin 2 → Nat) a + S1x10000.size a ≤ S128x10000.size a
  inb_S128_S1_26 : ∀ a, (![26] : Fin 1 → Nat) a + S1.size a ≤ S128.size a
  inb_S128x10000_S1x10000_26_0 : ∀ a, (![26, 0] : Fin 2 → Nat) a + S1x10000.size a ≤ S128x10000.size a
  inb_S128_S1_27 : ∀ a, (![27] : Fin 1 → Nat) a + S1.size a ≤ S128.size a
  inb_S128x10000_S1x10000_27_0 : ∀ a, (![27, 0] : Fin 2 → Nat) a + S1x10000.size a ≤ S128x10000.size a
  inb_S128_S1_28 : ∀ a, (![28] : Fin 1 → Nat) a + S1.size a ≤ S128.size a
  inb_S128x10000_S1x10000_28_0 : ∀ a, (![28, 0] : Fin 2 → Nat) a + S1x10000.size a ≤ S128x10000.size a
  inb_S128_S1_29 : ∀ a, (![29] : Fin 1 → Nat) a + S1.size a ≤ S128.size a
  inb_S128x10000_S1x10000_29_0 : ∀ a, (![29, 0] : Fin 2 → Nat) a + S1x10000.size a ≤ S128x10000.size a
  inb_S128_S1_30 : ∀ a, (![30] : Fin 1 → Nat) a + S1.size a ≤ S128.size a
  inb_S128x10000_S1x10000_30_0 : ∀ a, (![30, 0] : Fin 2 → Nat) a + S1x10000.size a ≤ S128x10000.size a
  inb_S128_S1_31 : ∀ a, (![31] : Fin 1 → Nat) a + S1.size a ≤ S128.size a
  inb_S128x10000_S1x10000_31_0 : ∀ a, (![31, 0] : Fin 2 → Nat) a + S1x10000.size a ≤ S128x10000.size a
  inb_S128_S1_32 : ∀ a, (![32] : Fin 1 → Nat) a + S1.size a ≤ S128.size a
  inb_S128x10000_S1x10000_32_0 : ∀ a, (![32, 0] : Fin 2 → Nat) a + S1x10000.size a ≤ S128x10000.size a
  inb_S128_S1_33 : ∀ a, (![33] : Fin 1 → Nat) a + S1.size a ≤ S128.size a
  inb_S128x10000_S1x10000_33_0 : ∀ a, (![33, 0] : Fin 2 → Nat) a + S1x10000.size a ≤ S128x10000.size a
  inb_S128_S1_34 : ∀ a, (![34] : Fin 1 → Nat) a + S1.size a ≤ S128.size a
  inb_S128x10000_S1x10000_34_0 : ∀ a, (![34, 0] : Fin 2 → Nat) a + S1x10000.size a ≤ S128x10000.size a
  inb_S128_S1_35 : ∀ a, (![35] : Fin 1 → Nat) a + S1.size a ≤ S128.size a
  inb_S128x10000_S1x10000_35_0 : ∀ a, (![35, 0] : Fin 2 → Nat) a + S1x10000.size a ≤ S128x10000.size a
  inb_S128_S1_36 : ∀ a, (![36] : Fin 1 → Nat) a + S1.size a ≤ S128.size a
  inb_S128x10000_S1x10000_36_0 : ∀ a, (![36, 0] : Fin 2 → Nat) a + S1x10000.size a ≤ S128x10000.size a
  inb_S128_S1_37 : ∀ a, (![37] : Fin 1 → Nat) a + S1.size a ≤ S128.size a
  inb_S128x10000_S1x10000_37_0 : ∀ a, (![37, 0] : Fin 2 → Nat) a + S1x10000.size a ≤ S128x10000.size a
  inb_S128_S1_38 : ∀ a, (![38] : Fin 1 → Nat) a + S1.size a ≤ S128.size a
  inb_S128x10000_S1x10000_38_0 : ∀ a, (![38, 0] : Fin 2 → Nat) a + S1x10000.size a ≤ S128x10000.size a
  inb_S128_S1_39 : ∀ a, (![39] : Fin 1 → Nat) a + S1.size a ≤ S128.size a
  inb_S128x10000_S1x10000_39_0 : ∀ a, (![39, 0] : Fin 2 → Nat) a + S1x10000.size a ≤ S128x10000.size a
  inb_S128_S1_40 : ∀ a, (![40] : Fin 1 → Nat) a + S1.size a ≤ S128.size a
  inb_S128x10000_S1x10000_40_0 : ∀ a, (![40, 0] : Fin 2 → Nat) a + S1x10000.size a ≤ S128x10000.size a
  inb_S128_S1_41 : ∀ a, (![41] : Fin 1 → Nat) a + S1.size a ≤ S128.size a
  inb_S128x10000_S1x10000_41_0 : ∀ a, (![41, 0] : Fin 2 → Nat) a + S1x10000.size a ≤ S128x10000.size a
  inb_S128_S1_42 : ∀ a, (![42] : Fin 1 → Nat) a + S1.size a ≤ S128.size a
  inb_S128x10000_S1x10000_42_0 : ∀ a, (![42, 0] : Fin 2 → Nat) a + S1x10000.size a ≤ S128x10000.size a
  inb_S128_S1_43 : ∀ a, (![43] : Fin 1 → Nat) a + S1.size a ≤ S128.size a
  inb_S128x10000_S1x10000_43_0 : ∀ a, (![43, 0] : Fin 2 → Nat) a + S1x10000.size a ≤ S128x10000.size a
  inb_S128_S1_44 : ∀ a, (![44] : Fin 1 → Nat) a + S1.size a ≤ S128.size a
  inb_S128x10000_S1x10000_44_0 : ∀ a, (![44, 0] : Fin 2 → Nat) a + S1x10000.size a ≤ S128x10000.size a
  inb_S128_S1_45 : ∀ a, (![45] : Fin 1 → Nat) a + S1.size a ≤ S128.size a
  inb_S128x10000_S1x10000_45_0 : ∀ a, (![45, 0] : Fin 2 → Nat) a + S1x10000.size a ≤ S128x10000.size a
  inb_S128_S1_46 : ∀ a, (![46] : Fin 1 → Nat) a + S1.size a ≤ S128.size a
  inb_S128x10000_S1x10000_46_0 : ∀ a, (![46, 0] : Fin 2 → Nat) a + S1x10000.size a ≤ S128x10000.size a
  inb_S128_S1_47 : ∀ a, (![47] : Fin 1 → Nat) a + S1.size a ≤ S128.size a
  inb_S128x10000_S1x10000_47_0 : ∀ a, (![47, 0] : Fin 2 → Nat) a + S1x10000.size a ≤ S128x10000.size a
  inb_S128_S1_48 : ∀ a, (![48] : Fin 1 → Nat) a + S1.size a ≤ S128.size a
  inb_S128x10000_S1x10000_48_0 : ∀ a, (![48, 0] : Fin 2 → Nat) a + S1x10000.size a ≤ S128x10000.size a
  inb_S128_S1_49 : ∀ a, (![49] : Fin 1 → Nat) a + S1.size a ≤ S128.size a
  inb_S128x10000_S1x10000_49_0 : ∀ a, (![49, 0] : Fin 2 → Nat) a + S1x10000.size a ≤ S128x10000.size a
  inb_S128_S1_50 : ∀ a, (![50] : Fin 1 → Nat) a + S1.size a ≤ S128.size a
  inb_S128x10000_S1x10000_50_0 : ∀ a, (![50, 0] : Fin 2 → Nat) a + S1x10000.size a ≤ S128x10000.size a
  inb_S128_S1_51 : ∀ a, (![51] : Fin 1 → Nat) a + S1.size a ≤ S128.size a
  inb_S128x10000_S1x10000_51_0 : ∀ a, (![51, 0] : Fin 2 → Nat) a + S1x10000.size a ≤ S128x10000.size a
  inb_S128_S1_52 : ∀ a, (![52] : Fin 1 → Nat) a + S1.size a ≤ S128.size a
  inb_S128x10000_S1x10000_52_0 : ∀ a, (![52, 0] : Fin 2 → Nat) a + S1x10000.size a ≤ S128x10000.size a
  inb_S128_S1_53 : ∀ a, (![53] : Fin 1 → Nat) a + S1.size a ≤ S128.size a
  inb_S128x10000_S1x10000_53_0 : ∀ a, (![53, 0] : Fin 2 → Nat) a + S1x10000.size a ≤ S128x10000.size a
  inb_S128_S1_54 : ∀ a, (![54] : Fin 1 → Nat) a + S1.size a ≤ S128.size a
  inb_S128x10000_S1x10000_54_0 : ∀ a, (![54, 0] : Fin 2 → Nat) a + S1x10000.size a ≤ S128x10000.size a
  inb_S128_S1_55 : ∀ a, (![55] : Fin 1 → Nat) a + S1.size a ≤ S128.size a
  inb_S128x10000_S1x10000_55_0 : ∀ a, (![55, 0] : Fin 2 → Nat) a + S1x10000.size a ≤ S128x10000.size a
  inb_S128_S1_56 : ∀ a, (![56] : Fin 1 → Nat) a + S1.size a ≤ S128.size a
  inb_S128x10000_S1x10000_56_0 : ∀ a, (![56, 0] : Fin 2 → Nat) a + S1x10000.size a ≤ S128x10000.size a
  inb_S128_S1_57 : ∀ a, (![57] : Fin 1 → Nat) a + S1.size a ≤ S128.size a
  inb_S128x10000_S1x10000_57_0 : ∀ a, (![57, 0] : Fin 2 → Nat) a + S1x10000.size a ≤ S128x10000.size a
  inb_S128_S1_58 : ∀ a, (![58] : Fin 1 → Nat) a + S1.size a ≤ S128.size a
  inb_S128x10000_S1x10000_58_0 : ∀ a, (![58, 0] : Fin 2 → Nat) a + S1x10000.size a ≤ S128x10000.size a
  inb_S128_S1_59 : ∀ a, (![59] : Fin 1 → Nat) a + S1.size a ≤ S128.size a
  inb_S128x10000_S1x10000_59_0 : ∀ a, (![59, 0] : Fin 2 → Nat) a + S1x10000.size a ≤ S128x10000.size a
  inb_S128_S1_60 : ∀ a, (![60] : Fin 1 → Nat) a + S1.size a ≤ S128.size a
  inb_S128x10000_S1x10000_60_0 : ∀ a, (![60, 0] : Fin 2 → Nat) a + S1x10000.size a ≤ S128x10000.size a
  inb_S128_S1_61 : ∀ a, (![61] : Fin 1 → Nat) a + S1.size a ≤ S128.size a
  inb_S128x10000_S1x10000_61_0 : ∀ a, (![61, 0] : Fin 2 → Nat) a + S1x10000.size a ≤ S128x10000.size a
  inb_S128_S1_62 : ∀ a, (![62] : Fin 1 → Nat) a + S1.size a ≤ S128.size a
  inb_S128x10000_S1x10000_62_0 : ∀ a, (![62, 0] : Fin 2 → Nat) a + S1x10000.size a ≤ S128x10000.size a
  inb_S128_S1_63 : ∀ a, (![63] : Fin 1 → Nat) a + S1.size a ≤ S128.size a
  inb_S128x10000_S1x10000_63_0 : ∀ a, (![63, 0] : Fin 2 → Nat) a + S1x10000.size a ≤ S128x10000.size a
  inb_S128_S1_64 : ∀ a, (![64] : Fin 1 → Nat) a + S1.size a ≤ S128.size a
  inb_S128x10000_S1x10000_64_0 : ∀ a, (![64, 0] : Fin 2 → Nat) a + S1x10000.size a ≤ S128x10000.size a
  inb_S128_S1_65 : ∀ a, (![65] : Fin 1 → Nat) a + S1.size a ≤ S128.size a
  inb_S128x10000_S1x10000_65_0 : ∀ a, (![65, 0] : Fin 2 → Nat) a + S1x10000.size a ≤ S128x10000.size a
  inb_S128_S1_66 : ∀ a, (![66] : Fin 1 → Nat) a + S1.size a ≤ S128.size a
  inb_S128x10000_S1x10000_66_0 : ∀ a, (![66, 0] : Fin 2 → Nat) a + S1x10000.size a ≤ S128x10000.size a
  inb_S128_S1_67 : ∀ a, (![67] : Fin 1 → Nat) a + S1.size a ≤ S128.size a
  inb_S128x10000_S1x10000_67_0 : ∀ a, (![67, 0] : Fin 2 → Nat) a + S1x10000.size a ≤ S128x10000.size a
  inb_S128_S1_68 : ∀ a, (![68] : Fin 1 → Nat) a + S1.size a ≤ S128.size a
  inb_S128x10000_S1x10000_68_0 : ∀ a, (![68, 0] : Fin 2 → Nat) a + S1x10000.size a ≤ S128x10000.size a
  inb_S128_S1_69 : ∀ a, (![69] : Fin 1 → Nat) a + S1.size a ≤ S128.size a
  inb_S128x10000_S1x10000_69_0 : ∀ a, (![69, 0] : Fin 2 → Nat) a + S1x10000.size a ≤ S128x10000.size a
  inb_S128_S1_70 : ∀ a, (![70] : Fin 1 → Nat) a + S1.size a ≤ S128.size a
  inb_S128x10000_S1x10000_70_0 : ∀ a, (![70, 0] : Fin 2 → Nat) a + S1x10000.size a ≤ S128x10000.size a
  inb_S128_S1_71 : ∀ a, (![71] : Fin 1 → Nat) a + S1.size a ≤ S128.size a
  inb_S128x10000_S1x10000_71_0 : ∀ a, (![71, 0] : Fin 2 → Nat) a + S1x10000.size a ≤ S128x10000.size a
  inb_S128_S1_72 : ∀ a, (![72] : Fin 1 → Nat) a + S1.size a ≤ S128.size a
  inb_S128x10000_S1x10000_72_0 : ∀ a, (![72, 0] : Fin 2 → Nat) a + S1x10000.size a ≤ S128x10000.size a
  inb_S128_S1_73 : ∀ a, (![73] : Fin 1 → Nat) a + S1.size a ≤ S128.size a
  inb_S128x10000_S1x10000_73_0 : ∀ a, (![73, 0] : Fin 2 → Nat) a + S1x10000.size a ≤ S128x10000.size a
  inb_S128_S1_74 : ∀ a, (![74] : Fin 1 → Nat) a + S1.size a ≤ S128.size a
  inb_S128x10000_S1x10000_74_0 : ∀ a, (![74, 0] : Fin 2 → Nat) a + S1x10000.size a ≤ S128x10000.size a
  inb_S128_S1_75 : ∀ a, (![75] : Fin 1 → Nat) a + S1.size a ≤ S128.size a
  inb_S128x10000_S1x10000_75_0 : ∀ a, (![75, 0] : Fin 2 → Nat) a + S1x10000.size a ≤ S128x10000.size a
  inb_S128_S1_76 : ∀ a, (![76] : Fin 1 → Nat) a + S1.size a ≤ S128.size a
  inb_S128x10000_S1x10000_76_0 : ∀ a, (![76, 0] : Fin 2 → Nat) a + S1x10000.size a ≤ S128x10000.size a
  inb_S128_S1_77 : ∀ a, (![77] : Fin 1 → Nat) a + S1.size a ≤ S128.size a
  inb_S128x10000_S1x10000_77_0 : ∀ a, (![77, 0] : Fin 2 → Nat) a + S1x10000.size a ≤ S128x10000.size a
  inb_S128_S1_78 : ∀ a, (![78] : Fin 1 → Nat) a + S1.size a ≤ S128.size a
  inb_S128x10000_S1x10000_78_0 : ∀ a, (![78, 0] : Fin 2 → Nat) a + S1x10000.size a ≤ S128x10000.size a
  inb_S128_S1_79 : ∀ a, (![79] : Fin 1 → Nat) a + S1.size a ≤ S128.size a
  inb_S128x10000_S1x10000_79_0 : ∀ a, (![79, 0] : Fin 2 → Nat) a + S1x10000.size a ≤ S128x10000.size a
  inb_S128_S1_80 : ∀ a, (![80] : Fin 1 → Nat) a + S1.size a ≤ S128.size a
  inb_S128x10000_S1x10000_80_0 : ∀ a, (![80, 0] : Fin 2 → Nat) a + S1x10000.size a ≤ S128x10000.size a
  inb_S128_S1_81 : ∀ a, (![81] : Fin 1 → Nat) a + S1.size a ≤ S128.size a
  inb_S128x10000_S1x10000_81_0 : ∀ a, (![81, 0] : Fin 2 → Nat) a + S1x10000.size a ≤ S128x10000.size a
  inb_S128_S1_82 : ∀ a, (![82] : Fin 1 → Nat) a + S1.size a ≤ S128.size a
  inb_S128x10000_S1x10000_82_0 : ∀ a, (![82, 0] : Fin 2 → Nat) a + S1x10000.size a ≤ S128x10000.size a
  inb_S128_S1_83 : ∀ a, (![83] : Fin 1 → Nat) a + S1.size a ≤ S128.size a
  inb_S128x10000_S1x10000_83_0 : ∀ a, (![83, 0] : Fin 2 → Nat) a + S1x10000.size a ≤ S128x10000.size a
  inb_S128_S1_84 : ∀ a, (![84] : Fin 1 → Nat) a + S1.size a ≤ S128.size a
  inb_S128x10000_S1x10000_84_0 : ∀ a, (![84, 0] : Fin 2 → Nat) a + S1x10000.size a ≤ S128x10000.size a
  inb_S128_S1_85 : ∀ a, (![85] : Fin 1 → Nat) a + S1.size a ≤ S128.size a
  inb_S128x10000_S1x10000_85_0 : ∀ a, (![85, 0] : Fin 2 → Nat) a + S1x10000.size a ≤ S128x10000.size a
  inb_S128_S1_86 : ∀ a, (![86] : Fin 1 → Nat) a + S1.size a ≤ S128.size a
  inb_S128x10000_S1x10000_86_0 : ∀ a, (![86, 0] : Fin 2 → Nat) a + S1x10000.size a ≤ S128x10000.size a
  inb_S128_S1_87 : ∀ a, (![87] : Fin 1 → Nat) a + S1.size a ≤ S128.size a
  inb_S128x10000_S1x10000_87_0 : ∀ a, (![87, 0] : Fin 2 → Nat) a + S1x10000.size a ≤ S128x10000.size a
  inb_S128_S1_88 : ∀ a, (![88] : Fin 1 → Nat) a + S1.size a ≤ S128.size a
  inb_S128x10000_S1x10000_88_0 : ∀ a, (![88, 0] : Fin 2 → Nat) a + S1x10000.size a ≤ S128x10000.size a
  inb_S128_S1_89 : ∀ a, (![89] : Fin 1 → Nat) a + S1.size a ≤ S128.size a
  inb_S128x10000_S1x10000_89_0 : ∀ a, (![89, 0] : Fin 2 → Nat) a + S1x10000.size a ≤ S128x10000.size a
  inb_S128_S1_90 : ∀ a, (![90] : Fin 1 → Nat) a + S1.size a ≤ S128.size a
  inb_S128x10000_S1x10000_90_0 : ∀ a, (![90, 0] : Fin 2 → Nat) a + S1x10000.size a ≤ S128x10000.size a
  inb_S128_S1_91 : ∀ a, (![91] : Fin 1 → Nat) a + S1.size a ≤ S128.size a
  inb_S128x10000_S1x10000_91_0 : ∀ a, (![91, 0] : Fin 2 → Nat) a + S1x10000.size a ≤ S128x10000.size a
  inb_S128_S1_92 : ∀ a, (![92] : Fin 1 → Nat) a + S1.size a ≤ S128.size a
  inb_S128x10000_S1x10000_92_0 : ∀ a, (![92, 0] : Fin 2 → Nat) a + S1x10000.size a ≤ S128x10000.size a
  inb_S128_S1_93 : ∀ a, (![93] : Fin 1 → Nat) a + S1.size a ≤ S128.size a
  inb_S128x10000_S1x10000_93_0 : ∀ a, (![93, 0] : Fin 2 → Nat) a + S1x10000.size a ≤ S128x10000.size a
  inb_S128_S1_94 : ∀ a, (![94] : Fin 1 → Nat) a + S1.size a ≤ S128.size a
  inb_S128x10000_S1x10000_94_0 : ∀ a, (![94, 0] : Fin 2 → Nat) a + S1x10000.size a ≤ S128x10000.size a
  inb_S128_S1_95 : ∀ a, (![95] : Fin 1 → Nat) a + S1.size a ≤ S128.size a
  inb_S128x10000_S1x10000_95_0 : ∀ a, (![95, 0] : Fin 2 → Nat) a + S1x10000.size a ≤ S128x10000.size a
  inb_S128_S1_96 : ∀ a, (![96] : Fin 1 → Nat) a + S1.size a ≤ S128.size a
  inb_S128x10000_S1x10000_96_0 : ∀ a, (![96, 0] : Fin 2 → Nat) a + S1x10000.size a ≤ S128x10000.size a
  inb_S128_S1_97 : ∀ a, (![97] : Fin 1 → Nat) a + S1.size a ≤ S128.size a
  inb_S128x10000_S1x10000_97_0 : ∀ a, (![97, 0] : Fin 2 → Nat) a + S1x10000.size a ≤ S128x10000.size a
  inb_S128_S1_98 : ∀ a, (![98] : Fin 1 → Nat) a + S1.size a ≤ S128.size a
  inb_S128x10000_S1x10000_98_0 : ∀ a, (![98, 0] : Fin 2 → Nat) a + S1x10000.size a ≤ S128x10000.size a
  inb_S128_S1_99 : ∀ a, (![99] : Fin 1 → Nat) a + S1.size a ≤ S128.size a
  inb_S128x10000_S1x10000_99_0 : ∀ a, (![99, 0] : Fin 2 → Nat) a + S1x10000.size a ≤ S128x10000.size a
  inb_S128_S1_100 : ∀ a, (![100] : Fin 1 → Nat) a + S1.size a ≤ S128.size a
  inb_S128x10000_S1x10000_100_0 : ∀ a, (![100, 0] : Fin 2 → Nat) a + S1x10000.size a ≤ S128x10000.size a
  inb_S128_S1_101 : ∀ a, (![101] : Fin 1 → Nat) a + S1.size a ≤ S128.size a
  inb_S128x10000_S1x10000_101_0 : ∀ a, (![101, 0] : Fin 2 → Nat) a + S1x10000.size a ≤ S128x10000.size a
  inb_S128_S1_102 : ∀ a, (![102] : Fin 1 → Nat) a + S1.size a ≤ S128.size a
  inb_S128x10000_S1x10000_102_0 : ∀ a, (![102, 0] : Fin 2 → Nat) a + S1x10000.size a ≤ S128x10000.size a
  inb_S128_S1_103 : ∀ a, (![103] : Fin 1 → Nat) a + S1.size a ≤ S128.size a
  inb_S128x10000_S1x10000_103_0 : ∀ a, (![103, 0] : Fin 2 → Nat) a + S1x10000.size a ≤ S128x10000.size a
  inb_S128_S1_104 : ∀ a, (![104] : Fin 1 → Nat) a + S1.size a ≤ S128.size a
  inb_S128x10000_S1x10000_104_0 : ∀ a, (![104, 0] : Fin 2 → Nat) a + S1x10000.size a ≤ S128x10000.size a
  inb_S128_S1_105 : ∀ a, (![105] : Fin 1 → Nat) a + S1.size a ≤ S128.size a
  inb_S128x10000_S1x10000_105_0 : ∀ a, (![105, 0] : Fin 2 → Nat) a + S1x10000.size a ≤ S128x10000.size a
  inb_S128_S1_106 : ∀ a, (![106] : Fin 1 → Nat) a + S1.size a ≤ S128.size a
  inb_S128x10000_S1x10000_106_0 : ∀ a, (![106, 0] : Fin 2 → Nat) a + S1x10000.size a ≤ S128x10000.size a
  inb_S128_S1_107 : ∀ a, (![107] : Fin 1 → Nat) a + S1.size a ≤ S128.size a
  inb_S128x10000_S1x10000_107_0 : ∀ a, (![107, 0] : Fin 2 → Nat) a + S1x10000.size a ≤ S128x10000.size a
  inb_S128_S1_108 : ∀ a, (![108] : Fin 1 → Nat) a + S1.size a ≤ S128.size a
  inb_S128x10000_S1x10000_108_0 : ∀ a, (![108, 0] : Fin 2 → Nat) a + S1x10000.size a ≤ S128x10000.size a
  inb_S128_S1_109 : ∀ a, (![109] : Fin 1 → Nat) a + S1.size a ≤ S128.size a
  inb_S128x10000_S1x10000_109_0 : ∀ a, (![109, 0] : Fin 2 → Nat) a + S1x10000.size a ≤ S128x10000.size a
  inb_S128_S1_110 : ∀ a, (![110] : Fin 1 → Nat) a + S1.size a ≤ S128.size a
  inb_S128x10000_S1x10000_110_0 : ∀ a, (![110, 0] : Fin 2 → Nat) a + S1x10000.size a ≤ S128x10000.size a
  inb_S128_S1_111 : ∀ a, (![111] : Fin 1 → Nat) a + S1.size a ≤ S128.size a
  inb_S128x10000_S1x10000_111_0 : ∀ a, (![111, 0] : Fin 2 → Nat) a + S1x10000.size a ≤ S128x10000.size a
  inb_S128_S1_112 : ∀ a, (![112] : Fin 1 → Nat) a + S1.size a ≤ S128.size a
  inb_S128x10000_S1x10000_112_0 : ∀ a, (![112, 0] : Fin 2 → Nat) a + S1x10000.size a ≤ S128x10000.size a
  inb_S128_S1_113 : ∀ a, (![113] : Fin 1 → Nat) a + S1.size a ≤ S128.size a
  inb_S128x10000_S1x10000_113_0 : ∀ a, (![113, 0] : Fin 2 → Nat) a + S1x10000.size a ≤ S128x10000.size a
  inb_S128_S1_114 : ∀ a, (![114] : Fin 1 → Nat) a + S1.size a ≤ S128.size a
  inb_S128x10000_S1x10000_114_0 : ∀ a, (![114, 0] : Fin 2 → Nat) a + S1x10000.size a ≤ S128x10000.size a
  inb_S128_S1_115 : ∀ a, (![115] : Fin 1 → Nat) a + S1.size a ≤ S128.size a
  inb_S128x10000_S1x10000_115_0 : ∀ a, (![115, 0] : Fin 2 → Nat) a + S1x10000.size a ≤ S128x10000.size a
  inb_S128_S1_116 : ∀ a, (![116] : Fin 1 → Nat) a + S1.size a ≤ S128.size a
  inb_S128x10000_S1x10000_116_0 : ∀ a, (![116, 0] : Fin 2 → Nat) a + S1x10000.size a ≤ S128x10000.size a
  inb_S128_S1_117 : ∀ a, (![117] : Fin 1 → Nat) a + S1.size a ≤ S128.size a
  inb_S128x10000_S1x10000_117_0 : ∀ a, (![117, 0] : Fin 2 → Nat) a + S1x10000.size a ≤ S128x10000.size a
  inb_S128_S1_118 : ∀ a, (![118] : Fin 1 → Nat) a + S1.size a ≤ S128.size a
  inb_S128x10000_S1x10000_118_0 : ∀ a, (![118, 0] : Fin 2 → Nat) a + S1x10000.size a ≤ S128x10000.size a
  inb_S128_S1_119 : ∀ a, (![119] : Fin 1 → Nat) a + S1.size a ≤ S128.size a
  inb_S128x10000_S1x10000_119_0 : ∀ a, (![119, 0] : Fin 2 → Nat) a + S1x10000.size a ≤ S128x10000.size a
  inb_S128_S1_120 : ∀ a, (![120] : Fin 1 → Nat) a + S1.size a ≤ S128.size a
  inb_S128x10000_S1x10000_120_0 : ∀ a, (![120, 0] : Fin 2 → Nat) a + S1x10000.size a ≤ S128x10000.size a
  inb_S128_S1_121 : ∀ a, (![121] : Fin 1 → Nat) a + S1.size a ≤ S128.size a
  inb_S128x10000_S1x10000_121_0 : ∀ a, (![121, 0] : Fin 2 → Nat) a + S1x10000.size a ≤ S128x10000.size a
  inb_S128_S1_122 : ∀ a, (![122] : Fin 1 → Nat) a + S1.size a ≤ S128.size a
  inb_S128x10000_S1x10000_122_0 : ∀ a, (![122, 0] : Fin 2 → Nat) a + S1x10000.size a ≤ S128x10000.size a
  inb_S128_S1_123 : ∀ a, (![123] : Fin 1 → Nat) a + S1.size a ≤ S128.size a
  inb_S128x10000_S1x10000_123_0 : ∀ a, (![123, 0] : Fin 2 → Nat) a + S1x10000.size a ≤ S128x10000.size a
  inb_S128_S1_124 : ∀ a, (![124] : Fin 1 → Nat) a + S1.size a ≤ S128.size a
  inb_S128x10000_S1x10000_124_0 : ∀ a, (![124, 0] : Fin 2 → Nat) a + S1x10000.size a ≤ S128x10000.size a
  inb_S128_S1_125 : ∀ a, (![125] : Fin 1 → Nat) a + S1.size a ≤ S128.size a
  inb_S128x10000_S1x10000_125_0 : ∀ a, (![125, 0] : Fin 2 → Nat) a + S1x10000.size a ≤ S128x10000.size a
  inb_S128_S1_126 : ∀ a, (![126] : Fin 1 → Nat) a + S1.size a ≤ S128.size a
  inb_S128x10000_S1x10000_126_0 : ∀ a, (![126, 0] : Fin 2 → Nat) a + S1x10000.size a ≤ S128x10000.size a
  inb_S128_S1_127 : ∀ a, (![127] : Fin 1 → Nat) a + S1.size a ≤ S128.size a
  inb_S128x10000_S1x10000_127_0 : ∀ a, (![127, 0] : Fin 2 → Nat) a + S1x10000.size a ≤ S128x10000.size a
  inb_S10000x10000_S1x10000_0_0 : ∀ a, (![0, 0] : Fin 2 → Nat) a + S1x10000.size a ≤ S10000x10000.size a
  shapeCasts_S1x1_S_ : S1x1.ShapeCasts S_
  hcc1_scratch1 : 11 + S128.numel ≤ 139
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x10000.size a ≤ S8192x10000.size a
  hwx0_0 : ∀ i : grid0.Coords, EltTy.bits .f32 = 32 ∨ (Rect.block (s := S8192x10000) S128x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .i32 = 32 ∨ (Rect.block (s := S8192x1) S128x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10000.size a ≤ S1x10000.size a
  hwx0_2 : ∀ i : grid0.Coords, EltTy.bits .f32 = 32 ∨ (Rect.block (s := S1x10000) S1x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10000.size a ≤ S1x10000.size a
  hwx0_3 : ∀ i : grid0.Coords, EltTy.bits .f32 = 32 ∨ (Rect.block (s := S1x10000) S1x10000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  k1_off1_inb : ∀ i : grid1.Coords, ∀ a, (k1_off1 i) a + S1.size a ≤ S8192.size a
  k1_off3_inb : ∀ i : grid1.Coords, ∀ a, (k1_off3 i) a + S1.size a ≤ S8192.size a
  k1_off5_inb : ∀ i : grid1.Coords, ∀ a, (k1_off5 i) a + S1.size a ≤ S8192.size a
  k1_off7_inb : ∀ i : grid1.Coords, ∀ a, (k1_off7 i) a + S1.size a ≤ S8192.size a
  k1_off9_inb : ∀ i : grid1.Coords, ∀ a, (k1_off9 i) a + S1.size a ≤ S8192.size a
  k1_off11_inb : ∀ i : grid1.Coords, ∀ a, (k1_off11 i) a + S1.size a ≤ S8192.size a
  k1_off13_inb : ∀ i : grid1.Coords, ∀ a, (k1_off13 i) a + S1.size a ≤ S8192.size a
  k1_off15_inb : ∀ i : grid1.Coords, ∀ a, (k1_off15 i) a + S1.size a ≤ S8192.size a
  k1_off17_inb : ∀ i : grid1.Coords, ∀ a, (k1_off17 i) a + S1.size a ≤ S8192.size a
  k1_off19_inb : ∀ i : grid1.Coords, ∀ a, (k1_off19 i) a + S1.size a ≤ S8192.size a
  k1_off21_inb : ∀ i : grid1.Coords, ∀ a, (k1_off21 i) a + S1.size a ≤ S8192.size a
  k1_off23_inb : ∀ i : grid1.Coords, ∀ a, (k1_off23 i) a + S1.size a ≤ S8192.size a
  k1_off25_inb : ∀ i : grid1.Coords, ∀ a, (k1_off25 i) a + S1.size a ≤ S8192.size a
  k1_off27_inb : ∀ i : grid1.Coords, ∀ a, (k1_off27 i) a + S1.size a ≤ S8192.size a
  k1_off29_inb : ∀ i : grid1.Coords, ∀ a, (k1_off29 i) a + S1.size a ≤ S8192.size a
  k1_off31_inb : ∀ i : grid1.Coords, ∀ a, (k1_off31 i) a + S1.size a ≤ S8192.size a
  k1_off33_inb : ∀ i : grid1.Coords, ∀ a, (k1_off33 i) a + S1.size a ≤ S8192.size a
  k1_off35_inb : ∀ i : grid1.Coords, ∀ a, (k1_off35 i) a + S1.size a ≤ S8192.size a
  k1_off37_inb : ∀ i : grid1.Coords, ∀ a, (k1_off37 i) a + S1.size a ≤ S8192.size a
  k1_off39_inb : ∀ i : grid1.Coords, ∀ a, (k1_off39 i) a + S1.size a ≤ S8192.size a
  k1_off41_inb : ∀ i : grid1.Coords, ∀ a, (k1_off41 i) a + S1.size a ≤ S8192.size a
  k1_off43_inb : ∀ i : grid1.Coords, ∀ a, (k1_off43 i) a + S1.size a ≤ S8192.size a
  k1_off45_inb : ∀ i : grid1.Coords, ∀ a, (k1_off45 i) a + S1.size a ≤ S8192.size a
  k1_off47_inb : ∀ i : grid1.Coords, ∀ a, (k1_off47 i) a + S1.size a ≤ S8192.size a
  k1_off49_inb : ∀ i : grid1.Coords, ∀ a, (k1_off49 i) a + S1.size a ≤ S8192.size a
  k1_off51_inb : ∀ i : grid1.Coords, ∀ a, (k1_off51 i) a + S1.size a ≤ S8192.size a
  k1_off53_inb : ∀ i : grid1.Coords, ∀ a, (k1_off53 i) a + S1.size a ≤ S8192.size a
  k1_off55_inb : ∀ i : grid1.Coords, ∀ a, (k1_off55 i) a + S1.size a ≤ S8192.size a
  k1_off57_inb : ∀ i : grid1.Coords, ∀ a, (k1_off57 i) a + S1.size a ≤ S8192.size a
  k1_off59_inb : ∀ i : grid1.Coords, ∀ a, (k1_off59 i) a + S1.size a ≤ S8192.size a
  k1_off61_inb : ∀ i : grid1.Coords, ∀ a, (k1_off61 i) a + S1.size a ≤ S8192.size a
  k1_off63_inb : ∀ i : grid1.Coords, ∀ a, (k1_off63 i) a + S1.size a ≤ S8192.size a
  k1_off65_inb : ∀ i : grid1.Coords, ∀ a, (k1_off65 i) a + S1.size a ≤ S8192.size a
  k1_off67_inb : ∀ i : grid1.Coords, ∀ a, (k1_off67 i) a + S1.size a ≤ S8192.size a
  k1_off69_inb : ∀ i : grid1.Coords, ∀ a, (k1_off69 i) a + S1.size a ≤ S8192.size a
  k1_off71_inb : ∀ i : grid1.Coords, ∀ a, (k1_off71 i) a + S1.size a ≤ S8192.size a
  k1_off73_inb : ∀ i : grid1.Coords, ∀ a, (k1_off73 i) a + S1.size a ≤ S8192.size a
  k1_off75_inb : ∀ i : grid1.Coords, ∀ a, (k1_off75 i) a + S1.size a ≤ S8192.size a
  k1_off77_inb : ∀ i : grid1.Coords, ∀ a, (k1_off77 i) a + S1.size a ≤ S8192.size a
  k1_off79_inb : ∀ i : grid1.Coords, ∀ a, (k1_off79 i) a + S1.size a ≤ S8192.size a
  k1_off81_inb : ∀ i : grid1.Coords, ∀ a, (k1_off81 i) a + S1.size a ≤ S8192.size a
  k1_off83_inb : ∀ i : grid1.Coords, ∀ a, (k1_off83 i) a + S1.size a ≤ S8192.size a
  k1_off85_inb : ∀ i : grid1.Coords, ∀ a, (k1_off85 i) a + S1.size a ≤ S8192.size a
  k1_off87_inb : ∀ i : grid1.Coords, ∀ a, (k1_off87 i) a + S1.size a ≤ S8192.size a
  k1_off89_inb : ∀ i : grid1.Coords, ∀ a, (k1_off89 i) a + S1.size a ≤ S8192.size a
  k1_off91_inb : ∀ i : grid1.Coords, ∀ a, (k1_off91 i) a + S1.size a ≤ S8192.size a
  k1_off93_inb : ∀ i : grid1.Coords, ∀ a, (k1_off93 i) a + S1.size a ≤ S8192.size a
  k1_off95_inb : ∀ i : grid1.Coords, ∀ a, (k1_off95 i) a + S1.size a ≤ S8192.size a
  k1_off97_inb : ∀ i : grid1.Coords, ∀ a, (k1_off97 i) a + S1.size a ≤ S8192.size a
  k1_off99_inb : ∀ i : grid1.Coords, ∀ a, (k1_off99 i) a + S1.size a ≤ S8192.size a
  k1_off101_inb : ∀ i : grid1.Coords, ∀ a, (k1_off101 i) a + S1.size a ≤ S8192.size a
  k1_off103_inb : ∀ i : grid1.Coords, ∀ a, (k1_off103 i) a + S1.size a ≤ S8192.size a
  k1_off105_inb : ∀ i : grid1.Coords, ∀ a, (k1_off105 i) a + S1.size a ≤ S8192.size a
  k1_off107_inb : ∀ i : grid1.Coords, ∀ a, (k1_off107 i) a + S1.size a ≤ S8192.size a
  k1_off109_inb : ∀ i : grid1.Coords, ∀ a, (k1_off109 i) a + S1.size a ≤ S8192.size a
  k1_off111_inb : ∀ i : grid1.Coords, ∀ a, (k1_off111 i) a + S1.size a ≤ S8192.size a
  k1_off113_inb : ∀ i : grid1.Coords, ∀ a, (k1_off113 i) a + S1.size a ≤ S8192.size a
  k1_off115_inb : ∀ i : grid1.Coords, ∀ a, (k1_off115 i) a + S1.size a ≤ S8192.size a
  k1_off117_inb : ∀ i : grid1.Coords, ∀ a, (k1_off117 i) a + S1.size a ≤ S8192.size a
  k1_off119_inb : ∀ i : grid1.Coords, ∀ a, (k1_off119 i) a + S1.size a ≤ S8192.size a
  k1_off121_inb : ∀ i : grid1.Coords, ∀ a, (k1_off121 i) a + S1.size a ≤ S8192.size a
  k1_off123_inb : ∀ i : grid1.Coords, ∀ a, (k1_off123 i) a + S1.size a ≤ S8192.size a
  k1_off125_inb : ∀ i : grid1.Coords, ∀ a, (k1_off125 i) a + S1.size a ≤ S8192.size a
  k1_off127_inb : ∀ i : grid1.Coords, ∀ a, (k1_off127 i) a + S1.size a ≤ S8192.size a
  k1_off129_inb : ∀ i : grid1.Coords, ∀ a, (k1_off129 i) a + S1.size a ≤ S8192.size a
  k1_off131_inb : ∀ i : grid1.Coords, ∀ a, (k1_off131 i) a + S1.size a ≤ S8192.size a
  k1_off133_inb : ∀ i : grid1.Coords, ∀ a, (k1_off133 i) a + S1.size a ≤ S8192.size a
  k1_off135_inb : ∀ i : grid1.Coords, ∀ a, (k1_off135 i) a + S1.size a ≤ S8192.size a
  k1_off137_inb : ∀ i : grid1.Coords, ∀ a, (k1_off137 i) a + S1.size a ≤ S8192.size a
  k1_off139_inb : ∀ i : grid1.Coords, ∀ a, (k1_off139 i) a + S1.size a ≤ S8192.size a
  k1_off141_inb : ∀ i : grid1.Coords, ∀ a, (k1_off141 i) a + S1.size a ≤ S8192.size a
  k1_off143_inb : ∀ i : grid1.Coords, ∀ a, (k1_off143 i) a + S1.size a ≤ S8192.size a
  k1_off145_inb : ∀ i : grid1.Coords, ∀ a, (k1_off145 i) a + S1.size a ≤ S8192.size a
  k1_off147_inb : ∀ i : grid1.Coords, ∀ a, (k1_off147 i) a + S1.size a ≤ S8192.size a
  k1_off149_inb : ∀ i : grid1.Coords, ∀ a, (k1_off149 i) a + S1.size a ≤ S8192.size a
  k1_off151_inb : ∀ i : grid1.Coords, ∀ a, (k1_off151 i) a + S1.size a ≤ S8192.size a
  k1_off153_inb : ∀ i : grid1.Coords, ∀ a, (k1_off153 i) a + S1.size a ≤ S8192.size a
  k1_off155_inb : ∀ i : grid1.Coords, ∀ a, (k1_off155 i) a + S1.size a ≤ S8192.size a
  k1_off157_inb : ∀ i : grid1.Coords, ∀ a, (k1_off157 i) a + S1.size a ≤ S8192.size a
  k1_off159_inb : ∀ i : grid1.Coords, ∀ a, (k1_off159 i) a + S1.size a ≤ S8192.size a
  k1_off161_inb : ∀ i : grid1.Coords, ∀ a, (k1_off161 i) a + S1.size a ≤ S8192.size a
  k1_off163_inb : ∀ i : grid1.Coords, ∀ a, (k1_off163 i) a + S1.size a ≤ S8192.size a
  k1_off165_inb : ∀ i : grid1.Coords, ∀ a, (k1_off165 i) a + S1.size a ≤ S8192.size a
  k1_off167_inb : ∀ i : grid1.Coords, ∀ a, (k1_off167 i) a + S1.size a ≤ S8192.size a
  k1_off169_inb : ∀ i : grid1.Coords, ∀ a, (k1_off169 i) a + S1.size a ≤ S8192.size a
  k1_off171_inb : ∀ i : grid1.Coords, ∀ a, (k1_off171 i) a + S1.size a ≤ S8192.size a
  k1_off173_inb : ∀ i : grid1.Coords, ∀ a, (k1_off173 i) a + S1.size a ≤ S8192.size a
  k1_off175_inb : ∀ i : grid1.Coords, ∀ a, (k1_off175 i) a + S1.size a ≤ S8192.size a
  k1_off177_inb : ∀ i : grid1.Coords, ∀ a, (k1_off177 i) a + S1.size a ≤ S8192.size a
  k1_off179_inb : ∀ i : grid1.Coords, ∀ a, (k1_off179 i) a + S1.size a ≤ S8192.size a
  k1_off181_inb : ∀ i : grid1.Coords, ∀ a, (k1_off181 i) a + S1.size a ≤ S8192.size a
  k1_off183_inb : ∀ i : grid1.Coords, ∀ a, (k1_off183 i) a + S1.size a ≤ S8192.size a
  k1_off185_inb : ∀ i : grid1.Coords, ∀ a, (k1_off185 i) a + S1.size a ≤ S8192.size a
  k1_off187_inb : ∀ i : grid1.Coords, ∀ a, (k1_off187 i) a + S1.size a ≤ S8192.size a
  k1_off189_inb : ∀ i : grid1.Coords, ∀ a, (k1_off189 i) a + S1.size a ≤ S8192.size a
  k1_off191_inb : ∀ i : grid1.Coords, ∀ a, (k1_off191 i) a + S1.size a ≤ S8192.size a
  k1_off193_inb : ∀ i : grid1.Coords, ∀ a, (k1_off193 i) a + S1.size a ≤ S8192.size a
  k1_off195_inb : ∀ i : grid1.Coords, ∀ a, (k1_off195 i) a + S1.size a ≤ S8192.size a
  k1_off197_inb : ∀ i : grid1.Coords, ∀ a, (k1_off197 i) a + S1.size a ≤ S8192.size a
  k1_off199_inb : ∀ i : grid1.Coords, ∀ a, (k1_off199 i) a + S1.size a ≤ S8192.size a
  k1_off201_inb : ∀ i : grid1.Coords, ∀ a, (k1_off201 i) a + S1.size a ≤ S8192.size a
  k1_off203_inb : ∀ i : grid1.Coords, ∀ a, (k1_off203 i) a + S1.size a ≤ S8192.size a
  k1_off205_inb : ∀ i : grid1.Coords, ∀ a, (k1_off205 i) a + S1.size a ≤ S8192.size a
  k1_off207_inb : ∀ i : grid1.Coords, ∀ a, (k1_off207 i) a + S1.size a ≤ S8192.size a
  k1_off209_inb : ∀ i : grid1.Coords, ∀ a, (k1_off209 i) a + S1.size a ≤ S8192.size a
  k1_off211_inb : ∀ i : grid1.Coords, ∀ a, (k1_off211 i) a + S1.size a ≤ S8192.size a
  k1_off213_inb : ∀ i : grid1.Coords, ∀ a, (k1_off213 i) a + S1.size a ≤ S8192.size a
  k1_off215_inb : ∀ i : grid1.Coords, ∀ a, (k1_off215 i) a + S1.size a ≤ S8192.size a
  k1_off217_inb : ∀ i : grid1.Coords, ∀ a, (k1_off217 i) a + S1.size a ≤ S8192.size a
  k1_off219_inb : ∀ i : grid1.Coords, ∀ a, (k1_off219 i) a + S1.size a ≤ S8192.size a
  k1_off221_inb : ∀ i : grid1.Coords, ∀ a, (k1_off221 i) a + S1.size a ≤ S8192.size a
  k1_off223_inb : ∀ i : grid1.Coords, ∀ a, (k1_off223 i) a + S1.size a ≤ S8192.size a
  k1_off225_inb : ∀ i : grid1.Coords, ∀ a, (k1_off225 i) a + S1.size a ≤ S8192.size a
  k1_off227_inb : ∀ i : grid1.Coords, ∀ a, (k1_off227 i) a + S1.size a ≤ S8192.size a
  k1_off229_inb : ∀ i : grid1.Coords, ∀ a, (k1_off229 i) a + S1.size a ≤ S8192.size a
  k1_off231_inb : ∀ i : grid1.Coords, ∀ a, (k1_off231 i) a + S1.size a ≤ S8192.size a
  k1_off233_inb : ∀ i : grid1.Coords, ∀ a, (k1_off233 i) a + S1.size a ≤ S8192.size a
  k1_off235_inb : ∀ i : grid1.Coords, ∀ a, (k1_off235 i) a + S1.size a ≤ S8192.size a
  k1_off237_inb : ∀ i : grid1.Coords, ∀ a, (k1_off237 i) a + S1.size a ≤ S8192.size a
  k1_off239_inb : ∀ i : grid1.Coords, ∀ a, (k1_off239 i) a + S1.size a ≤ S8192.size a
  k1_off241_inb : ∀ i : grid1.Coords, ∀ a, (k1_off241 i) a + S1.size a ≤ S8192.size a
  k1_off243_inb : ∀ i : grid1.Coords, ∀ a, (k1_off243 i) a + S1.size a ≤ S8192.size a
  k1_off245_inb : ∀ i : grid1.Coords, ∀ a, (k1_off245 i) a + S1.size a ≤ S8192.size a
  k1_off247_inb : ∀ i : grid1.Coords, ∀ a, (k1_off247 i) a + S1.size a ≤ S8192.size a
  k1_off249_inb : ∀ i : grid1.Coords, ∀ a, (k1_off249 i) a + S1.size a ≤ S8192.size a
  k1_off251_inb : ∀ i : grid1.Coords, ∀ a, (k1_off251 i) a + S1.size a ≤ S8192.size a
  k1_off253_inb : ∀ i : grid1.Coords, ∀ a, (k1_off253 i) a + S1.size a ≤ S8192.size a
  k1_off255_inb : ∀ i : grid1.Coords, ∀ a, (k1_off255 i) a + S1.size a ≤ S8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x10000.size a ≤ S8192x10000.size a
  hwx1_0 : ∀ i : grid1.Coords, EltTy.bits .f32 = 32 ∨ (Rect.block (s := S8192x10000) S128x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_2 i = cc1_transform_2 i'
  hinb1_1 : ∀ (i : grid1.Coords) a, (cc1_transform_2 i a + 1) * S1x10000.size a ≤ S1x10000.size a
  hwx1_1 : ∀ i : grid1.Coords, EltTy.bits .f32 = 32 ∨ (Rect.block (s := S1x10000) S1x10000.size (cc1_transform_2 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_3 i = cc1_transform_3 i'
  hinb1_2 : ∀ (i : grid1.Coords) a, (cc1_transform_3 i a + 1) * S1x1.size a ≤ S1x1.size a
  hwx1_2 : ∀ i : grid1.Coords, EltTy.bits .f32 = 32 ∨ (Rect.block (s := S1x1) S1x1.size (cc1_transform_3 i) (hinb1_2 i)).WholeWords (EltTy.packing .f32)

variable [Facts₀]

abbrev cc1_scratch1 : DmaSems sig S128 := SemArray.consecutive 11 S128 hcc1_scratch1

abbrev win0_0 : Pipeline.Window sig grid0 :=
  Pipeline.Window.ofSpec (Memref.whole main_arg0) S128x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x10000.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x10000.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond1 i == 1#1) && !(k0_cond2 i == 1#1) | 3 => fun i => !(k0_cond1 i == 1#1) && !(k0_cond2 i == 1#1) | 4 => fun _ => false | ⟨_ + 5, h⟩ => absurd h (Nat.not_lt.2 (Nat.le_add_left _ _))

abbrev spec1_0 : Pipeline.WinSpec sig grid1.rank :=
  Pipeline.WinSpec.ofSpec (Memref.whole main_arg0) S128x10000.size reads1_0 false false 2 stage1_0 sem1_0 nbuf1_0 hstage1_0

abbrev spec1_1 : Pipeline.WinSpec sig grid1.rank :=
  Pipeline.WinSpec.ofSpec (Memref.whole main_v3) S1x10000.size reads1_1 false true 1 stage1_1 sem1_1 nbuf1_1 hstage1_1

abbrev spec1_2 : Pipeline.WinSpec sig grid1.rank :=
  Pipeline.WinSpec.ofSpec (Memref.whole main_v4) S1x1.size reads1_2 true true 1 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 | 1 => cc1_transform_2 | 2 => cc1_transform_3 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | ⟨_ + 3, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | ⟨_ + 3, h⟩ => absurd h (Nat.not_lt.2 (Nat.le_add_left _ _))

class Facts : Prop extends Facts₀ where
  harr1 : ∀ w, (spec1 w).arr.IsWhole

variable [Facts]
-- ==== ReferenceIdeal.lean ====
abbrev S8192x10000 : Shape := ⟨2, ![8192, 10000]⟩
abbrev S10000x10000 : Shape := ⟨2, ![10000, 10000]⟩
abbrev S8192 : Shape := ⟨1, ![8192]⟩
abbrev S_ : Shape := ⟨0, ![]⟩
abbrev S8192x1 : Shape := ⟨2, ![8192, 1]⟩
abbrev S10000 : Shape := ⟨1, ![10000]⟩
abbrev S1x10000 : Shape := ⟨2, ![1, 10000]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 78
  | .vmem => 0
  | .smem => 0
  | _ => 0

abbrev bufTy : (tb : Table) → Fin (tcTables nBuf tb) → BufTy
  | .hbm, ⟨0, _⟩ => ⟨S8192x10000, .f32⟩
  | .hbm, ⟨1, _⟩ => ⟨S10000x10000, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S8192x10000, .f32⟩
  | .hbm, ⟨12, _⟩ => ⟨S_, .f32⟩
  | .hbm, ⟨13, _⟩ => ⟨S10000, .f32⟩
  | .hbm, ⟨14, _⟩ => ⟨S_, .f32⟩
  | .hbm, ⟨15, _⟩ => ⟨S10000, .f32⟩
  | .hbm, ⟨16, _⟩ => ⟨S10000, .f32⟩
  | .hbm, ⟨17, _⟩ => ⟨S1x10000, .f32⟩
  | .hbm, ⟨18, _⟩ => ⟨S8192x10000, .f32⟩
  | .hbm, ⟨19, _⟩ => ⟨S8192x10000, .f32⟩
  | .hbm, ⟨20, _⟩ => ⟨S8192x10000, .f32⟩
  | .hbm, ⟨21, _⟩ => ⟨S_, .f32⟩
  | .hbm, ⟨22, _⟩ => ⟨S10000, .f32⟩
  | .hbm, ⟨23, _⟩ => ⟨S1x10000, .f32⟩
  | .hbm, ⟨24, _⟩ => ⟨S1x10000, .f32⟩
  | .hbm, ⟨25, _⟩ => ⟨S8192x10000, .f32⟩
  | .hbm, ⟨26, _⟩ => ⟨S8192x10000, .f32⟩
  | .hbm, ⟨27, _⟩ => ⟨S8192x10000, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192x1, .f32⟩
  | .hbm, ⟨40, _⟩ => ⟨S8192x10000, .f32⟩
  | .hbm, ⟨41, _⟩ => ⟨S8192x10000, .f32⟩
  | .hbm, ⟨42, _⟩ => ⟨S8192x10000, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1, .f32⟩
  | .hbm, ⟨47, _⟩ => ⟨S8192x10000, .f32⟩
  | .hbm, ⟨48, _⟩ => ⟨S8192x10000, .f32⟩
  | .hbm, ⟨49, _⟩ => ⟨S8192x1, .i32⟩
  | .hbm, ⟨50, _⟩ => ⟨S_, .i32⟩
  | .hbm, ⟨51, _⟩ => ⟨S8192x1, .i32⟩
  | .hbm, ⟨52, _⟩ => ⟨S8192x1, .i1⟩
  | .hbm, ⟨53, _⟩ => ⟨S_, .i32⟩
  | .hbm, ⟨54, _⟩ => ⟨S8192x1, .i32⟩
  | .hbm, ⟨55, _⟩ => ⟨S8192x1, .i32⟩
  | .hbm, ⟨56, _⟩ => ⟨S8192x1, .i32⟩
  | .hbm, ⟨57, _⟩ => ⟨S8192x1x1, .i32⟩
  | .hbm, ⟨58, _⟩ => ⟨S1, .i32⟩
  | .hbm, ⟨59, _⟩ => ⟨S_, .i32⟩
  | .hbm, ⟨60, _⟩ => ⟨S8192x1x1, .i32⟩
  | .hbm, ⟨61, _⟩ => ⟨S8192x1x1, .i1⟩
  | .hbm, ⟨62, _⟩ => ⟨S1x1x1, .i32⟩
  | .hbm, ⟨63, _⟩ => ⟨S8192x1x1, .i32⟩
  | .hbm, ⟨64, _⟩ => ⟨S8192x1x1, .i1⟩
  | .hbm, ⟨65, _⟩ => ⟨S8192x1x1, .i1⟩
  | .hbm, ⟨66, _⟩ => ⟨S_, .i1⟩
  | .hbm, ⟨67, _⟩ => ⟨S8192x1, .i1⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S8192x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_call0_cst_0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_cst_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_call1_cst : Ref sig .tc := ⟨.hbm, 34, rfl⟩
abbrev main_call1_v0 : Ref sig .tc := ⟨.hbm, 35, rfl⟩
abbrev main_call1_cst_0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_cst_1 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_v12 : Ref sig .tc := ⟨.hbm, 48, rfl⟩
abbrev main_v13 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_cst : Ref sig .tc := ⟨.hbm, 69, rfl⟩
abbrev main_call2_v14 : Ref sig .tc := ⟨.hbm, 70, rfl⟩
abbrev main_v14 : Ref sig .tc := ⟨.hbm, 71, rfl⟩
abbrev main_cst_3 : Ref sig .tc := ⟨.hbm, 72, rfl⟩
abbrev main_v15 : Ref sig .tc := ⟨.hbm, 73, rfl⟩
abbrev main_cst_4 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x10000_S10000_d0 : S8192x10000.ReducesTo [0] S10000
  h_S_ : 0 < S_.numel
  bcast_S_S10000 : S_.BroadcastsInDim S10000 (![] : Fin 0 → Fin S10000.rank)
  bcast_S10000_S1x10000_1 : S10000.BroadcastsInDim S1x10000 (![1] : Fin 1 → Fin S1x10000.rank)
  bcast_S1x10000_S8192x10000_0_1 : S1x10000.BroadcastsInDim S8192x10000 (![0, 1] : Fin 2 → Fin S8192x10000.rank)
  reducesTo_S8192x10000_S_d0_1 : S8192x10000.ReducesTo [0, 1] S_
  reducesTo_S8192x10000_S8192_d1 : S8192x10000.ReducesTo [1] S8192
  bcast_S8192x1_S8192x10000_0_1 : S8192x1.BroadcastsInDim S8192x10000 (![0, 1] : Fin 2 → Fin S8192x10000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  gather_S10000x10000_S8192x1_S8192x10000_1_0_n_n_0_1_110000_wf : GatherDims.WF S10000x10000 S8192x1 S8192x10000 [1] [0] [] [0] [] 1 ![1, 10000]
  gather_S8192x10000_S8192x1x1_S8192x1_n_1_0_0_1_2_11_wf : GatherDims.WF S8192x10000 S8192x1x1 S8192x1 [] [1] [0] [1] [0] 2 ![1, 1]

variable [Facts₀]

def gather_S10000x10000_S8192x1_S8192x10000_1_0_n_n_0_1_110000 : GatherDims S10000x10000 S8192x1 S8192x10000 where
  offsetDims := [1]
  collapsedSliceDims := [0]
  operandBatchingDims := []
  startIndicesBatchingDims := []
  startIndexMap := [0]
  indexVectorDim := 1
  sliceSizes := ![1, 10000]
  wf := gather_S10000x10000_S8192x1_S8192x10000_1_0_n_n_0_1_110000_wf
def gather_S8192x10000_S8192x1x1_S8192x1_n_1_0_0_1_2_11 : GatherDims S8192x10000 S8192x1x1 S8192x1 where
  offsetDims := []
  collapsedSliceDims := [1]
  operandBatchingDims := [0]
  startIndicesBatchingDims := [0]
  startIndexMap := [1]
  indexVectorDim := 2
  sliceSizes := ![1, 1]
  wf := gather_S8192x10000_S8192x1x1_S8192x1_n_1_0_0_1_2_11_wf

class Facts : Prop extends Facts₀ where

variable [Facts]
-- ==== Proof.Bits.Base.lean ====
/-
  The two pallas_calls of the kernel as pipelines with named per-point contents.

  Region 0 (the online column statistics and the cross-entropy partial sum) carries its three outputs from one
  grid point to the next: the running column maximum, the running column sum of exponentials rescaled to that
  maximum, and the running sum over rows of (row log-sum-exp minus the logit at the label). What each holds after
  point n is a recursion over the body's arithmetic, whose first step resets and whose later steps merge.

  Region 1 (the weighted sum against gathered rows of the distance matrix) carries one scalar. At point t its
  scratch tile holds, row j, the row of the distance matrix the label table names at position 128 t + j.
-/
import proofs.«406825_j71691594105550_1_alg».proof.Proof.Gen.Kernel.Skeleton
import proofs.«406825_j71691594105550_1_alg».proof.Proof.Gen.Kernel.Launch
import proofs.«406825_j71691594105550_1_alg».proof.Proof.Gen.Kernel.Points
import proofs.«406825_j71691594105550_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The TensorCore's buffer contents when a region is entered. -/
abbrev EntryV (F : FTy → Type) [FloatOps F] : Type :=
  (c : Dev nD) → (b : Ref sig .tc) → Buf (Elt F) ((c : Thread nD τ).loc b)

variable (V : EntryV F)

/-! ## Region 0 -/

/-- Window w's block at point t, read off its array as the region finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The 128 rows of logits of tile t. -/
abbrev xblk0 (c : Dev nD) (t : Fin cfg0.N) : Vec F S128x10000 .f32 := iblk0 V c 0 t
/-- The 128 labels of tile t, as a column. -/
abbrev tblk0 (c : Dev nD) (t : Fin cfg0.N) : Vec F S128x1 .i32 := iblk0 V c 1 t

/-- What the three carried outputs hold after point n: (running column maximum, running rescaled column sum of
    exponentials, running cross-entropy sum). Point 0 resets, every later point merges with what the point before left. -/
def outs0 (c : Dev nD) : (n : ℕ) → n < cfg0.N → Vec F S1x10000 .f32 × Vec F S1x10000 .f32 × Vec F S1x1 .f32
  | 0, hn => (k0_pay1 (xblk0 V c ⟨0, hn⟩), k0_pay2 (xblk0 V c ⟨0, hn⟩), k0_pay7 (xblk0 V c ⟨0, hn⟩) (tblk0 V c ⟨0, hn⟩) k0_pay3)
  | n + 1, hn =>
    (k0_pay5 (xblk0 V c ⟨n + 1, hn⟩) (outs0 c n (Nat.lt_of_succ_lt hn)).1,
     k0_pay6 (xblk0 V c ⟨n + 1, hn⟩) (outs0 c n (Nat.lt_of_succ_lt hn)).1 (outs0 c n (Nat.lt_of_succ_lt hn)).2.1,
     k0_pay7 (xblk0 V c ⟨n + 1, hn⟩) (tblk0 V c ⟨n + 1, hn⟩) (outs0 c n (Nat.lt_of_succ_lt hn)).2.2)

theorem outs0_zero (c : Dev nD) (hn : 0 < cfg0.N) :
    outs0 V c 0 hn = (k0_pay1 (xblk0 V c ⟨0, hn⟩), k0_pay2 (xblk0 V c ⟨0, hn⟩), k0_pay7 (xblk0 V c ⟨0, hn⟩) (tblk0 V c ⟨0, hn⟩) k0_pay3) := rfl

theorem outs0_succ (c : Dev nD) (n : ℕ) (hn : n + 1 < cfg0.N) :
    outs0 V c (n + 1) hn =
      (k0_pay5 (xblk0 V c ⟨n + 1, hn⟩) (outs0 V c n (Nat.lt_of_succ_lt hn)).1,
       k0_pay6 (xblk0 V c ⟨n + 1, hn⟩) (outs0 V c n (Nat.lt_of_succ_lt hn)).1 (outs0 V c n (Nat.lt_of_succ_lt hn)).2.1,
       k0_pay7 (xblk0 V c ⟨n + 1, hn⟩) (tblk0 V c ⟨n + 1, hn⟩) (outs0 V c n (Nat.lt_of_succ_lt hn)).2.2) := rfl

/-- Region 0's proof data: the arrays as the region finds them; after the body each input's buffer at its block and
    the three outputs' at the recursion; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outs0 V c t.val t.isLt).1
    | ⟨3, _⟩ => (outs0 V c t.val t.isLt).2.1
    | ⟨4, _⟩ => (outs0 V c t.val t.isLt).2.2
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outs0 V c t.val t.isLt).1 := by dsimp only [dat0]
theorem after0_3 (c : Dev nD) (t : Fin cfg0.N) : (dat0 V c).after 3 t = (outs0 V c t.val t.isLt).2.1 := by dsimp only [dat0]
theorem after0_4 (c : Dev nD) (t : Fin cfg0.N) : (dat0 V c).after 4 t = (outs0 V c t.val t.isLt).2.2 := by dsimp only [dat0]

/-! ## Region 1 -/

variable (a : (pcfg1 (F := F)).Adm)

/-- Window w's block at point t, read off its array as the region finds it. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef (cfg1 a).spec w))

/-- The 128 rows of logits of tile t. -/
abbrev xblk1 (c : Dev nD) (t : Fin (cfg1 a).N) : Vec F S128x10000 .f32 := iblk1 V a c 0 t
/-- The column log-sum-exp row (the same block at every point). -/
abbrev cblk1 (c : Dev nD) (t : Fin (cfg1 a).N) : Vec F S1x10000 .f32 := iblk1 V a c 1 t

/-- The label table the region was launched with. -/
abbrev tbl : Vec F S8192 .i32 := a.1 0

/-- The row of the distance matrix that tile t's row j gathers: the table's word at 128 t + j, read as a natural.
    (Total by reduction modulo the extents; on a table of labels in range the reductions are the identity.) -/
def rowOf (tb : Vec F S8192 .i32) (t j : ℕ) : Fin 10000 :=
  ⟨(tb (ValueIdx.ix1 (⟨(128 * t + j) % 8192, Nat.mod_lt _ (by norm_num)⟩ : Fin 8192))).toNat % 10000, Nat.mod_lt _ (by norm_num)⟩

/-- The gathered tile at point t: row j is row `rowOf t j` of the distance matrix. -/
def dist1 (tb : Vec F S8192 .i32) (D : Vec F S10000x10000 .f32) (t : ℕ) : Vec F S128x10000 .f32 :=
  fun y => D (ValueIdx.ix2 (rowOf tb t (y 0).val) (⟨(y 1).val % 10000, Nat.mod_lt _ (by norm_num)⟩ : Fin 10000))

/-- What the carried scalar holds after point n: point 0 starts from zero, every later point adds to what the point
    before left. -/
def outs1 (c : Dev nD) : (n : ℕ) → n < (cfg1 a).N → Vec F S1x1 .f32
  | 0, hn => k1_pay1 (xblk1 V a c ⟨0, hn⟩) (dist1 (tbl a) (V c main_arg1) 0) (cblk1 V a c ⟨0, hn⟩) k1_pay2
  | n + 1, hn => k1_pay1 (xblk1 V a c ⟨n + 1, hn⟩) (dist1 (tbl a) (V c main_arg1) (n + 1)) (cblk1 V a c ⟨n + 1, hn⟩) (outs1 c n (Nat.lt_of_succ_lt hn))

theorem outs1_zero (c : Dev nD) (hn : 0 < (cfg1 a).N) :
    outs1 V a c 0 hn = k1_pay1 (xblk1 V a c ⟨0, hn⟩) (dist1 (tbl a) (V c main_arg1) 0) (cblk1 V a c ⟨0, hn⟩) k1_pay2 := rfl
theorem outs1_succ (c : Dev nD) (n : ℕ) (hn : n + 1 < (cfg1 a).N) :
    outs1 V a c (n + 1) hn = k1_pay1 (xblk1 V a c ⟨n + 1, hn⟩) (dist1 (tbl a) (V c main_arg1) (n + 1)) (cblk1 V a c ⟨n + 1, hn⟩) (outs1 V a c n (Nat.lt_of_succ_lt hn)) := rfl

/-- The body's own DMA semaphores: one per row of the gathered tile. -/
abbrev osem1 : Fin 128 → SemLoc sig := fun j => SemLoc.dma ⟨11 + j.val, Nat.lt_of_lt_of_le (Nat.add_lt_add_left j.isLt 11) (by decide)⟩
/-- The operand left in HBM that the body copies rows of itself. -/
def H1 : Finset (Ref sig .tc) := {main_arg1}

/-- Region 1's invariant, the same at every point: the scoped rest, the generator register, the body's own cells at
    zero, the distance matrix whole at its entry contents, and the label table at the launch contents. -/
def Φ1 (c : Dev nD) : sProp 𝕄 :=
  iprop(Pipeline.ΦD osem1 spec1 H1 V c ∗ Pipeline.prefHeld pre1 c (fun _ => fullShare) a.1)

/-- Region 1's proof data. -/
def dat1 (c : Dev nD) : Dat τ (Elt F) Unit ℕ (Pipeline.UD sig nD τ) ℕ (cfg1 a) c where
  A w := V c (Pipeline.arrRef (cfg1 a).spec w)
  after w t := match w with
    | ⟨0, _⟩ => iblk1 V a c 0 t
    | ⟨1, _⟩ => iblk1 V a c 1 t
    | ⟨2, _⟩ => outs1 V a c t.val t.isLt
  Φ _ := Φ1 V a c
  q _ := fullShare
  owed _ := 0

theorem A_eq1 (c : Dev nD) (w : Fin (cfg1 a).W) : (dat1 V a c).A w = V c (Pipeline.arrRef (cfg1 a).spec w) := by dsimp only [dat1]
theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = iblk1 V a c 1 t := by dsimp only [dat1]; try rfl
theorem after1_2 (c : Dev nD) (t : Fin (cfg1 a).N) : (dat1 V a c).after 2 t = outs1 V a c t.val t.isLt := by dsimp only [dat1]; try rfl

end Cert.Kernel.Hand

end
-- ==== Proof.Bits.R0Body.lean ====
/-
  Region 0's body at every grid point: at the first point it resets the three carried outputs, at every later point it
  merges into what the point before left; either way it leaves them at the recursion `outs0`.
-/
import proofs.«406825_j71691594105550_1_alg».proof.Proof.Bits.Base
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Offsets -/

/-- The two zero offsets every store and load of this body uses. -/
theorem offsets0_zero : (![0, 0] : Fin 2 → ℕ) = fun _ => 0 := funext fun a => by fin_cases a <;> rfl

/-! ## The body on any whole staging memrefs

Every load and every store of the body goes through the whole buffer, so a buffer that was stored into reads back
as the last stored value, and a load reads the contents. -/

set_option maxHeartbeats 1000000 in
/-- At the first point the body resets: whatever the three outputs held, it leaves the column maximum of the tile,
    the column sum of exponentials against that maximum, and the tile's cross-entropy sum added to zero. -/
theorem run_reset0 (c : Dev nD) (i : grid0.Coords)
    (arg1 : Memref sig .tc .vmem S128x10000 .f32) (harg1 : arg1.IsWhole)
    (arg2 : Memref sig .tc .vmem S128x1 .i32) (harg2 : arg2.IsWhole)
    (arg3 : Memref sig .tc .vmem S1x10000 .f32) (harg3 : arg3.IsWhole)
    (arg4 : Memref sig .tc .vmem S1x10000 .f32) (harg4 : arg4.IsWhole)
    (arg5 : Memref sig .tc .vmem S1x1 .f32) (harg5 : arg5.IsWhole)
    (h1 : k0_cond1 i = 1#1) (h2 : ¬ k0_cond2 i = 1#1)
    (x : Vec F S128x10000 .f32) (l : Vec F S128x1 .i32)
    (E : Set ℕ) (K : PUnit → sProp 𝕄) :
    iprop(owns (c : Thread nD τ) arg1 fullShare x ∗ owns (c : Thread nD τ) arg2 fullShare l
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x ∗ owns (c : Thread nD τ) arg2 fullShare l
            ∗ owns (c : Thread nD τ) arg3 fullShare (k0_pay1 x) ∗ owns (c : Thread nD τ) arg4 fullShare (k0_pay2 x)
            ∗ owns (c : Thread nD τ) arg5 fullShare (k0_pay7 x l k0_pay3)) -∗ K ⟨⟩))
      ⊢ wp frame (wpE (defs₀ (F := F)) Variants.none c none) E
          (cc0__kernel_a i arg1 harg1 arg2 harg2 arg3 harg3 arg4 harg4 arg5 harg5) K := by
  simp only [cc0__kernel_a_eq_skeleton]; unfold cc0__kernel_a_skel
  simp only [k0_part1_eq_skeleton]
  unfold owns
  iintro ⟨⟨%f1, %hf1, H1⟩, ⟨%f2, %hf2, H2⟩, ⟨%d3, %f3, -, H3⟩, ⟨%d4, %f4, -, H4⟩, ⟨%d5, %f5, -, H5⟩, Hk⟩
  obtain rfl := harg1.eq_unread hf1; obtain rfl := harg2.eq_unread hf2
  sl_exec (disch := first | exact h1 | exact h2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (fun y => ⟨_, List.mem_singleton_self _, View.mem_set_unit_zero offsets0_zero inb_S1x10000_S1x10000_0_0 y⟩),
      View.canon_unit_zero offsets0_zero]
    simp only [View.readAt_eq_ld, harg1.read_unread, View.ld_unit_zero (S := S128x10000) offsets0_zero]
  isplitl [H4]
  · iexists _; isplitr
    swap; · iexact H4
    ipureintro
    rw [View.read_writes_eq_canon _ _ _ (fun y => ⟨_, List.mem_singleton_self _, View.mem_set_unit_zero offsets0_zero inb_S1x10000_S1x10000_0_0 y⟩),
      View.canon_unit_zero offsets0_zero]
    simp only [View.readAt_eq_ld, harg1.read_unread, View.ld_unit_zero (S := S128x10000) offsets0_zero]
  iexists _; isplitr
  swap; · iexact H5
  ipureintro
  rw [View.read_writes_eq_canon _ _ _ (fun y => ⟨_, List.mem_cons_self, View.mem_set_unit_zero offsets0_zero inb_S1x1_S1x1_0_0 y⟩),
    View.canon_cons_unit_zero offsets0_zero]
  sl_unfold_words
  simp only [View.readAt_eq_ld, harg1.read_unread, harg2.read_unread, View.ld_unit_zero (S := S128x10000) offsets0_zero,
    View.ld_unit_zero (S := S128x1) offsets0_zero, View.readCov_unit_zero (S := S1x1) _ offsets0_zero]

set_option maxHeartbeats 1000000 in
/-- At every later point the body merges: from the running column maximum `m`, the running rescaled column sum `s` and
    the running cross-entropy sum `a` it leaves the maximum of `m` and the tile's, the two sums rescaled to it and
    added, and `a` plus the tile's cross-entropy sum. -/
theorem run_merge0 (c : Dev nD) (i : grid0.Coords)
    (arg1 : Memref sig .tc .vmem S128x10000 .f32) (harg1 : arg1.IsWhole)
    (arg2 : Memref sig .tc .vmem S128x1 .i32) (harg2 : arg2.IsWhole)
    (arg3 : Memref sig .tc .vmem S1x10000 .f32) (harg3 : arg3.IsWhole)
    (arg4 : Memref sig .tc .vmem S1x10000 .f32) (harg4 : arg4.IsWhole)
    (arg5 : Memref sig .tc .vmem S1x1 .f32) (harg5 : arg5.IsWhole)
    (h1 : ¬ k0_cond1 i = 1#1) (h2 : k0_cond2 i = 1#1)
    (x : Vec F S128x10000 .f32) (l : Vec F S128x1 .i32)
    (m : Vec F S1x10000 .f32) (s : Vec F S1x10000 .f32) (a : Vec F S1x1 .f32)
    (E : Set ℕ) (K : PUnit → sProp 𝕄) :
    iprop(owns (c : Thread nD τ) arg1 fullShare x ∗ owns (c : Thread nD τ) arg2 fullShare l
        ∗ owns (c : Thread nD τ) arg3 fullShare m ∗ owns (c : Thread nD τ) arg4 fullShare s
        ∗ owns (c : Thread nD τ) arg5 fullShare a
        ∗ (iprop(owns (c : Thread nD τ) arg1 fullShare x ∗ owns (c : Thread nD τ) arg2 fullShare l
            ∗ owns (c : Thread nD τ) arg3 fullShare (k0_pay5 x m) ∗ owns (c : Thread nD τ) arg4 fullShare (k0_pay6 x m s)
            ∗ owns (c : Thread nD τ) arg5 fullShare (k0_pay7 x l a)) -∗ K ⟨⟩))
      ⊢ wp frame (wpE (defs₀ (F := F)) Variants.none c none) E
          (cc0__kernel_a i arg1 harg1 arg2 harg2 arg3 harg3 arg4 harg4 arg5 harg5) K := by
  simp only [cc0__kernel_a_eq_skeleton]; unfold cc0__kernel_a_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact h1 | exact h2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    sl_unfold_words
    rw [View.read_writes_eq_canon _ _ _ (fun y => ⟨_, List.mem_singleton_self _, View.mem_set_unit_zero offsets0_zero inb_S1x10000_S1x10000_0_0 y⟩),
      View.canon_unit_zero offsets0_zero]
    simp only [View.readAt_eq_ld, harg1.read_unread, harg3.read_unread, View.ld_unit_zero (S := S128x10000) offsets0_zero,
      View.ld_unit_zero (S := S1x10000) offsets0_zero]
  isplitl [H4]
  · iexists _; isplitr
    swap; · iexact H4
    ipureintro
    sl_unfold_words
    rw [View.read_writes_eq_canon _ _ _ (fun y => ⟨_, List.mem_singleton_self _, View.mem_set_unit_zero offsets0_zero inb_S1x10000_S1x10000_0_0 y⟩),
      View.canon_unit_zero offsets0_zero]
    simp only [View.readAt_eq_ld, harg1.read_unread, harg3.read_unread, harg4.read_unread, View.ld_unit_zero (S := S128x10000) offsets0_zero,
      View.ld_unit_zero (S := S1x10000) offsets0_zero]
  iexists _; isplitr
  swap; · iexact H5
  ipureintro
  sl_unfold_words
  rw [View.read_writes_eq_canon _ _ _ (fun y => ⟨_, List.mem_singleton_self _, View.mem_set_unit_zero offsets0_zero inb_S1x1_S1x1_0_0 y⟩),
    View.canon_unit_zero offsets0_zero]
  simp only [View.readAt_eq_ld, harg1.read_unread, harg2.read_unread, harg5.read_unread, View.ld_unit_zero (S := S128x10000) offsets0_zero,
    View.ld_unit_zero (S := S128x1) offsets0_zero, View.ld_unit_zero (S := S1x1) offsets0_zero]

/-! ## Which case a point is in -/

/-- The reset branch is taken at the first point only, -/
theorem reset0_iff : ∀ t : Fin cfg0.N, k0_cond1 (grid0.coords t) = 1#1 ↔ t.val = 0 :=
  (by decide +kernel : ∀ t : Fin grid0.N, k0_cond1 (grid0.coords t) = 1#1 ↔ t.val = 0)
/-- and the merge branch at every other point. -/
theorem merge0_iff : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two branches stores into the running maximum at every grid coordinate: that window is never idle. -/
theorem live0_2 : ∀ i : grid0.Coords, cfg0.idle 2 i = false := by decide +kernel
/-- The same for the running sum. -/
theorem live0_3 : ∀ i : grid0.Coords, cfg0.idle 3 i = false := by decide +kernel

variable (V : EntryV F)

/-! ## What the staging buffers hold when the body is called -/

/-- The logits' buffer holds the tile of the point, fetched there. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The labels' buffer holds the column of the point, fetched there. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- After the first point the running maximum's buffer holds what the point before left: nothing is written back
    before the last point, and the window is stored into at every point. -/
theorem before0_2 (c : Dev nD) (t : Fin cfg0.N) (ht : t.val ≠ 0) (d) :
    (dat0 V c).before 2 t d = (outs0 V c (t.val - 1) (Nat.lt_of_le_of_lt (Nat.sub_le _ _) t.isLt)).1 := by
  have hN : t.val < 64 := lt_of_lt_of_eq t.isLt (show cfg0.N = 64 from N_0)
  rw [Dat.before_out_kept _ 2 rfl t ht (Bool.eq_false_iff.mpr fun h => by have := (flush0_2 _).mp h; dsimp only at this; omega)
    live0_2 (fun _ _ => rfl)]
  dsimp only [dat0]

/-- The same for the running sum, -/
theorem before0_3 (c : Dev nD) (t : Fin cfg0.N) (ht : t.val ≠ 0) (d) :
    (dat0 V c).before 3 t d = (outs0 V c (t.val - 1) (Nat.lt_of_le_of_lt (Nat.sub_le _ _) t.isLt)).2.1 := by
  have hN : t.val < 64 := lt_of_lt_of_eq t.isLt (show cfg0.N = 64 from N_0)
  rw [Dat.before_out_kept _ 3 rfl t ht (Bool.eq_false_iff.mpr fun h => by have := (flush0_3 _).mp h; dsimp only at this; omega)
    live0_3 (fun _ _ => rfl)]
  dsimp only [dat0]

/-- and for the running cross-entropy sum. -/
theorem before0_4 (c : Dev nD) (t : Fin cfg0.N) (ht : t.val ≠ 0) (d) :
    (dat0 V c).before 4 t d = (outs0 V c (t.val - 1) (Nat.lt_of_le_of_lt (Nat.sub_le _ _) t.isLt)).2.2 := by
  have hN : t.val < 64 := lt_of_lt_of_eq t.isLt (show cfg0.N = 64 from N_0)
  rw [Dat.before_out_kept _ 4 rfl t ht (Bool.eq_false_iff.mpr fun h => by have := (flush0_4 _).mp h; dsimp only at this; omega)
    (fun _ => rfl) (fun _ _ => rfl)]
  dsimp only [dat0]

/-! ## The recursion at a point of either kind -/

/-- At the first point the three outputs are the reset values of the point's tile. -/
theorem outs0_first (c : Dev nD) (t : Fin cfg0.N) (h : t.val = 0) :
    outs0 V c t.val t.isLt
      = (k0_pay1 (xblk0 V c t), k0_pay2 (xblk0 V c t), k0_pay7 (xblk0 V c t) (tblk0 V c t) k0_pay3) := by
  obtain ⟨n, hn⟩ := t
  cases n with
  | zero => exact outs0_zero V c hn
  | succ n => exact absurd h (Nat.succ_ne_zero n)

/-- At a later point they are the merge of the point's tile into what the point before left. -/
theorem outs0_later (c : Dev nD) (t : Fin cfg0.N) (h : t.val ≠ 0) :
    outs0 V c t.val t.isLt
      = (k0_pay5 (xblk0 V c t) (outs0 V c (t.val - 1) (Nat.lt_of_le_of_lt (Nat.sub_le _ _) t.isLt)).1,
         k0_pay6 (xblk0 V c t) (outs0 V c (t.val - 1) (Nat.lt_of_le_of_lt (Nat.sub_le _ _) t.isLt)).1
           (outs0 V c (t.val - 1) (Nat.lt_of_le_of_lt (Nat.sub_le _ _) t.isLt)).2.1,
         k0_pay7 (xblk0 V c t) (tblk0 V c t) (outs0 V c (t.val - 1) (Nat.lt_of_le_of_lt (Nat.sub_le _ _) t.isLt)).2.2) := by
  obtain ⟨n, hn⟩ := t
  cases n with
  | zero => exact absurd rfl h
  | succ n => exact outs0_succ V c n hn

/-! ## The body obligation at a generic point -/

/-- What the body is called with at point `t`: the invariant, what the core owes, and each window's current staging
    buffer at what it then holds; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 1000000 in
/-- The body at any point. The inputs' buffers hold the point's tile and labels. At the first point the outputs'
    buffers hold anything and the body resets them; at a later point they hold what the point before left and the
    body merges into it. The invariant and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (st0_0 t) fullShare ((dat0 V c).after 0 t) from rfl,
    show (dat0 V c).leavesExact 1 t = owns (c : Thread nD τ) (st0_1 t) fullShare ((dat0 V c).after 1 t) from rfl,
    show (dat0 V c).leavesExact 2 t = owns (c : Thread nD τ) (st0_2 t) fullShare ((dat0 V c).after 2 t) from by
      unfold Dat.leavesExact; rw [live0_2],
    show (dat0 V c).leavesExact 3 t = owns (c : Thread nD τ) (st0_3 t) fullShare ((dat0 V c).after 3 t) from by
      unfold Dat.leavesExact; rw [live0_3],
    show (dat0 V c).leavesExact 4 t = owns (c : Thread nD τ) (st0_4 t) fullShare ((dat0 V c).after 4 t) from rfl,
    after0_0, after0_1, after0_2, after0_3, after0_4]
  by_cases h0 : t.val = 0
  · rw [outs0_first V c t h0]
    dsimp only
    iintro ⟨HΦ, Ho, ⟨%d0, H0⟩, ⟨%d1, H1⟩, ⟨%d2, H2⟩, ⟨%d3, H3⟩, ⟨%d4, H4⟩⟩
    iapply (run_reset0 c (grid0.coords t) _ _ _ _ _ _ _ _ _ _ ((reset0_iff t).mpr h0) (fun h => (merge0_iff t).mp h h0)
      (xblk0 V c t) (tblk0 V c t) Set.univ _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outs0_later V c t h0]
    simp only [before0_2 V c t h0, before0_3 V c t h0, before0_4 V c t h0]
    iintro ⟨HΦ, Ho, ⟨%d0, H0⟩, ⟨%d1, H1⟩, ⟨%d2, H2⟩, ⟨%d3, H3⟩, ⟨%d4, H4⟩⟩
    iapply (run_merge0 c (grid0.coords t) _ _ _ _ _ _ _ _ _ _ (fun h => h0 ((reset0_iff t).mp h)) ((merge0_iff t).mpr h0)
      (xblk0 V c t) (tblk0 V c t)
      (outs0 V c (t.val - 1) (Nat.lt_of_le_of_lt (Nat.sub_le _ _) t.isLt)).1
      (outs0 V c (t.val - 1) (Nat.lt_of_le_of_lt (Nat.sub_le _ _) t.isLt)).2.1
      (outs0 V c (t.val - 1) (Nat.lt_of_le_of_lt (Nat.sub_le _ _) t.isLt)).2.2 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body obligation of region 0, at every point, for the proof data `dat0`. -/
theorem body_obligation0 (V : EntryV F) (c : Dev nD) :
    BodyObligation (dat0 (F := F) V c) (defs₀ (F := F)) Variants.none () Set.univ := by
  intro t
  rw [bigSep_W0, bigSep_W0]
  exact sound_body0 V c t

end Cert.Kernel.Hand

end
-- ==== Proof.Bits.R1Defs.lean ====
/-
  Region 1's body: the names its run is stated over — the label table, the distance matrix and the scratch tile as the
  body is called with them, a buffer held whole, the 128 own cells at zero, the carried scalar's starting value by
  grid coordinate, and what the body hands back.
-/
import proofs.«406825_j71691594105550_1_alg».proof.Proof.Bits.Base
import Idealize.ShloMosaic.Lib.Batch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The label table, the distance matrix and the scratch tile, as the body is called with them. -/
abbrev tabM : Memref sig .tc .smem S8192 .i32 := Memref.whole main_arg2
abbrev dM : Memref sig .tc .hbm S10000x10000 .f32 := Memref.whole main_arg1
abbrev scM : Memref sig .tc .vmem S128x10000 .f32 := Memref.whole cc1_scratch0

/-- A memref's buffer held whole at share `q` and contents `f`. -/
abbrev heldW (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦{q} f

/-- The body's 128 own cells at zero. -/
abbrev cells1 (c : Dev nD) : sProp 𝕄 :=
  Pipeline.ownSems0 (Ix := Unit) (Name := ℕ) (U := Pipeline.UD sig nD τ) (Lvl := ℕ) (Val := Elt F) (τ := τ) osem1 c

/-- What the body leaves in the carried scalar at grid coordinate `i`: the first point starts from zero. -/
def acc1 (i : grid1.Coords) (xo : Vec F S1x1 .f32) : Vec F S1x1 .f32 := if (i 0).val = 0 then k1_pay2 (F := F) else xo

/-- What the body hands back. -/
abbrev runPost1 (c : Dev nD) (i : grid1.Coords)
    (arg2 : Memref sig .tc .vmem S128x10000 .f32) (arg4 : Memref sig .tc .vmem S1x10000 .f32) (arg5 : Memref sig .tc .vmem S1x1 .f32)
    (tb : Vec F S8192 .i32) (D : Vec F S10000x10000 .f32)
    (x0 : Vec F S128x10000 .f32) (x1 : Vec F S1x10000 .f32) (xo : Vec F S1x1 .f32) : sProp 𝕄 :=
  iprop(heldW c tabM fullShare tb ∗ owns (c : Thread nD τ) arg2 fullShare x0 ∗ owns (c : Thread nD τ) arg4 fullShare x1
    ∗ owns (c : Thread nD τ) arg5 fullShare (k1_pay1 x0 (dist1 tb D (i 0).val) x1 (acc1 i xo))
    ∗ (∃ fs, heldW c scM fullShare fs) ∗ cells1 c ∗ heldW c dM fullShare D ∗ (∃ W', owes (c : Thread nD τ) 0 W'))

end Cert.Kernel.Hand

end
-- ==== Proof.Bits.R1Rows.lean ====
/-
  The row geometry of the second pass's scratch tile. The tile is 128 rows of 10000 entries; the body fills it one row
  at a time, row j from one row of the distance matrix, each row handled as a vector of 10000 entries.

  * `rowM j`, `srcM r`: row j of the tile and row r of the distance matrix, as vectors.
  * `rowM_emb`, `srcM_emb`: entry x of such a row vector is entry (j, x) of the tile, (r, x) of the matrix.
  * `rowWrite_apply`: the tile after a whole row vector p is written into row j holds p on row j and is unchanged elsewhere.
  * `srcRead_apply`: row r of the matrix read as a vector.
  * `RowsAgree n g G`: the first n rows of g are those of G; it holds for n = 0, writing row n of G extends it to
    n + 1, and at n = 128 the two tiles are equal.
  * `rowsBelow c n`: the elements of the first n rows; row n's elements are those with row coordinate n
    (`mem_rowM_set`), so the first n + 1 rows are the first n together with row n, disjointly.
  * `rowsHeld c n G`: the first n rows owned, at contents whose first n rows are G's. Nothing is owned at n = 0; row n
    owned apart at a tile whose row n is G's joins it to n + 1; at n = 128 the whole tile is owned at G.
-/
import proofs.«406825_j71691594105550_1_alg».proof.Proof.Bits.R1Defs

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Rows as vectors -/

/-- Row j of the scratch tile, squeezed to a vector: the destination of the j-th copy, as the body spells it. -/
abbrev rowM (j : ℕ) (hj : ∀ a, (![j, 0] : Fin 2 → ℕ) a + S1x10000.size a ≤ S128x10000.size a) : Memref sig .tc .vmem S10000 .f32 :=
  (scM.slice (Rect.unit (s := S128x10000) ![j, 0] S1x10000.size hj) (fun _ => rfl)).squeeze S10000 squeezes_S1x10000_S10000
/-- Row r of the distance matrix, squeezed: the source of a copy. -/
abbrev srcM (r : ℕ) (hr : ∀ a, (![r, 0] : Fin 2 → ℕ) a + S1x10000.size a ≤ S10000x10000.size a) : Memref sig .tc .hbm S10000 .f32 :=
  (dM.slice (Rect.unit (s := S10000x10000) ![r, 0] S1x10000.size hr) (fun _ => rfl)).squeeze S10000 squeezes_S1x10000_S10000

/-- Entry x of row j of the tile sits at (j, x): a vector index is the one-row matrix index (0, x), and the one-row
    rectangle at offset (j, 0) with unit strides places that at (j + 0, 0 + x). -/
theorem rowM_emb (j : ℕ) (hj) (x : S10000.Idx) :
    ((rowM j hj).view.emb x : S128x10000.Idx) = ix2 (⟨j, by have := hj 0; simpa using this⟩ : Fin 128) (x 0) := by
  refine funext fun (a : Fin 2) => Fin.ext ?_
  show ((Rect.unit (s := S128x10000) ![j, 0] S1x10000.size hj).emb (Shape.reshapeEquiv (Shape.Squeezes.numel_eq squeezes_S1x10000_S10000) x) a).val = _
  rw [Rect.emb_apply, Shape.reshapeEquiv_cons_one]
  match a with
  | ⟨0, _⟩ => show j + 1 * 0 = j; omega
  | ⟨1, _⟩ => show 0 + 1 * (x 0).val = (x 0).val; omega

/-- Entry x of row r of the distance matrix sits at (r, x). -/
theorem srcM_emb (r : ℕ) (hr) (x : S10000.Idx) :
    ((srcM r hr).view.emb x : S10000x10000.Idx) = ix2 (⟨r, by have := hr 0; simpa using this⟩ : Fin 10000) (x 0) := by
  refine funext fun (a : Fin 2) => Fin.ext ?_
  show ((Rect.unit (s := S10000x10000) ![r, 0] S1x10000.size hr).emb (Shape.reshapeEquiv (Shape.Squeezes.numel_eq squeezes_S1x10000_S10000) x) a).val = _
  rw [Rect.emb_apply, Shape.reshapeEquiv_cons_one]
  match a with
  | ⟨0, _⟩ => show r + 1 * 0 = r; omega
  | ⟨1, _⟩ => show 0 + 1 * (x 0).val = (x 0).val; omega

/-! ## Writing a row, reading a row -/

/-- The tile after the vector p is written over the whole of row j: at (j, k) it holds p k, off row j it is unchanged.
    On row j the index is the image of the vector index k; off row j it is the image of no vector index. -/
theorem rowWrite_apply (c : Dev nD) (j : ℕ) (hj) (g : Buf (Elt F) (scM.view.loc (c : Thread nD τ))) (p : S10000.Idx → Elt F .f32)
    (y : S128x10000.Idx) :
    View.write (Elt F) (rowM j hj).view g p Finset.univ y = if (y 0).val = j then p (ValueIdx.ix1 (y 1)) else g y := by
  by_cases hy : (y 0).val = j
  · rw [if_pos hy]
    have hy' : y = ((rowM j hj).view.emb (ValueIdx.ix1 (y 1)) : S128x10000.Idx) := by
      rw [rowM_emb]
      refine funext fun (a : Fin 2) => Fin.ext ?_
      match a with
      | ⟨0, _⟩ => exact hy
      | ⟨1, _⟩ => rfl
    refine (congrArg (View.write (Elt F) (rowM j hj).view g p Finset.univ) hy').trans ?_
    rw [View.write_emb_of_mem _ _ (Finset.mem_univ _)]
    rfl
  · rw [if_neg hy]
    unfold View.write
    rw [preimage?_eq_none (fun x hx => hy ?_)]
    have := congrArg (fun (z : S128x10000.Idx) => (z 0).val) hx
    rw [rowM_emb] at this
    exact this.symm

/-- Row r of the distance matrix D read as a vector: entry x is D (r, x). -/
theorem srcRead_apply (c : Dev nD) (r : ℕ) (hr) (D : Vec F S10000x10000 .f32) (x : S10000.Idx) :
    (srcM r hr).view.read (Elt F) D x = D (ix2 (⟨r, by have := hr 0; simpa using this⟩ : Fin 10000) (x 0)) := by
  rw [View.read_apply]
  show D ((srcM r hr).view.emb x) = _
  rw [srcM_emb]
  rfl

/-! ## Filling the tile row by row -/

/-- The first n rows of g are those of G. -/
def RowsAgree (n : ℕ) (g G : S128x10000.Idx → Elt F .f32) : Prop := ∀ y, (y 0).val < n → g y = G y

/-- No rows: nothing to compare. -/
theorem rowsAgree_zero (g G : S128x10000.Idx → Elt F .f32) : RowsAgree 0 g G := fun y h => absurd h (Nat.not_lt_zero _)

/-- Writing row n of G over row n of a tile that agrees with G on its first n rows gives one that agrees on n + 1. -/
theorem rowsAgree_step (c : Dev nD) (n : ℕ) (hn) (g : Buf (Elt F) (scM.view.loc (c : Thread nD τ))) (p : S10000.Idx → Elt F .f32)
    (G : S128x10000.Idx → Elt F .f32) (h : RowsAgree n g G)
    (hp : ∀ (y : S128x10000.Idx), (y 0).val = n → p (ValueIdx.ix1 (y 1)) = G y) :
    RowsAgree (n + 1) (View.write (Elt F) (rowM n hn).view g p Finset.univ) G := by
  intro y hy
  rw [rowWrite_apply c n hn g p y]
  split
  · next e => exact hp y e
  · next e => exact h y (by omega)

/-- All 128 rows agree: the tiles are equal. -/
theorem rowsAgree_all (g G : S128x10000.Idx → Elt F .f32) (h : RowsAgree 128 g G) : g = G :=
  funext fun y => h y (y 0).isLt

/-! ## Joining the rows back -/

/-- The elements of the scratch tile's first n rows. -/
def rowsBelow (c : Dev nD) (n : ℕ) : Finset (Idx (scM.view.loc (c : Thread nD τ))) :=
  Finset.univ.filter fun y => ((y : S128x10000.Idx) 0).val < n

/-- An element is in the first n rows when its row coordinate is below n. -/
theorem mem_rowsBelow (c : Dev nD) (n : ℕ) (y : S128x10000.Idx) : y ∈ rowsBelow c n ↔ (y 0).val < n := by
  unfold rowsBelow
  rw [Finset.mem_filter]
  exact ⟨fun h => h.2, fun h => ⟨Finset.mem_univ _, h⟩⟩

/-- The elements of row j are those whose row coordinate is j. -/
theorem mem_rowM_set (c : Dev nD) (j : ℕ) (hj) (y : S128x10000.Idx) : y ∈ (rowM j hj).view.set ↔ (y 0).val = j := by
  constructor
  · intro h
    obtain ⟨x, -, hx⟩ := Finset.mem_map.1 h
    have := congrArg (fun (z : S128x10000.Idx) => (z 0).val) hx
    rw [rowM_emb] at this
    exact this.symm
  · intro hy
    have hy' : y = ((rowM j hj).view.emb (ValueIdx.ix1 (y 1)) : S128x10000.Idx) := by
      rw [rowM_emb]
      refine funext fun (a : Fin 2) => Fin.ext ?_
      match a with
      | ⟨0, _⟩ => exact hy
      | ⟨1, _⟩ => rfl
    rw [hy']
    exact View.emb_mem_set _ _

/-- No rows, no elements. -/
theorem rowsBelow_zero (c : Dev nD) : rowsBelow c 0 = ∅ :=
  Finset.eq_empty_of_forall_notMem fun y h => Nat.not_lt_zero _ ((mem_rowsBelow c 0 y).1 h)

/-- All 128 rows are the whole tile. -/
theorem rowsBelow_all (c : Dev nD) : rowsBelow c 128 = Finset.univ :=
  Finset.eq_univ_of_forall fun y => (mem_rowsBelow c 128 y).2 ((y : S128x10000.Idx) 0).isLt

/-- The first n + 1 rows are the first n rows and row n. -/
theorem rowsBelow_succ (c : Dev nD) (n : ℕ) (hn) : rowsBelow c (n + 1) = rowsBelow c n ∪ (rowM n hn).view.set := by
  ext y
  rw [Finset.mem_union, mem_rowsBelow, mem_rowsBelow, mem_rowM_set c n hn]
  omega

/-- Row n is not among the first n rows. -/
theorem rowsBelow_disjoint (c : Dev nD) (n : ℕ) (hn) : Disjoint (rowsBelow c n) (rowM n hn).view.set :=
  Finset.disjoint_left.2 fun y h1 h2 => by
    have a := (mem_rowsBelow c n y).1 h1
    have b := (mem_rowM_set c n hn y).1 h2
    omega

/-- The rows joined so far, at contents whose first n rows are G's. -/
def rowsHeld (c : Dev nD) (n : ℕ) (G : S128x10000.Idx → Elt F .f32) : sProp 𝕄 :=
  iprop(∃ g : Buf (Elt F) (scM.view.loc (c : Thread nD τ)), ⌜RowsAgree n g G⌝ ∗ (scM.view.loc (c : Thread nD τ) ↦[rowsBelow c n]{fullShare} g))

/-- Before any row is joined nothing is owned: the empty element set, at any contents. -/
theorem rowsHeld_zero (c : Dev nD) (G : S128x10000.Idx → Elt F .f32) : (emp : sProp 𝕄) ⊢ rowsHeld c 0 G := by
  unfold rowsHeld
  iintro -
  iexists G
  isplitr
  · ipureintro; exact rowsAgree_zero _ _
  · rw [rowsBelow_zero, pointsTo_empty]; iempintro

/-- Row n, owned apart at a tile obtained by writing into row n a vector that is G's row n, joins the first n rows:
    the joined contents are that tile on row n and the earlier contents elsewhere, so their first n + 1 rows are G's. -/
theorem rowsHeld_step (c : Dev nD) (n : ℕ) (hn) (inner : Buf (Elt F) (scM.view.loc (c : Thread nD τ))) (p : S10000.Idx → Elt F .f32)
    (G : S128x10000.Idx → Elt F .f32) (hp : ∀ (y : S128x10000.Idx), (y 0).val = n → p (ValueIdx.ix1 (y 1)) = G y) :
    iprop(rowsHeld c n G ∗ (scM.view.loc (c : Thread nD τ) ↦[(rowM n hn).view.set]{fullShare} View.write (Elt F) (rowM n hn).view inner p Finset.univ))
      ⊢ rowsHeld c (n + 1) G := by
  unfold rowsHeld
  iintro ⟨⟨%g, %hg, Hb⟩, Hr⟩
  iexists ((rowM n hn).view.set).piecewise (View.write (Elt F) (rowM n hn).view inner p Finset.univ) g
  isplitr
  · ipureintro
    intro y hy
    by_cases e : (y 0).val = n
    · rw [Finset.piecewise_eq_of_mem _ _ _ ((mem_rowM_set c n hn y).2 e), rowWrite_apply c n hn inner p y, if_pos e]
      exact hp y e
    · rw [Finset.piecewise_eq_of_notMem _ _ _ (fun h => e ((mem_rowM_set c n hn y).1 h))]
      exact hg y (by omega)
  · rw [rowsBelow_succ c n hn]
    iapply (pointsTo_join (rowsBelow_disjoint c n hn))
    isplitl [Hb]; · iexact Hb
    iexact Hr

/-- With all 128 rows joined the contents are G and the element set is the whole tile. -/
theorem rowsHeld_all (c : Dev nD) (G : S128x10000.Idx → Elt F .f32) : rowsHeld c 128 G ⊢ heldW c scM fullShare G := by
  unfold rowsHeld
  iintro ⟨%g, %hg, Hb⟩
  rw [rowsBelow_all, rowsAgree_all g G hg]
  iexact Hb

end Cert.Kernel.Hand

end
-- ==== Proof.Bits.R1Words.lean ====
/-
  The words the second pass reads off the label table, and its first-point test.

  * `word_lt`: any word read off a label table whose entries are all below 10000 is below 10000.
  * `chk_of_lt`: a one-row rectangle at row w of the 10000 x 10000 distance matrix fits when w is below 10000.
  * `off_val`: the table position of the k-th copy at grid coordinate i, computed in 32-bit words as i * 128 + k,
    is the natural number 128 * i + k (i below 64 and k below 128: nothing wraps).
  * `cond_first`: the body's test "is this the first grid point", computed in words, holds exactly when i = 0.
-/
import proofs.«406825_j71691594105550_1_alg».proof.Proof.Bits.R1Rows

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Any word read off the label table names a row of the distance matrix: a read returns one of the table's entries. -/
theorem word_lt (tb : Vec F S8192 .i32) (hH : ∀ x : S8192.Idx, (tb x).toNat < 10000) (r : LoadRect S8192) (x : r.shape.Idx) :
    (View.readAt (Elt F) tabM.view r tb x).toNat < 10000 :=
  hH (r.idx x)

/-- Row w with w below 10000: w + 1 ≤ 10000 down the rows, 0 + 10000 ≤ 10000 along them. -/
theorem chk_of_lt (w : BitVec 32) (h : w.toNat < 10000) :
    ∀ a, (![w.toNat, 0] : Fin 2 → ℕ) a + S1x10000.size a ≤ S10000x10000.size a := by
  intro a
  match a with
  | ⟨0, _⟩ => show w.toNat + 1 ≤ 10000; omega
  | ⟨1, _⟩ => show 0 + 10000 ≤ 10000; omega

/-- The table offset of the k-th copy at grid coordinate i: 128 * i + k is below 2 ^ 32, so the word arithmetic is exact. -/
theorem off_val (i : grid1.Coords) (k : ℕ) (hk : k < 128) :
    (Scalar.indexCast (Scalar.addi (Scalar.muli (BitVec.ofNat 32 (i 0).val) 128#32) (BitVec.ofNat 32 k))).toNat = 128 * (i 0).val + k := by
  have hi : (i 0).val < 64 := (i 0).isLt
  show ((BitVec.ofNat 32 (i 0).val * 128#32) + BitVec.ofNat 32 k).toNat = _
  simp only [BitVec.toNat_add, BitVec.toNat_mul, BitVec.toNat_ofNat, Nat.reducePow, Nat.reduceMod]
  omega

/-- The first-point test: the word of i is zero exactly when i = 0 (i is below 64), the widened truth value of that is
    nonzero exactly when it is true. -/
theorem cond_first (i : grid1.Coords) :
    (Scalar.cmpi .ne (Scalar.extui (Scalar.cmpi .eq (BitVec.ofNat 32 (i 0).val) 0#32)) 0#32 = 1#1) ↔ (i 0).val = 0 := by
  have hi : (i 0).val < 64 := (i 0).isLt
  have key : (BitVec.ofNat 32 (i 0).val = 0#32) ↔ (i 0).val = 0 := by
    constructor
    · intro h
      have := congrArg BitVec.toNat h
      simp only [BitVec.toNat_ofNat, Nat.reducePow] at this
      omega
    · intro h; rw [h]
  rw [← key]
  show (BitVec.ofBool ((BitVec.ofBool (BitVec.ofNat 32 (i 0).val == 0#32)).setWidth 32 != 0#32) = 1#1) ↔ _
  by_cases h : BitVec.ofNat 32 (i 0).val = 0#32
  · rw [show (BitVec.ofNat 32 (i 0).val == 0#32) = true from beq_iff_eq.2 h]
    exact iff_of_true (by decide) h
  · rw [show (BitVec.ofNat 32 (i 0).val == 0#32) = false from beq_eq_false_iff_ne.2 h]
    exact iff_of_false (by decide) h

end Cert.Kernel.Hand

end
-- ==== Proof.Bits.R1Payload.lean ====
/-
  What one row copy of the second pass delivers. The body reads the label word at position 128 t + k of the table
  (t the grid coordinate, k the row of the tile), takes the row of the distance matrix that word names, and copies it
  as a vector into row k of the scratch tile. On a table whose every word is below the class count that vector is row
  k of the gathered tile: the position 128 t + k lies inside the table (t < 64, k < 128), so neither reduction in the
  gathered tile's row number changes anything.
-/
import proofs.«406825_j71691594105550_1_alg».proof.Proof.Bits.R1Rows

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The one word a unit read at offset n of the whole table returns is the table's entry n. -/
private theorem table_word (tb : Vec F S8192 .i32) (off : Fin 1 → ℕ) (inb : ∀ a, off a + S1.size a ≤ S8192.size a)
    (h1 : 0 < S1.numel) (n : ℕ) (hn : n < 8192) (hoff : off 0 = n) :
    View.readAt (Elt F) tabM.view (Rect.unit (s := S8192) off S1.size inb).toLoadRect tb (Shape.Idx.first h1)
      = tb (ValueIdx.ix1 (⟨n, hn⟩ : Fin 8192)) := by
  rw [View.readAt_apply]
  show tb _ = tb _
  congr 1
  funext a
  apply Fin.ext
  match a with
  | ⟨0, _⟩ =>
    show off 0 + 1 * (Shape.Idx.first h1 (0 : Fin 1)).val = n
    have h0 : (Shape.Idx.first h1 (0 : Fin 1)).val = 0 := by
      have := (Shape.Idx.first h1 (0 : Fin 1)).isLt
      have e : S1.size (0 : Fin 1) = 1 := by decide
      omega
    rw [h0, hoff]
    omega

/-- What the k-th copy delivers is row k of the gathered tile. -/
theorem payload_row (tb : Vec F S8192 .i32) (D : Vec F S10000x10000 .f32) (hH : ∀ x : S8192.Idx, (tb x).toNat < 10000)
    (i : grid1.Coords) (k : ℕ) (hk : k < 128)
    (off : Fin 1 → ℕ) (inb : ∀ a, off a + S1.size a ≤ S8192.size a) (h1 : 0 < S1.numel) (hoff : off 0 = 128 * (i 0).val + k)
    (r : Fin 2 → ℕ)
    (hr0 : r = ![(View.readAt (Elt F) tabM.view (Rect.unit (s := S8192) off S1.size inb).toLoadRect tb (Shape.Idx.first h1)).toNat, 0])
    (hr : ∀ a, r a + S1x10000.size a ≤ S10000x10000.size a) (hs : ∀ a, (Rect.unit (s := S10000x10000) r S1x10000.size hr).stride a = 1)
    (y : S128x10000.Idx) (hy : (y 0).val = k) :
    ReadAs.same.apply (View.read (Elt F) ((dM.slice (Rect.unit (s := S10000x10000) r S1x10000.size hr) hs).squeeze S10000 squeezes_S1x10000_S10000).view D) (ValueIdx.ix1 (y 1))
      = dist1 tb D (i 0).val y := by
  have hi : (i 0).val < 64 := (i 0).isLt
  have hn : 128 * (i 0).val + k < 8192 := by omega
  have hy1 : (y 1).val < 10000 := idx2_lt1 y
  have hword := table_word tb off inb h1 (128 * (i 0).val + k) hn hoff
  subst hr0
  generalize View.readAt (Elt F) tabM.view (Rect.unit (s := S8192) off S1.size inb).toLoadRect tb (Shape.Idx.first h1) = w
    at hr hs hword ⊢
  have hw : w.toNat < 10000 := by rw [hword]; exact hH _
  show (srcM w.toNat hr).view.read (Elt F) D (ValueIdx.ix1 (y 1)) = _
  rw [srcRead_apply (0 : Dev nD) w.toNat hr D (ValueIdx.ix1 (y 1))]
  unfold dist1
  refine congrArg D ?_
  have erow : (⟨(128 * (i 0).val + (y 0).val) % 8192, Nat.mod_lt _ (by norm_num)⟩ : Fin 8192)
      = ⟨128 * (i 0).val + k, hn⟩ := Fin.ext (by
    show (128 * (i 0).val + (y 0).val) % 8192 = 128 * (i 0).val + k
    rw [hy, Nat.mod_eq_of_lt hn])
  funext a
  apply Fin.ext
  match a with
  | ⟨0, _⟩ =>
    show w.toNat = (tb (ValueIdx.ix1 (⟨(128 * (i 0).val + (y 0).val) % 8192, Nat.mod_lt _ (by norm_num)⟩ : Fin 8192))).toNat % 10000
    rw [erow, ← hword, Nat.mod_eq_of_lt hw]
  | ⟨1, _⟩ =>
    show (y 1).val = (y 1).val % 10000
    rw [Nat.mod_eq_of_lt hy1]

end Cert.Kernel.Hand

end
-- ==== Proof.Bits.R1Tail.lean ====
/-
  Reads and a store through the whole of a rank-2 buffer. The rectangle from offset (0, 0) at unit strides with the
  buffer's own extents places every index at itself (`box_idx`); so
  * a load of that box through a staging buffer held at the contents that read X reads X (`readAt_box_unread`),
  * a load of that box through the scratch tile held at G reads G (`readAt_box_scM`),
  * after a store of w over that box (the latest of any list of stores) the buffer reads w (`read_writes_box`),
  * a load of that box covered by a single store of w over it reads w (`readCov_box`).
-/
import proofs.«406825_j71691594105550_1_alg».proof.Proof.Bits.R1Rows
import Idealize.ShloMosaic.Lib.WholeRead

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rectangle covering a whole rank-2 shape, from offset (0, 0) at unit strides, places every index at itself. -/
theorem box_idx {n0 n1 : ℕ} (inb : ∀ a, (![0, 0] : Fin 2 → ℕ) a + (⟨2, ![n0, n1]⟩ : Shape).size a ≤ (⟨2, ![n0, n1]⟩ : Shape).size a)
    (x : (⟨2, ![n0, n1]⟩ : Shape).Idx) :
    (Rect.unit (s := ⟨2, ![n0, n1]⟩) ![0, 0] (⟨2, ![n0, n1]⟩ : Shape).size inb).idx x = x := by
  refine funext fun (a : Fin 2) => Fin.ext ?_
  match a with
  | ⟨0, _⟩ => show 0 + 1 * (x 0).val = (x 0).val; omega
  | ⟨1, _⟩ => show 0 + 1 * (x 1).val = (x 1).val; omega

/-- A whole-box load through a buffer held at the contents that read X reads X. -/
theorem readAt_box_unread {sp : Space} {n0 n1 : ℕ} {e : EltTy} (m : Memref sig .tc sp ⟨2, ![n0, n1]⟩ e) (h : m.IsWhole)
    (X : (⟨2, ![n0, n1]⟩ : Shape).Idx → Elt F e) (inb : ∀ a, (![0, 0] : Fin 2 → ℕ) a + (⟨2, ![n0, n1]⟩ : Shape).size a ≤ (⟨2, ![n0, n1]⟩ : Shape).size a) :
    View.readAt (Elt F) m.view (Rect.unit (s := ⟨2, ![n0, n1]⟩) ![0, 0] (⟨2, ![n0, n1]⟩ : Shape).size inb).toLoadRect (h.unread X) = X := by
  funext x
  rw [h.readAt_unread X]
  exact congrArg X (box_idx inb x)

/-- A whole-box load through the scratch tile held at G reads G. -/
theorem readAt_box_scM (G : Vec F S128x10000 .f32) (inb : ∀ a, (![0, 0] : Fin 2 → ℕ) a + S128x10000.size a ≤ S128x10000.size a) :
    View.readAt (Elt F) scM.view (Rect.unit (s := S128x10000) ![0, 0] S128x10000.size inb).toLoadRect G = G := by
  funext x
  show G ((Rect.unit (s := S128x10000) ![0, 0] S128x10000.size inb).idx x) = G x
  exact congrArg G (box_idx inb x)

/-- After a store of w over the whole box, whatever was stored before, the buffer reads w. -/
theorem read_writes_box {sp : Space} {n0 n1 : ℕ} {e : EltTy} (m : Memref sig .tc sp ⟨2, ![n0, n1]⟩ e) (f : m.view.ty.Contents (Elt F))
    (inb) (w : (⟨2, ![n0, n1]⟩ : Shape).Idx → Elt F e) (L : List (View.Piece (Elt F) ⟨2, ![n0, n1]⟩ e)) :
    View.read (Elt F) m.view (m.view.writes (Elt F) f (⟨Rect.unit (s := ⟨2, ![n0, n1]⟩) ![0, 0] (⟨2, ![n0, n1]⟩ : Shape).size inb, w⟩ :: L)) = w := by
  funext x
  have := View.read_writes_cons_emb m.view f (Rect.unit (s := ⟨2, ![n0, n1]⟩) ![0, 0] (⟨2, ![n0, n1]⟩ : Shape).size inb) w L x
  rw [show (Rect.unit (s := ⟨2, ![n0, n1]⟩) ![0, 0] (⟨2, ![n0, n1]⟩ : Shape).size inb).emb x = x from box_idx inb x] at this
  exact this

/-- A whole-box load covered by the one store of w over the whole box reads w. -/
theorem readCov_box {sp : Space} {n0 n1 : ℕ} {e : EltTy} (m : Memref sig .tc sp ⟨2, ![n0, n1]⟩ e) (inb) (w : (⟨2, ![n0, n1]⟩ : Shape).Idx → Elt F e) :
    m.view.readCov [⟨Rect.unit (s := ⟨2, ![n0, n1]⟩) ![0, 0] (⟨2, ![n0, n1]⟩ : Shape).size inb, w⟩] (Rect.unit (s := ⟨2, ![n0, n1]⟩) ![0, 0] (⟨2, ![n0, n1]⟩ : Shape).size inb).toLoadRect = w :=
  View.readCov_cons_toLoadRect m.view (Rect.unit (s := ⟨2, ![n0, n1]⟩) ![0, 0] (⟨2, ![n0, n1]⟩ : Shape).size inb) w []

end Cert.Kernel.Hand

end
-- ==== Proof.Bits.R1RowsFrom.lean ====
/-
  The rows of the second pass's scratch tile from row n on. While the row copies are in flight the body keeps the part
  of the tile not yet handed to a copy: the whole tile before the first copy, then one row less after each, and after
  127 rows are handed out what is left is the last row.
-/
import proofs.«406825_j71691594105550_1_alg».proof.Proof.Bits.R1Rows

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The elements of the scratch tile's rows n, n + 1, …, 127. -/
def rowsFrom (c : Dev nD) (n : ℕ) : Finset (Idx (scM.view.loc (c : Thread nD τ))) := Finset.univ.filter fun y => n ≤ ((y : S128x10000.Idx) 0).val

/-- An element is in the rows from n on when its row coordinate is at least n. -/
theorem mem_rowsFrom (c : Dev nD) (n : ℕ) (y : S128x10000.Idx) : y ∈ rowsFrom c n ↔ n ≤ (y 0).val := by
  unfold rowsFrom
  rw [Finset.mem_filter]
  exact ⟨fun h => h.2, fun h => ⟨Finset.mem_univ _, h⟩⟩

/-- From row 0 on: the whole tile. -/
theorem rowsFrom_zero (c : Dev nD) : (Finset.univ : Finset (Idx (scM.view.loc (c : Thread nD τ)))) = rowsFrom c 0 :=
  (Finset.eq_univ_of_forall fun y => (mem_rowsFrom c 0 y).2 (Nat.zero_le _)).symm

/-- Taking row n away from the rows from n on leaves the rows from n + 1 on. -/
theorem rowsFrom_step (c : Dev nD) (n : ℕ) (hn) : rowsFrom c n \ (rowM n hn).view.set = rowsFrom c (n + 1) := by
  ext y
  rw [Finset.mem_sdiff, mem_rowsFrom, mem_rowsFrom, mem_rowM_set c n hn]
  omega

/-- From row 127 on: the last row alone. -/
theorem rowsFrom_last (c : Dev nD) (hn) : rowsFrom c 127 = (rowM 127 hn).view.set := by
  ext y
  rw [mem_rowsFrom, mem_rowM_set c 127 hn]
  have h128 : ((y : S128x10000.Idx) 0).val < 128 := ((y : S128x10000.Idx) 0).isLt
  omega

end Cert.Kernel.Hand

end
-- ==== Proof.LibForK.lean ====
/-
  A tactic run once for each number of a range.

  An unrolled kernel body spells its k-th copy, cell, read share and scratch row with the number k in the names. The same
  proof step is taken for each k by writing it once with the number left open: `«k»`, `«k+2»`, `«2k+1»` and `«2k+2»` in
  the tactic's text stand for those numbers.
-/
import Lean

namespace Cert.ForK

open Lean Elab Tactic

/-- The text of a tactic at the number `k`. -/
def atNumber (s : String) (k : Nat) : String :=
  (((s.replace "«k»" (toString k)).replace "«k+2»" (toString (k + 2))).replace "«2k+1»" (toString (2 * k + 1))).replace "«2k+2»" (toString (2 * k + 2))

/-- `for_k lo hi "tac"`: the tactic `tac` at each number from `lo` up to `hi - 1`. -/
elab "for_k " lo:num hi:num s:str : tactic => do
  for k in [lo.getNat : hi.getNat] do
    match Parser.runParserCategory (← getEnv) `tactic (atNumber s.getString k) with
    | .ok stx => evalTactic stx
    | .error e => throwError "for_k at {k}: {e}"

/-- The same from `hi - 1` down to `lo`. -/
elab "for_k_down " lo:num hi:num s:str : tactic => do
  for j in [0 : hi.getNat - lo.getNat] do
    let k := hi.getNat - 1 - j
    match Parser.runParserCategory (← getEnv) `tactic (atNumber s.getString k) with
    | .ok stx => evalTactic stx
    | .error e => throwError "for_k_down at {k}: {e}"

end Cert.ForK
-- ==== Proof.Bits.R1Run.lean ====
/-
  Region 1's body on any staging memrefs: from the label table, the logits tile, the column log-sum-exp row, the carried
  scalar, the scratch tile at anything, the distance matrix whole and the 128 own cells at zero, it runs to the same
  resources with the carried scalar updated by the weighted sum against the gathered tile.

  The body starts 128 row copies, each on a cell of its own, before it waits for any. So the distance matrix is held as one
  read share per cell while they fly, and each copy takes its own row of the scratch tile away and brings it back written.
  Once all are back the rows are put together again, one at a time, under the statement that the rows so far are those of
  the gathered tile; what the k-th copy delivered is row k of that tile because the word the body read at 128 t + k names
  it. The rest of the body (the reset at the first point, the loads and the one store) then runs on the tile whole.

  The body is unrolled: its k-th copy, cell, read share and scratch row are spelt with the number k in them. A step taken
  for each k is written once with the number left open (`for_k`, `for_k_down`).
-/
import proofs.«406825_j71691594105550_1_alg».proof.Proof.Bits.R1Words
import proofs.«406825_j71691594105550_1_alg».proof.Proof.Bits.R1Payload
import proofs.«406825_j71691594105550_1_alg».proof.Proof.Bits.R1Tail
import proofs.«406825_j71691594105550_1_alg».proof.Proof.Bits.R1RowsFrom
import proofs.«406825_j71691594105550_1_alg».proof.Proof.LibForK
import Idealize.ShloMosaic.Lib.Batch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Separating conjunctions over an initial segment of the naturals, one member at a time -/

theorem bigSep_range_succ {M : Type} [URA M] (n : ℕ) (Φ : ℕ → sProp M) :
    bigSep (Finset.range (n + 1)) Φ = iprop(Φ n ∗ bigSep (Finset.range n) Φ) := by
  rw [Finset.range_add_one, BI.bigSep_insert Finset.notMem_range_self]; rfl

theorem bigSep_range_join {M : Type} [URA M] (n : ℕ) (Φ : ℕ → sProp M) :
    iprop(Φ n ∗ bigSep (Finset.range n) Φ) ⊢ bigSep (Finset.range (n + 1)) Φ := Entails.of_eq (bigSep_range_succ n Φ).symm

/-- The own cell numbered j, at zero. -/
abbrev cellAt (c : Dev nD) (j : ℕ) : sProp 𝕄 := semVal ((c : Thread nD τ), osem1 ⟨j % 128, Nat.mod_lt _ (by norm_num)⟩) 0
/-- The j-th read share of the distance matrix. -/
abbrev tokAt (c : Dev nD) (D : Vec F S10000x10000 .f32) (j : ℕ) : sProp 𝕄 := dM.view.loc (c : Thread nD τ) ↦{Transfers.shareTokN fullShare j} D

/-- The own cells, numbered by naturals. -/
theorem cells1_range (c : Dev nD) :
    (cells1 (F := F) c : sProp 𝕄)
      = bigSep (Finset.range 128) fun j => semVal ((c : Thread nD τ), osem1 ⟨j % 128, Nat.mod_lt _ (by norm_num)⟩) 0 := by
  unfold cells1 Pipeline.ownSems0
  rw [← Nat.Iio_eq_range, ← Fin.map_valEmbedding_univ, BI.bigSep_map]
  refine BI.bigSep_congr fun k _ => ?_
  have : (⟨(Fin.valEmbedding k) % 128, Nat.mod_lt _ (by norm_num)⟩ : Fin 128) = k := Fin.ext (Nat.mod_eq_of_lt k.isLt)
  rw [this]

/-- One more row joined to the rows held so far, what the delivered payload is being left to be proved. -/
theorem rowsHeld_step' (c : Dev nD) (n : ℕ) (hn) (inner : Buf (Elt F) (scM.view.loc (c : Thread nD τ))) (p : S10000.Idx → Elt F .f32)
    (G : S128x10000.Idx → Elt F .f32) :
    iprop(rowsHeld c n G ∗ (scM.view.loc (c : Thread nD τ) ↦[(rowM n hn).view.set]{fullShare} View.write (Elt F) (rowM n hn).view inner p Finset.univ))
      ⊢ iprop(∀ _ : (∀ (y : S128x10000.Idx), (y 0).val = n → p (ValueIdx.ix1 (y 1)) = G y), rowsHeld c (n + 1) G) := by
  iintro H %hp
  iapply (rowsHeld_step c n hn inner p G hp)
  iexact H

/-- Carving row n out of what is the rows from n on leaves the rows from n + 1 on. -/
theorem sdiff_rows (c : Dev nD) (A : Finset (Idx (scM.view.loc (c : Thread nD τ)))) (n : ℕ) (hn) (h : A = rowsFrom c n) :
    A \ (rowM n hn).view.set = rowsFrom c (n + 1) := by
  subst h; exact rowsFrom_step c n hn

/-- A points-to restated over an equal element set. -/
theorem pointsTo_set_eq' {ℓ : Loc nD τ sig} {S S' : Finset (Idx ℓ)} {q : PosShare TreeShare} {f : Buf (Elt F) ℓ} :
    (ℓ ↦[S]{q} f : sProp 𝕄) ⊢ iprop(∀ _ : S = S', ℓ ↦[S']{q} f) := by
  iintro H %h
  subst h
  iexact H

set_option maxHeartbeats 0 in
/-- The body's run. -/
theorem kernelRun1 (c : Dev nD) (i : grid1.Coords)
    (arg2 : Memref sig .tc .vmem S128x10000 .f32) (harg2 : arg2.IsWhole)
    (arg4 : Memref sig .tc .vmem S1x10000 .f32) (harg4 : arg4.IsWhole)
    (arg5 : Memref sig .tc .vmem S1x1 .f32) (harg5 : arg5.IsWhole)
    (tb : Vec F S8192 .i32) (D : Vec F S10000x10000 .f32) (hH : ∀ x : S8192.Idx, (tb x).toNat < 10000)
    (x0 : Vec F S128x10000 .f32) (x1 : Vec F S1x10000 .f32) (xo : Vec F S1x1 .f32)
    (W : Waits sig Unit) (K : PUnit → sProp 𝕄) :
    iprop(heldW c tabM fullShare tb ∗ owns (c : Thread nD τ) arg2 fullShare x0 ∗ owns (c : Thread nD τ) arg4 fullShare x1
        ∗ owns (c : Thread nD τ) arg5 fullShare xo
        ∗ (∃ fs, heldW c scM fullShare fs) ∗ cells1 c ∗ heldW c dM fullShare D ∗ owes (c : Thread nD τ) 0 W
        ∗ (runPost1 c i arg2 arg4 arg5 tb D x0 x1 xo -∗ K ⟨⟩))
      ⊢ wp frame (wpE (defs₀ (F := F)) Variants.none c none) Set.univ
          (cc1__kernel_b i tabM (Memref.isWhole_whole _) arg2 harg2 dM (Memref.isWhole_whole _) arg4 harg4 arg5 harg5
            scM (Memref.isWhole_whole _) cc1_scratch1) K := by
  unfold runPost1
  simp only [cc1__kernel_b_eq_skeleton]; unfold cc1__kernel_b_skel
  unfold owns
  rw [cells1_range]
  iintro ⟨HT, ⟨%f2, %hf2, H2⟩, ⟨%f4, %hf4, H4⟩, ⟨%f5, %hf5, H5⟩, ⟨%fs, HS⟩, Hc, HD, HW, Hk⟩
  obtain rfl := harg2.eq_unread hf2
  obtain rfl := harg4.eq_unread hf4
  obtain rfl := harg5.eq_unread hf5
  -- the 128 cells, one by one
  for_k_down 0 128 "(ihave Hc' := (Entails.of_eq (bigSep_range_succ «k» _)) $$ Hc; icases Hc' with ⟨Hq«k», Hc⟩)"
  -- the distance matrix as one read share per cell number (the cells are numbers 11 to 138), and the remainder
  ihave HD' := (Transfers.pointsTo_toks_range (ℓ := dM.view.loc (c : Thread nD τ)) (S := Finset.univ) (f := D) fullShare 139).1 $$ HD
  icases HD' with ⟨HDr, HDt⟩
  for_k_down 0 139 "(ihave HD' := (Entails.of_eq (bigSep_range_succ «k» _)) $$ HDt; icases HD' with ⟨HD«k», HDt⟩)"
  -- the 128 copies and their waits: each word read off the table names a row of the distance matrix; each copy takes its
  -- row of the scratch tile away and hands it back written, rows 0 to 126 apart, row 127 with what was left
  (set_option sl_exec.dmaWindow true in
   set_option sl_exec.rejoinHeartbeats 1 in
   set_option sl_exec.stopBefore "v1923" in
   sl_exec (disch := first | exact chk_of_lt _ (word_lt tb hH _ _)))
  -- the rows put together: row k is what the k-th copy delivered, row k of the gathered tile
  ihave HG := rowsHeld_zero c (dist1 tb D (i 0).val) $$ []
  · iempintro
  for_k 0 127 "(icombine HG HS_«k+2» as Hx; ihave HG := rowsHeld_step' c «k» _ _ _ (dist1 tb D (i 0).val) $$ Hx; ispecialize HG $$ %(fun y hy => payload_row tb D hH i «k» (by norm_num) (k1_off«2k+1» i) (k1_off«2k+1»_inb i) _ (off_val i «k» (by norm_num)) _ rfl _ _ y hy))"
  -- what was left after rows 0 to 126 were carved out is row 127
  ihave HS := pointsTo_set_eq' (S' := (rowM 127 inb_S128x10000_S1x10000_127_0).view.set) $$ HS
  ispecialize HS $$ %(by refine (sdiff_rows c _ 126 _ ?_).trans (rowsFrom_last c _); for_k_down 0 126 "refine sdiff_rows c _ «k» _ ?_"; exact rowsFrom_zero c)
  icombine HG HS as Hx
  ihave HG := rowsHeld_step' c 127 _ _ _ (dist1 tb D (i 0).val) $$ Hx
  ispecialize HG $$ %(fun y hy => payload_row tb D hH i 127 (by norm_num) (k1_off255 i) (k1_off255_inb i) _ (off_val i 127 (by norm_num)) _ rfl _ _ y hy)
  ihave HS := rowsHeld_all c (dist1 tb D (i 0).val) $$ HG
  -- the cells and the read shares back as they were handed in
  for_k 0 128 "(icombine Hq«k» Hc as Hx; ihave Hc := bigSep_range_join «k» (cellAt (F := F) c) $$ Hx)"
  for_k 0 139 "(icombine HD«k» HDt as Hx; ihave HDt := bigSep_range_join «k» (tokAt (F := F) c D) $$ Hx)"
  icombine HDr HDt as Hx
  ihave HD := (Transfers.pointsTo_toks_range (ℓ := dM.view.loc (c : Thread nD τ)) (S := Finset.univ) (f := D) fullShare 139).2 $$ Hx
  -- the rest of the body, at the first point (the carried scalar reset) and at a later one
  by_cases h0 : (i 0).val = 0 <;>
  ( sl_exec (disch := first | exact (cond_first i).mpr h0 | exact fun h => h0 ((cond_first i).mp h))
    sl_step
    iapply Hk
    isplitl [HT]
    · iexact HT
    isplitl [H2]
    · iexists _; isplitr; · ipureintro; exact harg2.read_unread _
      iexact H2
    isplitl [H4]
    · iexists _; isplitr; · ipureintro; exact harg4.read_unread _
      iexact H4
    isplitl [H5]
    · iexists _; isplitr; swap; · iexact H5
      ipureintro
      sl_unfold_run_names
      rw [read_writes_box, readAt_box_unread, readAt_box_scM, readAt_box_unread]
      first
        | rw [readAt_box_unread, acc1, if_neg h0]
        | rw [readCov_box, acc1, if_pos h0]
    isplitl [HS]
    · iexists _; iexact HS
    isplitl [Hc]
    · iexact Hc
    isplitl [HD]
    · iexact HD
    iexists _; iexact HW )

end Cert.Kernel.Hand

end
-- ==== Proof.Bits.R1Body.lean ====
/-
  Region 1's body at every grid point: 128 rows of the distance matrix, each named by a word of the label table, are
  copied into the scratch tile and waited for; then the carried scalar is reset (first point) and the tile's weighted
  sum is added to it.
-/
import proofs.«406825_j71691594105550_1_alg».proof.Proof.Bits.R1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

namespace R1Body

variable (V : EntryV F) (a : (pcfg1 (F := F)).Adm)

/-! ## What each window's staging buffer holds when the body runs -/

/-- The logits' tile: fetched or not, the staging buffer holds the tile of the point. -/
theorem before1_0 (c : Dev nD) (t : Fin (cfg1 a).N) (d) : (dat1 V a c).before 0 t d = iblk1 V a c 0 t :=
  ((dat1 V a c).before_in_eq_fetched 0 rfl (fun _ => rfl) (fun _ _ _ => rfl) (fun s => by rw [after1_0]; rfl) t d).trans rfl

/-- The row of column offsets: the same block at every point. -/
theorem before1_1 (c : Dev nD) (t : Fin (cfg1 a).N) (d) : (dat1 V a c).before 1 t d = iblk1 V a c 1 t :=
  ((dat1 V a c).before_in_eq_fetched 1 rfl (fun _ => rfl) (fun _ _ _ => rfl) (fun s => by rw [after1_1]; rfl) t d).trans rfl

/-- The carried scalar's block never moves, so it is written back at the last point only. -/
theorem flush1_2 (t : Fin (cfg1 a).N) : ((cfg1 a).win 2).flush t = true ↔ t.val = 63 := by
  have hstay : ¬∃ h : t.val + 1 < (cfg1 a).grid.N, ((cfg1 a).win 2).index ⟨t.val + 1, h⟩ ≠ ((cfg1 a).win 2).index t :=
    fun ⟨_, hne⟩ => hne rfl
  have hN : (cfg1 a).grid.N = 64 := N_1
  unfold Pipeline.Window.flush
  rw [decide_eq_false hstay, Bool.or_false]
  show (true && decide (t.val + 1 = (cfg1 a).grid.N)) = true ↔ t.val = 63
  rw [Bool.true_and, decide_eq_true_iff]
  omega

/-- At the first point the carried scalar's buffer holds anything. -/
theorem before1_2_zero (c : Dev nD) (t : Fin (cfg1 a).N) (ht : t.val = 0) (d) : (dat1 V a c).before 2 t d = d :=
  (dat1 V a c).before_out_reset 2 rfl t (.inl ht) d

/-- At a later point it holds what the point before left. -/
theorem before1_2_pos (c : Dev nD) (t : Fin (cfg1 a).N) (ht : t.val ≠ 0) (d) :
    (dat1 V a c).before 2 t d = outs1 V a c (t.val - 1) (Nat.lt_of_le_of_lt (Nat.sub_le _ _) t.isLt) := by
  have hN : (cfg1 a).N = 64 := N_1
  have hfl : ((cfg1 a).win 2).flush ⟨t.val - 1, Nat.lt_of_le_of_lt (Nat.sub_le _ _) t.isLt⟩ = false :=
    Bool.eq_false_iff.mpr fun h => by
      have h63 := (flush1_2 a _).mp h
      have := t.isLt
      simp only at h63
      omega
  exact ((dat1 V a c).before_out_kept 2 rfl t ht hfl (fun _ => rfl) (fun _ _ => rfl) d).trans (after1_2 V a c _)

/-! ## The invariant, conjunct by conjunct -/

/-- The distance matrix, the one operand the body copies rows of itself. -/
theorem held_H1 (c : Dev nD) :
    (bigSep H1 (fun b => ((c : Thread nD τ).loc b) ↦{fullShare} V c b) : sProp 𝕄) = heldW c dM fullShare (V c main_arg1) := by
  rw [BI.bigSep_eq_bigSepL_of_eq [main_arg1] (by decide) (by decide)]; rfl

/-- The label table, held whole at the launch contents. -/
theorem held_tbl (c : Dev nD) :
    (Pipeline.prefHeld pre1 c (fun _ => fullShare) a.1 : sProp 𝕄) = heldW c tabM fullShare (tbl a) := by
  unfold Pipeline.prefHeld
  rw [bigSep_univ_eq_bigSepL [(0 : Fin 1)] (by decide) (by decide)]; rfl

/-- The region's invariant: the scoped buffers that are no staging buffer of this region (region 0's seven staging
    buffers, then the scratch tile), the generator register, the body's own cells at zero, the distance matrix, and
    the label table. -/
theorem Phi1_eq (c : Dev nD) :
    (Φ1 V a c : sProp 𝕄)
      = iprop((Pipeline.scopedRest (Ix := Unit) (Name := ℕ) (U := Pipeline.UD sig nD τ) (Lvl := ℕ) (Val := Elt F) spec1 c
          ∗ (∃ r, prngReg c r) ∗ cells1 c ∗ heldW c dM fullShare (V c main_arg1)) ∗ heldW c tabM fullShare (tbl a)) := by
  unfold Φ1
  rw [Pipeline.ΦD_eq, held_H1, held_tbl]

/-! ## The body at a point -/

/-- The grid is one axis: a point's coordinate is the point. -/
theorem coords1 : ∀ t : Fin grid1.N, (grid1.coords t 0).val = t.val := by
  decide +kernel

/-- The three windows' current staging memrefs at point t, as the pipeline passes them to the body. -/
abbrev st1_0 (t : Fin (cfg1 a).N) : Memref sig .tc .vmem S128x10000 .f32 := spec1_0.stage ((cfg1 a).slots t 0)
abbrev st1_1 (t : Fin (cfg1 a).N) : Memref sig .tc .vmem S1x10000 .f32 := spec1_1.stage ((cfg1 a).slots t 1)
abbrev st1_2 (t : Fin (cfg1 a).N) : Memref sig .tc .vmem S1x1 .f32 := spec1_2.stage ((cfg1 a).slots t 2)

/-- The body as the pipeline calls it at point t. -/
abbrev bodyAt1 (t : Fin (cfg1 a).N) : Prog (TpuEff nD τ sig (Elt F) Λ₀ .tc) PUnit :=
  cc1__kernel_b (grid1.coords t) tabM (Memref.isWhole_whole _)
    (st1_0 a t) (hstage1_0 (((cfg1 a).slots t 0).cast nbuf1_0)) dM (Memref.isWhole_whole _)
    (st1_1 a t) (hstage1_1 (((cfg1 a).slots t 1).cast nbuf1_1))
    (st1_2 a t) (hstage1_2 (((cfg1 a).slots t 2).cast nbuf1_2)) scM (Memref.isWhole_whole _) cc1_scratch1

/-- What the body leaves in the carried scalar at point t is the recursion's value there: the first point starts from
    zero, a later one from what the point before left. -/
theorem step1 (c : Dev nD) (t : Fin (cfg1 a).N) (xo : Vec F S1x1 .f32)
    (hxo : t.val ≠ 0 → xo = outs1 V a c (t.val - 1) (Nat.lt_of_le_of_lt (Nat.sub_le _ _) t.isLt)) :
    k1_pay1 (iblk1 V a c 0 t) (dist1 (tbl a) (V c main_arg1) ((grid1.coords t) 0).val) (iblk1 V a c 1 t) (acc1 (grid1.coords t) xo)
      = outs1 V a c t.val t.isLt := by
  have hc0 : ((grid1.coords t) 0).val = t.val := coords1 t
  obtain ⟨n, hn⟩ := t
  cases n with
  | zero =>
    have e : ((grid1.coords ⟨0, hn⟩) 0).val = 0 := hc0
    have hacc : acc1 (grid1.coords ⟨0, hn⟩) xo = k1_pay2 (F := F) := if_pos e
    rw [hacc, e]
    rfl
  | succ n =>
    have e : ((grid1.coords ⟨n + 1, hn⟩) 0).val = n + 1 := hc0
    have hacc : acc1 (grid1.coords ⟨n + 1, hn⟩) xo = xo := if_neg (by rw [e]; exact Nat.succ_ne_zero n)
    rw [hacc, e, hxo (Nat.succ_ne_zero n)]
    rfl

/-- A staging buffer owned at contents is owned at equal contents. -/
theorem owns_of_eq (c : Dev nD) {sh : Shape} {e : EltTy} (m : Memref sig .tc .vmem sh e) (X Y : sh.Idx → Elt F e) (h : X = Y) :
    owns (c : Thread nD τ) m fullShare X ⊢ (owns (c : Thread nD τ) m fullShare Y : sProp 𝕄) := by
  subst h; exact .rfl

/-- What the body is called with at point t, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d))
    ∗ (∃ d, owns (c : Thread nD τ) (st1_1 a t) fullShare ((dat1 V a c).before 1 t d))
    ∗ (∃ d, owns (c : Thread nD τ) (st1_2 a t) fullShare ((dat1 V a c).before 2 t d)))

/-- and what it returns. -/
def bodyPost1 (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t)
    ∗ owns (c : Thread nD τ) (st1_1 a t) fullShare ((dat1 V a c).after 1 t)
    ∗ owns (c : Thread nD τ) (st1_2 a t) fullShare ((dat1 V a c).after 2 t))

/-- The body at any point. The two inputs' buffers hold their blocks and the carried scalar's what the point before left
    (anything at the first point); the invariant hands the body the label table, the scratch tile, its own cells at zero
    and the distance matrix, and takes them back as they were, region 0's staging buffers and the generator register
    riding along; the run leaves the carried scalar at the recursion's value; nothing is owed before or after. -/
theorem sound_body1 (hH : ∀ i : S8192.Idx, (tbl a i).toNat < 10000) (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1
  simp only [before1_0, before1_1]
  rw [show (dat1 V a c).Φ t.succ = Φ1 V a c from rfl, show (dat1 V a c).Φ t.castSucc = Φ1 V a c from rfl, Phi1_eq,
    scopedRest1_eq, after1_0, after1_1, after1_2]
  unfold Dat.owesAt Pipeline.owesWithin
  rw [show (dat1 V a c).owed t.castSucc = 0 from rfl, show (dat1 V a c).owed t.succ = 0 from rfl]
  iintro ⟨⟨⟨⟨S0, S1, S2, S3, S4, S5, S6, Hsc⟩, Hg, Hcells, HD⟩, Htab⟩, ⟨%W, -, HW⟩, ⟨%d0, H0⟩, ⟨%d1, H1⟩, ⟨%d2, H2⟩⟩
  iapply (kernelRun1 c (grid1.coords t) (st1_0 a t) _ (st1_1 a t) _ (st1_2 a t) _ (tbl a) (V c main_arg1) hH
    (iblk1 V a c 0 t) (iblk1 V a c 1 t) ((dat1 V a c).before 2 t d2) W _)
  isplitl [Htab]; · iexact Htab
  isplitl [H0]; · iexact H0
  isplitl [H1]; · iexact H1
  isplitl [H2]; · iexact H2
  isplitl [Hsc]; · iexact Hsc
  isplitl [Hcells]; · iexact Hcells
  isplitl [HD]; · iexact HD
  isplitl [HW]; · iexact HW
  iintro ⟨Htab, H0, H1, H2, Hsc, Hcells, HD, ⟨%W', HW'⟩⟩
  isplitl [S0 S1 S2 S3 S4 S5 S6 Hsc Hg Hcells HD Htab]
  · isplitr [Htab]
    · isplitl [S0 S1 S2 S3 S4 S5 S6 Hsc]
      · isplitl [S0]; · iexact S0
        isplitl [S1]; · iexact S1
        isplitl [S2]; · iexact S2
        isplitl [S3]; · iexact S3
        isplitl [S4]; · iexact S4
        isplitl [S5]; · iexact S5
        isplitl [S6]; · iexact S6
        iexact Hsc
      isplitl [Hg]; · iexact Hg
      isplitl [Hcells]; · iexact Hcells
      iexact HD
    iexact Htab
  isplitl [HW']
  · iexists W'; isplitr; · ipureintro; exact fun _ _ => Or.inl trivial
    iexact HW'
  isplitl [H0]; · iexact H0
  isplitl [H1]; · iexact H1
  iapply (owns_of_eq c (st1_2 a t) _ _ (step1 V a c t _ (fun ht => before1_2_pos V a c t ht d2)))
  iexact H2

end R1Body

set_option maxRecDepth 32768 in
/-- The body obligation of region 1, at every point, for the proof data `dat1`, on a table whose every word names a row
    of the distance matrix. -/
theorem body_obligation1 (V : EntryV F) (a : (pcfg1 (F := F)).Adm) (hH : ∀ i : S8192.Idx, (tbl a i).toNat < 10000) (c : Dev nD) :
    BodyObligation (dat1 (F := F) V a c) (defs₀ (F := F)) Variants.none () Set.univ := by
  intro t
  rw [bigSep_W1, bigSep_W1]
  exact R1Body.sound_body1 V a hH c t

end Cert.Kernel.Hand

end
-- ==== Proof.Bits.Run.lean ====
/-
  @main's two kernel regions as segments over the thread state "every unscoped buffer at the boundary's contents, the
  generator register at some state, nothing owed", and the launch. Region 0's three result arrays and region 1's one
  leave at what their pipelines' last points wrote back; everything else is as the host stretches between them leave it.
-/
import proofs.«406825_j71691594105550_1_alg».proof.Proof.Bits.Base
import proofs.«406825_j71691594105550_1_alg».proof.Proof.Bits.R0Body
import proofs.«406825_j71691594105550_1_alg».proof.Proof.Bits.R1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffers between items -/

/-- Region 0's entry contents: the launch memory after the first host stretch. -/
abbrev EV1 : EntryV F := fun c b => V1 m c b
/-- After region 0: its arrays at what the pipeline leaves, every other buffer as entered. -/
def W2v (c : Dev nD) : Valuation τ sig (Elt F) :=
  Pipeline.withArrays spec0 c (V1 m c) fun w => (dat0 (EV1 m) c).arrAt w cfg0.N
/-- What region 0 leaves, as the unknowns of the conditional frame. -/
abbrev outsA : Outs (F := F) := fun _ r c => W2v m c r
/-- Region 1's entry contents. -/
abbrev EV3 : EntryV F := fun c b => V3 m (outsA m) c b
/-- The label table as region 1 finds it (the launch contents: no item before it writes the table). -/
def a1 : (pcfg1 (F := F)).Adm := ⟨fun k => EV3 m (0 : Dev nD) (pre1.ref k), trivial⟩
/-- After region 1: its arrays at what the pipeline leaves, every other buffer as entered. -/
def W4v (c : Dev nD) : Valuation τ sig (Elt F) :=
  Pipeline.withArrays (cfg1 (a1 m)).spec c (V3 m (outsA m) c) fun w => (dat1 (EV3 m) (a1 m) c).arrAt w (cfg1 (a1 m)).N
/-- What the two regions leave. -/
def outs : Outs (F := F) := fun J r c => match J with
  | 4 => W4v m c r
  | _ => W2v m c r

theorem outs_two (r : Ref sig .tc) (c : Dev nD) : outs m 2 r c = W2v m c r := rfl
theorem outs_four (r : Ref sig .tc) (c : Dev nD) : outs m 4 r c = W4v m c r := rfl
theorem V2_outs (c : Dev nD) : V2 m (outs m) c = V2 m (outsA m) c := rfl
theorem V3_outs (c : Dev nD) : V3 m (outs m) c = V3 m (outsA m) c := rfl

/-! ## The proof data family -/

/-- The prefetched tables' admissible contents: none for region 0, the label table for region 1. -/
def adm : (p : Fin 2) → (pcfgs (F := F) p).Adm
  | ⟨0, _⟩ => cfg0.toPCfg_adm
  | ⟨1, _⟩ => a1 m
  | ⟨_ + 2, h⟩ => absurd h (Nat.not_lt.2 (Nat.le_add_left _ _))

/-- Every pipeline's proof data, each at its region's entry contents. -/
def pdats : (p : Fin 2) → (c : Dev nD) → Dat τ (Elt F) Unit ℕ (Pipeline.UD sig nD τ) ℕ (Pipeline.pin (pcfgs (F := F)) (adm m) p) c
  | ⟨0, _⟩ => fun c => dat0 (EV1 m) c
  | ⟨1, _⟩ => fun c => dat1 (EV3 m) (a1 m) c

abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

/-! ## Region 0 as a segment -/

/-- After region 0 each of its arrays holds what the pipeline leaves: the two inputs as entered, the three results what
    the last point wrote back. -/
theorem hF0 (c : Dev nD) (w : Fin cfg0.W) :
    (dat0 (EV1 m) c).arrAt w cfg0.N = (fun b : Ref sig .tc => V2 m (outs m) c b) (Pipeline.arrRef spec0 w) := by
  match w with
  | ⟨0, _⟩ =>
    exact (((dat0 (EV1 m) c).arrAt_in 0 rfl _).trans (A_eq0 (EV1 m) c 0)).trans (V2_of m (outs m) c main_arg0 (by decide)).symm
  | ⟨1, _⟩ =>
    exact (((dat0 (EV1 m) c).arrAt_in 1 rfl _).trans (A_eq0 (EV1 m) c 1)).trans (V2_of m (outs m) c main_v0 (by decide)).symm
  | ⟨2, _⟩ =>
    show _ = V2 m (outs m) c main_v1_0
    simp only [V2, Function.update_of_ne (StableHlo.devRef_ne_of_ne (by decide : main_v1_0 ≠ main_v1_2) : (Proc.devRef .tc main_v1_0 : DevRef τ sig) ≠ Proc.devRef .tc main_v1_2),
      Function.update_of_ne (StableHlo.devRef_ne_of_ne (by decide : main_v1_0 ≠ main_v1_1) : (Proc.devRef .tc main_v1_0 : DevRef τ sig) ≠ Proc.devRef .tc main_v1_1), Function.update_self]
    show _ = W2v m c main_v1_0
    unfold W2v
    exact (Pipeline.withArrays_arr spec0 (launch0 (F := F)).win.arr_inj c (V1 m c) (fun w => (dat0 (EV1 m) c).arrAt w cfg0.N) 2).symm
  | ⟨3, _⟩ =>
    show _ = V2 m (outs m) c main_v1_1
    simp only [V2, Function.update_of_ne (StableHlo.devRef_ne_of_ne (by decide : main_v1_1 ≠ main_v1_2) : (Proc.devRef .tc main_v1_1 : DevRef τ sig) ≠ Proc.devRef .tc main_v1_2), Function.update_self]
    show _ = W2v m c main_v1_1
    unfold W2v
    exact (Pipeline.withArrays_arr spec0 (launch0 (F := F)).win.arr_inj c (V1 m c) (fun w => (dat0 (EV1 m) c).arrAt w cfg0.N) 3).symm
  | ⟨4, _⟩ =>
    show _ = V2 m (outs m) c main_v1_2
    simp only [V2, Function.update_self]
    show _ = W2v m c main_v1_2
    unfold W2v
    exact (Pipeline.withArrays_arr spec0 (launch0 (F := F)).win.arr_inj c (V1 m c) (fun w => (dat0 (EV1 m) c).arrAt w cfg0.N) 4).symm

/-- Every other buffer is as region 0 found it. -/
theorem hrest0 (c : Dev nD) : ∀ b, b ∉ Finset.univ.image (Pipeline.arrRef spec0) →
    (fun b : Ref sig .tc => V2 m (outs m) c b) b = (fun b : Ref sig .tc => V1 m c b) b := fun b hb =>
  V2_of m (outs m) c b fun h => hb (by
    simp only [List.mem_cons, List.not_mem_nil, or_false] at h
    rcases h with rfl | rfl | rfl
    · exact Finset.mem_image.mpr ⟨2, Finset.mem_univ _, rfl⟩
    · exact Finset.mem_image.mpr ⟨3, Finset.mem_univ _, rfl⟩
    · exact Finset.mem_image.mpr ⟨4, Finset.mem_univ _, rfl⟩)

set_option backward.isDefEq.respectTransparency.types false in
/-- Region 0 over the thread state: entered from every unscoped buffer at the contents after the first host stretch,
    left with its three result arrays at what the pipeline wrote back. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (EV1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (EV1 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (EV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m) ((pdats m 0 c).share_full fun _ => rfl)
      (EV1 m c) (fun b : Ref sig .tc => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

/-- The unscoped buffers that are neither an array of region 1 nor its table. -/
abbrev RP1 : Finset (Ref sig .tc) :=
  ((Finset.univ.filter fun b : Ref sig .tc => ¬ b.isScoped) \ Finset.univ.image (Pipeline.arrRef spec1)) \ Finset.univ.image pre1.ref
theorem H1_subP : H1 ⊆ RP1 := by decide
/-- The body's own cells are scoped, distinct, and no staging cell. -/
theorem ownSemFacts1 : Pipeline.OwnSemFacts spec1 osem1 := by decide

/-- After region 1 each of its arrays holds what the pipeline leaves: the two inputs as entered, the result what the
    last point wrote back. -/
theorem hF1 (c : Dev nD) (w : Fin (cfg1 (a1 m)).W) :
    (dat1 (EV3 m) (a1 m) c).arrAt w (cfg1 (a1 m)).N = (fun b : Ref sig .tc => V4 m (outs m) c b) (Pipeline.arrRef (cfg1 (a1 m)).spec w) := by
  match w with
  | ⟨0, _⟩ =>
    exact (((dat1 (EV3 m) (a1 m) c).arrAt_in 0 rfl _).trans (A_eq1 (EV3 m) (a1 m) c 0)).trans (V4_of m (outs m) c main_arg0 (by decide)).symm
  | ⟨1, _⟩ =>
    exact (((dat1 (EV3 m) (a1 m) c).arrAt_in 1 rfl _).trans (A_eq1 (EV3 m) (a1 m) c 1)).trans (V4_of m (outs m) c main_v3 (by decide)).symm
  | ⟨2, _⟩ =>
    show _ = V4 m (outs m) c main_v4
    simp only [V4, Function.update_self]
    show _ = W4v m c main_v4
    unfold W4v
    exact (Pipeline.withArrays_arr (cfg1 (a1 m)).spec (launch1 (F := F)).win.arr_inj c (V3 m (outsA m) c) (fun w => (dat1 (EV3 m) (a1 m) c).arrAt w (cfg1 (a1 m)).N) 2).symm

/-- Every other buffer is as region 1 found it. -/
theorem hrest1 (c : Dev nD) : ∀ b, b ∉ Finset.univ.image (Pipeline.arrRef (cfg1 (a1 m)).spec) →
    (fun b : Ref sig .tc => V4 m (outs m) c b) b = (fun b : Ref sig .tc => V3 m (outs m) c b) b := fun b hb =>
  V4_of m (outs m) c b fun h => hb (by
    simp only [List.mem_cons, List.not_mem_nil, or_false] at h
    subst h
    exact Finset.mem_image.mpr ⟨2, Finset.mem_univ _, rfl⟩)

/-- The unscoped rest of region 1, split at the table and at the distance matrix. -/
theorem rest1_split (c : Dev nD) (V : (b : Ref sig .tc) → Buf (Elt F) ((c : Thread nD τ).loc b)) :
    (Pipeline.unscopedRest (Ix := Unit) (Name := ℕ) (U := Pipeline.UD sig nD τ) (Lvl := ℕ) spec1 c V : sProp 𝕄)
      = iprop(Pipeline.prefHeld pre1 c (fun _ => fullShare) (fun k => V (pre1.ref k))
          ∗ (bigSep H1 fun b => ((c : Thread nD τ).loc b) ↦{fullShare} V b)
          ∗ (bigSep (RP1 \ H1) fun b => ((c : Thread nD τ).loc b) ↦{fullShare} V b)) := by
  rw [Pipeline.unscopedRest_split preFacts1 c V]
  unfold Pipeline.unscopedRestP
  rw [BI.bigSep_sdiff_split H1_subP]
  rfl

set_option backward.isDefEq.respectTransparency.types false in
/-- Region 1 over the thread state: entered from every unscoped buffer at the contents after the second host stretch,
    left with its result array at what the pipeline wrote back. Into the invariant go the generator register, the
    body's own cells at zero, the distance matrix and the label table; they come back as they went. -/
def reg1 (hH : ∀ i : S8192.Idx, (tbl (a1 m) i).toNat < 10000) :
    Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := Fin 128
  osem := osem1
  ho := ownSemFacts1
  hbody c := (body_obligation1 (EV3 m) (a1 m) hH c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop((∃ r, prngReg c r) ∗ Pipeline.ownSems0 (Ix := Unit) (Name := ℕ) (U := Pipeline.UD sig nD τ) (Lvl := ℕ) (Val := Elt F) (τ := τ) osem1 c
    ∗ (bigSep H1 fun b => ((c : Thread nD τ).loc b) ↦{fullShare} EV3 m c b))
  Y c := iprop((∃ r, prngReg c r) ∗ (bigSep H1 fun b => ((c : Thread nD τ).loc b) ↦{fullShare} EV3 m c b)
    ∗ Pipeline.prefHeld pre1 c (fun _ => fullShare) (a1 m).1)
  Z c := bigSep (RP1 \ H1) fun b => ((c : Thread nD τ).loc b) ↦{fullShare} EV3 m c b
  hentry c := by
    obtain rfl : c = 0 := Subsingleton.elim _ _
    have hsplit := Pipeline.arrays_of_unscopedBufs (p := 1) (pcfgs (F := F)) (adm m) (pdats m) (launch1 (F := F)).win (launch1 (F := F)).arr_whole 0
      ((pdats m 1 0).share_full fun _ => rfl) (EV3 m 0) fun _ => rfl
    have hR : (Pipeline.unscopedRest (Ix := Unit) (Name := ℕ) (U := Pipeline.UD sig nD τ) (Lvl := ℕ) (Pipeline.pin (pcfgs (F := F)) (adm m) 1).spec 0 (EV3 m 0) : sProp 𝕄) = _ :=
      rest1_split (F := F) 0 (EV3 m 0)
    rw [Pipeline.unscopedBufs_held, hR] at hsplit
    rw [show V3 m (outs m) (0 : Dev nD) = V3 m (outsA m) 0 from rfl]
    iintro ⟨⟨Hub, Hp, HO⟩, Hos, -⟩
    ihave H := hsplit $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m 1 c).Φ 0 = Φ1 (EV3 m) (a1 m) c from rfl]; unfold Φ1; rw [Pipeline.ΦD_eq]
    iintro ⟨⟨Hp, Ho, HH⟩, Ht, Hr⟩
    isplitl [Hr Hp Ho HH]
    · isplitl [Hr]; · iexact Hr
      isplitl [Hp]; · iexact Hp
      isplitl [Ho]; · iexact Ho
      iexact HH
    iexact Ht
  hout c := by
    rw [show (pdats m 1 c).Φ (Fin.last _) = Φ1 (EV3 m) (a1 m) c from rfl]; unfold Φ1; rw [Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    obtain rfl : c = 0 := Subsingleton.elim _ _
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole 0 (pdats m) ((pdats m 1 0).share_full fun _ => rfl)
      (EV3 m 0) (fun b : Ref sig .tc => V4 m (outs m) 0 b) ((pdats m 1 0).arrAt · (cfg1 (a1 m)).N) (hF1 m 0) (hrest1 m 0)
    have hR : (Pipeline.unscopedRest (Ix := Unit) (Name := ℕ) (U := Pipeline.UD sig nD τ) (Lvl := ℕ) (Pipeline.pin (pcfgs (F := F)) (adm m) 1).spec 0 (EV3 m 0) : sProp 𝕄) = _ :=
      rest1_split (F := F) 0 (EV3 m 0)
    rw [Pipeline.unscopedBufs_held, hR] at hjoin
    iintro ⟨Ha, HO, ⟨HY, HH, Ht⟩, HR⟩
    imodintro
    isplitl [Ha Ht HH HR]
    · iapply hjoin
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

/-! ## The launch -/

variable (ρ : Dev nD → PrngReg)

set_option backward.isDefEq.respectTransparency.types false in
/-- THE FRAME, on a label table whose every word names a row of the distance matrix: every weakly fair execution of
    @main terminates, nothing faulting, and every argument array ends as launched. -/
theorem frame (hH : ∀ i : S8192.Idx, (tbl (a1 m) i).toNat < 10000) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond (F := F) m embL () 𝒱₀ L lv (fun _ _ => rfl) ρ (outs m) (adm m) (pdats m) 0 (fun _ => iprop(emp))
    (initOf (Pipeline.cells (Pipeline.pin (pcfgs (F := F)) (adm m)) (cellOf_inj (adm m))) (Pipeline.launchToks (Pipeline.pin (pcfgs (F := F)) (adm m)) (cellOf_inj (adm m))), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m hH) (fun _ => .rfl) (fun _ => .rfl)

end Cert.Kernel.Hand

end
-- ==== Proof.Pre.lean ====
/-
  The precondition, read back. The predicate says: every entry of the input matrix and of the distance matrix has
  absolute value below +∞, and every label is at least 0 and below 10000 as a signed 32-bit number. It is printed as
  four reductions by `and` over whole arrays, joined by `and`; stated to be 1, it gives each compared element:

  * `conjuncts`: the four elementwise facts, at any float family (no float comparison is evaluated);
  * `target_lt`: every label, read as a natural number, is below 10000 (any float family);
  * `input_real`, `dist_real`: over the extended reals, every entry of either matrix is a real number.
-/
import proofs.«406825_j71691594105550_1_alg».proof.Pre_finite_inputs
import proofs.«406825_j71691594105550_1_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic
open Cert.Pre_finite_inputs

/-- A rank-0 array has one index. -/
instance : Subsingleton S_.Idx := ⟨fun a b => funext fun d => d.elim0⟩

/-- The predicate is a conjunction of four "for all" statements; when it is 1 each holds at every index:
    |input| < +∞, |distance| < +∞, 0 ≤ label, label < 10000 (the last two signed). The float comparisons are kept
    as they stand, so this holds at any float family. -/
theorem conjuncts {F : FTy → Type} [FloatOps F] (a0 : FVec F S8192x10000 .f32) (a1 : FVec F S10000x10000 .f32)
    (a2 : IVec S8192 32) (h : fn (F := F) a0 a1 a2 = fun _ => 1#1) :
    (∀ i, FloatOps.cmpf .olt (FloatOps.hostAbsf (a0 i)) (FloatOps.ofBits (F := F) .f32 0x7F800000#32) = 1#1)
    ∧ (∀ i, FloatOps.cmpf .olt (FloatOps.hostAbsf (a1 i)) (FloatOps.ofBits (F := F) .f32 0x7F800000#32) = 1#1)
    ∧ (∀ i, IntOp.cmpi .sge (a2 i) 0#32 = 1#1)
    ∧ (∀ i, IntOp.cmpi .slt (a2 i) 10000#32 = 1#1) := by
  have e := congrFun h ValueIdx.ix0
  dsimp only [fn, fn_part1, andi] at e
  -- a conjunction of bits is 1 exactly when each bit is
  rw [IntOp.andi_eq_one, IntOp.andi_eq_one, IntOp.andi_eq_one] at e
  obtain ⟨⟨⟨e0, e1⟩, e2⟩, e3⟩ := e
  -- a reduction by `and` over all axes that is 1 met a 1 at every index
  exact ⟨fun i => Host.reduce_andi_all _ _ _ _ _ e0 i, fun i => Host.reduce_andi_all _ _ _ _ _ e1 i,
    fun i => Host.reduce_andi_all _ _ _ _ _ e2 i, fun i => Host.reduce_andi_all _ _ _ _ _ e3 i⟩

/-- A 32-bit word that is at least 0 and below 10000 as a signed number is below 10000 as a natural number:
    a word with its top bit set reads negative, so the first bound rules that case out. -/
theorem toNat_lt_of_signed (w : BitVec 32) (h0 : IntOp.cmpi .sge w 0#32 = 1#1) (h1 : IntOp.cmpi .slt w 10000#32 = 1#1) :
    w.toNat < 10000 := by
  rw [IntOp.cmpi_sge] at h0
  rw [IntOp.cmpi_slt] at h1
  have z : (0#32 : BitVec 32).toInt = 0 := by decide
  have t : (10000#32 : BitVec 32).toInt = 10000 := by decide
  rw [z] at h0
  rw [t] at h1
  have hw := w.isLt
  rw [BitVec.toInt_eq_toNat_cond] at h0 h1
  split at h0 <;> omega

/-- Every label is below 10000, at any float family. -/
theorem target_lt {F : FTy → Type} [FloatOps F] (a0 : FVec F S8192x10000 .f32) (a1 : FVec F S10000x10000 .f32)
    (a2 : IVec S8192 32) (h : fn (F := F) a0 a1 a2 = fun _ => 1#1) : ∀ i : S8192.Idx, (a2 i).toNat < 10000 := fun i =>
  toNat_lt_of_signed _ ((conjuncts a0 a1 a2 h).2.2.1 i) ((conjuncts a0 a1 a2 h).2.2.2 i)

/-- Over the extended reals |x| = max x (-x) and the compared constant is +∞: |x| < +∞ excludes x = +∞ and x = -∞,
    so x is the real number it projects to. -/
theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) :
    x = ((x.toReal : ℝ) : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  simp only [Ideal.cmp, StableHlo.Predicate.ofBool_eq_one_iff, decide_eq_true_eq] at h
  induction x using EReal.rec with
  | bot => simp at h
  | coe r => simp
  | top => simp at h

/-- Every entry of the input matrix is a real number. -/
theorem input_real (a0 : FVec Ideal S8192x10000 .f32) (a1 : FVec Ideal S10000x10000 .f32) (a2 : IVec S8192 32)
    (h : fn (F := Ideal) a0 a1 a2 = fun _ => 1#1) : ∀ i, a0 i = (((a0 i : EReal).toReal : ℝ) : EReal) := fun i =>
  real_of_abs_lt_top _ ((conjuncts a0 a1 a2 h).1 i)

/-- Every entry of the distance matrix is a real number. -/
theorem dist_real (a0 : FVec Ideal S8192x10000 .f32) (a1 : FVec Ideal S10000x10000 .f32) (a2 : IVec S8192 32)
    (h : fn (F := Ideal) a0 a1 a2 = fun _ => 1#1) : ∀ i, a1 i = (((a1 i : EReal).toReal : ℝ) : EReal) := fun i =>
  real_of_abs_lt_top _ ((conjuncts a0 a1 a2 h).2.1 i)

end Cert.PreFacts

end
-- ==== Proof.Bits.Frame.lean ====
/-
  The frame under the precondition. The label table region 1 is launched with is the label argument as launched (no
  item before region 1 writes it), and the precondition bounds every label below the class count; so every row the
  body copies lies inside the distance matrix.
-/
import proofs.«406825_j71691594105550_1_alg».proof.Proof.Bits.Run
import proofs.«406825_j71691594105550_1_alg».proof.Proof.Pre

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The table region 1 finds is the label argument as launched. -/
theorem tbl_a1 : tbl (a1 m) = m (((0 : Dev nD).tc : Thread nD τ).loc main_arg2) :=
  (V3_of m (outsA m) 0 main_arg2 (by decide)).trans ((V2_of m (outsA m) 0 main_arg2 (by decide)).trans (V1_of m 0 main_arg2 (by decide)))

/-- The precondition's label range, at the table. -/
theorem table_in_range
    (h : ∀ c : Dev nD, Cert.Pre_finite_inputs.fn (F := F) (m ((c.tc : Thread nD τ).loc main_arg0)) (m ((c.tc : Thread nD τ).loc main_arg1)) (m ((c.tc : Thread nD τ).loc main_arg2)) = fun _ => 1#1) :
    ∀ i : S8192.Idx, (tbl (a1 m) i).toNat < 10000 := fun i => by
  rw [tbl_a1]
  exact Cert.PreFacts.target_lt _ _ _ (h 0) i

/-- THE FRAME under the precondition. -/
theorem frame_pre
    (h : ∀ c : Dev nD, Cert.Pre_finite_inputs.fn (F := F) (m ((c.tc : Thread nD τ).loc main_arg0)) (m ((c.tc : Thread nD τ).loc main_arg1)) (m ((c.tc : Thread nD τ).loc main_arg2)) = fun _ => 1#1) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame m ρ (table_in_range m h)

end Cert.Kernel.Hand

end
-- ==== Proof.Ideal.Base.lean ====
/-
  The two pallas_calls of the idealized kernel as pipelines with named per-point contents.

  Region 0 (the online column statistics and the cross-entropy partial sum) carries its three outputs from one
  grid point to the next: the running column maximum, the running column sum of exponentials rescaled to that
  maximum, and the running sum over rows of (row log-sum-exp minus the logit at the label). What each holds after
  point n is a recursion over the body's arithmetic, whose first step resets and whose later steps merge.

  Region 1 (the weighted sum against gathered rows of the distance matrix) carries one scalar. At point t its
  scratch tile holds, row j, the row of the distance matrix the label table names at position 128 t + j.
-/
import proofs.«406825_j71691594105550_1_alg».proof.Proof.Gen.KernelIdeal.Skeleton
import proofs.«406825_j71691594105550_1_alg».proof.Proof.Gen.KernelIdeal.Launch
import proofs.«406825_j71691594105550_1_alg».proof.Proof.Gen.KernelIdeal.Points
import proofs.«406825_j71691594105550_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The TensorCore's buffer contents when a region is entered. -/
abbrev EntryV (F : FTy → Type) [FloatOps F] : Type :=
  (c : Dev nD) → (b : Ref sig .tc) → Buf (Elt F) ((c : Thread nD τ).loc b)

variable (V : EntryV F)

/-! ## Region 0 -/

/-- Window w's block at point t, read off its array as the region finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The 128 rows of logits of tile t. -/
abbrev xblk0 (c : Dev nD) (t : Fin cfg0.N) : Vec F S128x10000 .f32 := iblk0 V c 0 t
/-- The 128 labels of tile t, as a column. -/
abbrev tblk0 (c : Dev nD) (t : Fin cfg0.N) : Vec F S128x1 .i32 := iblk0 V c 1 t

/-- What the three carried outputs hold after point n: (running column maximum, running rescaled column sum of
    exponentials, running cross-entropy sum). Point 0 resets, every later point merges with what the point before left. -/
def outs0 (c : Dev nD) : (n : ℕ) → n < cfg0.N → Vec F S1x10000 .f32 × Vec F S1x10000 .f32 × Vec F S1x1 .f32
  | 0, hn => (k0_pay1 (xblk0 V c ⟨0, hn⟩), k0_pay2 (xblk0 V c ⟨0, hn⟩), k0_pay7 (xblk0 V c ⟨0, hn⟩) (tblk0 V c ⟨0, hn⟩) k0_pay3)
  | n + 1, hn =>
    (k0_pay5 (xblk0 V c ⟨n + 1, hn⟩) (outs0 c n (Nat.lt_of_succ_lt hn)).1,
     k0_pay6 (xblk0 V c ⟨n + 1, hn⟩) (outs0 c n (Nat.lt_of_succ_lt hn)).1 (outs0 c n (Nat.lt_of_succ_lt hn)).2.1,
     k0_pay7 (xblk0 V c ⟨n + 1, hn⟩) (tblk0 V c ⟨n + 1, hn⟩) (outs0 c n (Nat.lt_of_succ_lt hn)).2.2)

theorem outs0_zero (c : Dev nD) (hn : 0 < cfg0.N) :
    outs0 V c 0 hn = (k0_pay1 (xblk0 V c ⟨0, hn⟩), k0_pay2 (xblk0 V c ⟨0, hn⟩), k0_pay7 (xblk0 V c ⟨0, hn⟩) (tblk0 V c ⟨0, hn⟩) k0_pay3) := rfl

theorem outs0_succ (c : Dev nD) (n : ℕ) (hn : n + 1 < cfg0.N) :
    outs0 V c (n + 1) hn =
      (k0_pay5 (xblk0 V c ⟨n + 1, hn⟩) (outs0 V c n (Nat.lt_of_succ_lt hn)).1,
       k0_pay6 (xblk0 V c ⟨n + 1, hn⟩) (outs0 V c n (Nat.lt_of_succ_lt hn)).1 (outs0 V c n (Nat.lt_of_succ_lt hn)).2.1,
       k0_pay7 (xblk0 V c ⟨n + 1, hn⟩) (tblk0 V c ⟨n + 1, hn⟩) (outs0 V c n (Nat.lt_of_succ_lt hn)).2.2) := rfl

/-- Region 0's proof data: the arrays as the region finds them; after the body each input's buffer at its block and
    the three outputs' at the recursion; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => (outs0 V c t.val t.isLt).1
    | ⟨3, _⟩ => (outs0 V c t.val t.isLt).2.1
    | ⟨4, _⟩ => (outs0 V c t.val t.isLt).2.2
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outs0 V c t.val t.isLt).1 := by dsimp only [dat0]
theorem after0_3 (c : Dev nD) (t : Fin cfg0.N) : (dat0 V c).after 3 t = (outs0 V c t.val t.isLt).2.1 := by dsimp only [dat0]
theorem after0_4 (c : Dev nD) (t : Fin cfg0.N) : (dat0 V c).after 4 t = (outs0 V c t.val t.isLt).2.2 := by dsimp only [dat0]

/-! ## Region 1 -/

variable (a : (pcfg1 (F := F)).Adm)

/-- Window w's block at point t, read off its array as the region finds it. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef (cfg1 a).spec w))

/-- The 128 rows of logits of tile t. -/
abbrev xblk1 (c : Dev nD) (t : Fin (cfg1 a).N) : Vec F S128x10000 .f32 := iblk1 V a c 0 t
/-- The column log-sum-exp row (the same block at every point). -/
abbrev cblk1 (c : Dev nD) (t : Fin (cfg1 a).N) : Vec F S1x10000 .f32 := iblk1 V a c 1 t

/-- The label table the region was launched with. -/
abbrev tbl : Vec F S8192 .i32 := a.1 0

/-- The row of the distance matrix that tile t's row j gathers: the table's word at 128 t + j, read as a natural.
    (Total by reduction modulo the extents; on a table of labels in range the reductions are the identity.) -/
def rowOf (tb : Vec F S8192 .i32) (t j : ℕ) : Fin 10000 :=
  ⟨(tb (ValueIdx.ix1 (⟨(128 * t + j) % 8192, Nat.mod_lt _ (by norm_num)⟩ : Fin 8192))).toNat % 10000, Nat.mod_lt _ (by norm_num)⟩

/-- The gathered tile at point t: row j is row `rowOf t j` of the distance matrix. -/
def dist1 (tb : Vec F S8192 .i32) (D : Vec F S10000x10000 .f32) (t : ℕ) : Vec F S128x10000 .f32 :=
  fun y => D (ValueIdx.ix2 (rowOf tb t (y 0).val) (⟨(y 1).val % 10000, Nat.mod_lt _ (by norm_num)⟩ : Fin 10000))

/-- What the carried scalar holds after point n: point 0 starts from zero, every later point adds to what the point
    before left. -/
def outs1 (c : Dev nD) : (n : ℕ) → n < (cfg1 a).N → Vec F S1x1 .f32
  | 0, hn => k1_pay1 (xblk1 V a c ⟨0, hn⟩) (dist1 (tbl a) (V c main_arg1) 0) (cblk1 V a c ⟨0, hn⟩) k1_pay2
  | n + 1, hn => k1_pay1 (xblk1 V a c ⟨n + 1, hn⟩) (dist1 (tbl a) (V c main_arg1) (n + 1)) (cblk1 V a c ⟨n + 1, hn⟩) (outs1 c n (Nat.lt_of_succ_lt hn))

theorem outs1_zero (c : Dev nD) (hn : 0 < (cfg1 a).N) :
    outs1 V a c 0 hn = k1_pay1 (xblk1 V a c ⟨0, hn⟩) (dist1 (tbl a) (V c main_arg1) 0) (cblk1 V a c ⟨0, hn⟩) k1_pay2 := rfl
theorem outs1_succ (c : Dev nD) (n : ℕ) (hn : n + 1 < (cfg1 a).N) :
    outs1 V a c (n + 1) hn = k1_pay1 (xblk1 V a c ⟨n + 1, hn⟩) (dist1 (tbl a) (V c main_arg1) (n + 1)) (cblk1 V a c ⟨n + 1, hn⟩) (outs1 V a c n (Nat.lt_of_succ_lt hn)) := rfl

/-- The body's own DMA semaphores: one per row of the gathered tile. -/
abbrev osem1 : Fin 128 → SemLoc sig := fun j => SemLoc.dma ⟨11 + j.val, Nat.lt_of_lt_of_le (Nat.add_lt_add_left j.isLt 11) (by decide)⟩
/-- The operand left in HBM that the body copies rows of itself. -/
def H1 : Finset (Ref sig .tc) := {main_arg1}

/-- Region 1's invariant, the same at every point: the scoped rest, the generator register, the body's own cells at
    zero, the distance matrix whole at its entry contents, and the label table at the launch contents. -/
def Φ1 (c : Dev nD) : sProp 𝕄 :=
  iprop(Pipeline.ΦD osem1 spec1 H1 V c ∗ Pipeline.prefHeld pre1 c (fun _ => fullShare) a.1)

/-- Region 1's proof data. -/
def dat1 (c : Dev nD) : Dat τ (Elt F) Unit ℕ (Pipeline.UD sig nD τ) ℕ (cfg1 a) c where
  A w := V c (Pipeline.arrRef (cfg1 a).spec w)
  after w t := match w with
    | ⟨0, _⟩ => iblk1 V a c 0 t
    | ⟨1, _⟩ => iblk1 V a c 1 t
    | ⟨2, _⟩ => outs1 V a c t.val t.isLt
  Φ _ := Φ1 V a c
  q _ := fullShare
  owed _ := 0

theorem A_eq1 (c : Dev nD) (w : Fin (cfg1 a).W) : (dat1 V a c).A w = V c (Pipeline.arrRef (cfg1 a).spec w) := by dsimp only [dat1]
theorem after1_0 (c : Dev nD) (t : Fin (cfg1 a).N) : (dat1 V a c).after 0 t = iblk1 V a c 0 t := by dsimp only [dat1]; try rfl
theorem after1_1 (c : Dev nD) (t : Fin (cfg1 a).N) : (dat1 V a c).after 1 t = iblk1 V a c 1 t := by dsimp only [dat1]; try rfl
theorem after1_2 (c : Dev nD) (t : Fin (cfg1 a).N) : (dat1 V a c).after 2 t = outs1 V a c t.val t.isLt := by dsimp only [dat1]; try rfl

end Cert.KernelIdeal.Hand

end
-- ==== Proof.Ideal.R0Body.lean ====
/-
  Region 0's body at every grid point: at the first point it resets the three carried outputs, at every later point it
  merges into what the point before left; either way it leaves them at the recursion `outs0`.
-/
import proofs.«406825_j71691594105550_1_alg».proof.Proof.Ideal.Base
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Offsets -/

/-- The two zero offsets every store and load of this body uses. -/
theorem offsets0_zero : (![0, 0] : Fin 2 → ℕ) = fun _ => 0 := funext fun a => by fin_cases a <;> rfl

/-! ## The body on any whole staging memrefs

Every load and every store of the body goes through the whole buffer, so a buffer that was stored into reads back
as the last stored value, and a load reads the contents. -/

set_option maxHeartbeats 1000000 in
/-- At the first point the body resets: whatever the three outputs held, it leaves the column maximum of the tile,
    the column sum of exponentials against that maximum, and the tile's cross-entropy sum added to zero. -/
theorem run_reset0 (c : Dev nD) (i : grid0.Coords)
    (arg1 : Memref sig .tc .vmem S128x10000 .f32) (harg1 : arg1.IsWhole)
    (arg2 : Memref sig .tc .vmem S128x1 .i32) (harg2 : arg2.IsWhole)
    (arg3 : Memref sig .tc .vmem S1x10000 .f32) (harg3 : arg3.IsWhole)
    (arg4 : Memref sig .tc .vmem S1x10000 .f32) (harg4 : arg4.IsWhole)
    (arg5 : Memref sig .tc .vmem S1x1 .f32) (harg5 : arg5.IsWhole)
    (h1 : k0_cond1 i = 1#1) (h2 : ¬ k0_cond2 i = 1#1)
    (x : Vec F S128x10000 .f32) (l : Vec F S128x1 .i32)
    (E : Set ℕ) (K : PUnit → sProp 𝕄) :
    iprop(owns (c : Thread nD τ) arg1 fullShare x ∗ owns (c : Thread nD τ) arg2 fullShare l
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x ∗ owns (c : Thread nD τ) arg2 fullShare l
            ∗ owns (c : Thread nD τ) arg3 fullShare (k0_pay1 x) ∗ owns (c : Thread nD τ) arg4 fullShare (k0_pay2 x)
            ∗ owns (c : Thread nD τ) arg5 fullShare (k0_pay7 x l k0_pay3)) -∗ K ⟨⟩))
      ⊢ wp frame (wpE (defs₀ (F := F)) Variants.none c none) E
          (cc0__kernel_a i arg1 harg1 arg2 harg2 arg3 harg3 arg4 harg4 arg5 harg5) K := by
  simp only [cc0__kernel_a_eq_skeleton]; unfold cc0__kernel_a_skel
  simp only [k0_part1_eq_skeleton]
  unfold owns
  iintro ⟨⟨%f1, %hf1, H1⟩, ⟨%f2, %hf2, H2⟩, ⟨%d3, %f3, -, H3⟩, ⟨%d4, %f4, -, H4⟩, ⟨%d5, %f5, -, H5⟩, Hk⟩
  obtain rfl := harg1.eq_unread hf1; obtain rfl := harg2.eq_unread hf2
  sl_exec (disch := first | exact h1 | exact h2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    rw [View.read_writes_eq_canon _ _ _ (fun y => ⟨_, List.mem_singleton_self _, View.mem_set_unit_zero offsets0_zero inb_S1x10000_S1x10000_0_0 y⟩),
      View.canon_unit_zero offsets0_zero]
    simp only [View.readAt_eq_ld, harg1.read_unread, View.ld_unit_zero (S := S128x10000) offsets0_zero]
  isplitl [H4]
  · iexists _; isplitr
    swap; · iexact H4
    ipureintro
    rw [View.read_writes_eq_canon _ _ _ (fun y => ⟨_, List.mem_singleton_self _, View.mem_set_unit_zero offsets0_zero inb_S1x10000_S1x10000_0_0 y⟩),
      View.canon_unit_zero offsets0_zero]
    simp only [View.readAt_eq_ld, harg1.read_unread, View.ld_unit_zero (S := S128x10000) offsets0_zero]
  iexists _; isplitr
  swap; · iexact H5
  ipureintro
  rw [View.read_writes_eq_canon _ _ _ (fun y => ⟨_, List.mem_cons_self, View.mem_set_unit_zero offsets0_zero inb_S1x1_S1x1_0_0 y⟩),
    View.canon_cons_unit_zero offsets0_zero]
  sl_unfold_words
  simp only [View.readAt_eq_ld, harg1.read_unread, harg2.read_unread, View.ld_unit_zero (S := S128x10000) offsets0_zero,
    View.ld_unit_zero (S := S128x1) offsets0_zero, View.readCov_unit_zero (S := S1x1) _ offsets0_zero]

set_option maxHeartbeats 1000000 in
/-- At every later point the body merges: from the running column maximum `m`, the running rescaled column sum `s` and
    the running cross-entropy sum `a` it leaves the maximum of `m` and the tile's, the two sums rescaled to it and
    added, and `a` plus the tile's cross-entropy sum. -/
theorem run_merge0 (c : Dev nD) (i : grid0.Coords)
    (arg1 : Memref sig .tc .vmem S128x10000 .f32) (harg1 : arg1.IsWhole)
    (arg2 : Memref sig .tc .vmem S128x1 .i32) (harg2 : arg2.IsWhole)
    (arg3 : Memref sig .tc .vmem S1x10000 .f32) (harg3 : arg3.IsWhole)
    (arg4 : Memref sig .tc .vmem S1x10000 .f32) (harg4 : arg4.IsWhole)
    (arg5 : Memref sig .tc .vmem S1x1 .f32) (harg5 : arg5.IsWhole)
    (h1 : ¬ k0_cond1 i = 1#1) (h2 : k0_cond2 i = 1#1)
    (x : Vec F S128x10000 .f32) (l : Vec F S128x1 .i32)
    (m : Vec F S1x10000 .f32) (s : Vec F S1x10000 .f32) (a : Vec F S1x1 .f32)
    (E : Set ℕ) (K : PUnit → sProp 𝕄) :
    iprop(owns (c : Thread nD τ) arg1 fullShare x ∗ owns (c : Thread nD τ) arg2 fullShare l
        ∗ owns (c : Thread nD τ) arg3 fullShare m ∗ owns (c : Thread nD τ) arg4 fullShare s
        ∗ owns (c : Thread nD τ) arg5 fullShare a
        ∗ (iprop(owns (c : Thread nD τ) arg1 fullShare x ∗ owns (c : Thread nD τ) arg2 fullShare l
            ∗ owns (c : Thread nD τ) arg3 fullShare (k0_pay5 x m) ∗ owns (c : Thread nD τ) arg4 fullShare (k0_pay6 x m s)
            ∗ owns (c : Thread nD τ) arg5 fullShare (k0_pay7 x l a)) -∗ K ⟨⟩))
      ⊢ wp frame (wpE (defs₀ (F := F)) Variants.none c none) E
          (cc0__kernel_a i arg1 harg1 arg2 harg2 arg3 harg3 arg4 harg4 arg5 harg5) K := by
  simp only [cc0__kernel_a_eq_skeleton]; unfold cc0__kernel_a_skel
  simp only [k0_part1_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact h1 | exact h2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    sl_unfold_words
    rw [View.read_writes_eq_canon _ _ _ (fun y => ⟨_, List.mem_singleton_self _, View.mem_set_unit_zero offsets0_zero inb_S1x10000_S1x10000_0_0 y⟩),
      View.canon_unit_zero offsets0_zero]
    simp only [View.readAt_eq_ld, harg1.read_unread, harg3.read_unread, View.ld_unit_zero (S := S128x10000) offsets0_zero,
      View.ld_unit_zero (S := S1x10000) offsets0_zero]
  isplitl [H4]
  · iexists _; isplitr
    swap; · iexact H4
    ipureintro
    sl_unfold_words
    rw [View.read_writes_eq_canon _ _ _ (fun y => ⟨_, List.mem_singleton_self _, View.mem_set_unit_zero offsets0_zero inb_S1x10000_S1x10000_0_0 y⟩),
      View.canon_unit_zero offsets0_zero]
    simp only [View.readAt_eq_ld, harg1.read_unread, harg3.read_unread, harg4.read_unread, View.ld_unit_zero (S := S128x10000) offsets0_zero,
      View.ld_unit_zero (S := S1x10000) offsets0_zero]
  iexists _; isplitr
  swap; · iexact H5
  ipureintro
  sl_unfold_words
  rw [View.read_writes_eq_canon _ _ _ (fun y => ⟨_, List.mem_singleton_self _, View.mem_set_unit_zero offsets0_zero inb_S1x1_S1x1_0_0 y⟩),
    View.canon_unit_zero offsets0_zero]
  simp only [View.readAt_eq_ld, harg1.read_unread, harg2.read_unread, harg5.read_unread, View.ld_unit_zero (S := S128x10000) offsets0_zero,
    View.ld_unit_zero (S := S128x1) offsets0_zero, View.ld_unit_zero (S := S1x1) offsets0_zero]

/-! ## Which case a point is in -/

/-- The reset branch is taken at the first point only, -/
theorem reset0_iff : ∀ t : Fin cfg0.N, k0_cond1 (grid0.coords t) = 1#1 ↔ t.val = 0 :=
  (by decide +kernel : ∀ t : Fin grid0.N, k0_cond1 (grid0.coords t) = 1#1 ↔ t.val = 0)
/-- and the merge branch at every other point. -/
theorem merge0_iff : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two branches stores into the running maximum at every grid coordinate: that window is never idle. -/
theorem live0_2 : ∀ i : grid0.Coords, cfg0.idle 2 i = false := by decide +kernel
/-- The same for the running sum. -/
theorem live0_3 : ∀ i : grid0.Coords, cfg0.idle 3 i = false := by decide +kernel

variable (V : EntryV F)

/-! ## What the staging buffers hold when the body is called -/

/-- The logits' buffer holds the tile of the point, fetched there. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The labels' buffer holds the column of the point, fetched there. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- After the first point the running maximum's buffer holds what the point before left: nothing is written back
    before the last point, and the window is stored into at every point. -/
theorem before0_2 (c : Dev nD) (t : Fin cfg0.N) (ht : t.val ≠ 0) (d) :
    (dat0 V c).before 2 t d = (outs0 V c (t.val - 1) (Nat.lt_of_le_of_lt (Nat.sub_le _ _) t.isLt)).1 := by
  have hN : t.val < 64 := lt_of_lt_of_eq t.isLt (show cfg0.N = 64 from N_0)
  rw [Dat.before_out_kept _ 2 rfl t ht (Bool.eq_false_iff.mpr fun h => by have := (flush0_2 _).mp h; dsimp only at this; omega)
    live0_2 (fun _ _ => rfl)]
  dsimp only [dat0]

/-- The same for the running sum, -/
theorem before0_3 (c : Dev nD) (t : Fin cfg0.N) (ht : t.val ≠ 0) (d) :
    (dat0 V c).before 3 t d = (outs0 V c (t.val - 1) (Nat.lt_of_le_of_lt (Nat.sub_le _ _) t.isLt)).2.1 := by
  have hN : t.val < 64 := lt_of_lt_of_eq t.isLt (show cfg0.N = 64 from N_0)
  rw [Dat.before_out_kept _ 3 rfl t ht (Bool.eq_false_iff.mpr fun h => by have := (flush0_3 _).mp h; dsimp only at this; omega)
    live0_3 (fun _ _ => rfl)]
  dsimp only [dat0]

/-- and for the running cross-entropy sum. -/
theorem before0_4 (c : Dev nD) (t : Fin cfg0.N) (ht : t.val ≠ 0) (d) :
    (dat0 V c).before 4 t d = (outs0 V c (t.val - 1) (Nat.lt_of_le_of_lt (Nat.sub_le _ _) t.isLt)).2.2 := by
  have hN : t.val < 64 := lt_of_lt_of_eq t.isLt (show cfg0.N = 64 from N_0)
  rw [Dat.before_out_kept _ 4 rfl t ht (Bool.eq_false_iff.mpr fun h => by have := (flush0_4 _).mp h; dsimp only at this; omega)
    (fun _ => rfl) (fun _ _ => rfl)]
  dsimp only [dat0]

/-! ## The recursion at a point of either kind -/

/-- At the first point the three outputs are the reset values of the point's tile. -/
theorem outs0_first (c : Dev nD) (t : Fin cfg0.N) (h : t.val = 0) :
    outs0 V c t.val t.isLt
      = (k0_pay1 (xblk0 V c t), k0_pay2 (xblk0 V c t), k0_pay7 (xblk0 V c t) (tblk0 V c t) k0_pay3) := by
  obtain ⟨n, hn⟩ := t
  cases n with
  | zero => exact outs0_zero V c hn
  | succ n => exact absurd h (Nat.succ_ne_zero n)

/-- At a later point they are the merge of the point's tile into what the point before left. -/
theorem outs0_later (c : Dev nD) (t : Fin cfg0.N) (h : t.val ≠ 0) :
    outs0 V c t.val t.isLt
      = (k0_pay5 (xblk0 V c t) (outs0 V c (t.val - 1) (Nat.lt_of_le_of_lt (Nat.sub_le _ _) t.isLt)).1,
         k0_pay6 (xblk0 V c t) (outs0 V c (t.val - 1) (Nat.lt_of_le_of_lt (Nat.sub_le _ _) t.isLt)).1
           (outs0 V c (t.val - 1) (Nat.lt_of_le_of_lt (Nat.sub_le _ _) t.isLt)).2.1,
         k0_pay7 (xblk0 V c t) (tblk0 V c t) (outs0 V c (t.val - 1) (Nat.lt_of_le_of_lt (Nat.sub_le _ _) t.isLt)).2.2) := by
  obtain ⟨n, hn⟩ := t
  cases n with
  | zero => exact absurd rfl h
  | succ n => exact outs0_succ V c n hn

/-! ## The body obligation at a generic point -/

/-- What the body is called with at point `t`: the invariant, what the core owes, and each window's current staging
    buffer at what it then holds; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 1000000 in
/-- The body at any point. The inputs' buffers hold the point's tile and labels. At the first point the outputs'
    buffers hold anything and the body resets them; at a later point they hold what the point before left and the
    body merges into it. The invariant and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (st0_0 t) fullShare ((dat0 V c).after 0 t) from rfl,
    show (dat0 V c).leavesExact 1 t = owns (c : Thread nD τ) (st0_1 t) fullShare ((dat0 V c).after 1 t) from rfl,
    show (dat0 V c).leavesExact 2 t = owns (c : Thread nD τ) (st0_2 t) fullShare ((dat0 V c).after 2 t) from by
      unfold Dat.leavesExact; rw [live0_2],
    show (dat0 V c).leavesExact 3 t = owns (c : Thread nD τ) (st0_3 t) fullShare ((dat0 V c).after 3 t) from by
      unfold Dat.leavesExact; rw [live0_3],
    show (dat0 V c).leavesExact 4 t = owns (c : Thread nD τ) (st0_4 t) fullShare ((dat0 V c).after 4 t) from rfl,
    after0_0, after0_1, after0_2, after0_3, after0_4]
  by_cases h0 : t.val = 0
  · rw [outs0_first V c t h0]
    dsimp only
    iintro ⟨HΦ, Ho, ⟨%d0, H0⟩, ⟨%d1, H1⟩, ⟨%d2, H2⟩, ⟨%d3, H3⟩, ⟨%d4, H4⟩⟩
    iapply (run_reset0 c (grid0.coords t) _ _ _ _ _ _ _ _ _ _ ((reset0_iff t).mpr h0) (fun h => (merge0_iff t).mp h h0)
      (xblk0 V c t) (tblk0 V c t) Set.univ _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outs0_later V c t h0]
    simp only [before0_2 V c t h0, before0_3 V c t h0, before0_4 V c t h0]
    iintro ⟨HΦ, Ho, ⟨%d0, H0⟩, ⟨%d1, H1⟩, ⟨%d2, H2⟩, ⟨%d3, H3⟩, ⟨%d4, H4⟩⟩
    iapply (run_merge0 c (grid0.coords t) _ _ _ _ _ _ _ _ _ _ (fun h => h0 ((reset0_iff t).mp h)) ((merge0_iff t).mpr h0)
      (xblk0 V c t) (tblk0 V c t)
      (outs0 V c (t.val - 1) (Nat.lt_of_le_of_lt (Nat.sub_le _ _) t.isLt)).1
      (outs0 V c (t.val - 1) (Nat.lt_of_le_of_lt (Nat.sub_le _ _) t.isLt)).2.1
      (outs0 V c (t.val - 1) (Nat.lt_of_le_of_lt (Nat.sub_le _ _) t.isLt)).2.2 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body obligation of region 0, at every point, for the proof data `dat0`. -/
theorem body_obligation0 (V : EntryV F) (c : Dev nD) :
    BodyObligation (dat0 (F := F) V c) (defs₀ (F := F)) Variants.none () Set.univ := by
  intro t
  rw [bigSep_W0, bigSep_W0]
  exact sound_body0 V c t

end Cert.KernelIdeal.Hand

end
-- ==== Proof.Ideal.R1Defs.lean ====
/-
  Region 1's body: the names its run is stated over — the label table, the distance matrix and the scratch tile as the
  body is called with them, a buffer held whole, the 128 own cells at zero, the carried scalar's starting value by
  grid coordinate, and what the body hands back.
-/
import proofs.«406825_j71691594105550_1_alg».proof.Proof.Ideal.Base
import Idealize.ShloMosaic.Lib.Batch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The label table, the distance matrix and the scratch tile, as the body is called with them. -/
abbrev tabM : Memref sig .tc .smem S8192 .i32 := Memref.whole main_arg2
abbrev dM : Memref sig .tc .hbm S10000x10000 .f32 := Memref.whole main_arg1
abbrev scM : Memref sig .tc .vmem S128x10000 .f32 := Memref.whole cc1_scratch0

/-- A memref's buffer held whole at share `q` and contents `f`. -/
abbrev heldW (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦{q} f

/-- The body's 128 own cells at zero. -/
abbrev cells1 (c : Dev nD) : sProp 𝕄 :=
  Pipeline.ownSems0 (Ix := Unit) (Name := ℕ) (U := Pipeline.UD sig nD τ) (Lvl := ℕ) (Val := Elt F) (τ := τ) osem1 c

/-- What the body leaves in the carried scalar at grid coordinate `i`: the first point starts from zero. -/
def acc1 (i : grid1.Coords) (xo : Vec F S1x1 .f32) : Vec F S1x1 .f32 := if (i 0).val = 0 then k1_pay2 (F := F) else xo

/-- What the body hands back. -/
abbrev runPost1 (c : Dev nD) (i : grid1.Coords)
    (arg2 : Memref sig .tc .vmem S128x10000 .f32) (arg4 : Memref sig .tc .vmem S1x10000 .f32) (arg5 : Memref sig .tc .vmem S1x1 .f32)
    (tb : Vec F S8192 .i32) (D : Vec F S10000x10000 .f32)
    (x0 : Vec F S128x10000 .f32) (x1 : Vec F S1x10000 .f32) (xo : Vec F S1x1 .f32) : sProp 𝕄 :=
  iprop(heldW c tabM fullShare tb ∗ owns (c : Thread nD τ) arg2 fullShare x0 ∗ owns (c : Thread nD τ) arg4 fullShare x1
    ∗ owns (c : Thread nD τ) arg5 fullShare (k1_pay1 x0 (dist1 tb D (i 0).val) x1 (acc1 i xo))
    ∗ (∃ fs, heldW c scM fullShare fs) ∗ cells1 c ∗ heldW c dM fullShare D ∗ (∃ W', owes (c : Thread nD τ) 0 W'))

end Cert.KernelIdeal.Hand

end
-- ==== Proof.Ideal.R1Rows.lean ====
/-
  The row geometry of the second pass's scratch tile. The tile is 128 rows of 10000 entries; the body fills it one row
  at a time, row j from one row of the distance matrix, each row handled as a vector of 10000 entries.

  * `rowM j`, `srcM r`: row j of the tile and row r of the distance matrix, as vectors.
  * `rowM_emb`, `srcM_emb`: entry x of such a row vector is entry (j, x) of the tile, (r, x) of the matrix.
  * `rowWrite_apply`: the tile after a whole row vector p is written into row j holds p on row j and is unchanged elsewhere.
  * `srcRead_apply`: row r of the matrix read as a vector.
  * `RowsAgree n g G`: the first n rows of g are those of G; it holds for n = 0, writing row n of G extends it to
    n + 1, and at n = 128 the two tiles are equal.
  * `rowsBelow c n`: the elements of the first n rows; row n's elements are those with row coordinate n
    (`mem_rowM_set`), so the first n + 1 rows are the first n together with row n, disjointly.
  * `rowsHeld c n G`: the first n rows owned, at contents whose first n rows are G's. Nothing is owned at n = 0; row n
    owned apart at a tile whose row n is G's joins it to n + 1; at n = 128 the whole tile is owned at G.
-/
import proofs.«406825_j71691594105550_1_alg».proof.Proof.Ideal.R1Defs

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Rows as vectors -/

/-- Row j of the scratch tile, squeezed to a vector: the destination of the j-th copy, as the body spells it. -/
abbrev rowM (j : ℕ) (hj : ∀ a, (![j, 0] : Fin 2 → ℕ) a + S1x10000.size a ≤ S128x10000.size a) : Memref sig .tc .vmem S10000 .f32 :=
  (scM.slice (Rect.unit (s := S128x10000) ![j, 0] S1x10000.size hj) (fun _ => rfl)).squeeze S10000 squeezes_S1x10000_S10000
/-- Row r of the distance matrix, squeezed: the source of a copy. -/
abbrev srcM (r : ℕ) (hr : ∀ a, (![r, 0] : Fin 2 → ℕ) a + S1x10000.size a ≤ S10000x10000.size a) : Memref sig .tc .hbm S10000 .f32 :=
  (dM.slice (Rect.unit (s := S10000x10000) ![r, 0] S1x10000.size hr) (fun _ => rfl)).squeeze S10000 squeezes_S1x10000_S10000

/-- Entry x of row j of the tile sits at (j, x): a vector index is the one-row matrix index (0, x), and the one-row
    rectangle at offset (j, 0) with unit strides places that at (j + 0, 0 + x). -/
theorem rowM_emb (j : ℕ) (hj) (x : S10000.Idx) :
    ((rowM j hj).view.emb x : S128x10000.Idx) = ix2 (⟨j, by have := hj 0; simpa using this⟩ : Fin 128) (x 0) := by
  refine funext fun (a : Fin 2) => Fin.ext ?_
  show ((Rect.unit (s := S128x10000) ![j, 0] S1x10000.size hj).emb (Shape.reshapeEquiv (Shape.Squeezes.numel_eq squeezes_S1x10000_S10000) x) a).val = _
  rw [Rect.emb_apply, Shape.reshapeEquiv_cons_one]
  match a with
  | ⟨0, _⟩ => show j + 1 * 0 = j; omega
  | ⟨1, _⟩ => show 0 + 1 * (x 0).val = (x 0).val; omega

/-- Entry x of row r of the distance matrix sits at (r, x). -/
theorem srcM_emb (r : ℕ) (hr) (x : S10000.Idx) :
    ((srcM r hr).view.emb x : S10000x10000.Idx) = ix2 (⟨r, by have := hr 0; simpa using this⟩ : Fin 10000) (x 0) := by
  refine funext fun (a : Fin 2) => Fin.ext ?_
  show ((Rect.unit (s := S10000x10000) ![r, 0] S1x10000.size hr).emb (Shape.reshapeEquiv (Shape.Squeezes.numel_eq squeezes_S1x10000_S10000) x) a).val = _
  rw [Rect.emb_apply, Shape.reshapeEquiv_cons_one]
  match a with
  | ⟨0, _⟩ => show r + 1 * 0 = r; omega
  | ⟨1, _⟩ => show 0 + 1 * (x 0).val = (x 0).val; omega

/-! ## Writing a row, reading a row -/

/-- The tile after the vector p is written over the whole of row j: at (j, k) it holds p k, off row j it is unchanged.
    On row j the index is the image of the vector index k; off row j it is the image of no vector index. -/
theorem rowWrite_apply (c : Dev nD) (j : ℕ) (hj) (g : Buf (Elt F) (scM.view.loc (c : Thread nD τ))) (p : S10000.Idx → Elt F .f32)
    (y : S128x10000.Idx) :
    View.write (Elt F) (rowM j hj).view g p Finset.univ y = if (y 0).val = j then p (ValueIdx.ix1 (y 1)) else g y := by
  by_cases hy : (y 0).val = j
  · rw [if_pos hy]
    have hy' : y = ((rowM j hj).view.emb (ValueIdx.ix1 (y 1)) : S128x10000.Idx) := by
      rw [rowM_emb]
      refine funext fun (a : Fin 2) => Fin.ext ?_
      match a with
      | ⟨0, _⟩ => exact hy
      | ⟨1, _⟩ => rfl
    refine (congrArg (View.write (Elt F) (rowM j hj).view g p Finset.univ) hy').trans ?_
    rw [View.write_emb_of_mem _ _ (Finset.mem_univ _)]
    rfl
  · rw [if_neg hy]
    unfold View.write
    rw [preimage?_eq_none (fun x hx => hy ?_)]
    have := congrArg (fun (z : S128x10000.Idx) => (z 0).val) hx
    rw [rowM_emb] at this
    exact this.symm

/-- Row r of the distance matrix D read as a vector: entry x is D (r, x). -/
theorem srcRead_apply (c : Dev nD) (r : ℕ) (hr) (D : Vec F S10000x10000 .f32) (x : S10000.Idx) :
    (srcM r hr).view.read (Elt F) D x = D (ix2 (⟨r, by have := hr 0; simpa using this⟩ : Fin 10000) (x 0)) := by
  rw [View.read_apply]
  show D ((srcM r hr).view.emb x) = _
  rw [srcM_emb]
  rfl

/-! ## Filling the tile row by row -/

/-- The first n rows of g are those of G. -/
def RowsAgree (n : ℕ) (g G : S128x10000.Idx → Elt F .f32) : Prop := ∀ y, (y 0).val < n → g y = G y

/-- No rows: nothing to compare. -/
theorem rowsAgree_zero (g G : S128x10000.Idx → Elt F .f32) : RowsAgree 0 g G := fun y h => absurd h (Nat.not_lt_zero _)

/-- Writing row n of G over row n of a tile that agrees with G on its first n rows gives one that agrees on n + 1. -/
theorem rowsAgree_step (c : Dev nD) (n : ℕ) (hn) (g : Buf (Elt F) (scM.view.loc (c : Thread nD τ))) (p : S10000.Idx → Elt F .f32)
    (G : S128x10000.Idx → Elt F .f32) (h : RowsAgree n g G)
    (hp : ∀ (y : S128x10000.Idx), (y 0).val = n → p (ValueIdx.ix1 (y 1)) = G y) :
    RowsAgree (n + 1) (View.write (Elt F) (rowM n hn).view g p Finset.univ) G := by
  intro y hy
  rw [rowWrite_apply c n hn g p y]
  split
  · next e => exact hp y e
  · next e => exact h y (by omega)

/-- All 128 rows agree: the tiles are equal. -/
theorem rowsAgree_all (g G : S128x10000.Idx → Elt F .f32) (h : RowsAgree 128 g G) : g = G :=
  funext fun y => h y (y 0).isLt

/-! ## Joining the rows back -/

/-- The elements of the scratch tile's first n rows. -/
def rowsBelow (c : Dev nD) (n : ℕ) : Finset (Idx (scM.view.loc (c : Thread nD τ))) :=
  Finset.univ.filter fun y => ((y : S128x10000.Idx) 0).val < n

/-- An element is in the first n rows when its row coordinate is below n. -/
theorem mem_rowsBelow (c : Dev nD) (n : ℕ) (y : S128x10000.Idx) : y ∈ rowsBelow c n ↔ (y 0).val < n := by
  unfold rowsBelow
  rw [Finset.mem_filter]
  exact ⟨fun h => h.2, fun h => ⟨Finset.mem_univ _, h⟩⟩

/-- The elements of row j are those whose row coordinate is j. -/
theorem mem_rowM_set (c : Dev nD) (j : ℕ) (hj) (y : S128x10000.Idx) : y ∈ (rowM j hj).view.set ↔ (y 0).val = j := by
  constructor
  · intro h
    obtain ⟨x, -, hx⟩ := Finset.mem_map.1 h
    have := congrArg (fun (z : S128x10000.Idx) => (z 0).val) hx
    rw [rowM_emb] at this
    exact this.symm
  · intro hy
    have hy' : y = ((rowM j hj).view.emb (ValueIdx.ix1 (y 1)) : S128x10000.Idx) := by
      rw [rowM_emb]
      refine funext fun (a : Fin 2) => Fin.ext ?_
      match a with
      | ⟨0, _⟩ => exact hy
      | ⟨1, _⟩ => rfl
    rw [hy']
    exact View.emb_mem_set _ _

/-- No rows, no elements. -/
theorem rowsBelow_zero (c : Dev nD) : rowsBelow c 0 = ∅ :=
  Finset.eq_empty_of_forall_notMem fun y h => Nat.not_lt_zero _ ((mem_rowsBelow c 0 y).1 h)

/-- All 128 rows are the whole tile. -/
theorem rowsBelow_all (c : Dev nD) : rowsBelow c 128 = Finset.univ :=
  Finset.eq_univ_of_forall fun y => (mem_rowsBelow c 128 y).2 ((y : S128x10000.Idx) 0).isLt

/-- The first n + 1 rows are the first n rows and row n. -/
theorem rowsBelow_succ (c : Dev nD) (n : ℕ) (hn) : rowsBelow c (n + 1) = rowsBelow c n ∪ (rowM n hn).view.set := by
  ext y
  rw [Finset.mem_union, mem_rowsBelow, mem_rowsBelow, mem_rowM_set c n hn]
  omega

/-- Row n is not among the first n rows. -/
theorem rowsBelow_disjoint (c : Dev nD) (n : ℕ) (hn) : Disjoint (rowsBelow c n) (rowM n hn).view.set :=
  Finset.disjoint_left.2 fun y h1 h2 => by
    have a := (mem_rowsBelow c n y).1 h1
    have b := (mem_rowM_set c n hn y).1 h2
    omega

/-- The rows joined so far, at contents whose first n rows are G's. -/
def rowsHeld (c : Dev nD) (n : ℕ) (G : S128x10000.Idx → Elt F .f32) : sProp 𝕄 :=
  iprop(∃ g : Buf (Elt F) (scM.view.loc (c : Thread nD τ)), ⌜RowsAgree n g G⌝ ∗ (scM.view.loc (c : Thread nD τ) ↦[rowsBelow c n]{fullShare} g))

/-- Before any row is joined nothing is owned: the empty element set, at any contents. -/
theorem rowsHeld_zero (c : Dev nD) (G : S128x10000.Idx → Elt F .f32) : (emp : sProp 𝕄) ⊢ rowsHeld c 0 G := by
  unfold rowsHeld
  iintro -
  iexists G
  isplitr
  · ipureintro; exact rowsAgree_zero _ _
  · rw [rowsBelow_zero, pointsTo_empty]; iempintro

/-- Row n, owned apart at a tile obtained by writing into row n a vector that is G's row n, joins the first n rows:
    the joined contents are that tile on row n and the earlier contents elsewhere, so their first n + 1 rows are G's. -/
theorem rowsHeld_step (c : Dev nD) (n : ℕ) (hn) (inner : Buf (Elt F) (scM.view.loc (c : Thread nD τ))) (p : S10000.Idx → Elt F .f32)
    (G : S128x10000.Idx → Elt F .f32) (hp : ∀ (y : S128x10000.Idx), (y 0).val = n → p (ValueIdx.ix1 (y 1)) = G y) :
    iprop(rowsHeld c n G ∗ (scM.view.loc (c : Thread nD τ) ↦[(rowM n hn).view.set]{fullShare} View.write (Elt F) (rowM n hn).view inner p Finset.univ))
      ⊢ rowsHeld c (n + 1) G := by
  unfold rowsHeld
  iintro ⟨⟨%g, %hg, Hb⟩, Hr⟩
  iexists ((rowM n hn).view.set).piecewise (View.write (Elt F) (rowM n hn).view inner p Finset.univ) g
  isplitr
  · ipureintro
    intro y hy
    by_cases e : (y 0).val = n
    · rw [Finset.piecewise_eq_of_mem _ _ _ ((mem_rowM_set c n hn y).2 e), rowWrite_apply c n hn inner p y, if_pos e]
      exact hp y e
    · rw [Finset.piecewise_eq_of_notMem _ _ _ (fun h => e ((mem_rowM_set c n hn y).1 h))]
      exact hg y (by omega)
  · rw [rowsBelow_succ c n hn]
    iapply (pointsTo_join (rowsBelow_disjoint c n hn))
    isplitl [Hb]; · iexact Hb
    iexact Hr

/-- With all 128 rows joined the contents are G and the element set is the whole tile. -/
theorem rowsHeld_all (c : Dev nD) (G : S128x10000.Idx → Elt F .f32) : rowsHeld c 128 G ⊢ heldW c scM fullShare G := by
  unfold rowsHeld
  iintro ⟨%g, %hg, Hb⟩
  rw [rowsBelow_all, rowsAgree_all g G hg]
  iexact Hb

end Cert.KernelIdeal.Hand

end
-- ==== Proof.Ideal.R1Words.lean ====
/-
  The words the second pass reads off the label table, and its first-point test.

  * `word_lt`: any word read off a label table whose entries are all below 10000 is below 10000.
  * `chk_of_lt`: a one-row rectangle at row w of the 10000 x 10000 distance matrix fits when w is below 10000.
  * `off_val`: the table position of the k-th copy at grid coordinate i, computed in 32-bit words as i * 128 + k,
    is the natural number 128 * i + k (i below 64 and k below 128: nothing wraps).
  * `cond_first`: the body's test "is this the first grid point", computed in words, holds exactly when i = 0.
-/
import proofs.«406825_j71691594105550_1_alg».proof.Proof.Ideal.R1Rows

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Any word read off the label table names a row of the distance matrix: a read returns one of the table's entries. -/
theorem word_lt (tb : Vec F S8192 .i32) (hH : ∀ x : S8192.Idx, (tb x).toNat < 10000) (r : LoadRect S8192) (x : r.shape.Idx) :
    (View.readAt (Elt F) tabM.view r tb x).toNat < 10000 :=
  hH (r.idx x)

/-- Row w with w below 10000: w + 1 ≤ 10000 down the rows, 0 + 10000 ≤ 10000 along them. -/
theorem chk_of_lt (w : BitVec 32) (h : w.toNat < 10000) :
    ∀ a, (![w.toNat, 0] : Fin 2 → ℕ) a + S1x10000.size a ≤ S10000x10000.size a := by
  intro a
  match a with
  | ⟨0, _⟩ => show w.toNat + 1 ≤ 10000; omega
  | ⟨1, _⟩ => show 0 + 10000 ≤ 10000; omega

/-- The table offset of the k-th copy at grid coordinate i: 128 * i + k is below 2 ^ 32, so the word arithmetic is exact. -/
theorem off_val (i : grid1.Coords) (k : ℕ) (hk : k < 128) :
    (Scalar.indexCast (Scalar.addi (Scalar.muli (BitVec.ofNat 32 (i 0).val) 128#32) (BitVec.ofNat 32 k))).toNat = 128 * (i 0).val + k := by
  have hi : (i 0).val < 64 := (i 0).isLt
  show ((BitVec.ofNat 32 (i 0).val * 128#32) + BitVec.ofNat 32 k).toNat = _
  simp only [BitVec.toNat_add, BitVec.toNat_mul, BitVec.toNat_ofNat, Nat.reducePow, Nat.reduceMod]
  omega

/-- The first-point test: the word of i is zero exactly when i = 0 (i is below 64), the widened truth value of that is
    nonzero exactly when it is true. -/
theorem cond_first (i : grid1.Coords) :
    (Scalar.cmpi .ne (Scalar.extui (Scalar.cmpi .eq (BitVec.ofNat 32 (i 0).val) 0#32)) 0#32 = 1#1) ↔ (i 0).val = 0 := by
  have hi : (i 0).val < 64 := (i 0).isLt
  have key : (BitVec.ofNat 32 (i 0).val = 0#32) ↔ (i 0).val = 0 := by
    constructor
    · intro h
      have := congrArg BitVec.toNat h
      simp only [BitVec.toNat_ofNat, Nat.reducePow] at this
      omega
    · intro h; rw [h]
  rw [← key]
  show (BitVec.ofBool ((BitVec.ofBool (BitVec.ofNat 32 (i 0).val == 0#32)).setWidth 32 != 0#32) = 1#1) ↔ _
  by_cases h : BitVec.ofNat 32 (i 0).val = 0#32
  · rw [show (BitVec.ofNat 32 (i 0).val == 0#32) = true from beq_iff_eq.2 h]
    exact iff_of_true (by decide) h
  · rw [show (BitVec.ofNat 32 (i 0).val == 0#32) = false from beq_eq_false_iff_ne.2 h]
    exact iff_of_false (by decide) h

end Cert.KernelIdeal.Hand

end
-- ==== Proof.Ideal.R1Payload.lean ====
/-
  What one row copy of the second pass delivers. The body reads the label word at position 128 t + k of the table
  (t the grid coordinate, k the row of the tile), takes the row of the distance matrix that word names, and copies it
  as a vector into row k of the scratch tile. On a table whose every word is below the class count that vector is row
  k of the gathered tile: the position 128 t + k lies inside the table (t < 64, k < 128), so neither reduction in the
  gathered tile's row number changes anything.
-/
import proofs.«406825_j71691594105550_1_alg».proof.Proof.Ideal.R1Rows

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The one word a unit read at offset n of the whole table returns is the table's entry n. -/
private theorem table_word (tb : Vec F S8192 .i32) (off : Fin 1 → ℕ) (inb : ∀ a, off a + S1.size a ≤ S8192.size a)
    (h1 : 0 < S1.numel) (n : ℕ) (hn : n < 8192) (hoff : off 0 = n) :
    View.readAt (Elt F) tabM.view (Rect.unit (s := S8192) off S1.size inb).toLoadRect tb (Shape.Idx.first h1)
      = tb (ValueIdx.ix1 (⟨n, hn⟩ : Fin 8192)) := by
  rw [View.readAt_apply]
  show tb _ = tb _
  congr 1
  funext a
  apply Fin.ext
  match a with
  | ⟨0, _⟩ =>
    show off 0 + 1 * (Shape.Idx.first h1 (0 : Fin 1)).val = n
    have h0 : (Shape.Idx.first h1 (0 : Fin 1)).val = 0 := by
      have := (Shape.Idx.first h1 (0 : Fin 1)).isLt
      have e : S1.size (0 : Fin 1) = 1 := by decide
      omega
    rw [h0, hoff]
    omega

/-- What the k-th copy delivers is row k of the gathered tile. -/
theorem payload_row (tb : Vec F S8192 .i32) (D : Vec F S10000x10000 .f32) (hH : ∀ x : S8192.Idx, (tb x).toNat < 10000)
    (i : grid1.Coords) (k : ℕ) (hk : k < 128)
    (off : Fin 1 → ℕ) (inb : ∀ a, off a + S1.size a ≤ S8192.size a) (h1 : 0 < S1.numel) (hoff : off 0 = 128 * (i 0).val + k)
    (r : Fin 2 → ℕ)
    (hr0 : r = ![(View.readAt (Elt F) tabM.view (Rect.unit (s := S8192) off S1.size inb).toLoadRect tb (Shape.Idx.first h1)).toNat, 0])
    (hr : ∀ a, r a + S1x10000.size a ≤ S10000x10000.size a) (hs : ∀ a, (Rect.unit (s := S10000x10000) r S1x10000.size hr).stride a = 1)
    (y : S128x10000.Idx) (hy : (y 0).val = k) :
    ReadAs.same.apply (View.read (Elt F) ((dM.slice (Rect.unit (s := S10000x10000) r S1x10000.size hr) hs).squeeze S10000 squeezes_S1x10000_S10000).view D) (ValueIdx.ix1 (y 1))
      = dist1 tb D (i 0).val y := by
  have hi : (i 0).val < 64 := (i 0).isLt
  have hn : 128 * (i 0).val + k < 8192 := by omega
  have hy1 : (y 1).val < 10000 := idx2_lt1 y
  have hword := table_word tb off inb h1 (128 * (i 0).val + k) hn hoff
  subst hr0
  generalize View.readAt (Elt F) tabM.view (Rect.unit (s := S8192) off S1.size inb).toLoadRect tb (Shape.Idx.first h1) = w
    at hr hs hword ⊢
  have hw : w.toNat < 10000 := by rw [hword]; exact hH _
  show (srcM w.toNat hr).view.read (Elt F) D (ValueIdx.ix1 (y 1)) = _
  rw [srcRead_apply (0 : Dev nD) w.toNat hr D (ValueIdx.ix1 (y 1))]
  unfold dist1
  refine congrArg D ?_
  have erow : (⟨(128 * (i 0).val + (y 0).val) % 8192, Nat.mod_lt _ (by norm_num)⟩ : Fin 8192)
      = ⟨128 * (i 0).val + k, hn⟩ := Fin.ext (by
    show (128 * (i 0).val + (y 0).val) % 8192 = 128 * (i 0).val + k
    rw [hy, Nat.mod_eq_of_lt hn])
  funext a
  apply Fin.ext
  match a with
  | ⟨0, _⟩ =>
    show w.toNat = (tb (ValueIdx.ix1 (⟨(128 * (i 0).val + (y 0).val) % 8192, Nat.mod_lt _ (by norm_num)⟩ : Fin 8192))).toNat % 10000
    rw [erow, ← hword, Nat.mod_eq_of_lt hw]
  | ⟨1, _⟩ =>
    show (y 1).val = (y 1).val % 10000
    rw [Nat.mod_eq_of_lt hy1]

end Cert.KernelIdeal.Hand

end
-- ==== Proof.Ideal.R1Tail.lean ====
/-
  Reads and a store through the whole of a rank-2 buffer. The rectangle from offset (0, 0) at unit strides with the
  buffer's own extents places every index at itself (`box_idx`); so
  * a load of that box through a staging buffer held at the contents that read X reads X (`readAt_box_unread`),
  * a load of that box through the scratch tile held at G reads G (`readAt_box_scM`),
  * after a store of w over that box (the latest of any list of stores) the buffer reads w (`read_writes_box`),
  * a load of that box covered by a single store of w over it reads w (`readCov_box`).
-/
import proofs.«406825_j71691594105550_1_alg».proof.Proof.Ideal.R1Rows
import Idealize.ShloMosaic.Lib.WholeRead

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rectangle covering a whole rank-2 shape, from offset (0, 0) at unit strides, places every index at itself. -/
theorem box_idx {n0 n1 : ℕ} (inb : ∀ a, (![0, 0] : Fin 2 → ℕ) a + (⟨2, ![n0, n1]⟩ : Shape).size a ≤ (⟨2, ![n0, n1]⟩ : Shape).size a)
    (x : (⟨2, ![n0, n1]⟩ : Shape).Idx) :
    (Rect.unit (s := ⟨2, ![n0, n1]⟩) ![0, 0] (⟨2, ![n0, n1]⟩ : Shape).size inb).idx x = x := by
  refine funext fun (a : Fin 2) => Fin.ext ?_
  match a with
  | ⟨0, _⟩ => show 0 + 1 * (x 0).val = (x 0).val; omega
  | ⟨1, _⟩ => show 0 + 1 * (x 1).val = (x 1).val; omega

/-- A whole-box load through a buffer held at the contents that read X reads X. -/
theorem readAt_box_unread {sp : Space} {n0 n1 : ℕ} {e : EltTy} (m : Memref sig .tc sp ⟨2, ![n0, n1]⟩ e) (h : m.IsWhole)
    (X : (⟨2, ![n0, n1]⟩ : Shape).Idx → Elt F e) (inb : ∀ a, (![0, 0] : Fin 2 → ℕ) a + (⟨2, ![n0, n1]⟩ : Shape).size a ≤ (⟨2, ![n0, n1]⟩ : Shape).size a) :
    View.readAt (Elt F) m.view (Rect.unit (s := ⟨2, ![n0, n1]⟩) ![0, 0] (⟨2, ![n0, n1]⟩ : Shape).size inb).toLoadRect (h.unread X) = X := by
  funext x
  rw [h.readAt_unread X]
  exact congrArg X (box_idx inb x)

/-- A whole-box load through the scratch tile held at G reads G. -/
theorem readAt_box_scM (G : Vec F S128x10000 .f32) (inb : ∀ a, (![0, 0] : Fin 2 → ℕ) a + S128x10000.size a ≤ S128x10000.size a) :
    View.readAt (Elt F) scM.view (Rect.unit (s := S128x10000) ![0, 0] S128x10000.size inb).toLoadRect G = G := by
  funext x
  show G ((Rect.unit (s := S128x10000) ![0, 0] S128x10000.size inb).idx x) = G x
  exact congrArg G (box_idx inb x)

/-- After a store of w over the whole box, whatever was stored before, the buffer reads w. -/
theorem read_writes_box {sp : Space} {n0 n1 : ℕ} {e : EltTy} (m : Memref sig .tc sp ⟨2, ![n0, n1]⟩ e) (f : m.view.ty.Contents (Elt F))
    (inb) (w : (⟨2, ![n0, n1]⟩ : Shape).Idx → Elt F e) (L : List (View.Piece (Elt F) ⟨2, ![n0, n1]⟩ e)) :
    View.read (Elt F) m.view (m.view.writes (Elt F) f (⟨Rect.unit (s := ⟨2, ![n0, n1]⟩) ![0, 0] (⟨2, ![n0, n1]⟩ : Shape).size inb, w⟩ :: L)) = w := by
  funext x
  have := View.read_writes_cons_emb m.view f (Rect.unit (s := ⟨2, ![n0, n1]⟩) ![0, 0] (⟨2, ![n0, n1]⟩ : Shape).size inb) w L x
  rw [show (Rect.unit (s := ⟨2, ![n0, n1]⟩) ![0, 0] (⟨2, ![n0, n1]⟩ : Shape).size inb).emb x = x from box_idx inb x] at this
  exact this

/-- A whole-box load covered by the one store of w over the whole box reads w. -/
theorem readCov_box {sp : Space} {n0 n1 : ℕ} {e : EltTy} (m : Memref sig .tc sp ⟨2, ![n0, n1]⟩ e) (inb) (w : (⟨2, ![n0, n1]⟩ : Shape).Idx → Elt F e) :
    m.view.readCov [⟨Rect.unit (s := ⟨2, ![n0, n1]⟩) ![0, 0] (⟨2, ![n0, n1]⟩ : Shape).size inb, w⟩] (Rect.unit (s := ⟨2, ![n0, n1]⟩) ![0, 0] (⟨2, ![n0, n1]⟩ : Shape).size inb).toLoadRect = w :=
  View.readCov_cons_toLoadRect m.view (Rect.unit (s := ⟨2, ![n0, n1]⟩) ![0, 0] (⟨2, ![n0, n1]⟩ : Shape).size inb) w []

end Cert.KernelIdeal.Hand

end
-- ==== Proof.Ideal.R1RowsFrom.lean ====
/-
  The rows of the second pass's scratch tile from row n on. While the row copies are in flight the body keeps the part
  of the tile not yet handed to a copy: the whole tile before the first copy, then one row less after each, and after
  127 rows are handed out what is left is the last row.
-/
import proofs.«406825_j71691594105550_1_alg».proof.Proof.Ideal.R1Rows

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The elements of the scratch tile's rows n, n + 1, …, 127. -/
def rowsFrom (c : Dev nD) (n : ℕ) : Finset (Idx (scM.view.loc (c : Thread nD τ))) := Finset.univ.filter fun y => n ≤ ((y : S128x10000.Idx) 0).val

/-- An element is in the rows from n on when its row coordinate is at least n. -/
theorem mem_rowsFrom (c : Dev nD) (n : ℕ) (y : S128x10000.Idx) : y ∈ rowsFrom c n ↔ n ≤ (y 0).val := by
  unfold rowsFrom
  rw [Finset.mem_filter]
  exact ⟨fun h => h.2, fun h => ⟨Finset.mem_univ _, h⟩⟩

/-- From row 0 on: the whole tile. -/
theorem rowsFrom_zero (c : Dev nD) : (Finset.univ : Finset (Idx (scM.view.loc (c : Thread nD τ)))) = rowsFrom c 0 :=
  (Finset.eq_univ_of_forall fun y => (mem_rowsFrom c 0 y).2 (Nat.zero_le _)).symm

/-- Taking row n away from the rows from n on leaves the rows from n + 1 on. -/
theorem rowsFrom_step (c : Dev nD) (n : ℕ) (hn) : rowsFrom c n \ (rowM n hn).view.set = rowsFrom c (n + 1) := by
  ext y
  rw [Finset.mem_sdiff, mem_rowsFrom, mem_rowsFrom, mem_rowM_set c n hn]
  omega

/-- From row 127 on: the last row alone. -/
theorem rowsFrom_last (c : Dev nD) (hn) : rowsFrom c 127 = (rowM 127 hn).view.set := by
  ext y
  rw [mem_rowsFrom, mem_rowM_set c 127 hn]
  have h128 : ((y : S128x10000.Idx) 0).val < 128 := ((y : S128x10000.Idx) 0).isLt
  omega

end Cert.KernelIdeal.Hand

end
-- ==== Proof.Ideal.R1Run.lean ====
/-
  Region 1's body on any staging memrefs: from the label table, the logits tile, the column log-sum-exp row, the carried
  scalar, the scratch tile at anything, the distance matrix whole and the 128 own cells at zero, it runs to the same
  resources with the carried scalar updated by the weighted sum against the gathered tile.

  The body starts 128 row copies, each on a cell of its own, before it waits for any. So the distance matrix is held as one
  read share per cell while they fly, and each copy takes its own row of the scratch tile away and brings it back written.
  Once all are back the rows are put together again, one at a time, under the statement that the rows so far are those of
  the gathered tile; what the k-th copy delivered is row k of that tile because the word the body read at 128 t + k names
  it. The rest of the body (the reset at the first point, the loads and the one store) then runs on the tile whole.

  The body is unrolled: its k-th copy, cell, read share and scratch row are spelt with the number k in them. A step taken
  for each k is written once with the number left open (`for_k`, `for_k_down`).
-/
import proofs.«406825_j71691594105550_1_alg».proof.Proof.Ideal.R1Words
import proofs.«406825_j71691594105550_1_alg».proof.Proof.Ideal.R1Payload
import proofs.«406825_j71691594105550_1_alg».proof.Proof.Ideal.R1Tail
import proofs.«406825_j71691594105550_1_alg».proof.Proof.Ideal.R1RowsFrom
import proofs.«406825_j71691594105550_1_alg».proof.Proof.LibForK
import Idealize.ShloMosaic.Lib.Batch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Separating conjunctions over an initial segment of the naturals, one member at a time -/

theorem bigSep_range_succ {M : Type} [URA M] (n : ℕ) (Φ : ℕ → sProp M) :
    bigSep (Finset.range (n + 1)) Φ = iprop(Φ n ∗ bigSep (Finset.range n) Φ) := by
  rw [Finset.range_add_one, BI.bigSep_insert Finset.notMem_range_self]; rfl

theorem bigSep_range_join {M : Type} [URA M] (n : ℕ) (Φ : ℕ → sProp M) :
    iprop(Φ n ∗ bigSep (Finset.range n) Φ) ⊢ bigSep (Finset.range (n + 1)) Φ := Entails.of_eq (bigSep_range_succ n Φ).symm

/-- The own cell numbered j, at zero. -/
abbrev cellAt (c : Dev nD) (j : ℕ) : sProp 𝕄 := semVal ((c : Thread nD τ), osem1 ⟨j % 128, Nat.mod_lt _ (by norm_num)⟩) 0
/-- The j-th read share of the distance matrix. -/
abbrev tokAt (c : Dev nD) (D : Vec F S10000x10000 .f32) (j : ℕ) : sProp 𝕄 := dM.view.loc (c : Thread nD τ) ↦{Transfers.shareTokN fullShare j} D

/-- The own cells, numbered by naturals. -/
theorem cells1_range (c : Dev nD) :
    (cells1 (F := F) c : sProp 𝕄)
      = bigSep (Finset.range 128) fun j => semVal ((c : Thread nD τ), osem1 ⟨j % 128, Nat.mod_lt _ (by norm_num)⟩) 0 := by
  unfold cells1 Pipeline.ownSems0
  rw [← Nat.Iio_eq_range, ← Fin.map_valEmbedding_univ, BI.bigSep_map]
  refine BI.bigSep_congr fun k _ => ?_
  have : (⟨(Fin.valEmbedding k) % 128, Nat.mod_lt _ (by norm_num)⟩ : Fin 128) = k := Fin.ext (Nat.mod_eq_of_lt k.isLt)
  rw [this]

/-- One more row joined to the rows held so far, what the delivered payload is being left to be proved. -/
theorem rowsHeld_step' (c : Dev nD) (n : ℕ) (hn) (inner : Buf (Elt F) (scM.view.loc (c : Thread nD τ))) (p : S10000.Idx → Elt F .f32)
    (G : S128x10000.Idx → Elt F .f32) :
    iprop(rowsHeld c n G ∗ (scM.view.loc (c : Thread nD τ) ↦[(rowM n hn).view.set]{fullShare} View.write (Elt F) (rowM n hn).view inner p Finset.univ))
      ⊢ iprop(∀ _ : (∀ (y : S128x10000.Idx), (y 0).val = n → p (ValueIdx.ix1 (y 1)) = G y), rowsHeld c (n + 1) G) := by
  iintro H %hp
  iapply (rowsHeld_step c n hn inner p G hp)
  iexact H

/-- Carving row n out of what is the rows from n on leaves the rows from n + 1 on. -/
theorem sdiff_rows (c : Dev nD) (A : Finset (Idx (scM.view.loc (c : Thread nD τ)))) (n : ℕ) (hn) (h : A = rowsFrom c n) :
    A \ (rowM n hn).view.set = rowsFrom c (n + 1) := by
  subst h; exact rowsFrom_step c n hn

/-- A points-to restated over an equal element set. -/
theorem pointsTo_set_eq' {ℓ : Loc nD τ sig} {S S' : Finset (Idx ℓ)} {q : PosShare TreeShare} {f : Buf (Elt F) ℓ} :
    (ℓ ↦[S]{q} f : sProp 𝕄) ⊢ iprop(∀ _ : S = S', ℓ ↦[S']{q} f) := by
  iintro H %h
  subst h
  iexact H

set_option maxHeartbeats 0 in
/-- The body's run. -/
theorem kernelRun1 (c : Dev nD) (i : grid1.Coords)
    (arg2 : Memref sig .tc .vmem S128x10000 .f32) (harg2 : arg2.IsWhole)
    (arg4 : Memref sig .tc .vmem S1x10000 .f32) (harg4 : arg4.IsWhole)
    (arg5 : Memref sig .tc .vmem S1x1 .f32) (harg5 : arg5.IsWhole)
    (tb : Vec F S8192 .i32) (D : Vec F S10000x10000 .f32) (hH : ∀ x : S8192.Idx, (tb x).toNat < 10000)
    (x0 : Vec F S128x10000 .f32) (x1 : Vec F S1x10000 .f32) (xo : Vec F S1x1 .f32)
    (W : Waits sig Unit) (K : PUnit → sProp 𝕄) :
    iprop(heldW c tabM fullShare tb ∗ owns (c : Thread nD τ) arg2 fullShare x0 ∗ owns (c : Thread nD τ) arg4 fullShare x1
        ∗ owns (c : Thread nD τ) arg5 fullShare xo
        ∗ (∃ fs, heldW c scM fullShare fs) ∗ cells1 c ∗ heldW c dM fullShare D ∗ owes (c : Thread nD τ) 0 W
        ∗ (runPost1 c i arg2 arg4 arg5 tb D x0 x1 xo -∗ K ⟨⟩))
      ⊢ wp frame (wpE (defs₀ (F := F)) Variants.none c none) Set.univ
          (cc1__kernel_b i tabM (Memref.isWhole_whole _) arg2 harg2 dM (Memref.isWhole_whole _) arg4 harg4 arg5 harg5
            scM (Memref.isWhole_whole _) cc1_scratch1) K := by
  unfold runPost1
  simp only [cc1__kernel_b_eq_skeleton]; unfold cc1__kernel_b_skel
  unfold owns
  rw [cells1_range]
  iintro ⟨HT, ⟨%f2, %hf2, H2⟩, ⟨%f4, %hf4, H4⟩, ⟨%f5, %hf5, H5⟩, ⟨%fs, HS⟩, Hc, HD, HW, Hk⟩
  obtain rfl := harg2.eq_unread hf2
  obtain rfl := harg4.eq_unread hf4
  obtain rfl := harg5.eq_unread hf5
  -- the 128 cells, one by one
  for_k_down 0 128 "(ihave Hc' := (Entails.of_eq (bigSep_range_succ «k» _)) $$ Hc; icases Hc' with ⟨Hq«k», Hc⟩)"
  -- the distance matrix as one read share per cell number (the cells are numbers 11 to 138), and the remainder
  ihave HD' := (Transfers.pointsTo_toks_range (ℓ := dM.view.loc (c : Thread nD τ)) (S := Finset.univ) (f := D) fullShare 139).1 $$ HD
  icases HD' with ⟨HDr, HDt⟩
  for_k_down 0 139 "(ihave HD' := (Entails.of_eq (bigSep_range_succ «k» _)) $$ HDt; icases HD' with ⟨HD«k», HDt⟩)"
  -- the 128 copies and their waits: each word read off the table names a row of the distance matrix; each copy takes its
  -- row of the scratch tile away and hands it back written, rows 0 to 126 apart, row 127 with what was left
  (set_option sl_exec.dmaWindow true in
   set_option sl_exec.rejoinHeartbeats 1 in
   set_option sl_exec.stopBefore "v1923" in
   sl_exec (disch := first | exact chk_of_lt _ (word_lt tb hH _ _)))
  -- the rows put together: row k is what the k-th copy delivered, row k of the gathered tile
  ihave HG := rowsHeld_zero c (dist1 tb D (i 0).val) $$ []
  · iempintro
  for_k 0 127 "(icombine HG HS_«k+2» as Hx; ihave HG := rowsHeld_step' c «k» _ _ _ (dist1 tb D (i 0).val) $$ Hx; ispecialize HG $$ %(fun y hy => payload_row tb D hH i «k» (by norm_num) (k1_off«2k+1» i) (k1_off«2k+1»_inb i) _ (off_val i «k» (by norm_num)) _ rfl _ _ y hy))"
  -- what was left after rows 0 to 126 were carved out is row 127
  ihave HS := pointsTo_set_eq' (S' := (rowM 127 inb_S128x10000_S1x10000_127_0).view.set) $$ HS
  ispecialize HS $$ %(by refine (sdiff_rows c _ 126 _ ?_).trans (rowsFrom_last c _); for_k_down 0 126 "refine sdiff_rows c _ «k» _ ?_"; exact rowsFrom_zero c)
  icombine HG HS as Hx
  ihave HG := rowsHeld_step' c 127 _ _ _ (dist1 tb D (i 0).val) $$ Hx
  ispecialize HG $$ %(fun y hy => payload_row tb D hH i 127 (by norm_num) (k1_off255 i) (k1_off255_inb i) _ (off_val i 127 (by norm_num)) _ rfl _ _ y hy)
  ihave HS := rowsHeld_all c (dist1 tb D (i 0).val) $$ HG
  -- the cells and the read shares back as they were handed in
  for_k 0 128 "(icombine Hq«k» Hc as Hx; ihave Hc := bigSep_range_join «k» (cellAt (F := F) c) $$ Hx)"
  for_k 0 139 "(icombine HD«k» HDt as Hx; ihave HDt := bigSep_range_join «k» (tokAt (F := F) c D) $$ Hx)"
  icombine HDr HDt as Hx
  ihave HD := (Transfers.pointsTo_toks_range (ℓ := dM.view.loc (c : Thread nD τ)) (S := Finset.univ) (f := D) fullShare 139).2 $$ Hx
  -- the rest of the body, at the first point (the carried scalar reset) and at a later one
  by_cases h0 : (i 0).val = 0 <;>
  ( sl_exec (disch := first | exact (cond_first i).mpr h0 | exact fun h => h0 ((cond_first i).mp h))
    sl_step
    iapply Hk
    isplitl [HT]
    · iexact HT
    isplitl [H2]
    · iexists _; isplitr; · ipureintro; exact harg2.read_unread _
      iexact H2
    isplitl [H4]
    · iexists _; isplitr; · ipureintro; exact harg4.read_unread _
      iexact H4
    isplitl [H5]
    · iexists _; isplitr; swap; · iexact H5
      ipureintro
      sl_unfold_run_names
      rw [read_writes_box, readAt_box_unread, readAt_box_scM, readAt_box_unread]
      first
        | rw [readAt_box_unread, acc1, if_neg h0]
        | rw [readCov_box, acc1, if_pos h0]
    isplitl [HS]
    · iexists _; iexact HS
    isplitl [Hc]
    · iexact Hc
    isplitl [HD]
    · iexact HD
    iexists _; iexact HW )

end Cert.KernelIdeal.Hand

end
-- ==== Proof.Ideal.R1Body.lean ====
/-
  Region 1's body at every grid point: 128 rows of the distance matrix, each named by a word of the label table, are
  copied into the scratch tile and waited for; then the carried scalar is reset (first point) and the tile's weighted
  sum is added to it.
-/
import proofs.«406825_j71691594105550_1_alg».proof.Proof.Ideal.R1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

namespace R1Body

variable (V : EntryV F) (a : (pcfg1 (F := F)).Adm)

/-! ## What each window's staging buffer holds when the body runs -/

/-- The logits' tile: fetched or not, the staging buffer holds the tile of the point. -/
theorem before1_0 (c : Dev nD) (t : Fin (cfg1 a).N) (d) : (dat1 V a c).before 0 t d = iblk1 V a c 0 t :=
  ((dat1 V a c).before_in_eq_fetched 0 rfl (fun _ => rfl) (fun _ _ _ => rfl) (fun s => by rw [after1_0]; rfl) t d).trans rfl

/-- The row of column offsets: the same block at every point. -/
theorem before1_1 (c : Dev nD) (t : Fin (cfg1 a).N) (d) : (dat1 V a c).before 1 t d = iblk1 V a c 1 t :=
  ((dat1 V a c).before_in_eq_fetched 1 rfl (fun _ => rfl) (fun _ _ _ => rfl) (fun s => by rw [after1_1]; rfl) t d).trans rfl

/-- The carried scalar's block never moves, so it is written back at the last point only. -/
theorem flush1_2 (t : Fin (cfg1 a).N) : ((cfg1 a).win 2).flush t = true ↔ t.val = 63 := by
  have hstay : ¬∃ h : t.val + 1 < (cfg1 a).grid.N, ((cfg1 a).win 2).index ⟨t.val + 1, h⟩ ≠ ((cfg1 a).win 2).index t :=
    fun ⟨_, hne⟩ => hne rfl
  have hN : (cfg1 a).grid.N = 64 := N_1
  unfold Pipeline.Window.flush
  rw [decide_eq_false hstay, Bool.or_false]
  show (true && decide (t.val + 1 = (cfg1 a).grid.N)) = true ↔ t.val = 63
  rw [Bool.true_and, decide_eq_true_iff]
  omega

/-- At the first point the carried scalar's buffer holds anything. -/
theorem before1_2_zero (c : Dev nD) (t : Fin (cfg1 a).N) (ht : t.val = 0) (d) : (dat1 V a c).before 2 t d = d :=
  (dat1 V a c).before_out_reset 2 rfl t (.inl ht) d

/-- At a later point it holds what the point before left. -/
theorem before1_2_pos (c : Dev nD) (t : Fin (cfg1 a).N) (ht : t.val ≠ 0) (d) :
    (dat1 V a c).before 2 t d = outs1 V a c (t.val - 1) (Nat.lt_of_le_of_lt (Nat.sub_le _ _) t.isLt) := by
  have hN : (cfg1 a).N = 64 := N_1
  have hfl : ((cfg1 a).win 2).flush ⟨t.val - 1, Nat.lt_of_le_of_lt (Nat.sub_le _ _) t.isLt⟩ = false :=
    Bool.eq_false_iff.mpr fun h => by
      have h63 := (flush1_2 a _).mp h
      have := t.isLt
      simp only at h63
      omega
  exact ((dat1 V a c).before_out_kept 2 rfl t ht hfl (fun _ => rfl) (fun _ _ => rfl) d).trans (after1_2 V a c _)

/-! ## The invariant, conjunct by conjunct -/

/-- The distance matrix, the one operand the body copies rows of itself. -/
theorem held_H1 (c : Dev nD) :
    (bigSep H1 (fun b => ((c : Thread nD τ).loc b) ↦{fullShare} V c b) : sProp 𝕄) = heldW c dM fullShare (V c main_arg1) := by
  rw [BI.bigSep_eq_bigSepL_of_eq [main_arg1] (by decide) (by decide)]; rfl

/-- The label table, held whole at the launch contents. -/
theorem held_tbl (c : Dev nD) :
    (Pipeline.prefHeld pre1 c (fun _ => fullShare) a.1 : sProp 𝕄) = heldW c tabM fullShare (tbl a) := by
  unfold Pipeline.prefHeld
  rw [bigSep_univ_eq_bigSepL [(0 : Fin 1)] (by decide) (by decide)]; rfl

/-- The region's invariant: the scoped buffers that are no staging buffer of this region (region 0's seven staging
    buffers, then the scratch tile), the generator register, the body's own cells at zero, the distance matrix, and
    the label table. -/
theorem Phi1_eq (c : Dev nD) :
    (Φ1 V a c : sProp 𝕄)
      = iprop((Pipeline.scopedRest (Ix := Unit) (Name := ℕ) (U := Pipeline.UD sig nD τ) (Lvl := ℕ) (Val := Elt F) spec1 c
          ∗ (∃ r, prngReg c r) ∗ cells1 c ∗ heldW c dM fullShare (V c main_arg1)) ∗ heldW c tabM fullShare (tbl a)) := by
  unfold Φ1
  rw [Pipeline.ΦD_eq, held_H1, held_tbl]

/-! ## The body at a point -/

/-- The grid is one axis: a point's coordinate is the point. -/
theorem coords1 : ∀ t : Fin grid1.N, (grid1.coords t 0).val = t.val := by
  decide +kernel

/-- The three windows' current staging memrefs at point t, as the pipeline passes them to the body. -/
abbrev st1_0 (t : Fin (cfg1 a).N) : Memref sig .tc .vmem S128x10000 .f32 := spec1_0.stage ((cfg1 a).slots t 0)
abbrev st1_1 (t : Fin (cfg1 a).N) : Memref sig .tc .vmem S1x10000 .f32 := spec1_1.stage ((cfg1 a).slots t 1)
abbrev st1_2 (t : Fin (cfg1 a).N) : Memref sig .tc .vmem S1x1 .f32 := spec1_2.stage ((cfg1 a).slots t 2)

/-- The body as the pipeline calls it at point t. -/
abbrev bodyAt1 (t : Fin (cfg1 a).N) : Prog (TpuEff nD τ sig (Elt F) Λ₀ .tc) PUnit :=
  cc1__kernel_b (grid1.coords t) tabM (Memref.isWhole_whole _)
    (st1_0 a t) (hstage1_0 (((cfg1 a).slots t 0).cast nbuf1_0)) dM (Memref.isWhole_whole _)
    (st1_1 a t) (hstage1_1 (((cfg1 a).slots t 1).cast nbuf1_1))
    (st1_2 a t) (hstage1_2 (((cfg1 a).slots t 2).cast nbuf1_2)) scM (Memref.isWhole_whole _) cc1_scratch1

/-- What the body leaves in the carried scalar at point t is the recursion's value there: the first point starts from
    zero, a later one from what the point before left. -/
theorem step1 (c : Dev nD) (t : Fin (cfg1 a).N) (xo : Vec F S1x1 .f32)
    (hxo : t.val ≠ 0 → xo = outs1 V a c (t.val - 1) (Nat.lt_of_le_of_lt (Nat.sub_le _ _) t.isLt)) :
    k1_pay1 (iblk1 V a c 0 t) (dist1 (tbl a) (V c main_arg1) ((grid1.coords t) 0).val) (iblk1 V a c 1 t) (acc1 (grid1.coords t) xo)
      = outs1 V a c t.val t.isLt := by
  have hc0 : ((grid1.coords t) 0).val = t.val := coords1 t
  obtain ⟨n, hn⟩ := t
  cases n with
  | zero =>
    have e : ((grid1.coords ⟨0, hn⟩) 0).val = 0 := hc0
    have hacc : acc1 (grid1.coords ⟨0, hn⟩) xo = k1_pay2 (F := F) := if_pos e
    rw [hacc, e]
    rfl
  | succ n =>
    have e : ((grid1.coords ⟨n + 1, hn⟩) 0).val = n + 1 := hc0
    have hacc : acc1 (grid1.coords ⟨n + 1, hn⟩) xo = xo := if_neg (by rw [e]; exact Nat.succ_ne_zero n)
    rw [hacc, e, hxo (Nat.succ_ne_zero n)]
    rfl

/-- A staging buffer owned at contents is owned at equal contents. -/
theorem owns_of_eq (c : Dev nD) {sh : Shape} {e : EltTy} (m : Memref sig .tc .vmem sh e) (X Y : sh.Idx → Elt F e) (h : X = Y) :
    owns (c : Thread nD τ) m fullShare X ⊢ (owns (c : Thread nD τ) m fullShare Y : sProp 𝕄) := by
  subst h; exact .rfl

/-- What the body is called with at point t, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (st1_0 a t) fullShare ((dat1 V a c).before 0 t d))
    ∗ (∃ d, owns (c : Thread nD τ) (st1_1 a t) fullShare ((dat1 V a c).before 1 t d))
    ∗ (∃ d, owns (c : Thread nD τ) (st1_2 a t) fullShare ((dat1 V a c).before 2 t d)))

/-- and what it returns. -/
def bodyPost1 (c : Dev nD) (t : Fin (cfg1 a).N) : sProp 𝕄 :=
  iprop((dat1 V a c).Φ t.succ ∗ (dat1 V a c).owesAt () t.succ
    ∗ owns (c : Thread nD τ) (st1_0 a t) fullShare ((dat1 V a c).after 0 t)
    ∗ owns (c : Thread nD τ) (st1_1 a t) fullShare ((dat1 V a c).after 1 t)
    ∗ owns (c : Thread nD τ) (st1_2 a t) fullShare ((dat1 V a c).after 2 t))

/-- The body at any point. The two inputs' buffers hold their blocks and the carried scalar's what the point before left
    (anything at the first point); the invariant hands the body the label table, the scratch tile, its own cells at zero
    and the distance matrix, and takes them back as they were, region 0's staging buffers and the generator register
    riding along; the run leaves the carried scalar at the recursion's value; nothing is owed before or after. -/
theorem sound_body1 (hH : ∀ i : S8192.Idx, (tbl a i).toNat < 10000) (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1
  simp only [before1_0, before1_1]
  rw [show (dat1 V a c).Φ t.succ = Φ1 V a c from rfl, show (dat1 V a c).Φ t.castSucc = Φ1 V a c from rfl, Phi1_eq,
    scopedRest1_eq, after1_0, after1_1, after1_2]
  unfold Dat.owesAt Pipeline.owesWithin
  rw [show (dat1 V a c).owed t.castSucc = 0 from rfl, show (dat1 V a c).owed t.succ = 0 from rfl]
  iintro ⟨⟨⟨⟨S0, S1, S2, S3, S4, S5, S6, Hsc⟩, Hg, Hcells, HD⟩, Htab⟩, ⟨%W, -, HW⟩, ⟨%d0, H0⟩, ⟨%d1, H1⟩, ⟨%d2, H2⟩⟩
  iapply (kernelRun1 c (grid1.coords t) (st1_0 a t) _ (st1_1 a t) _ (st1_2 a t) _ (tbl a) (V c main_arg1) hH
    (iblk1 V a c 0 t) (iblk1 V a c 1 t) ((dat1 V a c).before 2 t d2) W _)
  isplitl [Htab]; · iexact Htab
  isplitl [H0]; · iexact H0
  isplitl [H1]; · iexact H1
  isplitl [H2]; · iexact H2
  isplitl [Hsc]; · iexact Hsc
  isplitl [Hcells]; · iexact Hcells
  isplitl [HD]; · iexact HD
  isplitl [HW]; · iexact HW
  iintro ⟨Htab, H0, H1, H2, Hsc, Hcells, HD, ⟨%W', HW'⟩⟩
  isplitl [S0 S1 S2 S3 S4 S5 S6 Hsc Hg Hcells HD Htab]
  · isplitr [Htab]
    · isplitl [S0 S1 S2 S3 S4 S5 S6 Hsc]
      · isplitl [S0]; · iexact S0
        isplitl [S1]; · iexact S1
        isplitl [S2]; · iexact S2
        isplitl [S3]; · iexact S3
        isplitl [S4]; · iexact S4
        isplitl [S5]; · iexact S5
        isplitl [S6]; · iexact S6
        iexact Hsc
      isplitl [Hg]; · iexact Hg
      isplitl [Hcells]; · iexact Hcells
      iexact HD
    iexact Htab
  isplitl [HW']
  · iexists W'; isplitr; · ipureintro; exact fun _ _ => Or.inl trivial
    iexact HW'
  isplitl [H0]; · iexact H0
  isplitl [H1]; · iexact H1
  iapply (owns_of_eq c (st1_2 a t) _ _ (step1 V a c t _ (fun ht => before1_2_pos V a c t ht d2)))
  iexact H2

end R1Body

set_option maxRecDepth 32768 in
/-- The body obligation of region 1, at every point, for the proof data `dat1`, on a table whose every word names a row
    of the distance matrix. -/
theorem body_obligation1 (V : EntryV F) (a : (pcfg1 (F := F)).Adm) (hH : ∀ i : S8192.Idx, (tbl a i).toNat < 10000) (c : Dev nD) :
    BodyObligation (dat1 (F := F) V a c) (defs₀ (F := F)) Variants.none () Set.univ := by
  intro t
  rw [bigSep_W1, bigSep_W1]
  exact R1Body.sound_body1 V a hH c t

end Cert.KernelIdeal.Hand

end
-- ==== Proof.Ideal.Run.lean ====
/-
  @main's two kernel regions as segments over the thread state "every unscoped buffer at the boundary's contents, the
  generator register at some state, nothing owed", and the launch. Region 0's three result arrays and region 1's one
  leave at what their pipelines' last points wrote back; everything else is as the host stretches between them leave it.
-/
import proofs.«406825_j71691594105550_1_alg».proof.Proof.Ideal.Base
import proofs.«406825_j71691594105550_1_alg».proof.Proof.Ideal.R0Body
import proofs.«406825_j71691594105550_1_alg».proof.Proof.Ideal.R1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffers between items -/

/-- Region 0's entry contents: the launch memory after the first host stretch. -/
abbrev EV1 : EntryV F := fun c b => V1 m c b
/-- After region 0: its arrays at what the pipeline leaves, every other buffer as entered. -/
def W2v (c : Dev nD) : Valuation τ sig (Elt F) :=
  Pipeline.withArrays spec0 c (V1 m c) fun w => (dat0 (EV1 m) c).arrAt w cfg0.N
/-- What region 0 leaves, as the unknowns of the conditional frame. -/
abbrev outsA : Outs (F := F) := fun _ r c => W2v m c r
/-- Region 1's entry contents. -/
abbrev EV3 : EntryV F := fun c b => V3 m (outsA m) c b
/-- The label table as region 1 finds it (the launch contents: no item before it writes the table). -/
def a1 : (pcfg1 (F := F)).Adm := ⟨fun k => EV3 m (0 : Dev nD) (pre1.ref k), trivial⟩
/-- After region 1: its arrays at what the pipeline leaves, every other buffer as entered. -/
def W4v (c : Dev nD) : Valuation τ sig (Elt F) :=
  Pipeline.withArrays (cfg1 (a1 m)).spec c (V3 m (outsA m) c) fun w => (dat1 (EV3 m) (a1 m) c).arrAt w (cfg1 (a1 m)).N
/-- What the two regions leave. -/
def outs : Outs (F := F) := fun J r c => match J with
  | 4 => W4v m c r
  | _ => W2v m c r

theorem outs_two (r : Ref sig .tc) (c : Dev nD) : outs m 2 r c = W2v m c r := rfl
theorem outs_four (r : Ref sig .tc) (c : Dev nD) : outs m 4 r c = W4v m c r := rfl
theorem V2_outs (c : Dev nD) : V2 m (outs m) c = V2 m (outsA m) c := rfl
theorem V3_outs (c : Dev nD) : V3 m (outs m) c = V3 m (outsA m) c := rfl

/-! ## The proof data family -/

/-- The prefetched tables' admissible contents: none for region 0, the label table for region 1. -/
def adm : (p : Fin 2) → (pcfgs (F := F) p).Adm
  | ⟨0, _⟩ => cfg0.toPCfg_adm
  | ⟨1, _⟩ => a1 m
  | ⟨_ + 2, h⟩ => absurd h (Nat.not_lt.2 (Nat.le_add_left _ _))

/-- Every pipeline's proof data, each at its region's entry contents. -/
def pdats : (p : Fin 2) → (c : Dev nD) → Dat τ (Elt F) Unit ℕ (Pipeline.UD sig nD τ) ℕ (Pipeline.pin (pcfgs (F := F)) (adm m) p) c
  | ⟨0, _⟩ => fun c => dat0 (EV1 m) c
  | ⟨1, _⟩ => fun c => dat1 (EV3 m) (a1 m) c

abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

/-! ## Region 0 as a segment -/

/-- After region 0 each of its arrays holds what the pipeline leaves: the two inputs as entered, the three results what
    the last point wrote back. -/
theorem hF0 (c : Dev nD) (w : Fin cfg0.W) :
    (dat0 (EV1 m) c).arrAt w cfg0.N = (fun b : Ref sig .tc => V2 m (outs m) c b) (Pipeline.arrRef spec0 w) := by
  match w with
  | ⟨0, _⟩ =>
    exact (((dat0 (EV1 m) c).arrAt_in 0 rfl _).trans (A_eq0 (EV1 m) c 0)).trans (V2_of m (outs m) c main_arg0 (by decide)).symm
  | ⟨1, _⟩ =>
    exact (((dat0 (EV1 m) c).arrAt_in 1 rfl _).trans (A_eq0 (EV1 m) c 1)).trans (V2_of m (outs m) c main_v0 (by decide)).symm
  | ⟨2, _⟩ =>
    show _ = V2 m (outs m) c main_v1_0
    simp only [V2, Function.update_of_ne (StableHlo.devRef_ne_of_ne (by decide : main_v1_0 ≠ main_v1_2) : (Proc.devRef .tc main_v1_0 : DevRef τ sig) ≠ Proc.devRef .tc main_v1_2),
      Function.update_of_ne (StableHlo.devRef_ne_of_ne (by decide : main_v1_0 ≠ main_v1_1) : (Proc.devRef .tc main_v1_0 : DevRef τ sig) ≠ Proc.devRef .tc main_v1_1), Function.update_self]
    show _ = W2v m c main_v1_0
    unfold W2v
    exact (Pipeline.withArrays_arr spec0 (launch0 (F := F)).win.arr_inj c (V1 m c) (fun w => (dat0 (EV1 m) c).arrAt w cfg0.N) 2).symm
  | ⟨3, _⟩ =>
    show _ = V2 m (outs m) c main_v1_1
    simp only [V2, Function.update_of_ne (StableHlo.devRef_ne_of_ne (by decide : main_v1_1 ≠ main_v1_2) : (Proc.devRef .tc main_v1_1 : DevRef τ sig) ≠ Proc.devRef .tc main_v1_2), Function.update_self]
    show _ = W2v m c main_v1_1
    unfold W2v
    exact (Pipeline.withArrays_arr spec0 (launch0 (F := F)).win.arr_inj c (V1 m c) (fun w => (dat0 (EV1 m) c).arrAt w cfg0.N) 3).symm
  | ⟨4, _⟩ =>
    show _ = V2 m (outs m) c main_v1_2
    simp only [V2, Function.update_self]
    show _ = W2v m c main_v1_2
    unfold W2v
    exact (Pipeline.withArrays_arr spec0 (launch0 (F := F)).win.arr_inj c (V1 m c) (fun w => (dat0 (EV1 m) c).arrAt w cfg0.N) 4).symm

/-- Every other buffer is as region 0 found it. -/
theorem hrest0 (c : Dev nD) : ∀ b, b ∉ Finset.univ.image (Pipeline.arrRef spec0) →
    (fun b : Ref sig .tc => V2 m (outs m) c b) b = (fun b : Ref sig .tc => V1 m c b) b := fun b hb =>
  V2_of m (outs m) c b fun h => hb (by
    simp only [List.mem_cons, List.not_mem_nil, or_false] at h
    rcases h with rfl | rfl | rfl
    · exact Finset.mem_image.mpr ⟨2, Finset.mem_univ _, rfl⟩
    · exact Finset.mem_image.mpr ⟨3, Finset.mem_univ _, rfl⟩
    · exact Finset.mem_image.mpr ⟨4, Finset.mem_univ _, rfl⟩)

set_option backward.isDefEq.respectTransparency.types false in
/-- Region 0 over the thread state: entered from every unscoped buffer at the contents after the first host stretch,
    left with its three result arrays at what the pipeline wrote back. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (EV1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (EV1 m c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (EV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m) ((pdats m 0 c).share_full fun _ => rfl)
      (EV1 m c) (fun b : Ref sig .tc => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

/-- The unscoped buffers that are neither an array of region 1 nor its table. -/
abbrev RP1 : Finset (Ref sig .tc) :=
  ((Finset.univ.filter fun b : Ref sig .tc => ¬ b.isScoped) \ Finset.univ.image (Pipeline.arrRef spec1)) \ Finset.univ.image pre1.ref
theorem H1_subP : H1 ⊆ RP1 := by decide
/-- The body's own cells are scoped, distinct, and no staging cell. -/
theorem ownSemFacts1 : Pipeline.OwnSemFacts spec1 osem1 := by decide

/-- After region 1 each of its arrays holds what the pipeline leaves: the two inputs as entered, the result what the
    last point wrote back. -/
theorem hF1 (c : Dev nD) (w : Fin (cfg1 (a1 m)).W) :
    (dat1 (EV3 m) (a1 m) c).arrAt w (cfg1 (a1 m)).N = (fun b : Ref sig .tc => V4 m (outs m) c b) (Pipeline.arrRef (cfg1 (a1 m)).spec w) := by
  match w with
  | ⟨0, _⟩ =>
    exact (((dat1 (EV3 m) (a1 m) c).arrAt_in 0 rfl _).trans (A_eq1 (EV3 m) (a1 m) c 0)).trans (V4_of m (outs m) c main_arg0 (by decide)).symm
  | ⟨1, _⟩ =>
    exact (((dat1 (EV3 m) (a1 m) c).arrAt_in 1 rfl _).trans (A_eq1 (EV3 m) (a1 m) c 1)).trans (V4_of m (outs m) c main_v3 (by decide)).symm
  | ⟨2, _⟩ =>
    show _ = V4 m (outs m) c main_v4
    simp only [V4, Function.update_self]
    show _ = W4v m c main_v4
    unfold W4v
    exact (Pipeline.withArrays_arr (cfg1 (a1 m)).spec (launch1 (F := F)).win.arr_inj c (V3 m (outsA m) c) (fun w => (dat1 (EV3 m) (a1 m) c).arrAt w (cfg1 (a1 m)).N) 2).symm

/-- Every other buffer is as region 1 found it. -/
theorem hrest1 (c : Dev nD) : ∀ b, b ∉ Finset.univ.image (Pipeline.arrRef (cfg1 (a1 m)).spec) →
    (fun b : Ref sig .tc => V4 m (outs m) c b) b = (fun b : Ref sig .tc => V3 m (outs m) c b) b := fun b hb =>
  V4_of m (outs m) c b fun h => hb (by
    simp only [List.mem_cons, List.not_mem_nil, or_false] at h
    subst h
    exact Finset.mem_image.mpr ⟨2, Finset.mem_univ _, rfl⟩)

/-- The unscoped rest of region 1, split at the table and at the distance matrix. -/
theorem rest1_split (c : Dev nD) (V : (b : Ref sig .tc) → Buf (Elt F) ((c : Thread nD τ).loc b)) :
    (Pipeline.unscopedRest (Ix := Unit) (Name := ℕ) (U := Pipeline.UD sig nD τ) (Lvl := ℕ) spec1 c V : sProp 𝕄)
      = iprop(Pipeline.prefHeld pre1 c (fun _ => fullShare) (fun k => V (pre1.ref k))
          ∗ (bigSep H1 fun b => ((c : Thread nD τ).loc b) ↦{fullShare} V b)
          ∗ (bigSep (RP1 \ H1) fun b => ((c : Thread nD τ).loc b) ↦{fullShare} V b)) := by
  rw [Pipeline.unscopedRest_split preFacts1 c V]
  unfold Pipeline.unscopedRestP
  rw [BI.bigSep_sdiff_split H1_subP]
  rfl

set_option backward.isDefEq.respectTransparency.types false in
/-- Region 1 over the thread state: entered from every unscoped buffer at the contents after the second host stretch,
    left with its result array at what the pipeline wrote back. Into the invariant go the generator register, the
    body's own cells at zero, the distance matrix and the label table; they come back as they went. -/
def reg1 (hH : ∀ i : S8192.Idx, (tbl (a1 m) i).toNat < 10000) :
    Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := Fin 128
  osem := osem1
  ho := ownSemFacts1
  hbody c := (body_obligation1 (EV3 m) (a1 m) hH c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop((∃ r, prngReg c r) ∗ Pipeline.ownSems0 (Ix := Unit) (Name := ℕ) (U := Pipeline.UD sig nD τ) (Lvl := ℕ) (Val := Elt F) (τ := τ) osem1 c
    ∗ (bigSep H1 fun b => ((c : Thread nD τ).loc b) ↦{fullShare} EV3 m c b))
  Y c := iprop((∃ r, prngReg c r) ∗ (bigSep H1 fun b => ((c : Thread nD τ).loc b) ↦{fullShare} EV3 m c b)
    ∗ Pipeline.prefHeld pre1 c (fun _ => fullShare) (a1 m).1)
  Z c := bigSep (RP1 \ H1) fun b => ((c : Thread nD τ).loc b) ↦{fullShare} EV3 m c b
  hentry c := by
    obtain rfl : c = 0 := Subsingleton.elim _ _
    have hsplit := Pipeline.arrays_of_unscopedBufs (p := 1) (pcfgs (F := F)) (adm m) (pdats m) (launch1 (F := F)).win (launch1 (F := F)).arr_whole 0
      ((pdats m 1 0).share_full fun _ => rfl) (EV3 m 0) fun _ => rfl
    have hR : (Pipeline.unscopedRest (Ix := Unit) (Name := ℕ) (U := Pipeline.UD sig nD τ) (Lvl := ℕ) (Pipeline.pin (pcfgs (F := F)) (adm m) 1).spec 0 (EV3 m 0) : sProp 𝕄) = _ :=
      rest1_split (F := F) 0 (EV3 m 0)
    rw [Pipeline.unscopedBufs_held, hR] at hsplit
    rw [show V3 m (outs m) (0 : Dev nD) = V3 m (outsA m) 0 from rfl]
    iintro ⟨⟨Hub, Hp, HO⟩, Hos, -⟩
    ihave H := hsplit $$ Hub
    icases H with ⟨Ha, Ht, HH, HR⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m 1 c).Φ 0 = Φ1 (EV3 m) (a1 m) c from rfl]; unfold Φ1; rw [Pipeline.ΦD_eq]
    iintro ⟨⟨Hp, Ho, HH⟩, Ht, Hr⟩
    isplitl [Hr Hp Ho HH]
    · isplitl [Hr]; · iexact Hr
      isplitl [Hp]; · iexact Hp
      isplitl [Ho]; · iexact Ho
      iexact HH
    iexact Ht
  hout c := by
    rw [show (pdats m 1 c).Φ (Fin.last _) = Φ1 (EV3 m) (a1 m) c from rfl]; unfold Φ1; rw [Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    obtain rfl : c = 0 := Subsingleton.elim _ _
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole 0 (pdats m) ((pdats m 1 0).share_full fun _ => rfl)
      (EV3 m 0) (fun b : Ref sig .tc => V4 m (outs m) 0 b) ((pdats m 1 0).arrAt · (cfg1 (a1 m)).N) (hF1 m 0) (hrest1 m 0)
    have hR : (Pipeline.unscopedRest (Ix := Unit) (Name := ℕ) (U := Pipeline.UD sig nD τ) (Lvl := ℕ) (Pipeline.pin (pcfgs (F := F)) (adm m) 1).spec 0 (EV3 m 0) : sProp 𝕄) = _ :=
      rest1_split (F := F) 0 (EV3 m 0)
    rw [Pipeline.unscopedBufs_held, hR] at hjoin
    iintro ⟨Ha, HO, ⟨HY, HH, Ht⟩, HR⟩
    imodintro
    isplitl [Ha Ht HH HR]
    · iapply hjoin
      isplitl [Ha]; · iexact Ha
      isplitl [Ht]; · iexact Ht
      isplitl [HH]; · iexact HH
      iexact HR
    isplitl [HY]; · iexact HY
    unfold Pipeline.Dat.owesAt Pipeline.owesWithin
    icases HO with ⟨%W, -, HO⟩; iexists W; iexact HO

/-! ## The launch -/

variable (ρ : Dev nD → PrngReg)

set_option backward.isDefEq.respectTransparency.types false in
/-- THE FRAME, on a label table whose every word names a row of the distance matrix: every weakly fair execution of
    @main terminates, nothing faulting, and every argument array ends as launched. -/
theorem frame (hH : ∀ i : S8192.Idx, (tbl (a1 m) i).toNat < 10000) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond (F := F) m embL () 𝒱₀ L lv (fun _ _ => rfl) ρ (outs m) (adm m) (pdats m) 0 (fun _ => iprop(emp))
    (initOf (Pipeline.cells (Pipeline.pin (pcfgs (F := F)) (adm m)) (cellOf_inj (adm m))) (Pipeline.launchToks (Pipeline.pin (pcfgs (F := F)) (adm m)) (cellOf_inj (adm m))), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m hH) (fun _ => .rfl) (fun _ => .rfl)

end Cert.KernelIdeal.Hand

end
-- ==== Proof.Ideal.Frame.lean ====
/-
  The frame under the precondition. The label table region 1 is launched with is the label argument as launched (no
  item before region 1 writes it), and the precondition bounds every label below the class count; so every row the
  body copies lies inside the distance matrix.
-/
import proofs.«406825_j71691594105550_1_alg».proof.Proof.Ideal.Run
import proofs.«406825_j71691594105550_1_alg».proof.Proof.Pre

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The table region 1 finds is the label argument as launched. -/
theorem tbl_a1 : tbl (a1 m) = m (((0 : Dev nD).tc : Thread nD τ).loc main_arg2) :=
  (V3_of m (outsA m) 0 main_arg2 (by decide)).trans ((V2_of m (outsA m) 0 main_arg2 (by decide)).trans (V1_of m 0 main_arg2 (by decide)))

/-- The precondition's label range, at the table. -/
theorem table_in_range
    (h : ∀ c : Dev nD, Cert.Pre_finite_inputs.fn (F := F) (m ((c.tc : Thread nD τ).loc main_arg0)) (m ((c.tc : Thread nD τ).loc main_arg1)) (m ((c.tc : Thread nD τ).loc main_arg2)) = fun _ => 1#1) :
    ∀ i : S8192.Idx, (tbl (a1 m) i).toNat < 10000 := fun i => by
  rw [tbl_a1]
  exact Cert.PreFacts.target_lt _ _ _ (h 0) i

/-- THE FRAME under the precondition. -/
theorem frame_pre
    (h : ∀ c : Dev nD, Cert.Pre_finite_inputs.fn (F := F) (m ((c.tc : Thread nD τ).loc main_arg0)) (m ((c.tc : Thread nD τ).loc main_arg1)) (m ((c.tc : Thread nD τ).loc main_arg2)) = fun _ => 1#1) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame m ρ (table_in_range m h)

end Cert.KernelIdeal.Hand

end
-- ==== Proof.Ideal.ValueCond.lean ====
/-
  The launch of the whole program with its result named. Given, for each of the two accumulating passes, a record of
  its run entered from the buffers' contents before it and left at the contents after it, every weakly fair execution
  of the program terminates, the result buffer ends holding what the last host stretch computes from the contents the
  second pass leaves, and each of the three argument arrays ends as launched.
-/
import proofs.«406825_j71691594105550_1_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

set_option backward.isDefEq.respectTransparency.types false in
/-- THE RUN WITH ITS RESULT. For any rest states `E` the launch makes on every core at once and that end owing nothing,
    any contents `outs` the two passes leave and any proof data: given each pass's record, entered from the contents
    before it (`V1`, `V3`) and left at the contents after it (`V2`, `V4`), every weakly fair execution from memory `m`
    with zero counters terminates; the result buffer then holds the last contents' entry for it (`V5 m outs c main_v10`:
    the closing host arithmetic applied to what the passes left), and every argument array is as launched. -/
theorem value_cond (m : (ℓ : Loc nD τ sig) → Buf (Elt F) ℓ)
    {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      r.2.mem ((c.tc : Thread nD τ).loc main_v10) = V5 m outs c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) a pdats ι (cellOf_inj a) EP defs₀ 𝒱₀ L lv m ρ main
    (segs m outs 𝒱₀ L lv E ι a pdats R0 R1)
    (fun c Q => by
      -- the program on a core is the chain of its five items, and the segments' programs are those items
      rewrite [main_chain c, Seg.run_eq_chain,
        show (segs m outs 𝒱₀ L lv E ι a pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, hpost0 c, hpre1 c, hpost1 c, sep_mono .rfl (hE2 c)⟩)
    (hinit := ?_)
    (QY := fun c s => s.mem ((c.tc : Thread nD τ).loc main_v10) = V5 m outs c main_v10
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h => h)
  · -- at launch every core holds its buffers at the launch contents; what is left makes the first rest state everywhere
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end the memory agrees with the last contents on every buffer: read the result, then the arguments
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact ⟨h (Proc.devRef .tc main_v10) (Finset.mem_filter.mpr ⟨StableHlo.devRef_mem_tcRefs main_v10, by decide⟩),
        (h (Proc.devRef .tc main_arg0) (Finset.mem_filter.mpr ⟨StableHlo.devRef_mem_tcRefs main_arg0, by decide⟩)).trans (V5_main_arg0 m outs c),
        (h (Proc.devRef .tc main_arg1) (Finset.mem_filter.mpr ⟨StableHlo.devRef_mem_tcRefs main_arg1, by decide⟩)).trans (V5_main_arg1 m outs c),
        (h (Proc.devRef .tc main_arg2) (Finset.mem_filter.mpr ⟨StableHlo.devRef_mem_tcRefs main_arg2, by decide⟩)).trans (V5_main_arg2 m outs c)⟩
    · iexact HSI

end Cert.KernelIdeal.Hand

end
-- ==== Proof.Ideal.ValueRun.lean ====
/-
  The run with the result named: as the frame, and the result buffer ends at what the last host stretch computes from
  the arrays the two regions left.
-/
import proofs.«406825_j71691594105550_1_alg».proof.Proof.Ideal.Run
import proofs.«406825_j71691594105550_1_alg».proof.Proof.Ideal.ValueCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
/-- On a label table whose every word names a row of the distance matrix: every weakly fair execution of @main
    terminates, nothing faulting, the result buffer ends at the last host stretch's value and every argument array ends
    as launched. -/
theorem value_run (hH : ∀ i : S8192.Idx, (tbl (a1 m) i).toNat < 10000) :
    θ_run defs (onTc (τ := τ) (main (F := F))) ⟨m, fun _ => 0, ρ⟩ (fun r => ∀ c : Dev nD,
      r.2.mem ((c.tc : Thread nD τ).loc main_v10) = V5 m (outs m) c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  value_cond (F := F) m embL () 𝒱₀ L lv (fun _ _ => rfl) ρ (outs m) (adm m) (pdats m) 0 (fun _ => iprop(emp))
    (initOf (Pipeline.cells (Pipeline.pin (pcfgs (F := F)) (adm m)) (cellOf_inj (adm m))) (Pipeline.launchToks (Pipeline.pin (pcfgs (F := F)) (adm m)) (cellOf_inj (adm m))), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m hH) (fun _ => .rfl) (fun _ => .rfl)

end Cert.KernelIdeal.Hand

end
-- ==== Proof.Ideal.Spec.lean ====
/-
  The mathematics of the inclusive loss, over the reals.

  For logits X (8192 x 10000), a distance matrix D (10000 x 10000) and labels lab (8192, each below 10000):
    * per class k, the column maximum M k over the batch and the column sum S k of exp (X b k - M k);
    * per sample b, the row maximum R b over the classes and the row sum Z b of exp (X b k - R b);
    * the cross-entropy sum  CE  = sum over b of (log (Z b) + R b - X b (lab b));
    * the regulariser sum    REG = sum over b, k of D (lab b) k * (X b k - (log (S k) + M k)).
  The kernel returns CE / 8192 + (-1/2 * REG) / 81920000. The reference returns
  -( (sum over b of ((X b (lab b) - R b) - log (Z b))) / 8192 ) + (-1/2 * REG') / 81920000 with
  REG' = sum over b, k of D (lab b) k * ((X b k - M k) - log (S k)). The two are one real number.
-/
import Idealize.ShloMosaic.PureOps.Ideal
import Idealize.ShloMosaic.Lib.ValueIdx
import Mathlib.Analysis.SpecialFunctions.Log.Basic
import Mathlib.Analysis.SpecialFunctions.Exp

noncomputable section

open scoped BigOperators

namespace Cert.Spec

open Idealize.ShloMosaic Idealize.ShloMosaic.ValueIdx

abbrev SX : Shape := ⟨2, ![8192, 10000]⟩
abbrev SD : Shape := ⟨2, ![10000, 10000]⟩
abbrev ST : Shape := ⟨1, ![8192]⟩

/-- The logits as reals. -/
def Xr (x : SX.Idx → EReal) (b : Fin 8192) (k : Fin 10000) : ℝ := (x (ix2 b k)).toReal
/-- The distance matrix as reals. -/
def Dr (d : SD.Idx → EReal) (r k : Fin 10000) : ℝ := (d (ix2 r k)).toReal
/-- The labels as class numbers (reduced modulo the class count: the identity on labels in range). -/
def lab (t : ST.Idx → BitVec 32) (b : Fin 8192) : Fin 10000 := ⟨(t (ix1 b)).toNat % 10000, Nat.mod_lt _ (by norm_num)⟩

variable (X : Fin 8192 → Fin 10000 → ℝ) (D : Fin 10000 → Fin 10000 → ℝ) (l : Fin 8192 → Fin 10000)

/-- Column maximum over the batch. -/
def colMax (k : Fin 10000) : ℝ := Finset.univ.sup' Finset.univ_nonempty fun b : Fin 8192 => X b k
/-- Column sum of exponentials shifted by the column maximum. -/
def colSum (k : Fin 10000) : ℝ := ∑ b : Fin 8192, Real.exp (X b k - colMax X k)
/-- Row maximum over the classes. -/
def rowMax (b : Fin 8192) : ℝ := Finset.univ.sup' Finset.univ_nonempty fun k : Fin 10000 => X b k
/-- Row sum of exponentials shifted by the row maximum. -/
def rowSum (b : Fin 8192) : ℝ := ∑ k : Fin 10000, Real.exp (X b k - rowMax X b)
/-- The cross-entropy sum as the kernel accumulates it. -/
def ceSum : ℝ := ∑ b : Fin 8192, (Real.log (rowSum X b) + rowMax X b - X b (l b))
/-- The column log-sum-exp as the kernel's host glue forms it. -/
def colLse (k : Fin 10000) : ℝ := Real.log (colSum X k) + colMax X k
/-- The regulariser sum as the kernel accumulates it, against any row of column offsets. -/
def regSum (cl : Fin 10000 → ℝ) : ℝ := ∑ b : Fin 8192, ∑ k : Fin 10000, D (l b) k * (X b k - cl k)
/-- The kernel's result. -/
def kerVal : ℝ := ceSum X l / 8192 + (-(1 / 2) * regSum X D l (colLse X)) / 81920000
/-- The reference's result. -/
def refVal : ℝ :=
  -((∑ b : Fin 8192, ((X b (l b) - rowMax X b) - Real.log (rowSum X b))) / 8192)
    + (-(1 / 2) * ∑ b : Fin 8192, ∑ k : Fin 10000, D (l b) k * ((X b k - colMax X k) - Real.log (colSum X k))) / 81920000

/-- The cross-entropy sum over the samples below row r (what the kernel holds after the tiles covering those rows). -/
def ceUpTo (r : ℕ) : ℝ := ∑ b ∈ Finset.univ.filter (fun b : Fin 8192 => b.val < r), (Real.log (rowSum X b) + rowMax X b - X b (l b))
/-- The regulariser sum over the samples below row r. -/
def regUpTo (cl : Fin 10000 → ℝ) (r : ℕ) : ℝ :=
  ∑ b ∈ Finset.univ.filter (fun b : Fin 8192 => b.val < r), ∑ k : Fin 10000, D (l b) k * (X b k - cl k)

theorem ceUpTo_all : ceUpTo X l 8192 = ceSum X l := by
  unfold ceUpTo ceSum; rw [Finset.filter_true_of_mem fun b _ => b.isLt]
theorem regUpTo_all (cl : Fin 10000 → ℝ) : regUpTo X D l cl 8192 = regSum X D l cl := by
  unfold regUpTo regSum; rw [Finset.filter_true_of_mem fun b _ => b.isLt]

/-- The two results are one real number: negation distributes over the cross-entropy sum and the quotient, and
    x - (log S + M) = (x - M) - log S term by term in the regulariser. -/
theorem kerVal_eq_refVal : kerVal X D l = refVal X D l := by
  unfold kerVal refVal ceSum regSum colLse
  have h1 : (∑ b : Fin 8192, (Real.log (rowSum X b) + rowMax X b - X b (l b)))
      = -(∑ b : Fin 8192, ((X b (l b) - rowMax X b) - Real.log (rowSum X b))) := by
    rw [← Finset.sum_neg_distrib]; exact Finset.sum_congr rfl fun b _ => by ring
  have h2 : (∑ b : Fin 8192, ∑ k : Fin 10000, D (l b) k * (X b k - (Real.log (colSum X k) + colMax X k)))
      = ∑ b : Fin 8192, ∑ k : Fin 10000, D (l b) k * ((X b k - colMax X k) - Real.log (colSum X k)) :=
    Finset.sum_congr rfl fun b _ => Finset.sum_congr rfl fun k _ => by ring
  rw [h1, h2]; ring

end Cert.Spec

end
-- ==== Proof.Ideal.R0ValueCE.lean ====
/-
  The cross-entropy component of region 0 at Ideal. On finite logits and labels in range, after grid point n the
  running sum is the sum over the samples of tiles 0..n of (log of the row's sum of exponentials shifted by the row
  maximum, plus the row maximum, minus the logit at the label): the one-hot select under the class-axis sum picks
  exactly the label's logit, and each tile adds its 128 rows.
-/
import proofs.«406825_j71691594105550_1_alg».proof.Proof.Ideal.Base
import proofs.«406825_j71691594105550_1_alg».proof.Proof.Ideal.Spec
import Idealize.ShloMosaic.PureOps.Ideal.Laws
import Idealize.ShloMosaic.Lib.Pipeline.Value

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat Cfg Window)
open scoped BigOperators

namespace CE

/-! ## The tile's operations read at an index -/

section Reads
variable {α : Type}

/-- A vector of 128 entries viewed as a column reads its entry r at (r, 0). -/
theorem col_of_vec (v : S128.Idx → α) (r : Fin 128) :
    shapeCast S128x1 v shapeCasts_S128_S128x1 (ix2 r (0 : Fin 1)) = v (ValueIdx.ix1 r) :=
  shapeCast_apply v shapeCasts_S128_S128x1 (ix2 r (0 : Fin 1)) (ValueIdx.ix1 r)
    (by rw [Shape.rowMajor_val_one, Shape.rowMajor_val_two]; show r.val = r.val * 1 + 0; omega)

/-- A one-entry vector viewed as a 1 x 1 block. -/
theorem cell_of_vec (v : S1.Idx → α) :
    shapeCast S1x1 v shapeCasts_S1_S1x1 (ix2 (0 : Fin 1) (0 : Fin 1)) = v (ValueIdx.ix1 (0 : Fin 1)) :=
  shapeCast_apply v shapeCasts_S1_S1x1 (ix2 (0 : Fin 1) (0 : Fin 1)) (ValueIdx.ix1 (0 : Fin 1))
    (by rw [Shape.rowMajor_val_one, Shape.rowMajor_val_two]; rfl)

/-- A column spread over the classes reads its own row's entry. -/
theorem spread_col (v : S128x1.Idx → α) (r : Fin 128) (k : Fin 10000) :
    broadcastTo S128x10000 v broadcasts_S128x1_S128x10000 (ix2 r k) = v (ix2 r (0 : Fin 1)) :=
  broadcastTo_apply v broadcasts_S128x1_S128x10000 (ix2 r k) (ix2 r (0 : Fin 1))
    (fun a => match a with | ⟨0, _⟩ => rfl | ⟨1, _⟩ => rfl)

end Reads

/-- The class counter at (r, k) is the word k. -/
theorem class_counter (r : Fin 128) (k : Fin 10000) :
    iota .tc S128x10000 32 [1] iota_S128x10000_d1_w32 (ix2 r k) = BitVec.ofNat 32 k.val :=
  iota_single_apply .tc S128x10000 32 1 iota_S128x10000_d1_w32 (ix2 r k)

/-- A sum along the classes, row r. -/
theorem row_sum (src : FVec Ideal S128x10000 .f32) (r : Fin 128) :
    multiReduction .add [1] S128 src 0x00000000#32 reduces_S128x10000_S128 (.inl rfl) rfl (ValueIdx.ix1 r)
      = ∑ k : Fin 10000, src (ix2 r k) := by
  refine (Ideal.multiReduction_add_single src _ reduces_S128x10000_S128 (.inl rfl) rfl (ValueIdx.ix1 r)).trans ?_
  show ∑ k : Fin 10000, src (reduces_S128x10000_S128.lift (ValueIdx.ix1 r) k) = _
  refine Finset.sum_congr rfl fun k _ => congrArg src ?_
  funext a; match a with | ⟨0, _⟩ => rfl | ⟨1, _⟩ => rfl

/-- A maximum along the classes, row r: the fold of max from the bottom element. -/
theorem row_max (src : FVec Ideal S128x10000 .f32) (r : Fin 128) :
    multiReduction .maximumf [1] S128 src 0xFF800000#32 reduces_S128x10000_S128 (.inl rfl) rfl (ValueIdx.ix1 r)
      = (Finset.univ : Finset (Fin 10000)).fold max (Ideal.ofBits .f32 0xFF800000#32) (fun k => src (ix2 r k)) := by
  refine (Ideal.multiReduction_maximumf_single src _ reduces_S128x10000_S128 (.inl rfl) rfl (ValueIdx.ix1 r)).trans ?_
  show (Finset.univ : Finset (Fin 10000)).fold max _ (src ∘ reduces_S128x10000_S128.lift (ValueIdx.ix1 r)) = _
  congr 1
  funext k
  refine congrArg src ?_
  funext a; match a with | ⟨0, _⟩ => rfl | ⟨1, _⟩ => rfl

/-- A sum down the 128 rows of a column. -/
theorem col_sum (src : FVec Ideal S128x1 .f32) :
    multiReduction .add [0] S1 src 0x00000000#32 reduces_S128x1_S1 (.inl rfl) rfl (ValueIdx.ix1 (0 : Fin 1))
      = ∑ r : Fin 128, src (ix2 r (0 : Fin 1)) := by
  refine (Ideal.multiReduction_add_single src _ reduces_S128x1_S1 (.inl rfl) rfl (ValueIdx.ix1 (0 : Fin 1))).trans ?_
  show ∑ r : Fin 128, src (reduces_S128x1_S1.lift (ValueIdx.ix1 (0 : Fin 1)) r) = _
  refine Finset.sum_congr rfl fun r _ => congrArg src ?_
  funext a; match a with | ⟨0, _⟩ => rfl | ⟨1, _⟩ => rfl

/-! ## One tile, in the extended reals -/

/-- Row r's running top: the fold of max over the classes from the bottom element. -/
def rowTop (x : Vec Ideal S128x10000 .f32) (r : Fin 128) : EReal :=
  (Finset.univ : Finset (Fin 10000)).fold max (Ideal.ofBits .f32 0xFF800000#32) (fun k => x (ix2 r k))

/-- The column of row maxima reads row r's top. -/
theorem top_col (x : Vec Ideal S128x10000 .f32) (r : Fin 128) :
    shapeCast S128x1 (multiReduction (F := Ideal) .maximumf [1] S128 x 0xFF800000#32 reduces_S128x10000_S128 (.inl rfl) rfl)
      shapeCasts_S128_S128x1 (ix2 r (0 : Fin 1)) = rowTop x r :=
by
  unfold rowTop
  refine (col_of_vec _ r).trans ?_
  exact row_max x r

/-- What one tile adds to the carried cell: over its 128 rows, the logarithm of the row's sum of exponentials shifted
    by the row's top, plus that top, minus the class-axis sum of the one-hot selected logits. -/
theorem tile_step (x : Vec Ideal S128x10000 .f32) (t : Vec Ideal S128x1 .i32) (prev : Vec Ideal S1x1 .f32) :
    k0_pay7 x t prev (ix2 (0 : Fin 1) (0 : Fin 1))
      = prev (ix2 (0 : Fin 1) (0 : Fin 1)) + ∑ r : Fin 128,
          (Ideal.log (∑ k : Fin 10000, Ideal.exp (x (ix2 r k) - rowTop x r)) + rowTop x r
            - ∑ k : Fin 10000, Scalar.select (IntOp.cmpi .eq (BitVec.ofNat 32 k.val) (t (ix2 r (0 : Fin 1))))
                (x (ix2 r k)) (Ideal.ofBits .f32 0x00000000#32)) := by
  unfold k0_pay7
  refine congrArg₂ (· + ·) (congrFun (shapeCast_self prev shapeCasts_S1x1_S1x1) _) ?_
  refine (cell_of_vec _).trans ?_
  refine (col_sum _).trans ?_
  refine Finset.sum_congr rfl fun r _ => ?_
  refine congrArg₂ (· - ·) (congrArg₂ (· + ·) (congrArg Ideal.log ?_) (top_col x r)) ?_
  · refine (col_of_vec _ r).trans ?_
    refine (row_sum _ r).trans ?_
    refine Finset.sum_congr rfl fun k _ => ?_
    exact congrArg (fun m => Ideal.exp (x (ix2 r k) - m)) ((spread_col _ r k).trans (top_col x r))
  · refine (col_of_vec _ r).trans ?_
    refine (row_sum _ r).trans ?_
    refine Finset.sum_congr rfl fun k _ => ?_
    refine congrArg (fun b => Scalar.select b (x (ix2 r k)) (Ideal.ofBits .f32 0x00000000#32)) ?_
    exact congrArg₂ (IntOp.cmpi .eq) (class_counter r k)
      ((spread_col _ r k).trans (congrFun (shapeCast_self t shapeCasts_S128x1_S128x1) _))

/-! ## The finite side -/

/-- A finite sum of real numbers, read in the extended reals. -/
theorem coe_fin_sum {ι : Type} (s : Finset ι) (g : ι → ℝ) :
    (∑ i ∈ s, ((g i : ℝ) : EReal)) = ((∑ i ∈ s, g i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The bottom element's pattern. -/
theorem neg_inf_pattern : Ideal.ofBits .f32 0xFF800000#32 = ⊥ := by simp [Ideal.ofBits, Ideal.ieee]

/-- On finite logits a row's top is the real maximum of the row. -/
theorem rowTop_coe (x : Vec Ideal S128x10000 .f32) (Y : Fin 128 → Fin 10000 → ℝ)
    (hx : ∀ r k, x (ix2 r k) = ((Y r k : ℝ) : EReal)) (r : Fin 128) :
    rowTop x r = ((Finset.univ.sup' Finset.univ_nonempty (fun k : Fin 10000 => Y r k) : ℝ) : EReal) := by
  unfold rowTop
  rw [neg_inf_pattern]
  apply le_antisymm
  · rw [Finset.fold_max_le]
    refine ⟨bot_le, fun k _ => ?_⟩
    rw [hx r k]
    exact EReal.coe_le_coe_iff.mpr (Finset.le_sup' (fun k => Y r k) (Finset.mem_univ k))
  · rw [Finset.le_fold_max]
    obtain ⟨k, _, hk⟩ := Finset.exists_mem_eq_sup' Finset.univ_nonempty (fun k : Fin 10000 => Y r k)
    exact Or.inr ⟨k, Finset.mem_univ k, by rw [hx r k, hk]⟩

/-- The word k equals a label word exactly when k is the label's class number. -/
theorem class_bit (w : BitVec 32) (k : Fin 10000) :
    IntOp.cmpi .eq (BitVec.ofNat 32 k.val) w = 1#1 ↔ k.val = w.toNat := by
  have hk : k.val < 2 ^ 32 := lt_trans k.isLt (by norm_num)
  have hiff : BitVec.ofNat 32 k.val = w ↔ k.val = w.toNat := by
    constructor
    · intro e; rw [← e, BitVec.toNat_ofNat, Nat.mod_eq_of_lt hk]
    · intro e; apply BitVec.eq_of_toNat_eq; rw [BitVec.toNat_ofNat, Nat.mod_eq_of_lt hk, e]
  unfold IntOp.cmpi
  show BitVec.ofBool (BitVec.ofNat 32 k.val == w) = 1#1 ↔ _
  by_cases e : BitVec.ofNat 32 k.val = w
  · have hb : (BitVec.ofNat 32 k.val == w) = true := by simpa using e
    rw [hb]; exact ⟨fun _ => hiff.mp e, fun _ => rfl⟩
  · have hb : (BitVec.ofNat 32 k.val == w) = false := by simpa using e
    rw [hb]; exact ⟨fun h => absurd h (by decide), fun h => absurd (hiff.mpr h) e⟩

/-- Under the class-axis sum the one-hot select keeps exactly the entry at the label's class. -/
theorem onehot_pick (w : BitVec 32) (hw : w.toNat < 10000) (g : Fin 10000 → EReal) :
    ∑ k : Fin 10000, Scalar.select (IntOp.cmpi .eq (BitVec.ofNat 32 k.val) w) (g k) (Ideal.ofBits .f32 0x00000000#32)
      = g ⟨w.toNat % 10000, Nat.mod_lt _ (by norm_num)⟩ := by
  rw [Finset.sum_eq_single (⟨w.toNat % 10000, Nat.mod_lt _ (by norm_num)⟩ : Fin 10000)]
  · rw [(class_bit w _).mpr (Nat.mod_eq_of_lt hw)]; exact select_one _ _
  · intro k _ hk
    have hne : ¬ IntOp.cmpi .eq (BitVec.ofNat 32 k.val) w = 1#1 := fun h => hk (Fin.ext (by
      show k.val = w.toNat % 10000
      rw [Nat.mod_eq_of_lt hw]; exact (class_bit w k).mp h))
    rw [eq_zero_of_ne_one hne, select_zero, Ideal.ofBits_zero_f32]
  · intro h; exact absurd (Finset.mem_univ _) h

/-- One tile on finite logits and labels in range: the carried real number plus, over the tile's rows, the logarithm
    of the row's sum of exponentials shifted by the row maximum, plus the row maximum, minus the logit at the label. -/
theorem tile_real (x : Vec Ideal S128x10000 .f32) (t : Vec Ideal S128x1 .i32) (prev : Vec Ideal S1x1 .f32)
    (Y : Fin 128 → Fin 10000 → ℝ) (hx : ∀ r k, x (ix2 r k) = ((Y r k : ℝ) : EReal))
    (ht : ∀ r : Fin 128, (t (ix2 r (0 : Fin 1))).toNat < 10000)
    (p : ℝ) (hp : prev (ix2 (0 : Fin 1) (0 : Fin 1)) = ((p : ℝ) : EReal)) :
    k0_pay7 x t prev (ix2 (0 : Fin 1) (0 : Fin 1))
      = ((p + ∑ r : Fin 128,
            (Real.log (∑ k : Fin 10000, Real.exp (Y r k - Finset.univ.sup' Finset.univ_nonempty (fun k : Fin 10000 => Y r k)))
              + Finset.univ.sup' Finset.univ_nonempty (fun k : Fin 10000 => Y r k)
              - Y r ⟨(t (ix2 r (0 : Fin 1))).toNat % 10000, Nat.mod_lt _ (by norm_num)⟩) : ℝ) : EReal) := by
  rw [tile_step, hp, EReal.coe_add, ← coe_fin_sum]
  refine congrArg (fun s => ((p : ℝ) : EReal) + s) (Finset.sum_congr rfl fun r _ => ?_)
  rw [rowTop_coe x Y hx r, onehot_pick _ (ht r), hx r]
  have hs : (∑ k : Fin 10000, Ideal.exp (x (ix2 r k)
        - ((Finset.univ.sup' Finset.univ_nonempty (fun k : Fin 10000 => Y r k) : ℝ) : EReal)))
      = ((∑ k : Fin 10000, Real.exp (Y r k - Finset.univ.sup' Finset.univ_nonempty (fun k : Fin 10000 => Y r k)) : ℝ) : EReal) := by
    rw [← coe_fin_sum]
    refine Finset.sum_congr rfl fun k _ => ?_
    rw [hx r k, ← EReal.coe_sub, Ideal.exp_coe]
  have hpos : 0 < ∑ k : Fin 10000, Real.exp (Y r k - Finset.univ.sup' Finset.univ_nonempty (fun k : Fin 10000 => Y r k)) :=
    Finset.sum_pos (fun k _ => Real.exp_pos _) Finset.univ_nonempty
  rw [hs, Ideal.log_coe, if_neg (not_le.mpr hpos), ← EReal.coe_add, ← EReal.coe_sub]

/-! ## Sums over the samples below a row -/

/-- The samples below row 128 (n + 1) are those below row 128 n and the 128 rows of tile n. -/
theorem sum_below_tile (g : Fin 8192 → ℝ) (n : ℕ) (hn : n < 64) :
    ∑ b ∈ Finset.univ.filter (fun b : Fin 8192 => b.val < 128 * (n + 1)), g b
      = ∑ b ∈ Finset.univ.filter (fun b : Fin 8192 => b.val < 128 * n), g b
        + ∑ r : Fin 128, g ⟨128 * n + r.val, by have := r.isLt; omega⟩ := by
  have hsplit : Finset.univ.filter (fun b : Fin 8192 => b.val < 128 * (n + 1))
      = Finset.univ.filter (fun b : Fin 8192 => b.val < 128 * n)
        ∪ Finset.univ.filter (fun b : Fin 8192 => 128 * n ≤ b.val ∧ b.val < 128 * (n + 1)) := by
    ext b; simp only [Finset.mem_filter, Finset.mem_univ, true_and, Finset.mem_union]; omega
  have hdisj : Disjoint (Finset.univ.filter (fun b : Fin 8192 => b.val < 128 * n))
      (Finset.univ.filter (fun b : Fin 8192 => 128 * n ≤ b.val ∧ b.val < 128 * (n + 1))) := by
    rw [Finset.disjoint_filter]; intro b _ h1 h2; omega
  rw [hsplit, Finset.sum_union hdisj]
  congr 1
  symm
  refine Finset.sum_bij (fun r _ => (⟨128 * n + r.val, by have := r.isLt; omega⟩ : Fin 8192)) ?_ ?_ ?_ ?_
  · intro r _
    simp only [Finset.mem_filter, Finset.mem_univ, true_and]
    have := r.isLt; constructor <;> omega
  · intro r _ r' _ h
    have h' : 128 * n + r.val = 128 * n + r'.val := congrArg Fin.val h
    exact Fin.ext (by omega)
  · intro b hb
    simp only [Finset.mem_filter, Finset.mem_univ, true_and] at hb
    exact ⟨⟨b.val - 128 * n, by omega⟩, Finset.mem_univ _, Fin.ext (by show 128 * n + (b.val - 128 * n) = b.val; omega)⟩
  · intro r _; rfl

/-- No sample lies below row 0. -/
theorem ceUpTo_none (X : Fin 8192 → Fin 10000 → ℝ) (l : Fin 8192 → Fin 10000) : ceUpTo X l (128 * 0) = 0 := by
  unfold ceUpTo
  rw [Finset.filter_false_of_mem (fun b _ => by omega), Finset.sum_empty]

/-- The cell the first tile starts from holds zero. -/
theorem start_cell : (k0_pay3 (F := Ideal)) (ix2 (0 : Fin 1) (0 : Fin 1)) = ((0 : ℝ) : EReal) := by
  unfold k0_pay3
  show Ideal.ofBits .f32 0x00000000#32 = _
  rw [Ideal.ofBits_zero_f32, EReal.coe_zero]

end CE

variable (V : EntryV Ideal) (c : Dev nD)

/-- The logits as region 0 finds them. -/
abbrev xinC : Vec Ideal S8192x10000 .f32 := V c main_arg0
/-- The label column as region 0 finds it. -/
abbrev linC : Vec Ideal S8192x1 .i32 := V c main_v0
/-- Sample b's label as a class number. -/
def labC (b : Fin 8192) : Fin 10000 := ⟨(linC V c (ix2 b (0 : Fin 1))).toNat % 10000, Nat.mod_lt _ (by norm_num)⟩

namespace CE

/-! ## The blocks of a tile, read off the arrays -/

/-- Tile t of the logits and of the label column starts at row 128 t and at the first column. -/
theorem tile_origin : ∀ t : Fin cfg0.N, win0_0.index t (0 : Fin 2) = t.val ∧ win0_0.index t (1 : Fin 2) = 0
      ∧ win0_1.index t (0 : Fin 2) = t.val ∧ win0_1.index t (1 : Fin 2) = 0 :=
  (by decide +kernel : ∀ t : Fin grid0.N, win0_0.index t (0 : Fin 2) = t.val ∧ win0_0.index t (1 : Fin 2) = 0
      ∧ win0_1.index t (0 : Fin 2) = t.val ∧ win0_1.index t (1 : Fin 2) = 0)

/-- Row r of tile n of the logits is row 128 n + r of the array. -/
theorem xblk_read (n : ℕ) (hn : n < cfg0.N) (r : Fin 128) (k : Fin 10000) :
    xblk0 V c ⟨n, hn⟩ (ix2 r k)
      = xinC V c (ix2 (⟨128 * n + r.val, by have h64 : cfg0.N = 64 := N_0; have := r.isLt; omega⟩ : Fin 8192) k) := by
  show iblk0 V c 0 ⟨n, hn⟩ (ix2 r k) = _
  unfold iblk0
  rw [View.read_apply]
  show V c main_arg0 _ = V c main_arg0 _
  congr 1
  funext a
  apply Fin.ext
  match a with
  | ⟨0, _⟩ =>
    show win0_0.index ⟨n, hn⟩ 0 * 128 + 1 * r.val = 128 * n + r.val
    rw [(tile_origin ⟨n, hn⟩).1]
    show n * 128 + 1 * r.val = 128 * n + r.val
    omega
  | ⟨1, _⟩ =>
    show win0_0.index ⟨n, hn⟩ 1 * 10000 + 1 * k.val = k.val
    rw [(tile_origin ⟨n, hn⟩).2.1]; omega

/-- Row r of tile n of the label column is row 128 n + r of the column. -/
theorem tblk_read (n : ℕ) (hn : n < cfg0.N) (r : Fin 128) :
    tblk0 V c ⟨n, hn⟩ (ix2 r (0 : Fin 1))
      = linC V c (ix2 (⟨128 * n + r.val, by have h64 : cfg0.N = 64 := N_0; have := r.isLt; omega⟩ : Fin 8192) (0 : Fin 1)) := by
  show iblk0 V c 1 ⟨n, hn⟩ (ix2 r (0 : Fin 1)) = _
  unfold iblk0
  rw [View.read_apply]
  show V c main_v0 _ = V c main_v0 _
  congr 1
  funext a
  apply Fin.ext
  match a with
  | ⟨0, _⟩ =>
    show win0_1.index ⟨n, hn⟩ 0 * 128 + 1 * r.val = 128 * n + r.val
    rw [(tile_origin ⟨n, hn⟩).2.2.1]
    show n * 128 + 1 * r.val = 128 * n + r.val
    omega
  | ⟨1, _⟩ =>
    show win0_1.index ⟨n, hn⟩ 1 * 1 + 1 * 0 = 0
    rw [(tile_origin ⟨n, hn⟩).2.2.2]

/-! ## The running sum -/

/-- Tile n's step on the arrays: from the sum over the samples below row 128 n to the sum below row 128 (n + 1). -/
theorem tile_at (hx : ∀ y, xinC V c y = (((xinC V c y).toReal : ℝ) : EReal)) (hl : ∀ y, (linC V c y).toNat < 10000)
    (n : ℕ) (hn : n < cfg0.N) (prev : Vec Ideal S1x1 .f32)
    (hp : prev (ix2 (0 : Fin 1) (0 : Fin 1)) = ((ceUpTo (Xr (xinC V c)) (labC V c) (128 * n) : ℝ) : EReal)) :
    k0_pay7 (xblk0 V c ⟨n, hn⟩) (tblk0 V c ⟨n, hn⟩) prev (ix2 (0 : Fin 1) (0 : Fin 1))
      = ((ceUpTo (Xr (xinC V c)) (labC V c) (128 * (n + 1)) : ℝ) : EReal) := by
  have h64 : cfg0.N = 64 := N_0
  have hn' : n < 64 := by omega
  rw [tile_real (xblk0 V c ⟨n, hn⟩) (tblk0 V c ⟨n, hn⟩) prev
      (fun r k => Xr (xinC V c) ⟨128 * n + r.val, by have := r.isLt; omega⟩ k)
      (fun r k => (xblk_read V c n hn r k).trans (hx _))
      (fun r => by rw [tblk_read V c n hn r]; exact hl _)
      _ hp]
  unfold ceUpTo
  rw [sum_below_tile _ n hn']
  refine congrArg (fun s : ℝ => ((_ + s : ℝ) : EReal)) (Finset.sum_congr rfl fun r _ => ?_)
  unfold rowSum rowMax labC
  rw [tblk_read V c n hn r]

end CE

open CE

/-- The running cross-entropy sum after point n. -/
theorem ce_after (hx : ∀ y, xinC V c y = (((xinC V c y).toReal : ℝ) : EReal)) (hl : ∀ y, (linC V c y).toNat < 10000)
    (n : ℕ) (hn : n < cfg0.N) :
    (outs0 V c n hn).2.2 (ix2 (0 : Fin 1) (0 : Fin 1)) = ((ceUpTo (Xr (xinC V c)) (labC V c) (128 * (n + 1)) : ℝ) : EReal) := by
  induction n with
  | zero =>
    rw [outs0_zero]
    dsimp only
    exact tile_at V c hx hl 0 hn (k0_pay3 (F := Ideal)) (by rw [ceUpTo_none]; exact start_cell)
  | succ n ih =>
    rw [outs0_succ]
    dsimp only
    exact tile_at V c hx hl (n + 1) hn _ (ih (Nat.lt_of_succ_lt hn))

end Cert.KernelIdeal.HandValue

end
-- ==== Proof.Ideal.R0Value.lean ====
/-
  Region 0's three results at Ideal. On finite logits and labels in range, after the last grid point the running
  column maximum is the column maximum over the whole batch, the running rescaled sum is the column sum of
  exponentials shifted by that maximum (the merge of two tiles rescales each side by exp of its own maximum minus the
  joint one, and exp turns the sum of exponents into a product), and the running cross-entropy sum is the sum over
  all rows of (row log-sum-exp minus the logit at the label).
-/
import proofs.«406825_j71691594105550_1_alg».proof.Proof.Ideal.Base
import proofs.«406825_j71691594105550_1_alg».proof.Proof.Ideal.Spec
import proofs.«406825_j71691594105550_1_alg».proof.Proof.Ideal.R0ValueCE
import Idealize.ShloMosaic.Lib.Pipeline.Value
import Idealize.ShloMosaic.PureOps.Ideal.Laws
import Mathlib.Algebra.BigOperators.Fin
import Mathlib.Algebra.BigOperators.Intervals

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat Cfg Window)
open scoped BigOperators

variable (V : EntryV Ideal) (c : Dev nD)

/-- The logits as region 0 finds them. -/
abbrev xin0 : Vec Ideal S8192x10000 .f32 := V c main_arg0
/-- The label column as region 0 finds it. -/
abbrev lin0 : Vec Ideal S8192x1 .i32 := V c main_v0
/-- Sample b's label as a class number. -/
def lab0 (b : Fin 8192) : Fin 10000 := ⟨(lin0 V c (ix2 b (0 : Fin 1))).toNat % 10000, Nat.mod_lt _ (by norm_num)⟩

namespace Col

/-! ## One column over the reals: the tile-by-tile merge is the whole-column maximum and sum -/

section Column

variable (Y : ℕ → ℝ)

/-- The maximum of a column over the 128 rows of tile t. -/
def tileMax (t : ℕ) : ℝ := Finset.univ.sup' Finset.univ_nonempty fun r : Fin 128 => Y (128 * t + r.val)
/-- The sum over tile t's rows of the exponentials shifted by the tile's maximum. -/
def tileSum (t : ℕ) : ℝ := ∑ r : Fin 128, Real.exp (Y (128 * t + r.val) - tileMax Y t)

/-- The running maximum after tile n: tile 0's maximum, then the larger of what was held and the next tile's. -/
def runMax : ℕ → ℝ
  | 0 => tileMax Y 0
  | n + 1 => max (runMax n) (tileMax Y (n + 1))

/-- The running sum after tile n: each side of a merge is rescaled by exp of its own maximum minus the joint one. -/
def runSum : ℕ → ℝ
  | 0 => tileSum Y 0
  | n + 1 => runSum n * Real.exp (runMax Y n - runMax Y (n + 1))
      + tileSum Y (n + 1) * Real.exp (tileMax Y (n + 1) - runMax Y (n + 1))

theorem le_tileMax (t r : ℕ) (hr : r < 128) : Y (128 * t + r) ≤ tileMax Y t :=
  Finset.le_sup' (fun r : Fin 128 => Y (128 * t + r.val)) (Finset.mem_univ (⟨r, hr⟩ : Fin 128))

theorem tileMax_attained (t : ℕ) : ∃ r, r < 128 ∧ Y (128 * t + r) = tileMax Y t := by
  obtain ⟨r, -, hr⟩ := Finset.exists_mem_eq_sup' Finset.univ_nonempty fun r : Fin 128 => Y (128 * t + r.val)
  exact ⟨r.val, r.isLt, hr.symm⟩

theorem tileSum_range (t : ℕ) :
    tileSum Y t = ∑ x ∈ Finset.range 128, Real.exp (Y (128 * t + x) - tileMax Y t) :=
  Fin.sum_univ_eq_sum_range (fun x => Real.exp (Y (128 * t + x) - tileMax Y t)) 128

/-- Every row below 128 (n + 1) is at most the running maximum after tile n. -/
theorem le_runMax : ∀ (n i : ℕ), i < 128 * (n + 1) → Y i ≤ runMax Y n
  | 0, i, hi => by
    have := le_tileMax Y 0 i (by omega)
    simpa [runMax] using this
  | n + 1, i, hi => by
    show Y i ≤ max (runMax Y n) (tileMax Y (n + 1))
    by_cases h : i < 128 * (n + 1)
    · exact le_max_of_le_left (le_runMax n i h)
    · have := le_tileMax Y (n + 1) (i - 128 * (n + 1)) (by omega)
      rw [show 128 * (n + 1) + (i - 128 * (n + 1)) = i by omega] at this
      exact le_max_of_le_right this

/-- The running maximum after tile n is the value of some row below 128 (n + 1). -/
theorem runMax_attained : ∀ n : ℕ, ∃ i, i < 128 * (n + 1) ∧ Y i = runMax Y n
  | 0 => by
    obtain ⟨r, hr, e⟩ := tileMax_attained Y 0
    exact ⟨r, by omega, by simpa [runMax] using e⟩
  | n + 1 => by
    show ∃ i, i < 128 * (n + 1 + 1) ∧ Y i = max (runMax Y n) (tileMax Y (n + 1))
    rcases max_cases (runMax Y n) (tileMax Y (n + 1)) with ⟨e, -⟩ | ⟨e, -⟩
    · obtain ⟨i, hi, hv⟩ := runMax_attained n
      exact ⟨i, by omega, by rw [e]; exact hv⟩
    · obtain ⟨r, hr, hv⟩ := tileMax_attained Y (n + 1)
      exact ⟨128 * (n + 1) + r, by omega, by rw [e]; exact hv⟩

/-- A sum of exponentials shifted by m, rescaled by exp (m - m'), is the sum shifted by m'. -/
theorem sum_exp_rescale (s : Finset ℕ) (f : ℕ → ℝ) (m m' : ℝ) :
    (∑ i ∈ s, Real.exp (f i - m)) * Real.exp (m - m') = ∑ i ∈ s, Real.exp (f i - m') := by
  rw [Finset.sum_mul]
  refine Finset.sum_congr rfl fun i _ => ?_
  rw [← Real.exp_add]
  congr 1; ring

/-- The running sum after tile n is the sum over the rows below 128 (n + 1) of the exponentials shifted by the
    running maximum. -/
theorem runSum_eq : ∀ n : ℕ, runSum Y n = ∑ i ∈ Finset.range (128 * (n + 1)), Real.exp (Y i - runMax Y n)
  | 0 => by
    show tileSum Y 0 = _
    rw [tileSum_range]
    refine Finset.sum_congr rfl fun x _ => ?_
    simp [runMax]
  | n + 1 => by
    show runSum Y n * Real.exp (runMax Y n - runMax Y (n + 1))
      + tileSum Y (n + 1) * Real.exp (tileMax Y (n + 1) - runMax Y (n + 1)) = _
    rw [runSum_eq n, tileSum_range, sum_exp_rescale, sum_exp_rescale,
      show 128 * (n + 1 + 1) = 128 * (n + 1) + 128 by ring, Finset.sum_range_add]

end Column

/-! ## The columns of the logits -/

/-- Column k of the logits as a sequence of reals (zero past the last row). -/
def colSeq (X : Fin 8192 → Fin 10000 → ℝ) (k : Fin 10000) : ℕ → ℝ :=
  fun i => if h : i < 8192 then X ⟨i, h⟩ k else 0

theorem colSeq_val (X : Fin 8192 → Fin 10000 → ℝ) (k : Fin 10000) (b : Fin 8192) : colSeq X k b.val = X b k := by
  unfold colSeq; rw [dif_pos b.isLt]

/-- After the last tile the running maximum is the column maximum over the batch. -/
theorem runMax_last (X : Fin 8192 → Fin 10000 → ℝ) (k : Fin 10000) : runMax (colSeq X k) 63 = colMax X k := by
  unfold colMax
  apply le_antisymm
  · obtain ⟨i, hi, e⟩ := runMax_attained (colSeq X k) 63
    have hi' : i < 8192 := by omega
    rw [← e, show i = (⟨i, hi'⟩ : Fin 8192).val from rfl, colSeq_val]
    exact Finset.le_sup' (fun b : Fin 8192 => X b k) (Finset.mem_univ _)
  · refine Finset.sup'_le _ _ fun b _ => ?_
    rw [← colSeq_val X k b]
    exact le_runMax (colSeq X k) 63 b.val (by have := b.isLt; omega)

/-- After the last tile the running sum is the column sum of exponentials shifted by the column maximum. -/
theorem runSum_last (X : Fin 8192 → Fin 10000 → ℝ) (k : Fin 10000) : runSum (colSeq X k) 63 = colSum X k := by
  unfold colSum
  rw [runSum_eq, runMax_last, show 128 * (63 + 1) = 8192 by norm_num,
    ← Fin.sum_univ_eq_sum_range (fun i => Real.exp (colSeq X k i - colMax X k)) 8192]
  exact Finset.sum_congr rfl fun b _ => by rw [colSeq_val]

/-! ## Extended reals that are reals -/

/-- The greatest of finitely many reals, taken among the extended reals from -∞, is their real maximum. -/
theorem fold_max_coe {ι : Type} (s : Finset ι) (hs : s.Nonempty) (f : ι → ℝ) :
    s.fold max (⊥ : EReal) (fun i => ((f i : ℝ) : EReal)) = ((s.sup' hs f : ℝ) : EReal) := by
  apply le_antisymm
  · rw [Finset.fold_max_le]
    exact ⟨bot_le, fun i hi => EReal.coe_le_coe_iff.mpr (Finset.le_sup' f hi)⟩
  · obtain ⟨i, hi, e⟩ := Finset.exists_mem_eq_sup' hs f
    rw [Finset.le_fold_max]
    exact Or.inr ⟨i, hi, by rw [e]⟩

/-- A finite sum of reals, taken among the extended reals, is the real sum. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two reals among the extended reals. -/
theorem max_coe (a b : ℝ) : max (a : EReal) (b : EReal) = ((max a b : ℝ) : EReal) :=
  (EReal.coe_strictMono.monotone.map_max).symm

/-- The exponential of a difference of reals. -/
theorem exp_sub_coe (a m : ℝ) : Ideal.exp ((a : EReal) - (m : EReal)) = ((Real.exp (a - m) : ℝ) : EReal) := by
  rw [← EReal.coe_sub, Ideal.exp_coe]

/-- A real rescaled by the exponential of a difference of reals. -/
theorem scale_coe (a b m : ℝ) :
    (a : EReal) * Ideal.exp ((b : EReal) - (m : EReal)) = ((a * Real.exp (b - m) : ℝ) : EReal) := by
  rw [exp_sub_coe, ← EReal.coe_mul]

/-- The pattern of -∞ is the bottom of the extended reals. -/
theorem neg_inf_bits : (FloatOps.ofBits .f32 0xFF800000#32 : Ideal .f32) = (⊥ : EReal) := by
  show Ideal.ofBits .f32 0xFF800000#32 = ⊥
  simp [Ideal.ofBits, Ideal.ieee]

/-! ## One tile's payloads read at a column

The tile x holds, at row r and column k, the real `Yc k (128 t + r)`: column k of the logits as a sequence, at the
rows of tile t. -/

section Tile

variable (x : Vec Ideal S128x10000 .f32) (Yc : Fin 10000 → ℕ → ℝ) (t : ℕ)

/-- Putting row r on top of the column index k gives the tile's index (r, k). -/
theorem lift_row (k : Fin 10000) (r : Fin 128) : reduces_S128x10000_S10000.lift (ValueIdx.ix1 k) r = ix2 r k := by
  funext a
  apply Fin.ext
  match a with
  | ⟨0, _⟩ => rfl
  | ⟨1, _⟩ => rfl

/-- Position k of the row of 10000 is position (0, k) of the 1 x 10000 row. -/
theorem row_pos (k : Fin 10000) : (S10000.rowMajor (ValueIdx.ix1 k)).val = (S1x10000.rowMajor (ix2 (0 : Fin 1) k)).val := by
  rw [Shape.rowMajor_val_one, Shape.rowMajor_val_two]
  show k.val = 0 * _ + k.val
  omega

/-- A row broadcast down the tile reads, at (r, k), the row at (0, k). -/
theorem row_down (m : Vec Ideal S1x10000 .f32) (r : Fin 128) (k : Fin 10000) :
    broadcastTo S128x10000 m broadcasts_S1x10000_S128x10000 (ix2 r k) = m (ix2 (0 : Fin 1) k) :=
  broadcastTo_apply m broadcasts_S1x10000_S128x10000 (ix2 r k) (ix2 (0 : Fin 1) k) fun a => by
    match a with
    | ⟨0, _⟩ => rfl
    | ⟨1, _⟩ => rfl

/-- Two rescaled rows added, read at one index. -/
theorem rescale_point {s : Shape} (A B C D E : FVec Ideal s .f32) (j : s.Idx) :
    addf (mulf A (exp (subf B C))) (mulf D (exp (subf E C))) j
      = A j * Ideal.exp (B j - C j) + D j * Ideal.exp (E j - C j) := rfl

/-- The merged sum read at one index, before anything is known of the operands. -/
theorem merge_sum_point (x : Vec Ideal S128x10000 .f32) (m l : Vec Ideal S1x10000 .f32) (j : S1x10000.Idx) :
    k0_pay6 x m l j
      = shapeCast S1x10000 l shapeCasts_S1x10000_S1x10000 j * Ideal.exp (k0_pay4 m j - k0_pay5 x m j)
        + k0_pay2 x j * Ideal.exp (k0_pay1 x j - k0_pay5 x m j) := by
  unfold k0_pay6
  exact rescale_point _ _ _ _ _ j

/-- The row held is read through a cast to its own shape. -/
theorem held_at (m : Vec Ideal S1x10000 .f32) (j : S1x10000.Idx) : k0_pay4 m j = m j := by
  unfold k0_pay4
  exact congrFun (shapeCast_self m _) j

variable (hx : ∀ (r : Fin 128) (k : Fin 10000), x (ix2 r k) = ((Yc k (128 * t + r.val) : ℝ) : EReal))
include hx

/-- The tile's column maximum. -/
theorem tile_max_at (k : Fin 10000) : k0_pay1 x (ix2 (0 : Fin 1) k) = ((tileMax (Yc k) t : ℝ) : EReal) := by
  unfold k0_pay1
  refine (shapeCast_apply _ shapeCasts_S10000_S1x10000 (ix2 (0 : Fin 1) k) (ValueIdx.ix1 k) (row_pos k)).trans ?_
  refine (Ideal.multiReduction_maximumf_single x _ reduces_S128x10000_S10000 _ _ (ValueIdx.ix1 k)).trans ?_
  have hf : (x ∘ reduces_S128x10000_S10000.lift (ValueIdx.ix1 k))
      = fun r : Fin 128 => ((Yc k (128 * t + r.val) : ℝ) : EReal) :=
    funext fun r => (congrArg x (lift_row k r)).trans (hx r k)
  rw [neg_inf_bits, hf]
  exact fold_max_coe _ _ _

/-- The tile's column sum of exponentials shifted by the tile's maximum. -/
theorem tile_sum_at (k : Fin 10000) : k0_pay2 x (ix2 (0 : Fin 1) k) = ((tileSum (Yc k) t : ℝ) : EReal) := by
  unfold k0_pay2
  refine (shapeCast_apply _ shapeCasts_S10000_S1x10000 (ix2 (0 : Fin 1) k) (ValueIdx.ix1 k) (row_pos k)).trans ?_
  refine (Ideal.multiReduction_add_single _ _ reduces_S128x10000_S10000 _ _ (ValueIdx.ix1 k)).trans ?_
  have hterm : ∀ r : Fin 128,
      exp (subf x (broadcastTo S128x10000 (k0_pay1 x) broadcasts_S1x10000_S128x10000))
          (reduces_S128x10000_S10000.lift (ValueIdx.ix1 k) r)
        = ((Real.exp (Yc k (128 * t + r.val) - tileMax (Yc k) t) : ℝ) : EReal) := fun r => by
    rw [lift_row]
    show Ideal.exp (x (ix2 r k) - broadcastTo S128x10000 (k0_pay1 x) broadcasts_S1x10000_S128x10000 (ix2 r k)) = _
    rw [row_down, tile_max_at x Yc t hx k, hx r k, exp_sub_coe]
  unfold tileSum
  rw [← sum_coe]
  exact Finset.sum_congr rfl fun r _ => hterm r

/-- The merged maximum: the larger of what was held and the tile's. -/
theorem merge_max_at (m : Vec Ideal S1x10000 .f32) (k : Fin 10000) (mr : ℝ)
    (hm : m (ix2 (0 : Fin 1) k) = ((mr : ℝ) : EReal)) :
    k0_pay5 x m (ix2 (0 : Fin 1) k) = ((max mr (tileMax (Yc k) t) : ℝ) : EReal) := by
  unfold k0_pay5 k0_pay4
  show max (shapeCast S1x10000 m shapeCasts_S1x10000_S1x10000 (ix2 (0 : Fin 1) k)) (k0_pay1 x (ix2 (0 : Fin 1) k)) = _
  rw [shapeCast_self, hm, tile_max_at x Yc t hx k, max_coe]

/-- The merged sum: each side rescaled by the exponential of its own maximum minus the merged one. -/
theorem merge_sum_at (m l : Vec Ideal S1x10000 .f32) (k : Fin 10000) (mr lr : ℝ)
    (hm : m (ix2 (0 : Fin 1) k) = ((mr : ℝ) : EReal)) (hl : l (ix2 (0 : Fin 1) k) = ((lr : ℝ) : EReal)) :
    k0_pay6 x m l (ix2 (0 : Fin 1) k)
      = ((lr * Real.exp (mr - max mr (tileMax (Yc k) t))
          + tileSum (Yc k) t * Real.exp (tileMax (Yc k) t - max mr (tileMax (Yc k) t)) : ℝ) : EReal) := by
  rw [merge_sum_point, shapeCast_self, held_at, hm, hl, merge_max_at x Yc t hx m k mr hm, tile_sum_at x Yc t hx k,
    tile_max_at x Yc t hx k, scale_coe, scale_coe, ← EReal.coe_add]

end Tile

/-! ## The tiles of the logits -/

/-- The logits window's block index at point t is (t, 0). -/
theorem index0_at : ∀ t : Fin cfg0.N, win0_0.index t 0 = t.val ∧ win0_0.index t 1 = 0 := by decide +kernel

/-- Row r of tile t is row 128 t + r of the logits. -/
theorem tile_row (t : ℕ) (ht : t < cfg0.N) (r : Fin 128) (k : Fin 10000) :
    xblk0 V c ⟨t, ht⟩ (ix2 r k)
      = xin0 V c (ix2 (⟨128 * t + r.val, by have hN : cfg0.N = 64 := N_0; have := r.isLt; omega⟩ : Fin 8192) k) := by
  have h0 : win0_0.index ⟨t, ht⟩ 0 = t := (index0_at ⟨t, ht⟩).1
  have h1 : win0_0.index ⟨t, ht⟩ 1 = 0 := (index0_at ⟨t, ht⟩).2
  unfold xblk0 iblk0
  rw [View.read_apply]
  show V c main_arg0 _ = V c main_arg0 _
  congr 1
  funext a
  apply Fin.ext
  match a with
  | ⟨0, _⟩ =>
    show win0_0.index ⟨t, ht⟩ 0 * 128 + 1 * r.val = 128 * t + r.val
    rw [h0]; omega
  | ⟨1, _⟩ =>
    show win0_0.index ⟨t, ht⟩ 1 * 10000 + 1 * k.val = k.val
    rw [h1]; omega

/-! ## The running statistics after each point -/

/-- Tile t at (r, k) is the real that column k of the logits has at row 128 t + r. -/
theorem tile_real (hx : ∀ y, xin0 V c y = (((xin0 V c y).toReal : ℝ) : EReal)) (t : ℕ) (ht : t < cfg0.N)
    (r : Fin 128) (k : Fin 10000) :
    xblk0 V c ⟨t, ht⟩ (ix2 r k) = ((colSeq (Xr (xin0 V c)) k (128 * t + r.val) : ℝ) : EReal) := by
  have hN : cfg0.N = 64 := N_0
  have hb : 128 * t + r.val < 8192 := by have := r.isLt; omega
  refine (tile_row V c t ht r k).trans ((hx _).trans ?_)
  unfold colSeq
  rw [dif_pos hb]
  rfl

theorem runMax_zero (Y : ℕ → ℝ) : runMax Y 0 = tileMax Y 0 := rfl

theorem runSum_zero (Y : ℕ → ℝ) : runSum Y 0 = tileSum Y 0 := rfl

theorem runMax_succ (Y : ℕ → ℝ) (n : ℕ) : runMax Y (n + 1) = max (runMax Y n) (tileMax Y (n + 1)) := rfl

theorem runSum_succ (Y : ℕ → ℝ) (n : ℕ) :
    runSum Y (n + 1) = runSum Y n * Real.exp (runMax Y n - runMax Y (n + 1))
      + tileSum Y (n + 1) * Real.exp (tileMax Y (n + 1) - runMax Y (n + 1)) := rfl

/-- After point n the two carried rows hold, at column k, that column's running maximum and running sum. -/
theorem col_after (hx : ∀ y, xin0 V c y = (((xin0 V c y).toReal : ℝ) : EReal)) :
    ∀ (n : ℕ) (hn : n < cfg0.N) (k : Fin 10000),
      (outs0 V c n hn).1 (ix2 (0 : Fin 1) k) = ((runMax (colSeq (Xr (xin0 V c)) k) n : ℝ) : EReal)
      ∧ (outs0 V c n hn).2.1 (ix2 (0 : Fin 1) k) = ((runSum (colSeq (Xr (xin0 V c)) k) n : ℝ) : EReal)
  | 0, hn, k => by
    have e := outs0_zero V c hn
    have e1 : (outs0 V c 0 hn).1 = k0_pay1 (xblk0 V c ⟨0, hn⟩) := by rw [e]
    have e2 : (outs0 V c 0 hn).2.1 = k0_pay2 (xblk0 V c ⟨0, hn⟩) := by rw [e]
    constructor
    · rw [e1, runMax_zero]
      exact tile_max_at (xblk0 V c ⟨0, hn⟩) (colSeq (Xr (xin0 V c))) 0 (tile_real V c hx 0 hn) k
    · rw [e2, runSum_zero]
      exact tile_sum_at (xblk0 V c ⟨0, hn⟩) (colSeq (Xr (xin0 V c))) 0 (tile_real V c hx 0 hn) k
  | n + 1, hn, k => by
    obtain ⟨ihm, ihs⟩ := col_after hx n (Nat.lt_of_succ_lt hn) k
    have e := outs0_succ V c n hn
    have e1 : (outs0 V c (n + 1) hn).1
        = k0_pay5 (xblk0 V c ⟨n + 1, hn⟩) (outs0 V c n (Nat.lt_of_succ_lt hn)).1 := by rw [e]
    have e2 : (outs0 V c (n + 1) hn).2.1
        = k0_pay6 (xblk0 V c ⟨n + 1, hn⟩) (outs0 V c n (Nat.lt_of_succ_lt hn)).1
            (outs0 V c n (Nat.lt_of_succ_lt hn)).2.1 := by rw [e]
    constructor
    · rw [e1, runMax_succ]
      exact merge_max_at (xblk0 V c ⟨n + 1, hn⟩) (colSeq (Xr (xin0 V c))) (n + 1) (tile_real V c hx (n + 1) hn)
        _ k _ ihm
    · rw [e2, runSum_succ, runMax_succ]
      exact merge_sum_at (xblk0 V c ⟨n + 1, hn⟩) (colSeq (Xr (xin0 V c))) (n + 1) (tile_real V c hx (n + 1) hn)
        _ _ k _ _ ihm ihs

/-! ## The result arrays are what the last point left

Each output window's block is the whole array at every point and is written back at the last point only, so the
array after the run holds what point 63 left in the window's buffer. -/

/-- The grid's last point. -/
abbrev lastPt : Fin cfg0.N := ⟨63, by decide +kernel⟩

theorem lastPt_of_flush (t : Fin cfg0.N) (h : t.val % 64 = 63) : t = lastPt :=
  Fin.ext (by have := t.isLt; have hN : cfg0.N = 64 := N_0; show t.val = 63; omega)

theorem idx2_zero : (fun a => win0_2.index lastPt a * main_v1_0.ty.shape.size a) = fun _ => 0 :=
  funext fun a => by fin_cases a <;> decide +kernel

/-- The running-maximum window's block at the last point is the whole array. -/
theorem whole_block2 (G : Vec Ideal S1x10000 .f32) :
    (cfg0.win 2).cut (grid0.coords lastPt) G = ((cfg0.win 2).blk lastPt).view.read (Elt Ideal) G :=
  (Memref.read_access_unit_zero (Elt Ideal) main_v1_0 idx2_zero (fun a => by rw [congrFun idx2_zero a]; simp) G).symm

/-- What the one write-back of the running maximum writes. -/
theorem written2 (t : Fin cfg0.N) (hf : (cfg0.win 2).flush t = true) :
    (dat0 V c).flushed 2 t
      = ((cfg0.win 2).blk t).view.read (Elt Ideal) ((outs0 V c lastPt.val lastPt.isLt).1) := by
  obtain rfl := lastPt_of_flush t ((flush0_2 t).mp hf)
  show (cfg0.win 2).cut (grid0.coords lastPt) ((dat0 V c).after 2 lastPt) = _
  rw [after0_2]
  generalize (outs0 V c lastPt.val lastPt.isLt).1 = G
  exact whole_block2 G

/-- Every index of the running-maximum array lies in the last point's block. -/
theorem covered2 (i : S1x10000.Idx) : i ∈ ((cfg0.win 2).blk lastPt).view.set := by
  show i ∈ ((View.whole main_v1_0).slice (win0_2.rect lastPt)).set
  rw [View.set_slice_whole, Rect.mem_set_unit]
  intro a
  have h0 : (i 0 : Nat) < 1 := (i 0).isLt
  have h1 : (i 1 : Nat) < 10000 := (i 1).isLt
  match a with
  | ⟨0, _⟩ =>
    show win0_2.index lastPt 0 * win0_2.size 0 ≤ (i 0 : Nat)
      ∧ (i 0 : Nat) < win0_2.index lastPt 0 * win0_2.size 0 + win0_2.xsize (grid0.coords lastPt) 0
    rw [show win0_2.index lastPt 0 * win0_2.size 0 = 0 from by decide +kernel,
      show win0_2.xsize (grid0.coords lastPt) 0 = 1 from by decide +kernel]
    omega
  | ⟨1, _⟩ =>
    show win0_2.index lastPt 1 * win0_2.size 1 ≤ (i 1 : Nat)
      ∧ (i 1 : Nat) < win0_2.index lastPt 1 * win0_2.size 1 + win0_2.xsize (grid0.coords lastPt) 1
    rw [show win0_2.index lastPt 1 * win0_2.size 1 = 0 from by decide +kernel,
      show win0_2.xsize (grid0.coords lastPt) 1 = 10000 from by decide +kernel]
    omega

/-- The running-maximum array after the run. -/
theorem final2 : (dat0 V c).arrAt 2 cfg0.N = (outs0 V c lastPt.val lastPt.isLt).1 :=
  (dat0 V c).arrAt_eq_of_cover 2 _ (written2 V c) fun i => ⟨lastPt, (flush0_2 lastPt).mpr rfl, covered2 i⟩

theorem idx3_zero : (fun a => win0_3.index lastPt a * main_v1_1.ty.shape.size a) = fun _ => 0 :=
  funext fun a => by fin_cases a <;> decide +kernel

/-- The running-sum window's block at the last point is the whole array. -/
theorem whole_block3 (G : Vec Ideal S1x10000 .f32) :
    (cfg0.win 3).cut (grid0.coords lastPt) G = ((cfg0.win 3).blk lastPt).view.read (Elt Ideal) G :=
  (Memref.read_access_unit_zero (Elt Ideal) main_v1_1 idx3_zero (fun a => by rw [congrFun idx3_zero a]; simp) G).symm

/-- What the one write-back of the running sum writes. -/
theorem written3 (t : Fin cfg0.N) (hf : (cfg0.win 3).flush t = true) :
    (dat0 V c).flushed 3 t
      = ((cfg0.win 3).blk t).view.read (Elt Ideal) ((outs0 V c lastPt.val lastPt.isLt).2.1) := by
  obtain rfl := lastPt_of_flush t ((flush0_3 t).mp hf)
  show (cfg0.win 3).cut (grid0.coords lastPt) ((dat0 V c).after 3 lastPt) = _
  rw [after0_3]
  generalize (outs0 V c lastPt.val lastPt.isLt).2.1 = G
  exact whole_block3 G

/-- Every index of the running-sum array lies in the last point's block. -/
theorem covered3 (i : S1x10000.Idx) : i ∈ ((cfg0.win 3).blk lastPt).view.set := by
  show i ∈ ((View.whole main_v1_1).slice (win0_3.rect lastPt)).set
  rw [View.set_slice_whole, Rect.mem_set_unit]
  intro a
  have h0 : (i 0 : Nat) < 1 := (i 0).isLt
  have h1 : (i 1 : Nat) < 10000 := (i 1).isLt
  match a with
  | ⟨0, _⟩ =>
    show win0_3.index lastPt 0 * win0_3.size 0 ≤ (i 0 : Nat)
      ∧ (i 0 : Nat) < win0_3.index lastPt 0 * win0_3.size 0 + win0_3.xsize (grid0.coords lastPt) 0
    rw [show win0_3.index lastPt 0 * win0_3.size 0 = 0 from by decide +kernel,
      show win0_3.xsize (grid0.coords lastPt) 0 = 1 from by decide +kernel]
    omega
  | ⟨1, _⟩ =>
    show win0_3.index lastPt 1 * win0_3.size 1 ≤ (i 1 : Nat)
      ∧ (i 1 : Nat) < win0_3.index lastPt 1 * win0_3.size 1 + win0_3.xsize (grid0.coords lastPt) 1
    rw [show win0_3.index lastPt 1 * win0_3.size 1 = 0 from by decide +kernel,
      show win0_3.xsize (grid0.coords lastPt) 1 = 10000 from by decide +kernel]
    omega

/-- The running-sum array after the run. -/
theorem final3 : (dat0 V c).arrAt 3 cfg0.N = (outs0 V c lastPt.val lastPt.isLt).2.1 :=
  (dat0 V c).arrAt_eq_of_cover 3 _ (written3 V c) fun i => ⟨lastPt, (flush0_3 lastPt).mpr rfl, covered3 i⟩

theorem idx4_zero : (fun a => win0_4.index lastPt a * main_v1_2.ty.shape.size a) = fun _ => 0 :=
  funext fun a => by fin_cases a <;> decide +kernel

/-- The cross-entropy window's block at the last point is the whole one-element array. -/
theorem whole_block4 (G : Vec Ideal S1x1 .f32) :
    (cfg0.win 4).cut (grid0.coords lastPt) G = ((cfg0.win 4).blk lastPt).view.read (Elt Ideal) G :=
  (Memref.read_access_unit_zero (Elt Ideal) main_v1_2 idx4_zero (fun a => by rw [congrFun idx4_zero a]; simp) G).symm

/-- What the one write-back of the running cross-entropy sum writes. -/
theorem written4 (t : Fin cfg0.N) (hf : (cfg0.win 4).flush t = true) :
    (dat0 V c).flushed 4 t
      = ((cfg0.win 4).blk t).view.read (Elt Ideal) ((outs0 V c lastPt.val lastPt.isLt).2.2) := by
  obtain rfl := lastPt_of_flush t ((flush0_4 t).mp hf)
  show (cfg0.win 4).cut (grid0.coords lastPt) ((dat0 V c).after 4 lastPt) = _
  rw [after0_4]
  generalize (outs0 V c lastPt.val lastPt.isLt).2.2 = G
  exact whole_block4 G

/-- The one index of the cross-entropy array lies in the last point's block. -/
theorem covered4 (i : S1x1.Idx) : i ∈ ((cfg0.win 4).blk lastPt).view.set := by
  show i ∈ ((View.whole main_v1_2).slice (win0_4.rect lastPt)).set
  rw [View.set_slice_whole, Rect.mem_set_unit]
  intro a
  have h0 : (i 0 : Nat) < 1 := (i 0).isLt
  have h1 : (i 1 : Nat) < 1 := (i 1).isLt
  match a with
  | ⟨0, _⟩ =>
    show win0_4.index lastPt 0 * win0_4.size 0 ≤ (i 0 : Nat)
      ∧ (i 0 : Nat) < win0_4.index lastPt 0 * win0_4.size 0 + win0_4.xsize (grid0.coords lastPt) 0
    rw [show win0_4.index lastPt 0 * win0_4.size 0 = 0 from by decide +kernel,
      show win0_4.xsize (grid0.coords lastPt) 0 = 1 from by decide +kernel]
    omega
  | ⟨1, _⟩ =>
    show win0_4.index lastPt 1 * win0_4.size 1 ≤ (i 1 : Nat)
      ∧ (i 1 : Nat) < win0_4.index lastPt 1 * win0_4.size 1 + win0_4.xsize (grid0.coords lastPt) 1
    rw [show win0_4.index lastPt 1 * win0_4.size 1 = 0 from by decide +kernel,
      show win0_4.xsize (grid0.coords lastPt) 1 = 1 from by decide +kernel]
    omega

/-- The cross-entropy array after the run. -/
theorem final4 : (dat0 V c).arrAt 4 cfg0.N = (outs0 V c lastPt.val lastPt.isLt).2.2 :=
  (dat0 V c).arrAt_eq_of_cover 4 _ (written4 V c) fun i => ⟨lastPt, (flush0_4 lastPt).mpr rfl, covered4 i⟩

end Col

/-- Region 0's arrays after its last point. -/
theorem r0_final (hx : ∀ y, xin0 V c y = (((xin0 V c y).toReal : ℝ) : EReal)) (hl : ∀ y, (lin0 V c y).toNat < 10000) :
    (∀ k : Fin 10000, (dat0 V c).arrAt 2 cfg0.N (ix2 (0 : Fin 1) k) = ((colMax (Xr (xin0 V c)) k : ℝ) : EReal))
    ∧ (∀ k : Fin 10000, (dat0 V c).arrAt 3 cfg0.N (ix2 (0 : Fin 1) k) = ((colSum (Xr (xin0 V c)) k : ℝ) : EReal))
    ∧ (dat0 V c).arrAt 4 cfg0.N (ix2 (0 : Fin 1) (0 : Fin 1)) = ((ceSum (Xr (xin0 V c)) (lab0 V c) : ℝ) : EReal) := by
  refine ⟨fun k => ?_, fun k => ?_, ?_⟩
  · rw [Col.final2]
    refine ((Col.col_after V c hx 63 Col.lastPt.isLt k).1).trans ?_
    rw [Col.runMax_last]
  · rw [Col.final3]
    refine ((Col.col_after V c hx 63 Col.lastPt.isLt k).2).trans ?_
    rw [Col.runSum_last]
  · rw [Col.final4]
    refine (ce_after V c hx hl 63 Col.lastPt.isLt).trans ?_
    show ((ceUpTo (Xr (xin0 V c)) (lab0 V c) 8192 : ℝ) : EReal) = _
    rw [ceUpTo_all]

end Cert.KernelIdeal.HandValue

end
-- ==== Proof.Ideal.R1Value.lean ====
/-
  Region 1's result at Ideal. On finite logits, a finite distance matrix, a finite row of column offsets and a table of
  labels in range, after the last grid point the carried scalar is the sum over all samples b and classes k of
  D (label b) k * (X b k - offset k): each point adds its tile's 128 rows, and the gathered tile's row j at point t is
  row label(128 t + j) of D.
-/
import proofs.«406825_j71691594105550_1_alg».proof.Proof.Ideal.Base
import proofs.«406825_j71691594105550_1_alg».proof.Proof.Ideal.Spec
import Idealize.ShloMosaic.PureOps.Ideal.Laws
import Idealize.ShloMosaic.Lib.Pipeline.Value
import Idealize.ShloMosaic.Lib.ValueLayout

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat Cfg Window)
open scoped BigOperators

namespace R1

/-! ## One tile's step -/

/-- A lane sum along the classes of a 128 x 10000 tile, read at row r, is the sum over the classes. -/
theorem laneSum_classes (v : FVec Ideal S128x10000 .f32) (r : Fin 128) :
    multiReduction .add [1] S128 v 0x00000000#32 reduces_S128x10000_S128 (.inl rfl) rfl (ValueIdx.ix1 r)
      = ∑ k : Fin 10000, v (ix2 r k) := by
  refine (Ideal.multiReduction_add_single v 0x00000000#32 reduces_S128x10000_S128 (.inl rfl) rfl (ValueIdx.ix1 r)).trans ?_
  refine Finset.sum_congr rfl fun k _ => congrArg v ?_
  funext ax
  match ax with
  | ⟨0, _⟩ => rfl
  | ⟨1, _⟩ => rfl

/-- A lane sum along the rows of a 128 x 1 column, read at its one index, is the sum over the rows. -/
theorem laneSum_rows (v : FVec Ideal S128x1 .f32) :
    multiReduction .add [0] S1 v 0x00000000#32 reduces_S128x1_S1 (.inl rfl) rfl (ValueIdx.ix1 (0 : Fin 1))
      = ∑ r : Fin 128, v (ix2 r (0 : Fin 1)) := by
  refine (Ideal.multiReduction_add_single v 0x00000000#32 reduces_S128x1_S1 (.inl rfl) rfl (ValueIdx.ix1 (0 : Fin 1))).trans ?_
  refine Finset.sum_congr rfl fun r _ => congrArg v ?_
  funext ax
  match ax with
  | ⟨0, _⟩ => rfl
  | ⟨1, _⟩ => rfl

/-- A vector of 128 entries recast as a 128 x 1 column reads, at (r, 0), entry r: both sit at row-major position r. -/
theorem column_apply {α : Type} (v : S128.Idx → α) (h : S128.ShapeCasts S128x1) (r : Fin 128) :
    shapeCast S128x1 v h (ix2 r (0 : Fin 1)) = v (ValueIdx.ix1 r) :=
  shapeCast_apply v h _ _ (by
    rw [Shape.rowMajor_val_two, Shape.rowMajor_val_one]
    show r.val = r.val * 1 + 0
    omega)

/-- One tile's step over the extended reals: the carried scalar plus the sum, over the tile's rows and the classes, of
    (gathered distance) * (logit - column offset). -/
theorem tileStep_apply (x dist : Vec Ideal S128x10000 .f32) (cl : Vec Ideal S1x10000 .f32) (prev : Vec Ideal S1x1 .f32) :
    k1_pay1 x dist cl prev (ix2 (0 : Fin 1) (0 : Fin 1))
      = prev (ix2 (0 : Fin 1) (0 : Fin 1))
        + ∑ r : Fin 128, ∑ k : Fin 10000, dist (ix2 r k) * (x (ix2 r k) - cl (ix2 (0 : Fin 1) k)) := by
  unfold k1_pay1
  refine congrArg₂ (· + ·) (congrFun (shapeCast_self prev _) _) ?_
  refine (shapeCast_a_1a_apply _ _ (0 : Fin 1) (0 : Fin 1)).trans ?_
  refine (laneSum_rows _).trans ?_
  refine Finset.sum_congr rfl fun r _ => ?_
  refine (column_apply _ _ r).trans ?_
  refine (laneSum_classes _ r).trans ?_
  refine Finset.sum_congr rfl fun k _ => ?_
  refine congrArg (fun z => dist (ix2 r k) * (x (ix2 r k) - z)) ?_
  refine (broadcastTo_1b_ab_apply _ _ r k).trans ?_
  exact congrFun (shapeCast_self cl _) _

/-- A finite sum of reals, seen in the extended reals, is the sum of the terms seen there. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- On finite data the tile's step is the real sum: the coercion leaves every product, difference and sum. -/
theorem tileStep_real (xr dr : Fin 128 → Fin 10000 → ℝ) (cr : Fin 10000 → ℝ) (p : ℝ) :
    (p : EReal) + ∑ r : Fin 128, ∑ k : Fin 10000, (dr r k : EReal) * ((xr r k : EReal) - (cr k : EReal))
      = ((p + ∑ r : Fin 128, ∑ k : Fin 10000, dr r k * (xr r k - cr k) : ℝ) : EReal) := by
  rw [EReal.coe_add, coe_sum]
  refine congrArg (fun z => (p : EReal) + z) (Finset.sum_congr rfl fun r _ => ?_)
  rw [coe_sum]
  refine Finset.sum_congr rfl fun k _ => ?_
  rw [EReal.coe_mul, EReal.coe_sub]

/-! ## The regulariser sum, tile by tile -/

/-- Below row 0 there is nothing to sum. -/
theorem regUpTo_zero (X : Fin 8192 → Fin 10000 → ℝ) (D : Fin 10000 → Fin 10000 → ℝ) (l : Fin 8192 → Fin 10000)
    (cl : Fin 10000 → ℝ) : regUpTo X D l cl 0 = 0 := by
  unfold regUpTo
  exact Finset.sum_eq_zero fun b hb => absurd (Finset.mem_filter.mp hb).2 (Nat.not_lt_zero _)

/-- The regulariser sum over the rows below 128 (m + 1) is the sum over the rows below 128 m plus tile m's 128 rows. -/
theorem regUpTo_tile (X : Fin 8192 → Fin 10000 → ℝ) (D : Fin 10000 → Fin 10000 → ℝ) (l : Fin 8192 → Fin 10000)
    (cl : Fin 10000 → ℝ) (m : ℕ) (hm : 128 * (m + 1) ≤ 8192) (row : Fin 128 → Fin 8192)
    (hrow : ∀ r : Fin 128, (row r).val = 128 * m + r.val) :
    regUpTo X D l cl (128 * (m + 1))
      = regUpTo X D l cl (128 * m) + ∑ r : Fin 128, ∑ k : Fin 10000, D (l (row r)) k * (X (row r) k - cl k) := by
  unfold regUpTo
  rw [← Finset.sum_filter_add_sum_filter_not (Finset.univ.filter fun b : Fin 8192 => b.val < 128 * (m + 1))
    (fun b : Fin 8192 => b.val < 128 * m), Finset.filter_filter, Finset.filter_filter]
  refine congrArg₂ (· + ·) ?_ ?_
  · refine Finset.sum_congr (Finset.filter_congr fun b _ => ⟨fun h => h.2, fun h => ⟨by omega, h⟩⟩) fun _ _ => rfl
  · symm
    refine Finset.sum_bij (fun r _ => row r) ?_ ?_ ?_ ?_
    · intro r _
      have := hrow r; have := r.isLt
      exact Finset.mem_filter.mpr ⟨Finset.mem_univ _, by omega, by omega⟩
    · intro r₁ _ r₂ _ h
      have h1 := hrow r₁; have h2 := hrow r₂
      exact Fin.ext (by rw [h] at h1; omega)
    · intro b hb
      have hb' := (Finset.mem_filter.mp hb).2
      refine ⟨⟨b.val - 128 * m, by omega⟩, Finset.mem_univ _, Fin.ext ?_⟩
      rw [hrow]; show 128 * m + (b.val - 128 * m) = b.val; omega
    · intro r _; rfl

end R1

variable (V : EntryV Ideal) (c : Dev nD)

variable (a : (pcfg1 (F := Ideal)).Adm)

/-- The logits, the distance matrix and the column offsets as region 1 finds them. -/
abbrev xin1 : Vec Ideal S8192x10000 .f32 := V c main_arg0
abbrev din1 : Vec Ideal S10000x10000 .f32 := V c main_arg1
abbrev cin1 : Vec Ideal S1x10000 .f32 := V c main_v3
/-- The column offsets as reals. -/
def cl1 (k : Fin 10000) : ℝ := (cin1 V c (ix2 (0 : Fin 1) k)).toReal

namespace R1

/-! ## Region 1's blocks read at coordinates -/

/-- The logits' tile at point t starts at block row t and block column 0. -/
theorem tileIndex : ∀ t : Fin grid1.N,
    cc1_transform_0 (grid1.coords t) 0 = t.val ∧ cc1_transform_0 (grid1.coords t) 1 = 0 := by
  decide +kernel

/-- Row r, class k of the logits' tile at point t is row 128 t + r, class k of the logits. -/
theorem xblk1_apply (t : Fin (cfg1 a).N) (r : Fin 128) (k : Fin 10000) (b : Fin 8192) (hb : b.val = 128 * t.val + r.val) :
    xblk1 V a c t (ix2 r k) = xin1 V c (ix2 b k) := by
  have e : (((cfg1 a).win 0).rect t).emb (ix2 r k) = ix2 b k := by
    funext ax
    refine Fin.ext ?_
    refine (Pipeline.Window.rect_emb_val ((cfg1 a).win 0) t (ix2 r k) ax).trans ?_
    match ax with
    | ⟨0, _⟩ =>
      show cc1_transform_0 (grid1.coords t) 0 * 128 + r.val = b.val
      rw [(tileIndex t).1, hb]; omega
    | ⟨1, _⟩ =>
      show cc1_transform_0 (grid1.coords t) 1 * 10000 + k.val = k.val
      rw [(tileIndex t).2]; omega
  exact congrArg (xin1 V c) e

/-- The row of column offsets is the same block at every point: the whole row. -/
theorem cblk1_apply (t : Fin (cfg1 a).N) (k : Fin 10000) :
    cblk1 V a c t (ix2 (0 : Fin 1) k) = cin1 V c (ix2 (0 : Fin 1) k) := by
  have e : (((cfg1 a).win 1).rect t).emb (ix2 (0 : Fin 1) k) = ix2 (0 : Fin 1) k := by
    funext ax
    refine Fin.ext ?_
    exact Pipeline.Window.rect_emb_val_of_index_zero ((cfg1 a).win 1) t ax
      (by match ax with
          | ⟨0, _⟩ => rfl
          | ⟨1, _⟩ => rfl) (ix2 (0 : Fin 1) k)
  exact congrArg (cin1 V c) e

/-- Row r, class k of the gathered tile at point t is row label(128 t + r), class k of the distance matrix. -/
theorem dist1_apply (t : ℕ) (r : Fin 128) (k : Fin 10000) (b : Fin 8192) (hb : b.val = 128 * t + r.val) :
    dist1 (tbl a) (din1 V c) t (ix2 r k) = din1 V c (ix2 (lab (tbl a) b) k) := by
  have hrow : rowOf (tbl a) t r.val = lab (tbl a) b := by
    have hm : (128 * t + r.val) % 8192 = b.val := by rw [← hb]; exact Nat.mod_eq_of_lt b.isLt
    unfold rowOf lab
    refine Fin.ext ?_
    show ((tbl a) (ValueIdx.ix1 (⟨(128 * t + r.val) % 8192, _⟩ : Fin 8192))).toNat % 10000 = ((tbl a) (ValueIdx.ix1 b)).toNat % 10000
    have hbb : (⟨(128 * t + r.val) % 8192, Nat.mod_lt _ (by norm_num)⟩ : Fin 8192) = b := Fin.ext hm
    rw [hbb]
  have hcol : (⟨k.val % 10000, Nat.mod_lt _ (by norm_num)⟩ : Fin 10000) = k := Fin.ext (Nat.mod_eq_of_lt k.isLt)
  show din1 V c (ix2 (rowOf (tbl a) t r.val) (⟨k.val % 10000, _⟩ : Fin 10000)) = _
  rw [hrow, hcol]

/-! ## The array after the run is what the last point left -/

/-- A 1 x 1 array has one index. -/
theorem idx11_eq (i j : S1x1.Idx) : i = j := by
  funext ax
  match ax with
  | ⟨0, _⟩ => exact Subsingleton.elim (α := Fin 1) _ _
  | ⟨1, _⟩ => exact Subsingleton.elim (α := Fin 1) _ _

/-- The grid's last point. -/
theorem last1 : 63 < (cfg1 a).N := by
  have hN : (cfg1 a).N = 64 := N_1
  omega

/-- The carried scalar's block never moves, so it is written back at the last point only. -/
theorem flush1_2 (t : Fin (cfg1 a).N) : ((cfg1 a).win 2).flush t = true ↔ t.val = 63 := by
  have hstay : ¬∃ h : t.val + 1 < (cfg1 a).grid.N, ((cfg1 a).win 2).index ⟨t.val + 1, h⟩ ≠ ((cfg1 a).win 2).index t :=
    fun ⟨_, hne⟩ => hne rfl
  have hN : (cfg1 a).grid.N = 64 := N_1
  unfold Pipeline.Window.flush
  rw [decide_eq_false hstay, Bool.or_false]
  show (true && decide (t.val + 1 = (cfg1 a).grid.N)) = true ↔ t.val = 63
  rw [Bool.true_and, decide_eq_true_iff]
  omega

/-- The one write-back, at the last point, writes the whole 1 x 1 array: it ends holding what that point left. -/
theorem arr1_final : (dat1 V a c).arrAt 2 (cfg1 a).N = outs1 V a c 63 (last1 a) := by
  refine (dat1 V a c).arrAt_eq_of_cover 2 (outs1 V a c 63 (last1 a)) (fun t hf => ?_) (fun i => ?_)
  · obtain rfl : t = ⟨63, last1 a⟩ := Fin.ext ((flush1_2 a t).mp hf)
    funext j
    refine (congrFun (after1_2 V a c ⟨63, last1 a⟩) _).trans ?_
    exact congrArg (outs1 V a c 63 (last1 a)) (idx11_eq _ _)
  · refine ⟨⟨63, last1 a⟩, (flush1_2 a ⟨63, last1 a⟩).mpr rfl, ?_⟩
    have hi : i = (((cfg1 a).win 2).blk ⟨63, last1 a⟩).view.emb (ix2 (0 : Fin 1) (0 : Fin 1)) := idx11_eq _ _
    rw [hi]
    exact (((cfg1 a).win 2).blk ⟨63, last1 a⟩).view.emb_mem_set _

/-! ## The carried scalar, point by point -/

/-- Row r of tile t as a row of the batch. -/
def tileRow (t : ℕ) (ht : t < 64) (r : Fin 128) : Fin 8192 := ⟨128 * t + r.val, by have := r.isLt; omega⟩

/-- One point's step on finite data, in the arrays' own terms: what the point before left, plus the 128 rows of the
    tile, each against the row of the distance matrix its label names. -/
theorem tile_at (hx : ∀ y, xin1 V c y = (((xin1 V c y).toReal : ℝ) : EReal)) (hd : ∀ y, din1 V c y = (((din1 V c y).toReal : ℝ) : EReal))
    (hc : ∀ y, cin1 V c y = (((cin1 V c y).toReal : ℝ) : EReal)) (t : ℕ) (ht : t < (cfg1 a).N)
    (prev : Vec Ideal S1x1 .f32) (p : ℝ) (hp : prev (ix2 (0 : Fin 1) (0 : Fin 1)) = (p : EReal))
    (row : Fin 128 → Fin 8192) (hrow : ∀ r : Fin 128, (row r).val = 128 * t + r.val) :
    k1_pay1 (xblk1 V a c ⟨t, ht⟩) (dist1 (tbl a) (din1 V c) t) (cblk1 V a c ⟨t, ht⟩) prev (ix2 (0 : Fin 1) (0 : Fin 1))
      = ((p + ∑ r : Fin 128, ∑ k : Fin 10000,
            Dr (din1 V c) (lab (tbl a) (row r)) k * (Xr (xin1 V c) (row r) k - cl1 V c k) : ℝ) : EReal) := by
  refine (tileStep_apply _ _ _ _).trans ?_
  refine Eq.trans ?_ (tileStep_real (fun r k => Xr (xin1 V c) (row r) k) (fun r k => Dr (din1 V c) (lab (tbl a) (row r)) k) (cl1 V c) p)
  refine congrArg₂ (· + ·) hp (Finset.sum_congr rfl fun r _ => Finset.sum_congr rfl fun k _ => ?_)
  exact congrArg₂ (· * ·) ((dist1_apply V c a t r k (row r) (hrow r)).trans (hd _))
    (congrArg₂ (· - ·) ((xblk1_apply V c a ⟨t, ht⟩ r k (row r) (hrow r)).trans (hx _)) ((cblk1_apply V c a ⟨t, ht⟩ k).trans (hc _)))

/-- What the carried scalar holds after point n: the regulariser sum over the rows below 128 (n + 1). -/
theorem outs1_eq (hx : ∀ y, xin1 V c y = (((xin1 V c y).toReal : ℝ) : EReal)) (hd : ∀ y, din1 V c y = (((din1 V c y).toReal : ℝ) : EReal))
    (hc : ∀ y, cin1 V c y = (((cin1 V c y).toReal : ℝ) : EReal)) (n : ℕ) (hn : n < (cfg1 a).N) :
    outs1 V a c n hn (ix2 (0 : Fin 1) (0 : Fin 1))
      = ((regUpTo (Xr (xin1 V c)) (Dr (din1 V c)) (lab (tbl a)) (cl1 V c) (128 * (n + 1)) : ℝ) : EReal) := by
  have hN : (cfg1 a).N = 64 := N_1
  induction n with
  | zero =>
    refine (congrFun (outs1_zero V a c hn) _).trans ?_
    refine (tile_at V c a hx hd hc 0 hn (k1_pay2 (F := Ideal)) 0 ?_ (tileRow 0 (by norm_num)) (fun r => rfl)).trans ?_
    · show Ideal.ofBits .f32 0x00000000#32 = ((0 : ℝ) : EReal)
      rw [Ideal.ofBits_zero_f32, EReal.coe_zero]
    · refine congrArg (fun z : ℝ => (z : EReal)) ?_
      have h0 := regUpTo_zero (Xr (xin1 V c)) (Dr (din1 V c)) (lab (tbl a)) (cl1 V c)
      refine Eq.trans ?_ (regUpTo_tile (Xr (xin1 V c)) (Dr (din1 V c)) (lab (tbl a)) (cl1 V c) 0 (by norm_num) (tileRow 0 (by norm_num)) (fun r => rfl)).symm
      exact congrArg (fun z : ℝ => z + _) h0.symm
  | succ n ih =>
    refine (congrFun (outs1_succ V a c n hn) _).trans ?_
    refine (tile_at V c a hx hd hc (n + 1) hn _ _ (ih (Nat.lt_of_succ_lt hn)) (tileRow (n + 1) (by omega)) (fun r => rfl)).trans ?_
    refine congrArg (fun z : ℝ => (z : EReal)) ?_
    exact (regUpTo_tile (Xr (xin1 V c)) (Dr (din1 V c)) (lab (tbl a)) (cl1 V c) (n + 1) (by omega) (tileRow (n + 1) (by omega)) (fun r => rfl)).symm

end R1

/-- Region 1's array after its last point. -/
theorem r1_final (hx : ∀ y, xin1 V c y = (((xin1 V c y).toReal : ℝ) : EReal)) (hd : ∀ y, din1 V c y = (((din1 V c y).toReal : ℝ) : EReal))
    (hc : ∀ y, cin1 V c y = (((cin1 V c y).toReal : ℝ) : EReal)) (hl : ∀ i : S8192.Idx, (tbl a i).toNat < 10000) :
    (dat1 V a c).arrAt 2 (cfg1 a).N (ix2 (0 : Fin 1) (0 : Fin 1))
      = ((regSum (Xr (xin1 V c)) (Dr (din1 V c)) (lab (tbl a)) (cl1 V c) : ℝ) : EReal) := by
  refine (congrFun (R1.arr1_final V c a) _).trans ?_
  refine (R1.outs1_eq V c a hx hd hc 63 (R1.last1 a)).trans ?_
  exact congrArg (fun z : ℝ => (z : EReal)) (regUpTo_all _ _ _ _)

end Cert.KernelIdeal.HandValue

end
-- ==== Proof.Ideal.HostValue.lean ====
/-
  The host arithmetic between and after the two accumulating passes, over the extended reals on real data.

  * Between the passes: from the row of column sums s (each positive) and the row of column maxima mx, the row
    log s + mx, the column log-sum-exp (`lse_row`); every entry of it is a real number (`lse_row_real`).
  * After the passes: from the cross-entropy sum ce and the regulariser sum rg, each a one-entry matrix, the result
    ce / 8192 + (-(1/2) * rg) / 81920000 (`tail_value`). The three constants are given by their bit patterns:
    `ofBits_8192`, `ofBits_neg_half`, `ofBits_81920000`.
  * A column sum of exponentials over the batch is positive (`colSum_pos`): the batch is not empty.
-/
import proofs.«406825_j71691594105550_1_alg».proof.KernelIdeal
import proofs.«406825_j71691594105550_1_alg».proof.Proof.Gen.KernelIdeal
import proofs.«406825_j71691594105550_1_alg».proof.Proof.Ideal.Spec
import Idealize.ShloMosaic.PureOps.Ideal
import Idealize.ShloMosaic.Lib.ValueIdx
import Idealize.ShloMosaic.Lib.Pipeline.Value
import Mathlib.Analysis.SpecialFunctions.Log.Basic
import Mathlib.Analysis.SpecialFunctions.Exp

noncomputable section

namespace Cert.KernelIdeal.HostValue

open Idealize.ShloMosaic Idealize.ShloMosaic.ValueIdx

/-! ## The three constants -/

/-- Sign 0, exponent 140, fraction 0: 2 ^ 13 = 8192, the batch size. -/
theorem ofBits_8192 : Ideal.ofBits .f32 0x46000000#32 = ((8192 : ℝ) : EReal) := by
  simp [Ideal.ofBits, Ideal.ieee, -EReal.coe_mul]; norm_num

/-- Sign 1, exponent 126, fraction 0: -(2 ^ (-1)) = -1/2. -/
theorem ofBits_neg_half : Ideal.ofBits .f32 0xBF000000#32 = ((-(1 / 2) : ℝ) : EReal) := by
  simp [Ideal.ofBits, Ideal.ieee, -EReal.coe_mul]; norm_num

/-- Sign 0, exponent 153, fraction 1851392: (2 ^ 23 + 1851392) * 2 ^ 3 = 81920000 = 8192 * 10000. -/
theorem ofBits_81920000 : Ideal.ofBits .f32 0x4C9C4000#32 = ((81920000 : ℝ) : EReal) := by
  simp [Ideal.ofBits, Ideal.ieee, -EReal.coe_mul]; norm_num

/-! ## Between the passes: the column log-sum-exp -/

/-- At column k the row log f + g is log (s k) + mx k: the logarithm of a positive real is the real logarithm,
    and a sum of two reals is their real sum. -/
theorem lse_row (f g : Vec Ideal S1x10000 .f32) (s mx : Fin 10000 → ℝ) (hs : ∀ k, 0 < s k)
    (hf : ∀ k : Fin 10000, f (ix2 (0 : Fin 1) k) = ((s k : ℝ) : EReal))
    (hg : ∀ k : Fin 10000, g (ix2 (0 : Fin 1) k) = ((mx k : ℝ) : EReal)) :
    ∀ k : Fin 10000, (addf (F := Ideal) (φ := .f32) (Host.log (F := Ideal) (φ := .f32) f) g) (ix2 (0 : Fin 1) k)
      = ((Real.log (s k) + mx k : ℝ) : EReal) := by
  intro k
  show FloatOps.addf (F := Ideal) (φ := .f32) (FloatOps.hostUnary (F := Ideal) (φ := .f32) .log (f (ix2 0 k))) (g (ix2 0 k)) = _
  rw [hf, hg, Ideal.hostUnary_log_def, Ideal.addf_def, Ideal.log_coe, if_neg (not_le.2 (hs k)), EReal.coe_add]

/-- Every entry of that row is a real number: the row has one row index, so every index is (0, k). -/
theorem lse_row_real (f g : Vec Ideal S1x10000 .f32) (s mx : Fin 10000 → ℝ) (hs : ∀ k, 0 < s k)
    (hf : ∀ k : Fin 10000, f (ix2 (0 : Fin 1) k) = ((s k : ℝ) : EReal))
    (hg : ∀ k : Fin 10000, g (ix2 (0 : Fin 1) k) = ((mx k : ℝ) : EReal)) :
    ∀ y, (addf (F := Ideal) (φ := .f32) (Host.log (F := Ideal) (φ := .f32) f) g) y
      = ((((addf (F := Ideal) (φ := .f32) (Host.log (F := Ideal) (φ := .f32) f) g) y).toReal : ℝ) : EReal) := by
  intro y
  obtain ⟨a, b, rfl⟩ : ∃ (a : Fin 1) (b : Fin 10000), y = ix2 a b := ⟨y 0, y 1, eq_ix2 y⟩
  obtain rfl : a = 0 := Subsingleton.elim _ _
  rw [lse_row f g s mx hs hf hg b, EReal.toReal_coe]

/-- A sum of exponentials over the 8192 samples is positive. -/
theorem colSum_pos (X : Fin 8192 → Fin 10000 → ℝ) (k : Fin 10000) : 0 < Cert.Spec.colSum X k := by
  unfold Cert.Spec.colSum
  exact Finset.sum_pos (fun b _ => Real.exp_pos _) Finset.univ_nonempty

/-! ## After the passes: the result -/

/-- With ce and rg the two accumulated sums, the result is ce / 8192 + (-(1/2) * rg) / 81920000: a one-entry matrix
    read as a scalar is its entry, a quotient by a nonzero real constant is the product with its reciprocal, and
    products and sums of reals are real. -/
theorem tail_value (f4 g4 : Vec Ideal S1x1 .f32) (ce rg : ℝ) (h1 h2 : S1x1.ShapeCasts S_)
    (hf : f4 (ix2 (0 : Fin 1) (0 : Fin 1)) = ((ce : ℝ) : EReal)) (hg : g4 (ix2 (0 : Fin 1) (0 : Fin 1)) = ((rg : ℝ) : EReal)) :
    addf (F := Ideal) (φ := .f32) (Host.divf (shapeCast S_ f4 h1) (constant S_ .f32 0x46000000#32))
      (Host.divf (mulf (constant S_ .f32 0xBF000000#32) (shapeCast S_ g4 h2)) (constant S_ .f32 0x4C9C4000#32))
      = fun _ => ((ce / 8192 + (-(1 / 2) * rg) / 81920000 : ℝ) : EReal) := by
  funext j
  -- both shapes have one element, at row-major position 0
  have pos : (S1x1.rowMajor (ix2 (0 : Fin 1) (0 : Fin 1))).val = (S_.rowMajor j).val := by
    have a := (S1x1.rowMajor (ix2 (0 : Fin 1) (0 : Fin 1))).isLt
    have b := (S_.rowMajor j).isLt
    change _ < 1 at a b
    omega
  have e1 : shapeCast S_ f4 h1 j = f4 (ix2 0 0) := shapeCast_apply f4 h1 j (ix2 0 0) pos
  have e2 : shapeCast S_ g4 h2 j = g4 (ix2 0 0) := shapeCast_apply g4 h2 j (ix2 0 0) pos
  show FloatOps.addf (F := Ideal) (φ := .f32)
      (FloatOps.hostDivf (F := Ideal) (φ := .f32) (shapeCast S_ f4 h1 j) (FloatOps.ofBits (F := Ideal) .f32 0x46000000#32))
      (FloatOps.hostDivf (F := Ideal) (φ := .f32)
        (FloatOps.mulf (F := Ideal) (φ := .f32) (FloatOps.ofBits (F := Ideal) .f32 0xBF000000#32) (shapeCast S_ g4 h2 j))
        (FloatOps.ofBits (F := Ideal) .f32 0x4C9C4000#32)) = _
  rw [e1, e2, hf, hg]
  simp only [Ideal.ofBits_def, Ideal.hostDivf_def, Ideal.mulf_def, Ideal.addf_def]
  rw [ofBits_8192, ofBits_neg_half, ofBits_81920000, Ideal.div_coe (y := 8192) (by norm_num),
    Ideal.div_coe (y := 81920000) (by norm_num), ← EReal.coe_mul, ← EReal.coe_mul, ← EReal.coe_mul, ← EReal.coe_add]
  congr 1
  ring

end Cert.KernelIdeal.HostValue

end
-- ==== Proof.Ideal.HostRead.lean ====
/-
  What the host arithmetic leaves in the buffers it writes, and what reaches it unchanged.

  The program alternates host arithmetic with the two accumulating passes; between two items each core's buffers are
  described by contents `V1` … `V5`, each obtained from the one before by a host stretch or by replacing what a pass
  may change with unknown contents `outs`. Read off those contents:
  * the labels as a column (`V1_main_v0`, entrywise `V1_main_v0_apply`): the reshape of the label vector;
  * the column log-sum-exp row (`V3_main_v3`): log of the first pass's column sums plus its column maxima;
  * the result (`V5_main_v10`): cross-entropy sum / 8192 + (-1/2 * regulariser sum) / 81920000, on what the passes left;
  * what the passes left is the unknown contents (`V2_main_v1_0` … `V4_main_v4`), and the three argument arrays are
    untouched up to the second pass (`V1_main_arg0`, `V3_main_arg0` … `V3_main_arg2`).
-/
import proofs.«406825_j71691594105550_1_alg».proof.Proof.Gen.KernelIdeal.Regions
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (outs : Outs (F := F))

/-! ## What the host stretches compute -/

/-- Before the first pass the label column is the label vector reshaped [8192] → [8192, 1]. -/
theorem V1_main_v0 (c : Dev nD) :
    (V1 m c main_v0 : Vec F S8192x1 .i32)
      = shapeCast S8192x1 (m ((c.tc : Thread nD τ).loc main_arg2) : Vec F S8192 .i32) Facts₀.shapeCasts_S8192_S8192x1 := by
  show StableHlo.after hostOps0 _ (Proc.devRef .tc main_v0) = _
  after_results
  rfl

/-- Entry (b, 0) of the label column is label b: both sit at row-major position b. -/
theorem V1_main_v0_apply (c : Dev nD) (b : Fin 8192) :
    (V1 m c main_v0 : Vec F S8192x1 .i32) (ValueIdx.ix2 b (0 : Fin 1))
      = (m ((c.tc : Thread nD τ).loc main_arg2) : Vec F S8192 .i32) (ValueIdx.ix1 b) := by
  rw [V1_main_v0]
  refine shapeCast_apply _ _ _ _ ?_
  show (S8192.rowMajor (ValueIdx.ix1 b)).val = (S8192x1.rowMajor (ValueIdx.ix2 b (0 : Fin 1))).val
  rw [Shape.rowMajor_val_one, Shape.rowMajor_val_two]
  show b.val = b.val * 1 + 0
  omega

/-- Between the passes: the row log (column sums) + (column maxima), on what the first pass left. -/
theorem V3_main_v3 (c : Dev nD) :
    (V3 m outs c main_v3 : Vec F S1x10000 .f32)
      = addf (F := F) (φ := .f32) (Host.log (F := F) (φ := .f32) (V2 m outs c main_v1_1 : Vec F S1x10000 .f32))
          (V2 m outs c main_v1_0 : Vec F S1x10000 .f32) := by
  show StableHlo.after hostOps1 _ (Proc.devRef .tc main_v3) = _
  after_results

/-- After the passes: (cross-entropy sum as a scalar) / 8192 + (-1/2 * (regulariser sum as a scalar)) / 81920000, the
    three constants by their bit patterns, on what the two passes left. -/
theorem V5_main_v10 (c : Dev nD) :
    (V5 m outs c main_v10 : Vec F S_ .f32)
      = addf (F := F) (φ := .f32)
          (Host.divf (shapeCast S_ (V4 m outs c main_v1_2 : Vec F S1x1 .f32) Facts₀.shapeCasts_S1x1_S_) (constant S_ .f32 0x46000000#32))
          (Host.divf (mulf (constant S_ .f32 0xBF000000#32) (shapeCast S_ (V4 m outs c main_v4 : Vec F S1x1 .f32) Facts₀.shapeCasts_S1x1_S_))
            (constant S_ .f32 0x4C9C4000#32)) := by
  show StableHlo.after hostOps2 _ (Proc.devRef .tc main_v10) = _
  after_results
  rfl

/-! ## What the passes left, and what nothing touched -/

/-- The column maxima after the first pass are the unknown contents it left there. -/
theorem V2_main_v1_0 (c : Dev nD) : V2 m outs c main_v1_0 = outs 2 main_v1_0 c := by
  simp only [V2,
    Function.update_of_ne (StableHlo.devRef_ne_of_ne (by decide : main_v1_0 ≠ main_v1_2) : (Proc.devRef .tc main_v1_0 : DevRef τ sig) ≠ Proc.devRef .tc main_v1_2),
    Function.update_of_ne (StableHlo.devRef_ne_of_ne (by decide : main_v1_0 ≠ main_v1_1) : (Proc.devRef .tc main_v1_0 : DevRef τ sig) ≠ Proc.devRef .tc main_v1_1),
    Function.update_self]

/-- The column sums after the first pass are the unknown contents it left there. -/
theorem V2_main_v1_1 (c : Dev nD) : V2 m outs c main_v1_1 = outs 2 main_v1_1 c := by
  simp only [V2,
    Function.update_of_ne (StableHlo.devRef_ne_of_ne (by decide : main_v1_1 ≠ main_v1_2) : (Proc.devRef .tc main_v1_1 : DevRef τ sig) ≠ Proc.devRef .tc main_v1_2),
    Function.update_self]

/-- The cross-entropy sum after the first pass is the unknown contents it left there. -/
theorem V2_main_v1_2 (c : Dev nD) : V2 m outs c main_v1_2 = outs 2 main_v1_2 c := by
  simp only [V2, Function.update_self]

/-- Neither the host arithmetic between the passes nor the second pass changes the cross-entropy sum. -/
theorem V4_main_v1_2 (c : Dev nD) : V4 m outs c main_v1_2 = outs 2 main_v1_2 c :=
  (V4_of m outs c main_v1_2 (by decide)).trans <| (V3_of m outs c main_v1_2 (by decide)).trans (V2_main_v1_2 m outs c)

/-- The regulariser sum after the second pass is the unknown contents it left there. -/
theorem V4_main_v4 (c : Dev nD) : V4 m outs c main_v4 = outs 4 main_v4 c := by
  simp only [V4, Function.update_self]

/-- The logits are as launched when the first pass starts. -/
theorem V1_main_arg0 (c : Dev nD) : V1 m c main_arg0 = m ((c.tc : Thread nD τ).loc main_arg0) :=
  (V1_of m c main_arg0 (by decide)).trans rfl

/-- The logits are as launched when the second pass starts. -/
theorem V3_main_arg0 (c : Dev nD) : V3 m outs c main_arg0 = m ((c.tc : Thread nD τ).loc main_arg0) :=
  (V3_of m outs c main_arg0 (by decide)).trans <| (V2_of m outs c main_arg0 (by decide)).trans <| (V1_of m c main_arg0 (by decide)).trans rfl

/-- The distance matrix is as launched when the second pass starts. -/
theorem V3_main_arg1 (c : Dev nD) : V3 m outs c main_arg1 = m ((c.tc : Thread nD τ).loc main_arg1) :=
  (V3_of m outs c main_arg1 (by decide)).trans <| (V2_of m outs c main_arg1 (by decide)).trans <| (V1_of m c main_arg1 (by decide)).trans rfl

/-- The labels are as launched when the second pass starts. -/
theorem V3_main_arg2 (c : Dev nD) : V3 m outs c main_arg2 = m ((c.tc : Thread nD τ).loc main_arg2) :=
  (V3_of m outs c main_arg2 (by decide)).trans <| (V2_of m outs c main_arg2 (by decide)).trans <| (V1_of m c main_arg2 (by decide)).trans rfl

end Cert.KernelIdeal.Hand

end
-- ==== Proof.Ideal.KValue.lean ====
/-
  The kernel's result at Ideal. On finite logits, a finite distance matrix and labels in range, the scalar the program
  returns is the real number (cross-entropy sum) / 8192 + (-(1/2) * regulariser sum) / 81920000 of the specification:
  the first pass leaves the column maxima, the column sums of exponentials and the cross-entropy sum; the host forms
  the column log-sum-exp from the first two; the second pass leaves the regulariser sum against that row; the host
  combines the two sums.
-/
import proofs.«406825_j71691594105550_1_alg».proof.Proof.Ideal.Run
import proofs.«406825_j71691594105550_1_alg».proof.Proof.Ideal.Frame
import proofs.«406825_j71691594105550_1_alg».proof.Proof.Ideal.R0Value
import proofs.«406825_j71691594105550_1_alg».proof.Proof.Ideal.R1Value
import proofs.«406825_j71691594105550_1_alg».proof.Proof.Ideal.HostValue
import proofs.«406825_j71691594105550_1_alg».proof.Proof.Ideal.HostRead
import proofs.«406825_j71691594105550_1_alg».proof.Proof.Pre

set_option maxRecDepth 16384

noncomputable section

namespace Cert.KernelIdeal.HandValue

open Cert.KernelIdeal Cert.KernelIdeal.Gen Cert.KernelIdeal.Hand Cert.KernelIdeal.HostValue Cert.Spec
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

/-- The logits, the distance matrix and the labels as launched. -/
abbrev argX (c : Dev nD) : Vec Ideal S8192x10000 .f32 := m ((c.tc : Thread nD τ).loc main_arg0)
abbrev argD (c : Dev nD) : Vec Ideal S10000x10000 .f32 := m ((c.tc : Thread nD τ).loc main_arg1)
abbrev argT (c : Dev nD) : Vec Ideal S8192 .i32 := m ((c.tc : Thread nD τ).loc main_arg2)

namespace KV

/-! ## The first pass -/

/-- The first pass finds the logits as launched. -/
theorem pass1_logits (c : Dev nD) : xin0 (EV1 m) c = argX m c := V1_main_arg0 m c

/-- The first pass finds, at (b, 0) of the label column, label b. -/
theorem pass1_label (c : Dev nD) (b : Fin 8192) :
    lin0 (EV1 m) c (ix2 b (0 : Fin 1)) = argT m c (ValueIdx.ix1 b) := V1_main_v0_apply m c b

/-- So its class numbers are the specification's. -/
theorem pass1_classes (c : Dev nD) : lab0 (EV1 m) c = lab (argT m c) := by
  funext b
  apply Fin.ext
  show (lin0 (EV1 m) c (ix2 b (0 : Fin 1))).toNat % 10000 = (argT m c (ValueIdx.ix1 b)).toNat % 10000
  rw [pass1_label]

variable (hpre : ∀ c : Dev nD, Cert.Pre_finite_inputs.fn (F := Ideal) (m ((c.tc : Thread nD τ).loc main_arg0))
  (m ((c.tc : Thread nD τ).loc main_arg1)) (m ((c.tc : Thread nD τ).loc main_arg2)) = fun _ => 1#1)
include hpre

/-- After the first pass: the column maxima, the column sums of exponentials and the cross-entropy sum. -/
theorem pass1 (c : Dev nD) :
    (∀ k : Fin 10000, (dat0 (EV1 m) c).arrAt 2 cfg0.N (ix2 (0 : Fin 1) k) = ((colMax (Xr (argX m c)) k : ℝ) : EReal))
    ∧ (∀ k : Fin 10000, (dat0 (EV1 m) c).arrAt 3 cfg0.N (ix2 (0 : Fin 1) k) = ((colSum (Xr (argX m c)) k : ℝ) : EReal))
    ∧ (dat0 (EV1 m) c).arrAt 4 cfg0.N (ix2 (0 : Fin 1) (0 : Fin 1))
        = ((ceSum (Xr (argX m c)) (lab (argT m c)) : ℝ) : EReal) := by
  have hx : ∀ y, xin0 (EV1 m) c y = (((xin0 (EV1 m) c y).toReal : ℝ) : EReal) := by
    rw [pass1_logits]
    exact Cert.PreFacts.input_real (argX m c) (argD m c) (argT m c) (hpre c)
  have hl : ∀ y, (lin0 (EV1 m) c y).toNat < 10000 := fun y => by
    obtain ⟨b, z, rfl⟩ : ∃ (b : Fin 8192) (z : Fin 1), y = ix2 b z := ⟨y 0, y 1, eq_ix2 y⟩
    obtain rfl : z = 0 := Subsingleton.elim _ _
    rw [pass1_label]
    exact Cert.PreFacts.target_lt (F := Ideal) (argX m c) (argD m c) (argT m c) (hpre c) _
  have h := r0_final (EV1 m) c hx hl
  rw [pass1_logits, pass1_classes] at h
  exact h

/-! ## Between the passes -/

omit hpre in
/-- The column maxima the host reads between the passes are what the first pass left. -/
theorem left_colMax (c : Dev nD) :
    (V2 m (outsA m) c main_v1_0 : Vec Ideal S1x10000 .f32) = (dat0 (EV1 m) c).arrAt 2 cfg0.N := (hF0 m c 2).symm

omit hpre in
/-- The column sums the host reads between the passes are what the first pass left. -/
theorem left_colSum (c : Dev nD) :
    (V2 m (outsA m) c main_v1_1 : Vec Ideal S1x10000 .f32) = (dat0 (EV1 m) c).arrAt 3 cfg0.N := (hF0 m c 3).symm

omit hpre in
/-- The cross-entropy sum the host reads at the end is what the first pass left. -/
theorem left_ce (c : Dev nD) :
    (V4 m (outs m) c main_v1_2 : Vec Ideal S1x1 .f32) = (dat0 (EV1 m) c).arrAt 4 cfg0.N :=
  (V4_main_v1_2 m (outs m) c).trans ((V2_main_v1_2 m (outs m) c).symm.trans (hF0 m c 4).symm)

omit hpre in
/-- The regulariser sum the host reads at the end is what the second pass left. -/
theorem left_reg (c : Dev nD) :
    (V4 m (outs m) c main_v4 : Vec Ideal S1x1 .f32) = (dat1 (EV3 m) (a1 m) c).arrAt 2 (cfg1 (a1 m)).N := (hF1 m c 2).symm

omit hpre in
/-- The row of column offsets the second pass finds: log (column sums) + (column maxima). -/
theorem offsets_eq (c : Dev nD) :
    cin1 (EV3 m) c = addf (F := Ideal) (φ := .f32)
      (Host.log (F := Ideal) (φ := .f32) (V2 m (outsA m) c main_v1_1 : Vec Ideal S1x10000 .f32))
      (V2 m (outsA m) c main_v1_0 : Vec Ideal S1x10000 .f32) := V3_main_v3 m (outsA m) c

/-- At column k it is the specification's column log-sum-exp. -/
theorem offsets_apply (c : Dev nD) (k : Fin 10000) :
    cin1 (EV3 m) c (ix2 (0 : Fin 1) k) = ((colLse (Xr (argX m c)) k : ℝ) : EReal) := by
  rw [offsets_eq]
  exact lse_row _ _ (colSum (Xr (argX m c))) (colMax (Xr (argX m c))) (colSum_pos (Xr (argX m c)))
    (fun k => by rw [left_colSum]; exact (pass1 m hpre c).2.1 k)
    (fun k => by rw [left_colMax]; exact (pass1 m hpre c).1 k) k

/-- Every entry of it is a real number. -/
theorem offsets_real (c : Dev nD) : ∀ y, cin1 (EV3 m) c y = (((cin1 (EV3 m) c y).toReal : ℝ) : EReal) := by
  rw [offsets_eq]
  exact lse_row_real _ _ (colSum (Xr (argX m c))) (colMax (Xr (argX m c))) (colSum_pos (Xr (argX m c)))
    (fun k => by rw [left_colSum]; exact (pass1 m hpre c).2.1 k)
    (fun k => by rw [left_colMax]; exact (pass1 m hpre c).1 k)

/-- As reals, the offsets are the column log-sum-exp. -/
theorem offsets_spec (c : Dev nD) : cl1 (EV3 m) c = colLse (Xr (argX m c)) := by
  funext k
  unfold cl1
  rw [offsets_apply m hpre c k, EReal.toReal_coe]

/-! ## The second pass -/

/-- After the second pass: the regulariser sum against the column log-sum-exp. -/
theorem pass2 (c : Dev nD) :
    (dat1 (EV3 m) (a1 m) c).arrAt 2 (cfg1 (a1 m)).N (ix2 (0 : Fin 1) (0 : Fin 1))
      = ((regSum (Xr (argX m c)) (Dr (argD m c)) (lab (argT m c)) (colLse (Xr (argX m c))) : ℝ) : EReal) := by
  obtain rfl : c = 0 := Subsingleton.elim _ _
  have ex : xin1 (EV3 m) 0 = argX m 0 := V3_main_arg0 m (outsA m) 0
  have ed : din1 (EV3 m) 0 = argD m 0 := V3_main_arg1 m (outsA m) 0
  have hx : ∀ y, xin1 (EV3 m) 0 y = (((xin1 (EV3 m) 0 y).toReal : ℝ) : EReal) := by
    rw [ex]
    exact Cert.PreFacts.input_real (argX m 0) (argD m 0) (argT m 0) (hpre 0)
  have hd : ∀ y, din1 (EV3 m) 0 y = (((din1 (EV3 m) 0 y).toReal : ℝ) : EReal) := by
    rw [ed]
    exact Cert.PreFacts.dist_real (argX m 0) (argD m 0) (argT m 0) (hpre 0)
  have h := r1_final (EV3 m) 0 (a1 m) hx hd (offsets_real m hpre 0) (table_in_range m hpre)
  rw [ex, ed, tbl_a1, offsets_spec m hpre 0] at h
  exact h

end KV

/-! ## The result -/

/-- THE VALUE: the scalar the program returns is the specification's real number. -/
theorem result_value
    (hpre : ∀ c : Dev nD, Cert.Pre_finite_inputs.fn (F := Ideal) (m ((c.tc : Thread nD τ).loc main_arg0)) (m ((c.tc : Thread nD τ).loc main_arg1)) (m ((c.tc : Thread nD τ).loc main_arg2)) = fun _ => 1#1)
    (c : Dev nD) :
    (V5 m (Cert.KernelIdeal.Hand.outs m) c main_v10 : Vec Ideal S_ .f32)
      = fun _ => ((kerVal (Xr (m ((c.tc : Thread nD τ).loc main_arg0))) (Dr (m ((c.tc : Thread nD τ).loc main_arg1))) (lab (m ((c.tc : Thread nD τ).loc main_arg2))) : ℝ) : EReal) := by
  rw [V5_main_v10 m (outs m) c]
  exact tail_value _ _ (ceSum (Xr (argX m c)) (lab (argT m c)))
    (regSum (Xr (argX m c)) (Dr (argD m c)) (lab (argT m c)) (colLse (Xr (argX m c)))) _ _
    (by rw [KV.left_ce]; exact (KV.pass1 m hpre c).2.2)
    (by rw [KV.left_reg]; exact KV.pass2 m hpre c)

end Cert.KernelIdeal.HandValue

end
-- ==== Proof.RefLaws.lean ====
/-
  The reference's host operations on real data.

  The reference works on extended reals; on logits and distances that are real numbers every value it forms is a real
  number again, and each host operation is its textbook counterpart:
    * a maximum over one axis started from minus infinity is the real maximum over that axis (the batch is not empty,
      neither is the class axis), and a further maximum against minus infinity changes nothing;
    * a sum of real numbers started from zero is their real sum;
    * exponential, logarithm of a positive number, difference, product, negation and the quotient by a nonzero
      constant are the real ones;
    * a gather of a row of the distance matrix at a label in range reads that row, the gather along the class axis
      at a label in range reads the logit at the label; a label in range is not wrapped, passes the range mask, and
      the select on the mask keeps the gathered value.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ReduceAll
import proofs.«406825_j71691594105550_1_alg».proof.Proof.Ideal.Spec
import Mathlib.Analysis.SpecialFunctions.Log.Basic
import Mathlib.Analysis.SpecialFunctions.Exp

noncomputable section

open scoped BigOperators

namespace Cert.RefLaws

open Idealize.ShloMosaic Idealize.ShloMosaic.ValueIdx Cert.Spec

/-- One entry per class. -/
abbrev SK : Shape := ⟨1, ![10000]⟩
/-- A scalar. -/
abbrev S0 : Shape := ⟨0, ![]⟩
/-- One entry per sample, as a column. -/
abbrev SI : Shape := ⟨2, ![8192, 1]⟩
/-- One entry per sample, as a column of one-entry index vectors. -/
abbrev SJ : Shape := ⟨3, ![8192, 1, 1]⟩

/-! ## Constants -/

/-- Sign 1, exponent all ones, fraction 0: minus infinity, the bottom of the extended reals. -/
theorem neg_inf : Ideal.ofBits .f32 0xFF800000#32 = ⊥ := by simp [Ideal.ofBits, Ideal.ieee]

/-- Sign 0, exponent 140, fraction 0: 2 ^ 13 = 8192, the batch size. -/
theorem lit_8192 : Ideal.ofBits .f32 0x46000000#32 = ((8192 : ℝ) : EReal) := by
  simp [Ideal.ofBits, Ideal.ieee, -EReal.coe_mul]; norm_num

/-- Sign 1, exponent 126, fraction 0: -(2 ^ (-1)) = -1/2. -/
theorem lit_neg_half : Ideal.ofBits .f32 0xBF000000#32 = ((-(1 / 2) : ℝ) : EReal) := by
  simp [Ideal.ofBits, Ideal.ieee, -EReal.coe_mul]; norm_num

/-- Sign 0, exponent 153, fraction 1851392: (2 ^ 23 + 1851392) * 2 ^ 3 = 81920000, batch size times class count. -/
theorem lit_81920000 : Ideal.ofBits .f32 0x4C9C4000#32 = ((81920000 : ℝ) : EReal) := by
  simp [Ideal.ofBits, Ideal.ieee, -EReal.coe_mul]; norm_num

/-! ## Sums of real numbers -/

/-- A finite sum of real numbers, read in the extended reals, is the real sum. -/
theorem coe_sum {ι : Type} (s : Finset ι) (g : ι → ℝ) :
    (∑ i ∈ s, ((g i : ℝ) : EReal)) = ((∑ i ∈ s, g i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- Started from the zero pattern, such a sum is still the real sum. -/
theorem zero_add_coe_sum {ι : Type} (s : Finset ι) (g : ι → ℝ) :
    FloatOps.ofBits (F := Ideal) .f32 0x00000000#32 + (∑ i ∈ s, ((g i : ℝ) : EReal)) = ((∑ i ∈ s, g i : ℝ) : EReal) := by
  rw [Ideal.ofBits_def, Ideal.ofBits_zero_f32, zero_add, coe_sum]

/-- A sum over every entry of a batch-by-class array is the double sum over samples and classes. -/
theorem sum_SX {M : Type} [AddCommMonoid M] (f : SX.Idx → M) : ∑ j : SX.Idx, f j = ∑ b : Fin 8192, ∑ k : Fin 10000, f (ix2 b k) :=
  sum_idx2 f

/-- A sum over every entry of a column is the sum over the samples. -/
theorem sum_SI {M : Type} [AddCommMonoid M] (f : SI.Idx → M) : ∑ j : SI.Idx, f j = ∑ b : Fin 8192, f (ix2 b (0 : Fin 1)) := by
  rw [sum_idx2 f]
  exact Finset.sum_congr rfl fun b _ => Fintype.sum_unique fun k : Fin 1 => f (ix2 b k)

/-! ## Maxima -/

/-- The maximum of minus infinity and finitely many real numbers, at least one, is their real maximum. -/
theorem fold_max_coe {n : ℕ} (hn : (Finset.univ : Finset (Fin n)).Nonempty) (g : Fin n → ℝ) :
    (Finset.univ : Finset (Fin n)).fold max (⊥ : EReal) (fun k => ((g k : ℝ) : EReal))
      = ((Finset.univ.sup' hn g : ℝ) : EReal) := by
  apply le_antisymm
  · rw [Finset.fold_max_le]
    exact ⟨bot_le, fun k _ => EReal.coe_le_coe_iff.mpr (Finset.le_sup' g (Finset.mem_univ k))⟩
  · rw [Finset.le_fold_max]
    obtain ⟨k, _, hk⟩ := Finset.exists_mem_eq_sup' hn g
    exact Or.inr ⟨k, Finset.mem_univ k, by rw [hk]⟩

/-- A maximum against minus infinity changes nothing. -/
theorem max_neg_inf (y : EReal) :
    FloatOps.maximumf (F := Ideal) (φ := .f32) (FloatOps.ofBits (F := Ideal) .f32 0xFF800000#32) y = y := by
  rw [Ideal.maximumf_def, Ideal.ofBits_def, neg_inf]; exact max_eq_right bot_le

/-- The maximum over the batch, column k: the real column maximum. -/
theorem colMax_read (x : SX.Idx → EReal) (X : Fin 8192 → Fin 10000 → ℝ)
    (hx : ∀ b k, x (ix2 b k) = ((X b k : ℝ) : EReal)) (h' : SX.ReducesTo [0] SK) (hu : 0 < S0.numel) (k : Fin 10000) :
    Host.reduce (FloatOps.maximumf (F := Ideal) (φ := .f32)) x (constant (F := Ideal) S0 .f32 0xFF800000#32) h' hu (ix1 k)
      = ((colMax X k : ℝ) : EReal) := by
  have h : SX.Reduces [0] SK := by decide
  rw [Host.reduce_eq_fold_single _ x _ h' h hu (ix1 k)]
  show (Finset.univ : Finset (Fin 8192)).fold max (Ideal.ofBits .f32 0xFF800000#32) (x ∘ h.lift (ix1 k)) = _
  rw [neg_inf]
  have e : (x ∘ h.lift (ix1 k)) = fun b : Fin 8192 => ((X b k : ℝ) : EReal) := by
    funext b
    rw [Function.comp, ← hx b k]
    refine congrArg x ?_
    funext a; match a with | ⟨0, _⟩ => rfl | ⟨1, _⟩ => rfl
  rw [e]
  exact fold_max_coe _ _

/-- The maximum over the classes, row b: the real row maximum. -/
theorem rowMax_read (x : SX.Idx → EReal) (X : Fin 8192 → Fin 10000 → ℝ)
    (hx : ∀ b k, x (ix2 b k) = ((X b k : ℝ) : EReal)) (h' : SX.ReducesTo [1] ST) (hu : 0 < S0.numel) (b : Fin 8192) :
    Host.reduce (FloatOps.maximumf (F := Ideal) (φ := .f32)) x (constant (F := Ideal) S0 .f32 0xFF800000#32) h' hu (ix1 b)
      = ((rowMax X b : ℝ) : EReal) := by
  have h : SX.Reduces [1] ST := by decide
  rw [Host.reduce_eq_fold_single _ x _ h' h hu (ix1 b)]
  show (Finset.univ : Finset (Fin 10000)).fold max (Ideal.ofBits .f32 0xFF800000#32) (x ∘ h.lift (ix1 b)) = _
  rw [neg_inf]
  have e : (x ∘ h.lift (ix1 b)) = fun k : Fin 10000 => ((X b k : ℝ) : EReal) := by
    funext k
    rw [Function.comp, ← hx b k]
    refine congrArg x ?_
    funext a; match a with | ⟨0, _⟩ => rfl | ⟨1, _⟩ => rfl
  rw [e]
  exact fold_max_coe _ _

/-! ## The scalar operations on real numbers -/

theorem exp_real (r : ℝ) : FloatOps.hostUnary (F := Ideal) (φ := .f32) .exp ((r : ℝ) : EReal) = ((Real.exp r : ℝ) : EReal) := by
  rw [Ideal.hostUnary_exp_def, Ideal.exp_coe]

theorem log_real (r : ℝ) (hr : 0 < r) : FloatOps.hostUnary (F := Ideal) (φ := .f32) .log ((r : ℝ) : EReal) = ((Real.log r : ℝ) : EReal) := by
  rw [Ideal.hostUnary_log_def, Ideal.log_coe, if_neg (not_le.2 hr)]

theorem sub_real (a b : ℝ) : FloatOps.subf (F := Ideal) (φ := .f32) ((a : ℝ) : EReal) ((b : ℝ) : EReal) = ((a - b : ℝ) : EReal) := by
  rw [Ideal.subf_def, ← EReal.coe_sub]

theorem mul_real (a b : ℝ) : FloatOps.mulf (F := Ideal) (φ := .f32) ((a : ℝ) : EReal) ((b : ℝ) : EReal) = ((a * b : ℝ) : EReal) := by
  rw [Ideal.mulf_def, ← EReal.coe_mul]

theorem add_real (a b : ℝ) : FloatOps.addf (F := Ideal) (φ := .f32) ((a : ℝ) : EReal) ((b : ℝ) : EReal) = ((a + b : ℝ) : EReal) := by
  rw [Ideal.addf_def, ← EReal.coe_add]

theorem neg_real (a : ℝ) : FloatOps.hostNegf (F := Ideal) (φ := .f32) ((a : ℝ) : EReal) = ((-a : ℝ) : EReal) := by
  rw [Ideal.hostNegf_def, Ideal.negf_def, ← EReal.coe_neg]

/-- The quotient by the batch size. -/
theorem div_8192 (a : ℝ) :
    FloatOps.hostDivf (F := Ideal) (φ := .f32) ((a : ℝ) : EReal) (FloatOps.ofBits (F := Ideal) .f32 0x46000000#32)
      = ((a / 8192 : ℝ) : EReal) := by
  rw [Ideal.hostDivf_def, Ideal.ofBits_def, lit_8192, Ideal.div_coe (y := 8192) (by norm_num), ← EReal.coe_mul]
  congr 1; ring

/-- The quotient by batch size times class count. -/
theorem div_81920000 (a : ℝ) :
    FloatOps.hostDivf (F := Ideal) (φ := .f32) ((a : ℝ) : EReal) (FloatOps.ofBits (F := Ideal) .f32 0x4C9C4000#32)
      = ((a / 81920000 : ℝ) : EReal) := by
  rw [Ideal.hostDivf_def, Ideal.ofBits_def, lit_81920000, Ideal.div_coe (y := 81920000) (by norm_num), ← EReal.coe_mul]
  congr 1; ring

/-- The product with minus one half. -/
theorem neg_half_mul (a : ℝ) :
    FloatOps.mulf (F := Ideal) (φ := .f32) (FloatOps.ofBits (F := Ideal) .f32 0xBF000000#32) ((a : ℝ) : EReal)
      = ((-(1 / 2) * a : ℝ) : EReal) := by
  rw [Ideal.mulf_def, Ideal.ofBits_def, lit_neg_half, ← EReal.coe_mul]

end Cert.RefLaws

end
-- ==== Proof.RefGather.lean ====
/-
  The two gathers of the reference, on labels in range.

  The rows of the distance matrix are gathered at the labels, negative positions first wrapped by the class count and
  every position then clamped into the matrix. On labels below the class count the wrap and the clamp are the identity,
  so the gathered matrix at (b, k) is the distance matrix at (label of b, k).

  The take along the class axis of the row-wise log-softmax reads, in row b, the entry at the label of b. Its in-bounds
  mask (0 ≤ position ≤ 9999, reduced by "and") is 1 everywhere, so the fill value is never selected, and its start
  position, wrapped and clamped as above, is again the label itself.
-/
import proofs.«406825_j71691594105550_1_alg».proof.Proof.RefRun
import proofs.«406825_j71691594105550_1_alg».proof.Proof.RefRead
import proofs.«406825_j71691594105550_1_alg».proof.Proof.Ideal.Spec
import Idealize.ShloMosaic.Lib.StableHlo.Predicate

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Spec
open Idealize.ShloMosaic.StableHlo

namespace Gather

/-! ## Labels in range pass the wrap-around of negative positions unchanged -/

/-- A left fold by "and" from 1 over words that are all 1 is 1. -/
theorem foldl_andi_of_ones {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, h =>
    foldl_andi_of_ones f l _ (IntOp.andi_eq_one.2 ⟨hi, h a List.mem_cons_self⟩)
      fun n hn => h n (List.mem_cons_of_mem _ hn)

section Labels

variable (t : (⟨S8192, .i32⟩ : BufTy).Contents (Elt Ideal)) (hl : ∀ i, (t i).toNat < 10000)
include hl

/-- A label in range is not negative, so "add the class count where negative" leaves it as it is. -/
theorem wrapped_label (i : S8192.Idx) : val_main_v4 (F := Ideal) t i = t i := by
  rw [val_main_v4_apply, val_main_v1_apply, val_main_v0_apply, val_main_c_apply]
  have hnot : ¬ IntOp.cmpi .slt (t i) 0#32 = 1#1 := by
    rw [Predicate.slt_iff_toNat (by have := hl i; omega) (by decide)]
    simp
  rw [eq_zero_of_ne_one hnot, select_zero]

/-- The same inside the take along the class axis, on the labels as a column. -/
theorem wrapped_label_col (i : S8192x1.Idx) : val_main_call2_v4 (F := Ideal) t i = t (idx_main_v13 i) := by
  rw [val_main_call2_v4_apply, val_main_call2_v1_apply, val_main_call2_v0_apply, val_main_call2_c_apply,
    val_main_v13_apply]
  have hnot : ¬ IntOp.cmpi .slt (t (idx_main_v13 i)) 0#32 = 1#1 := by
    rw [Predicate.slt_iff_toNat (by have := hl (idx_main_v13 i); omega) (by decide)]
    simp
  rw [eq_zero_of_ne_one hnot, select_zero]

/-- Every start position of the take is a label, hence below the class count. -/
theorem start_in_range (n : S8192x1x1.Idx) : (val_main_call2_v5 (F := Ideal) t n).toNat < 10000 := by
  rw [val_main_call2_v5_apply, wrapped_label_col t hl]
  exact hl _

/-- So the take's in-bounds mask (0 ≤ position ≤ 9999, "and"-reduced over the index vector) is 1 everywhere. -/
theorem mask_one (j : S8192x1.Idx) : val_main_call2_v12 (F := Ideal) t j = 1#1 := by
  unfold val_main_call2_v12
  rw [Host.reduce_eq_foldl]
  refine foldl_andi_of_ones _ _ _ rfl fun n _ => ?_
  rw [val_main_call2_v11_apply, val_main_call2_v7_apply, val_main_call2_v10_apply, val_main_call2_v6_apply,
    val_main_call2_c_2_apply, val_main_call2_v9_apply, val_main_call2_v8_apply, val_main_call2_c_1_apply]
  have hw := start_in_range t hl n
  refine IntOp.andi_eq_one.2 ⟨(Predicate.sge_iff_toNat (by omega) (by decide)).2 ?_,
    (Predicate.sle_iff_toNat (by omega) (by decide)).2 ?_⟩
  · show 0 ≤ _
    omega
  · show _ ≤ 9999
    omega

end Labels

/-! ## The gather of the distance matrix's rows at the labels -/

section Rows

theorem rows_no_batch (j : S8192x10000.Idx) (a : Fin 2) : gather_S10000x10000_S8192x1_S8192x10000_1_0_n_n_0_1_110000.batchCoord j a = 0 :=
  gather_S10000x10000_S8192x1_S8192x10000_1_0_n_n_0_1_110000.batchCoord_eq_zero j a (by show a ∉ ([] : List (Fin 2)); exact List.not_mem_nil)

/-- Result index (p, q) reads its start position at row p of the label column. -/
theorem rows_where (p : Fin 8192) (q : Fin 10000) (h) :
    gather_S10000x10000_S8192x1_S8192x10000_1_0_n_n_0_1_110000.siIdx (ix2 p q) ⟨List.idxOf (0 : Fin 2) gather_S10000x10000_S8192x1_S8192x10000_1_0_n_n_0_1_110000.startIndexMap, h⟩ = ix2 p (0 : Fin 1) := by
  funext b'
  fin_cases b'
  · unfold GatherDims.siIdx
    rw [dif_neg (by decide)]
    unfold GatherDims.siCoord
    apply Fin.ext
    simp only [Fin.val_cast]
    rfl
  · unfold GatherDims.siIdx
    rw [dif_pos (by decide)]
    apply Fin.ext
    show List.idxOf (0 : Fin 2) gather_S10000x10000_S8192x1_S8192x10000_1_0_n_n_0_1_110000.startIndexMap = 0
    rfl

/-- On the row axis the slice starts at the position read signed and clamped to the last row. -/
theorem rows_start0 (p : Fin 8192) (q : Fin 10000) (idx : IVec S8192x1 32) :
    gather_S10000x10000_S8192x1_S8192x10000_1_0_n_n_0_1_110000.start (ix2 p q) idx 0 = min (idx (ix2 p (0 : Fin 1))).toInt.toNat 9999 := by
  unfold GatherDims.start
  rw [dif_pos (by decide), rows_where]
  rfl

theorem rows_start1 (p : Fin 8192) (q : Fin 10000) (idx : IVec S8192x1 32) : gather_S10000x10000_S8192x1_S8192x10000_1_0_n_n_0_1_110000.start (ix2 p q) idx 1 = 0 := by
  unfold GatherDims.start
  rw [dif_neg (by decide)]

theorem rows_off0 (j : S8192x10000.Idx) : gather_S10000x10000_S8192x1_S8192x10000_1_0_n_n_0_1_110000.offCoord j 0 = 0 := gather_S10000x10000_S8192x1_S8192x10000_1_0_n_n_0_1_110000.offCoord_eq_zero j 0 (by decide)

/-- On the class axis the whole row is taken: the offset is the result's own class coordinate. -/
theorem rows_off1 (p : Fin 8192) (q : Fin 10000) : gather_S10000x10000_S8192x1_S8192x10000_1_0_n_n_0_1_110000.offCoord (ix2 p q) 1 = q.val := by
  unfold GatherDims.offCoord
  rw [dif_pos (by decide)]
  rfl

end Rows

/-! ## The take of each row's entry at its label -/

section Take

theorem take_start0 (j : S8192x1.Idx) (idx : IVec S8192x1x1 32) : gather_S8192x10000_S8192x1x1_S8192x1_n_1_0_0_1_2_11.start j idx 0 = 0 :=
  gather_S8192x10000_S8192x1x1_S8192x1_n_1_0_0_1_2_11.start_batching j idx 0 (by decide)

theorem take_off (j : S8192x1.Idx) (a : Fin 2) : gather_S8192x10000_S8192x1x1_S8192x1_n_1_0_0_1_2_11.offCoord j a = 0 :=
  gather_S8192x10000_S8192x1x1_S8192x1_n_1_0_0_1_2_11.offCoord_eq_zero j a (by fin_cases a <;> decide)

theorem take_batch1 (j : S8192x1.Idx) : gather_S8192x10000_S8192x1x1_S8192x1_n_1_0_0_1_2_11.batchCoord j 1 = 0 := gather_S8192x10000_S8192x1x1_S8192x1_n_1_0_0_1_2_11.batchCoord_eq_zero j 1 (by decide)

/-- On the batch axis the operand's row is the result's row. -/
theorem take_batch0 (p : Fin 8192) : gather_S8192x10000_S8192x1x1_S8192x1_n_1_0_0_1_2_11.batchCoord (ix2 p (0 : Fin 1)) 0 = p.val := by
  unfold GatherDims.batchCoord
  rw [dif_pos (by decide)]
  unfold GatherDims.siCoord
  rfl

/-- Result index (p, 0) reads its start position at (p, 0, 0) of the positions. -/
theorem take_where (p : Fin 8192) (h) :
    gather_S8192x10000_S8192x1x1_S8192x1_n_1_0_0_1_2_11.siIdx (ix2 p (0 : Fin 1)) ⟨List.idxOf (1 : Fin 2) gather_S8192x10000_S8192x1x1_S8192x1_n_1_0_0_1_2_11.startIndexMap, h⟩
      = ix3 p (0 : Fin 1) (0 : Fin 1) := by
  funext b'
  fin_cases b'
  · unfold GatherDims.siIdx
    rw [dif_neg (by decide)]
    unfold GatherDims.siCoord
    apply Fin.ext
    simp only [Fin.val_cast]
    rfl
  · unfold GatherDims.siIdx
    rw [dif_neg (by decide)]
    unfold GatherDims.siCoord
    apply Fin.ext
    simp only [Fin.val_cast]
    rfl
  · unfold GatherDims.siIdx
    rw [dif_pos (by decide)]
    apply Fin.ext
    show List.idxOf (1 : Fin 2) gather_S8192x10000_S8192x1x1_S8192x1_n_1_0_0_1_2_11.startIndexMap = 0
    rfl

/-- On the class axis the slice starts at the position read signed and clamped to the last class. -/
theorem take_start1 (p : Fin 8192) (idx : IVec S8192x1x1 32) :
    gather_S8192x10000_S8192x1x1_S8192x1_n_1_0_0_1_2_11.start (ix2 p (0 : Fin 1)) idx 1 = min (idx (ix3 p (0 : Fin 1) (0 : Fin 1))).toInt.toNat 9999 := by
  unfold GatherDims.start
  rw [dif_pos (by decide), take_where]
  rfl

end Take

end Gather

open Gather

/-- The gathered matrix at (b, k) is the distance matrix at (label of b, k). -/
theorem gather_rows (d : (⟨S10000x10000, .f32⟩ : BufTy).Contents (Elt Ideal)) (t : (⟨S8192, .i32⟩ : BufTy).Contents (Elt Ideal))
    (hl : ∀ i, (t i).toNat < 10000) (b : Fin 8192) (k : Fin 10000) :
    val_main_v6 (F := Ideal) d t (ix2 b k) = d (ix2 (lab t b) k) := by
  unfold val_main_v6 Host.gather
  refine congrArg d (funext fun a => Fin.ext ?_)
  fin_cases a
  · show gather_S10000x10000_S8192x1_S8192x10000_1_0_n_n_0_1_110000.start (ix2 b k) (val_main_v5 (F := Ideal) t) 0 + gather_S10000x10000_S8192x1_S8192x10000_1_0_n_n_0_1_110000.batchCoord (ix2 b k) 0 + gather_S10000x10000_S8192x1_S8192x10000_1_0_n_n_0_1_110000.offCoord (ix2 b k) 0
      = (lab t b).val
    rw [rows_start0, rows_no_batch, rows_off0, val_main_v5_apply, wrapped_label t hl]
    have e : idx_main_v5 (ix2 b (0 : Fin 1)) = ValueIdx.ix1 b := by
      funext a
      fin_cases a
      rfl
    have hb := hl (ValueIdx.ix1 b)
    rw [e, Predicate.toInt_eq_toNat_of_lt (by omega), Int.toNat_natCast]
    show min (t (ValueIdx.ix1 b)).toNat 9999 + 0 + 0 = (t (ValueIdx.ix1 b)).toNat % 10000
    omega
  · show gather_S10000x10000_S8192x1_S8192x10000_1_0_n_n_0_1_110000.start (ix2 b k) (val_main_v5 (F := Ideal) t) 1 + gather_S10000x10000_S8192x1_S8192x10000_1_0_n_n_0_1_110000.batchCoord (ix2 b k) 1 + gather_S10000x10000_S8192x1_S8192x10000_1_0_n_n_0_1_110000.offCoord (ix2 b k) 1
      = k.val
    rw [rows_start1, rows_no_batch, rows_off1]
    omega

/-- The taken column at row b is the row-wise log-softmax at (b, label of b). -/
theorem take_label (x : (⟨S8192x10000, .f32⟩ : BufTy).Contents (Elt Ideal)) (t : (⟨S8192, .i32⟩ : BufTy).Contents (Elt Ideal))
    (hl : ∀ i, (t i).toNat < 10000) (b : Fin 8192) :
    val_main_v14 (F := Ideal) x t (ix2 b (0 : Fin 1)) = val_main_v12 (F := Ideal) x (ix2 b (lab t b)) := by
  rw [val_main_v14_apply, mask_one t hl, select_one]
  unfold val_main_call2_v13 Host.gather
  refine congrArg (val_main_v12 (F := Ideal) x) (funext fun a => Fin.ext ?_)
  fin_cases a
  · show gather_S8192x10000_S8192x1x1_S8192x1_n_1_0_0_1_2_11.start (ix2 b (0 : Fin 1)) (val_main_call2_v5 (F := Ideal) t) 0 + gather_S8192x10000_S8192x1x1_S8192x1_n_1_0_0_1_2_11.batchCoord (ix2 b (0 : Fin 1)) 0
        + gather_S8192x10000_S8192x1x1_S8192x1_n_1_0_0_1_2_11.offCoord (ix2 b (0 : Fin 1)) 0 = b.val
    rw [take_start0, take_batch0, take_off]
    omega
  · show gather_S8192x10000_S8192x1x1_S8192x1_n_1_0_0_1_2_11.start (ix2 b (0 : Fin 1)) (val_main_call2_v5 (F := Ideal) t) 1 + gather_S8192x10000_S8192x1x1_S8192x1_n_1_0_0_1_2_11.batchCoord (ix2 b (0 : Fin 1)) 1
        + gather_S8192x10000_S8192x1x1_S8192x1_n_1_0_0_1_2_11.offCoord (ix2 b (0 : Fin 1)) 1 = (lab t b).val
    rw [take_start1, take_batch1, take_off, val_main_call2_v5_apply, wrapped_label_col t hl]
    have e : idx_main_v13 (idx_main_call2_v5 (ix3 b (0 : Fin 1) (0 : Fin 1))) = ValueIdx.ix1 b := by
      funext a
      fin_cases a
      apply Fin.ext
      show ((b.val * 1 + 0) * 1 + 0) / 1 = b.val
      omega
    have hb := hl (ValueIdx.ix1 b)
    rw [e, Predicate.toInt_eq_toNat_of_lt (by omega), Int.toNat_natCast]
    show min (t (ValueIdx.ix1 b)).toNat 9999 + 0 + 0 = (t (ValueIdx.ix1 b)).toNat % 10000
    omega

end Cert.ReferenceIdeal.RefValue

end
-- ==== Proof.RefRowLsm.lean ====
/-
  The reference's row log-softmax. On real logits, entry (b, k) of the log-softmax over the class axis is
  (X b k - R b) - log (Z b): R b the row maximum over the classes (a maximum started from minus infinity, then
  taken once more against minus infinity, which changes nothing), Z b the row sum of exp (X b k - R b) (a sum
  started from zero), whose logarithm is the real one because Z b is positive.
-/
import proofs.«406825_j71691594105550_1_alg».proof.Proof.RefRun
import proofs.«406825_j71691594105550_1_alg».proof.Proof.RefRead
import proofs.«406825_j71691594105550_1_alg».proof.Proof.Ideal.Spec

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Spec

namespace RowLsm

/-- A finite sum of real numbers, read in the extended reals. -/
theorem coe_fin_sum {ι : Type} (s : Finset ι) (g : ι → ℝ) :
    (∑ i ∈ s, ((g i : ℝ) : EReal)) = ((∑ i ∈ s, g i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- Minus infinity's pattern is the bottom element. -/
theorem neg_inf_pattern : Ideal.ofBits .f32 0xFF800000#32 = ⊥ := by simp [Ideal.ofBits, Ideal.ieee]

/-- The maximum of minus infinity and the 10000 real entries of a row is the row's real maximum. -/
theorem fold_max_row (g : Fin 10000 → ℝ) :
    (Finset.univ : Finset (Fin 10000)).fold max (⊥ : EReal) (fun k => ((g k : ℝ) : EReal))
      = ((Finset.univ.sup' Finset.univ_nonempty g : ℝ) : EReal) := by
  apply le_antisymm
  · rw [Finset.fold_max_le]
    exact ⟨bot_le, fun k _ => EReal.coe_le_coe_iff.mpr (Finset.le_sup' g (Finset.mem_univ k))⟩
  · rw [Finset.le_fold_max]
    obtain ⟨k, _, hk⟩ := Finset.exists_mem_eq_sup' Finset.univ_nonempty g
    exact Or.inr ⟨k, Finset.mem_univ k, by rw [hk]⟩

variable (x : (⟨S8192x10000, .f32⟩ : BufTy).Contents (Elt Ideal)) (hx : ∀ y, x y = (((x y).toReal : ℝ) : EReal))
include hx

/-- The maximum over the classes, row b: the real row maximum. -/
theorem max_over_classes (b : Fin 8192) :
    val_main_call1_v0 (F := Ideal) x (ValueIdx.ix1 b) = ((rowMax (Xr x) b : ℝ) : EReal) := by
  have h : S8192x10000.Reduces [1] S8192 := by decide
  unfold val_main_call1_v0
  rw [Host.reduce_eq_fold_single _ x _ reducesTo_S8192x10000_S8192_d1 h h_S_ (ValueIdx.ix1 b)]
  show (Finset.univ : Finset (Fin 10000)).fold max (Ideal.ofBits .f32 0xFF800000#32) (x ∘ h.lift (ValueIdx.ix1 b)) = _
  rw [neg_inf_pattern]
  have e : (x ∘ h.lift (ValueIdx.ix1 b)) = fun k : Fin 10000 => ((Xr x b k : ℝ) : EReal) := by
    funext k
    show x (h.lift (ValueIdx.ix1 b) k) = (((x (ix2 b k)).toReal : ℝ) : EReal)
    rw [← hx (ix2 b k)]
    refine congrArg x ?_
    funext a; match a with | ⟨0, _⟩ => rfl | ⟨1, _⟩ => rfl
  rw [e]
  exact fold_max_row _

/-- Taken once more against minus infinity it is the same. -/
theorem row_top (b : Fin 8192) :
    val_main_call1_v2 (F := Ideal) x (ValueIdx.ix1 b) = ((rowMax (Xr x) b : ℝ) : EReal) := by
  rw [val_main_call1_v2_apply, val_main_call1_v1_apply, val_main_call1_cst_0_apply, max_over_classes x hx b,
    Ideal.maximumf_def, Ideal.ofBits_def, neg_inf_pattern]
  exact max_eq_right bot_le

/-- The logit shifted by its row's maximum. -/
theorem shifted (b : Fin 8192) (k : Fin 10000) :
    val_main_call1_v5 (F := Ideal) x (ix2 b k) = ((Xr x b k - rowMax (Xr x) b : ℝ) : EReal) := by
  have ei : idx_main_call1_v3 (idx_main_call1_v4 (ix2 b k)) = ValueIdx.ix1 b := by
    funext a; match a with | ⟨0, _⟩ => rfl
  rw [val_main_call1_v5_apply, val_main_call1_v4_apply, val_main_call1_v3_apply, ei, row_top x hx b, hx (ix2 b k),
    Ideal.subf_def, ← EReal.coe_sub]
  rfl

/-- The sum over the classes of the exponentials of the shifted logits, row b. -/
theorem sum_over_classes (b : Fin 8192) :
    val_main_call1_v7 (F := Ideal) x (ValueIdx.ix1 b) = ((rowSum (Xr x) b : ℝ) : EReal) := by
  rw [val_main_call1_v7_apply, val_main_call1_cst_1_apply, Ideal.ofBits_def, Ideal.ofBits_zero_f32, zero_add]
  unfold rowSum
  rw [← coe_fin_sum]
  refine Finset.sum_congr rfl fun k _ => ?_
  have ei : idx_main_call1_v7 (ValueIdx.ix1 b) k = ix2 b k := by
    funext a; match a with | ⟨0, _⟩ => rfl | ⟨1, _⟩ => rfl
  rw [ei, val_main_call1_v6_apply, shifted x hx b k, Ideal.hostUnary_exp_def, Ideal.exp_coe]

/-- Its logarithm, spread back over the classes. -/
theorem log_sum (b : Fin 8192) (k : Fin 10000) :
    val_main_call1_v10 (F := Ideal) x (ix2 b k) = ((Real.log (rowSum (Xr x) b) : ℝ) : EReal) := by
  have ei : idx_main_call1_v8 (idx_main_call1_v10 (ix2 b k)) = ValueIdx.ix1 b := by
    funext a; match a with | ⟨0, _⟩ => rfl
  have hpos : 0 < rowSum (Xr x) b := by
    unfold rowSum
    exact Finset.sum_pos (fun k _ => Real.exp_pos _) Finset.univ_nonempty
  rw [val_main_call1_v10_apply, val_main_call1_v9_apply, val_main_call1_v8_apply, ei, sum_over_classes x hx b,
    Ideal.hostUnary_log_def, Ideal.log_coe, if_neg (not_le.mpr hpos)]

end RowLsm

/-- The row log-softmax on real logits: entry (b, k) is (X b k - R b) - log (Z b). -/
theorem row_lsm (x : (⟨S8192x10000, .f32⟩ : BufTy).Contents (Elt Ideal)) (hx : ∀ y, x y = (((x y).toReal : ℝ) : EReal)) (b : Fin 8192) (k : Fin 10000) :
    val_main_v12 (F := Ideal) x (ix2 b k) = (((Xr x b k - rowMax (Xr x) b) - Real.log (rowSum (Xr x) b) : ℝ) : EReal) := by
  rw [val_main_v12_apply, RowLsm.shifted x hx b k, RowLsm.log_sum x hx b k, Ideal.subf_def, ← EReal.coe_sub]

end Cert.ReferenceIdeal.RefValue

end
-- ==== Proof.RefReg.lean ====
/-
  The regulariser branch of the reference on real data.

  For real logits X, real distances D and labels l in range, the reference forms, per class k, the column maximum
  M k over the batch and the column sum S k of exp (X b k - M k); its column log-softmax at (b, k) is
  (X b k - M k) - log (S k). It multiplies this by the row D (l b) of the distance matrix that sample b's label
  names, sums over all samples and classes from zero, multiplies by -1/2 and divides by 81920000, the batch size
  times the class count. Every value on the way is a real number: the batch is not empty, so the maximum from
  minus infinity is a real maximum and the column sum is positive.
-/
import proofs.«406825_j71691594105550_1_alg».proof.Proof.RefRun
import proofs.«406825_j71691594105550_1_alg».proof.Proof.RefRead
import proofs.«406825_j71691594105550_1_alg».proof.Proof.RefLaws
import proofs.«406825_j71691594105550_1_alg».proof.Proof.RefGather
import proofs.«406825_j71691594105550_1_alg».proof.Proof.Ideal.Spec

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Spec

/-- A sum of exponentials over the 8192 samples is positive. -/
theorem col_total_pos (X : Fin 8192 → Fin 10000 → ℝ) (k : Fin 10000) : 0 < colSum X k := by
  unfold colSum
  exact Finset.sum_pos (fun b _ => Real.exp_pos _) Finset.univ_nonempty

/-! ## The column log-softmax, stage by stage -/

section Column

variable (x : (⟨S8192x10000, .f32⟩ : BufTy).Contents (Elt Ideal)) (hx : ∀ y, x y = (((x y).toReal : ℝ) : EReal))
include hx

/-- A real logit is the extended real of its real part. -/
theorem logit_real (b : Fin 8192) (k : Fin 10000) : x (ix2 b k) = ((Xr x b k : ℝ) : EReal) := hx _

/-- The maximum over the batch, then against minus infinity, at class k: the real column maximum. -/
theorem col_top (k : Fin 10000) : val_main_call0_v2 (F := Ideal) x (ValueIdx.ix1 k) = ((colMax (Xr x) k : ℝ) : EReal) := by
  rw [val_main_call0_v2_apply, val_main_call0_v1_apply, val_main_call0_cst_0_apply]
  unfold val_main_call0_v0 val_main_call0_cst
  rw [Cert.RefLaws.colMax_read x (Xr x) (logit_real x hx) reducesTo_S8192x10000_S10000_d0 h_S_ k]
  exact Cert.RefLaws.max_neg_inf _

/-- The logit shifted by its column's maximum. -/
theorem col_shift (b : Fin 8192) (k : Fin 10000) :
    val_main_call0_v5 (F := Ideal) x (ix2 b k) = ((Xr x b k - colMax (Xr x) k : ℝ) : EReal) := by
  rw [val_main_call0_v5_apply, val_main_call0_v4_apply, val_main_call0_v3_apply]
  have e : idx_main_call0_v3 (idx_main_call0_v4 (ix2 b k)) = ValueIdx.ix1 k := by
    funext a; match a with | ⟨0, _⟩ => rfl
  rw [e, col_top x hx k, logit_real x hx b k]
  exact Cert.RefLaws.sub_real _ _

/-- The sum over the batch of the exponentials of the shifted logits, at class k: the real column sum. -/
theorem col_total (k : Fin 10000) : val_main_call0_v7 (F := Ideal) x (ValueIdx.ix1 k) = ((colSum (Xr x) k : ℝ) : EReal) := by
  rw [val_main_call0_v7_apply, val_main_call0_cst_1_apply]
  have e : ∀ b : Fin 8192, val_main_call0_v6 (F := Ideal) x (idx_main_call0_v7 (ValueIdx.ix1 k) b)
      = ((Real.exp (Xr x b k - colMax (Xr x) k) : ℝ) : EReal) := by
    intro b
    have ei : idx_main_call0_v7 (ValueIdx.ix1 k) b = ix2 b k := by
      funext a; match a with | ⟨0, _⟩ => rfl | ⟨1, _⟩ => rfl
    rw [ei, val_main_call0_v6_apply, col_shift x hx b k]
    exact Cert.RefLaws.exp_real _
  rw [Finset.sum_congr rfl fun b _ => e b]
  exact Cert.RefLaws.zero_add_coe_sum _ _

/-- The column log-softmax at (b, k): the shifted logit minus the logarithm of the column sum. -/
theorem col_log_softmax (b : Fin 8192) (k : Fin 10000) :
    val_main_v7 (F := Ideal) x (ix2 b k)
      = (((Xr x b k - colMax (Xr x) k) - Real.log (colSum (Xr x) k) : ℝ) : EReal) := by
  rw [val_main_v7_apply, col_shift x hx b k, val_main_call0_v10_apply, val_main_call0_v9_apply, val_main_call0_v8_apply]
  have e : idx_main_call0_v8 (idx_main_call0_v10 (ix2 b k)) = ValueIdx.ix1 k := by
    funext a; match a with | ⟨0, _⟩ => rfl
  rw [e, col_total x hx k, Cert.RefLaws.log_real _ (col_total_pos (Xr x) k)]
  exact Cert.RefLaws.sub_real _ _

end Column

/-! ## The regulariser branch -/

/-- A real distance is the extended real of its real part. -/
theorem dist_real (d : (⟨S10000x10000, .f32⟩ : BufTy).Contents (Elt Ideal)) (hd : ∀ y, d y = (((d y).toReal : ℝ) : EReal))
    (r k : Fin 10000) : d (ix2 r k) = ((Dr d r k : ℝ) : EReal) := hd _

/-- The regulariser branch from the gathered rows: the product of the label's row of distances with the column
    log-softmax, summed over samples and classes from zero, times minus one half, over batch size times class count. -/
theorem reg_value_of_rows (x : (⟨S8192x10000, .f32⟩ : BufTy).Contents (Elt Ideal)) (d : (⟨S10000x10000, .f32⟩ : BufTy).Contents (Elt Ideal))
    (t : (⟨S8192, .i32⟩ : BufTy).Contents (Elt Ideal))
    (hx : ∀ y, x y = (((x y).toReal : ℝ) : EReal)) (hd : ∀ y, d y = (((d y).toReal : ℝ) : EReal))
    (hrows : ∀ (b : Fin 8192) (k : Fin 10000), val_main_v6 (F := Ideal) d t (ix2 b k) = d (ix2 (lab t b) k))
    (i : S_.Idx) :
    val_main_v11 (F := Ideal) x d t i
      = (((-(1 / 2) * ∑ b : Fin 8192, ∑ k : Fin 10000,
            Dr d (lab t b) k * ((Xr x b k - colMax (Xr x) k) - Real.log (colSum (Xr x) k))) / 81920000 : ℝ) : EReal) := by
  have hterm : ∀ (b : Fin 8192) (k : Fin 10000), val_main_v8 (F := Ideal) x d t (ix2 b k)
      = ((Dr d (lab t b) k * ((Xr x b k - colMax (Xr x) k) - Real.log (colSum (Xr x) k)) : ℝ) : EReal) := by
    intro b k
    rw [val_main_v8_apply, hrows b k, dist_real d hd (lab t b) k, col_log_softmax x hx b k]
    exact Cert.RefLaws.mul_real _ _
  rw [val_main_v11_apply, val_main_cst_2_apply, val_main_v10_apply, val_main_cst_1_apply, val_main_v9_apply, val_main_cst_apply,
    Cert.RefLaws.sum_SX (val_main_v8 (F := Ideal) x d t),
    Finset.sum_congr rfl fun b _ => Finset.sum_congr rfl fun k _ => hterm b k,
    Finset.sum_congr rfl fun b _ => Cert.RefLaws.coe_sum Finset.univ _,
    Cert.RefLaws.zero_add_coe_sum, Cert.RefLaws.neg_half_mul]
  exact Cert.RefLaws.div_81920000 _

/-- (A) The regulariser branch: on real logits and distances and labels in range, the stage main_v11 (the reference's second summand)
    is the real number -(1/2) * (sum over samples and classes of D (l b) k * ((X b k - M k) - log (S k))) / 81920000. -/
theorem reg_value (x : (⟨S8192x10000, .f32⟩ : BufTy).Contents (Elt Ideal)) (d : (⟨S10000x10000, .f32⟩ : BufTy).Contents (Elt Ideal))
    (t : (⟨S8192, .i32⟩ : BufTy).Contents (Elt Ideal))
    (hx : ∀ y, x y = (((x y).toReal : ℝ) : EReal)) (hd : ∀ y, d y = (((d y).toReal : ℝ) : EReal)) (hl : ∀ i, (t i).toNat < 10000)
    (i : S_.Idx) :
    val_main_v11 (F := Ideal) x d t i
      = (((-(1 / 2) * ∑ b : Fin 8192, ∑ k : Fin 10000,
            Dr d (lab t b) k * ((Xr x b k - colMax (Xr x) k) - Real.log (colSum (Xr x) k))) / 81920000 : ℝ) : EReal) :=
  reg_value_of_rows x d t hx hd (fun b k => gather_rows d t hl b k) i

end Cert.ReferenceIdeal.RefValue

end
-- ==== Proof.Ref.lean ====
/-
  The reference's value on real data.

  On logits X and distances D that are real numbers and labels l in range, the reference returns the real number
    -((sum over samples b of ((X b (l b) - R b) - log (Z b))) / 8192)
      + (-(1/2) * sum over samples b and classes k of D (l b) k * ((X b k - M k) - log (S k))) / 81920000,
  with R, Z the row maximum and the row sum of shifted exponentials (the log-softmax over the classes) and M, S the column
  maximum and the column sum (the log-softmax over the batch). The first summand is the cross-entropy branch: the
  log-softmax over the classes is read at each sample's label, the column of these values is summed from zero, the sum is
  divided by the batch size and negated. The second summand is the regulariser branch. The result is their sum.
-/
import proofs.«406825_j71691594105550_1_alg».proof.Proof.RefRun
import proofs.«406825_j71691594105550_1_alg».proof.Proof.RefRead
import proofs.«406825_j71691594105550_1_alg».proof.Proof.RefLaws
import proofs.«406825_j71691594105550_1_alg».proof.Proof.RefGather
import proofs.«406825_j71691594105550_1_alg».proof.Proof.RefRowLsm
import proofs.«406825_j71691594105550_1_alg».proof.Proof.RefReg
import proofs.«406825_j71691594105550_1_alg».proof.Proof.Ideal.Spec

noncomputable section

open scoped BigOperators

namespace Cert.ReferenceIdeal.RefValue

open Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo Cert.Spec

/-- The cross-entropy branch: on real logits and labels in range, the reference's first summand is the real number
    -((sum over samples of ((X b (l b) - R b) - log (Z b))) / 8192): the log-softmax over the classes read at the label,
    summed over the batch from zero, divided by the batch size, negated. -/
theorem ce_value (x : (⟨S8192x10000, .f32⟩ : BufTy).Contents (Elt Ideal)) (t : (⟨S8192, .i32⟩ : BufTy).Contents (Elt Ideal))
    (hx : ∀ y, x y = (((x y).toReal : ℝ) : EReal)) (hl : ∀ i, (t i).toNat < 10000) (i : S_.Idx) :
    val_main_v17 (F := Ideal) x t i
      = ((-((∑ b : Fin 8192, ((Xr x b (lab t b) - rowMax (Xr x) b) - Real.log (rowSum (Xr x) b))) / 8192) : ℝ) : EReal) := by
  -- the column of gathered log-probabilities, one per sample
  have hsum : (∑ j : S8192x1.Idx, val_main_v14 (F := Ideal) x t j)
      = ∑ b : Fin 8192, ((((Xr x b (lab t b) - rowMax (Xr x) b) - Real.log (rowSum (Xr x) b) : ℝ)) : EReal) := by
    refine (Cert.RefLaws.sum_SI fun j => val_main_v14 (F := Ideal) x t j).trans ?_
    exact Finset.sum_congr rfl fun b _ => (take_label x t hl b).trans (row_lsm x hx b (lab t b))
  rw [val_main_v17_apply, val_main_v16_apply, val_main_v15_apply, val_main_cst_3_apply, val_main_cst_4_apply, hsum,
    Cert.RefLaws.zero_add_coe_sum, Cert.RefLaws.div_8192, Cert.RefLaws.neg_real]

/-- The reference's result on real logits and distances and labels in range: the real number `refVal`. -/
theorem ref_value (m : (ℓ : Loc nD τ sig) → Buf (Elt Ideal) ℓ) (c : Dev nD)
    (hx : ∀ y, m ((c.tc : Thread nD τ).loc main_arg0) y = (((m ((c.tc : Thread nD τ).loc main_arg0) y).toReal : ℝ) : EReal))
    (hd : ∀ y, m ((c.tc : Thread nD τ).loc main_arg1) y = (((m ((c.tc : Thread nD τ).loc main_arg1) y).toReal : ℝ) : EReal))
    (hl : ∀ i, (m ((c.tc : Thread nD τ).loc main_arg2) i).toNat < 10000) :
    Cert.ReferenceIdeal.ValueP.res_main_v18 m c
      = fun _ => ((refVal (Xr (m ((c.tc : Thread nD τ).loc main_arg0))) (Dr (m ((c.tc : Thread nD τ).loc main_arg1)))
          (lab (m ((c.tc : Thread nD τ).loc main_arg2))) : ℝ) : EReal) := by
  refine (val_main_v18_eq m c).trans ?_
  funext i
  rw [val_main_v18_apply, ce_value _ _ hx hl i, reg_value _ _ _ hx hd hl i, Cert.RefLaws.add_real]
  rfl

end Cert.ReferenceIdeal.RefValue

end
-- ==== Proof.lean ====
/-
  The certificate of the inclusive loss kernel against its jnp reference, under the precondition that every float input
  is finite and every label names a class (0 ≤ label < 10000).

  The kernel is two pipelined calls. The first streams the logits in tiles of 128 samples and carries three results
  across its grid: the running column maximum, the running column sum of exponentials rescaled to that maximum (two
  tiles merge by rescaling each side by exp of its own maximum minus the joint one), and the running sum over samples
  of (row log-sum-exp minus the logit at the label). Host glue forms the column log-sum-exp. The second call streams
  the logits again beside 128 rows of the distance matrix copied by the body itself, the row of sample b being the one
  its label names, and carries the sum of D (label b) k · (x b k − lse k). The result is
  CE / 8192 + (−1/2 · REG) / 81920000.

  The three frames: each program runs to the end, faults nowhere and leaves its arguments as launched; for the kernel,
  at the word level and at the exact reals, this needs the labels in range (the rows the body copies must lie inside the
  distance matrix). The value claim: at the exact reals the kernel's result and the reference's are one real number —
  negation distributes over the cross-entropy sum and its quotient, and x − (log S + M) = (x − M) − log S term by term in
  the regulariser — once every stage is read as a real on finite inputs.
-/
import proofs.«406825_j71691594105550_1_alg».proof.Defs
import proofs.«406825_j71691594105550_1_alg».proof.Proof.Gen.Kernel
import proofs.«406825_j71691594105550_1_alg».proof.Proof.Gen.KernelIdeal
import proofs.«406825_j71691594105550_1_alg».proof.Proof.Gen.ReferenceIdeal
import proofs.«406825_j71691594105550_1_alg».proof.Proof.Gen.Pre_finite_inputs
import proofs.«406825_j71691594105550_1_alg».proof.Proof.Bits.Frame
import proofs.«406825_j71691594105550_1_alg».proof.Proof.Ideal.Frame
import proofs.«406825_j71691594105550_1_alg».proof.Proof.Ideal.ValueRun
import proofs.«406825_j71691594105550_1_alg».proof.Proof.Ideal.KValue
import proofs.«406825_j71691594105550_1_alg».proof.Proof.RefRun
import proofs.«406825_j71691594105550_1_alg».proof.Proof.Ref
import proofs.«406825_j71691594105550_1_alg».proof.Proof.Pre

noncomputable section

namespace Cert.Proof

open Idealize.ShloMosaic Idealize.ShloMosaic.TcCoe Idealize.SL.Sem Cert.Spec

/-- The word-level kernel runs and leaves its arguments as launched. -/
theorem frame_k : Cert.frame_Kernel (hKernel := Cert.Kernel.Gen.facts) (hPre_finite_inputs := Cert.Pre_finite_inputs.Gen.facts) :=
  fun m ρ hpre => Cert.Kernel.Hand.frame_pre m ρ hpre

/-- The kernel at the exact reals runs and leaves its arguments as launched. -/
theorem frame_ki : Cert.frame_KernelIdeal (hKernelIdeal := Cert.KernelIdeal.Gen.facts) (hPre_finite_inputs := Cert.Pre_finite_inputs.Gen.facts) :=
  fun m ρ hpre => Cert.KernelIdeal.Hand.frame_pre m ρ hpre

/-- The reference runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- At the exact reals both programs end with one real number in their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => ((kerVal (Xr (m ((c.tc : Thread Cert.KernelIdeal.nD Cert.KernelIdeal.τ).loc Cert.KernelIdeal.main_arg0)))
      (Dr (m ((c.tc : Thread Cert.KernelIdeal.nD Cert.KernelIdeal.τ).loc Cert.KernelIdeal.main_arg1)))
      (lab (m ((c.tc : Thread Cert.KernelIdeal.nD Cert.KernelIdeal.τ).loc Cert.KernelIdeal.main_arg2))) : ℝ) : EReal), ?_, ?_⟩
  · exact (θ_run Cert.KernelIdeal.defs _ _).mono
      (fun r h c => ⟨(h c).1.trans (Cert.KernelIdeal.HandValue.result_value m hpre c), (h c).2⟩)
      (Cert.KernelIdeal.Hand.value_run m ρ (Cert.KernelIdeal.Hand.table_in_range m hpre))
  · refine (θ_run Cert.ReferenceIdeal.defs _ _).mono (fun r h c => ⟨(h c).1.trans ?_, (h c).2⟩)
      (Cert.ReferenceIdeal.ValueP.run (F := Ideal) m' ρ')
    have hx := Cert.PreFacts.input_real _ _ _ (hpre c)
    have hd := Cert.PreFacts.dist_real _ _ _ (hpre c)
    have hl := Cert.PreFacts.target_lt _ _ _ (hpre c)
    rw [← (hagree c).1] at hx
    rw [← (hagree c).2.1] at hd
    rw [← (hagree c).2.2] at hl
    rw [Cert.ReferenceIdeal.RefValue.ref_value m' c hx hd hl, (hagree c).1, (hagree c).2.1, (hagree c).2.2]
    funext _
    show ((refVal _ _ _ : ℝ) : EReal) = ((kerVal _ _ _ : ℝ) : EReal)
    rw [kerVal_eq_refVal]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
